-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S256x64 : Shape := ⟨2, ![256, 64]⟩
abbrev S2x800000 : Shape := ⟨2, ![2, 800000]⟩
abbrev S50000 : Shape := ⟨1, ![50000]⟩
abbrev S64x192 : Shape := ⟨2, ![64, 192]⟩
abbrev S64 : Shape := ⟨1, ![64]⟩
abbrev S64x64 : Shape := ⟨2, ![64, 64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S256x64 : S_.BroadcastsInDim S256x64 (![] : Fin 0 → Fin S256x64.rank)
  reducesTo_S256x64_S_d0_1 : S256x64.ReducesTo [0, 1] S_
  bcast_S_S64x192 : S_.BroadcastsInDim S64x192 (![] : Fin 0 → Fin S64x192.rank)
  reducesTo_S64x192_S_d0_1 : S64x192.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg3 : IVec S2x800000 32) (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : IVec S1x800000 32 := (extractStridedSlice S1x800000 ![0, 0] · slices_S2x800000_S1x800000_0_0) main_arg3
  let main_v75 : IVec S800000 32 := shapeCast S800000 main_v74 shapeCasts_S1x800000_S800000
  let main_c_28 : IVec S_ 32 := constantI S_ 32 0#32
  let main_v76 : IVec S800000 32 := broadcastInDim S800000 ![] bcast_S_S800000 main_c_28
  let main_v77 : IVec S800000 1 := cmpi .sge main_v75 main_v76
  let main_c_29 : IVec S_ 1 := constantI S_ 1 1#1
  let main_v78 : IVec S_ 1 := (fun x v => Host.reduce IntOp.andi x v reducesTo_S800000_S_d0 h_S_) main_v77 main_c_29
  let main_v79 : IVec S_ 1 := andi main_v73 main_v78
  let main_v80 : IVec S1x800000 32 := (extractStridedSlice S1x800000 ![0, 0] · slices_S2x800000_S1x800000_0_0) main_arg3
  let main_v81 : IVec S800000 32 := shapeCast S800000 main_v80 shapeCasts_S1x800000_S800000
  let main_c_30 : IVec S_ 32 := constantI S_ 32 50000#32
  let main_v82 : IVec S800000 32 := broadcastInDim S800000 ![] bcast_S_S800000 main_c_30
  let main_v83 : IVec S800000 1 := cmpi .slt main_v81 main_v82
  let main_c_31 : IVec S_ 1 := constantI S_ 1 1#1
  let main_v84 : IVec S_ 1 := (fun x v => Host.reduce IntOp.andi x v reducesTo_S800000_S_d0 h_S_) main_v83 main_c_31
  let main_v85 : IVec S_ 1 := andi main_v79 main_v84
  main_v85

def fn_part3 {F : FTy → Type} [FloatOps F] (main_arg3 : IVec S2x800000 32) (main_arg13 : FVec F S64 .f32) (main_arg14 : FVec F S64 .f32) (main_arg15 : FVec F S64 .f32) (main_arg16 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg3 main_arg16 main_v63 main_v67

def fn_part2 {F : FTy → Type} [FloatOps F] (main_arg3 : IVec S2x800000 32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg3 main_arg13 main_arg14 main_arg15 main_arg16 main_v48 main_v49 main_v50

def fn_part1 {F : FTy → Type} [FloatOps F] (main_arg3 : IVec S2x800000 32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_v13 : IVec S_ 1) (main_v16 : IVec S64x192 1) : IVec S_ 1 :=
  let main_c_5 : IVec S_ 1 := constantI S_ 1 1#1
  let main_v17 : IVec S_ 1 := (fun x v => Host.reduce IntOp.andi x v reducesTo_S64x192_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg9 main_arg10 main_arg11 main_arg12 main_arg13 main_arg14 main_arg15 main_arg16 main_v33

def fn {F : FTy → Type} [FloatOps F] (main_arg0 : FVec F S50000x64 .f32) (main_arg1 : FVec F S800000x64 .f32) (main_arg2 : FVec F S256x64 .f32) (main_arg3 : IVec S2x800000 32) (main_arg4 : IVec S50000 32) (main_arg5 : FVec F S64x192 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64x192 .f32 := Host.absf main_arg5
  let main_cst_4 : FVec F S_ .f32 := constant S_ .f32 0x7F800000#32
  let main_v15 : FVec F S64x192 .f32 := broadcastInDim S64x192 ![] bcast_S_S64x192 main_cst_4
  let main_v16 : IVec S64x192 1 := cmpf .olt main_v14 main_v15
  fn_part1 (F := F) main_arg3 main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S800000x64 : Shape := ⟨2, ![800000, 64]⟩
abbrev S256x64 : Shape := ⟨2, ![256, 64]⟩
abbrev S2x800000 : Shape := ⟨2, ![2, 800000]⟩
abbrev S50000 : Shape := ⟨1, ![50000]⟩
abbrev S64x192 : Shape := ⟨2, ![64, 192]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S256 : Shape := ⟨1, ![256]⟩
abbrev S50000x1 : Shape := ⟨2, ![50000, 1]⟩
abbrev S802816x64 : Shape := ⟨2, ![802816, 64]⟩
abbrev S802816 : Shape := ⟨1, ![802816]⟩
abbrev S2x256x64 : Shape := ⟨3, ![2, 256, 64]⟩
abbrev S4096x64 : Shape := ⟨2, ![4096, 64]⟩
abbrev S4096 : Shape := ⟨1, ![4096]⟩
abbrev S1x256x64 : Shape := ⟨3, ![1, 256, 64]⟩
abbrev S256x4096 : Shape := ⟨2, ![256, 4096]⟩
abbrev S1x4096 : Shape := ⟨2, ![1, 4096]⟩
abbrev S256x1 : Shape := ⟨2, ![256, 1]⟩
abbrev S50176x64 : Shape := ⟨2, ![50176, 64]⟩
abbrev S50176 : Shape := ⟨1, ![50176]⟩
abbrev S1024x64 : Shape := ⟨2, ![1024, 64]⟩
abbrev S1024 : Shape := ⟨1, ![1024]⟩
abbrev S256x1024 : Shape := ⟨2, ![256, 1024]⟩
abbrev S1x1024 : Shape := ⟨2, ![1, 1024]⟩
abbrev S256x192 : Shape := ⟨2, ![256, 192]⟩
abbrev S1x64 : Shape := ⟨2, ![1, 64]⟩

abbrev nBuf : Space → Nat
  | .hbm => 88
  | .vmem => 27
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S256x64, .f32⟩
  | .hbm, ⟨3, _⟩ => ⟨S2x800000, .i32⟩
  | .hbm, ⟨4, _⟩ => ⟨S50000, .i32⟩
  | .hbm, ⟨5, _⟩ => ⟨S64x192, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000, .f32⟩
  | .hbm, ⟨34, _⟩ => ⟨S_, .f32⟩
  | .hbm, ⟨35, _⟩ => ⟨S800000, .f32⟩
  | .hbm, ⟨36, _⟩ => ⟨S800000, .f32⟩
  | .hbm, ⟨37, _⟩ => ⟨S_, .f32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .i32⟩
  | .hbm, ⟨49, _⟩ => ⟨S_, .f32⟩
  | .hbm, ⟨50, _⟩ => ⟨S50000, .f32⟩
  | .hbm, ⟨51, _⟩ => ⟨S_, .f32⟩
  | .hbm, ⟨52, _⟩ => ⟨S256, .f32⟩
  | .hbm, ⟨53, _⟩ => ⟨S50000x1, .i32⟩
  | .hbm, ⟨54, _⟩ => ⟨S256, .f32⟩
  | .hbm, ⟨55, _⟩ => ⟨S_, .i32⟩
  | .hbm, ⟨56, _⟩ => ⟨S_, .f32⟩
  | .hbm, ⟨57, _⟩ => ⟨S802816x64, .f32⟩
  | .hbm, ⟨58, _⟩ => ⟨S_, .f32⟩
  | .hbm, ⟨59, _⟩ => ⟨S_, .f32⟩
  | .hbm, ⟨60, _⟩ => ⟨S802816, .f32⟩
  | .hbm, ⟨61, _⟩ => ⟨S_, .i32⟩
  | .hbm, ⟨62, _⟩ => ⟨S_, .i32⟩
  | .hbm, ⟨63, _⟩ => ⟨S802816, .i32⟩
  | .hbm, ⟨64, _⟩ => ⟨S2x256x64, .f32⟩
  | .hbm, ⟨65, _⟩ => ⟨S_, .f32⟩
  | .hbm, ⟨66, _⟩ => ⟨S256x64, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S256x1, .f32⟩
  | .hbm, ⟨71, _⟩ => ⟨S256x64, .f32⟩
  | .hbm, ⟨72, _⟩ => ⟨S256x64, .f32⟩
  | .hbm, ⟨73, _⟩ => ⟨S_, .i32⟩
  | .hbm, ⟨74, _⟩ => ⟨S_, .f32⟩
  | .hbm, ⟨75, _⟩ => ⟨S50176x64, .f32⟩
  | .hbm, ⟨76, _⟩ => ⟨S_, .i32⟩
  | .hbm, ⟨77, _⟩ => ⟨S_, .i32⟩
  | .hbm, ⟨78, _⟩ => ⟨S50176, .i32⟩
  | .hbm, ⟨79, _⟩ => ⟨S256x64, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S256x1, .f32⟩
  | .hbm, ⟨84, _⟩ => ⟨S256x64, .f32⟩
  | .hbm, ⟨85, _⟩ => ⟨S256x64, .f32⟩
  | .hbm, ⟨86, _⟩ => ⟨S256x192, .f32⟩
  | .hbm, ⟨87, _⟩ => ⟨S256x64, .f32⟩
  | .local _ .vmem, ⟨0, _⟩ => ⟨S4096x64, .f32⟩
  | .local _ .vmem, ⟨1, _⟩ => ⟨S4096x64, .f32⟩
  | .local _ .vmem, ⟨2, _⟩ => ⟨S4096, .f32⟩
  | .local _ .vmem, ⟨3, _⟩ => ⟨S4096, .f32⟩
  | .local _ .vmem, ⟨4, _⟩ => ⟨S4096, .i32⟩
  | .local _ .vmem, ⟨5, _⟩ => ⟨S4096, .i32⟩
  | .local _ .vmem, ⟨6, _⟩ => ⟨S1x256x64, .f32⟩
  | .local _ .vmem, ⟨7, _⟩ => ⟨S1x256x64, .f32⟩
  | .local _ .vmem, ⟨8, _⟩ => ⟨S1024x64, .f32⟩
  | .local _ .vmem, ⟨9, _⟩ => ⟨S1024x64, .f32⟩
  | .local _ .vmem, ⟨10, _⟩ => ⟨S1024, .i32⟩
  | .local _ .vmem, ⟨11, _⟩ => ⟨S1024, .i32⟩
  | .local _ .vmem, ⟨12, _⟩ => ⟨S256x64, .f32⟩
  | .local _ .vmem, ⟨13, _⟩ => ⟨S256x192, .f32⟩
  | .local _ .vmem, ⟨14, _⟩ => ⟨S64x192, .f32⟩
  | .local _ .vmem, ⟨15, _⟩ => ⟨S64, .f32⟩
  | .local _ .vmem, ⟨16, _⟩ => ⟨S64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S64, .f32⟩
  | .local _ .vmem, ⟨21, _⟩ => ⟨S64, .f32⟩
  | .local _ .vmem, ⟨22, _⟩ => ⟨S64x64, .f32⟩
  | .local _ .vmem, ⟨23, _⟩ => ⟨S64, .f32⟩
  | .local _ .vmem, ⟨24, _⟩ => ⟨S64, .f32⟩
  | .local _ .vmem, ⟨25, _⟩ => ⟨S64, .f32⟩
  | .local _ .vmem, ⟨26, _⟩ => ⟨S256x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_c_5 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_6 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_8 : Ref sig .tc := ⟨.hbm, 55, rfl⟩
abbrev main_call0_v0 : Ref sig .tc := ⟨.hbm, 56, rfl⟩
abbrev main_v28 : Ref sig .tc := ⟨.hbm, 57, rfl⟩
abbrev main_cst_9 : Ref sig .tc := ⟨.hbm, 58, rfl⟩
abbrev main_call1_v0 : Ref sig .tc := ⟨.hbm, 59, rfl⟩
abbrev main_v29 : Ref sig .tc := ⟨.hbm, 60, rfl⟩
abbrev main_c_10 : Ref sig .tc := ⟨.hbm, 61, rfl⟩
abbrev main_call2_v0 : Ref sig .tc := ⟨.hbm, 62, rfl⟩
abbrev main_v30 : Ref sig .tc := ⟨.hbm, 63, rfl⟩
abbrev main_v31 : Ref sig .tc := ⟨.hbm, 64, rfl⟩
abbrev main_cst_11 : Ref sig .tc := ⟨.hbm, 65, rfl⟩
abbrev main_v32 : Ref sig .tc := ⟨.hbm, 66, rfl⟩
abbrev main_cst_12 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_13 : Ref sig .tc := ⟨.hbm, 73, rfl⟩
abbrev main_call3_v0 : Ref sig .tc := ⟨.hbm, 74, rfl⟩
abbrev main_v38 : Ref sig .tc := ⟨.hbm, 75, rfl⟩
abbrev main_c_14 : Ref sig .tc := ⟨.hbm, 76, rfl⟩
abbrev main_call4_v0 : Ref sig .tc := ⟨.hbm, 77, rfl⟩
abbrev main_v39 : Ref sig .tc := ⟨.hbm, 78, rfl⟩
abbrev main_v40 : Ref sig .tc := ⟨.hbm, 79, rfl⟩
abbrev main_cst_15 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg9_0 : Ref sig .tc := ⟨.vmem, 22, rfl⟩
abbrev cc2_stg10_0 : Ref sig .tc := ⟨.vmem, 23, rfl⟩
abbrev cc2_stg11_0 : Ref sig .tc := ⟨.vmem, 24, rfl⟩
abbrev cc2_stg12_0 : Ref sig .tc := ⟨.vmem, 25, rfl⟩
abbrev cc2_stg13_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem11_0 : DmaSem sig := 24
abbrev cc2_sem12_0 : DmaSem sig := 25
abbrev cc2_sem13_0 : DmaSem sig := 26

abbrev nD : Nat := 1
abbrev τ : Topo := Topo.v7x

variable {F : FTy → Type} [FloatOps F]

abbrev grid0 : Pipeline.Grid := ⟨2, ![2, 98], ![false, false]⟩

def cc0_transform_0 (i : grid0.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  ![v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S256x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S256 : S_.BroadcastsInDim S256 (![] : Fin 0 → Fin S256.rank)
  bcast_S50000_S50000x1_0 : S50000.BroadcastsInDim S50000x1 (![0] : Fin 1 → Fin S50000x1.rank)
  pads_S800000x64_S802816x64_028160_000 : S800000x64.Pads (![0, 0] : Fin 2 → Nat) ![2816, 0] ![0, 0] S802816x64
  h_S_ : 0 < S_.numel
  pads_S800000_S802816_028160 : S800000.Pads (![0] : Fin 1 → Nat) ![2816] ![0] S802816
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  iota_S256x4096_d0_w32 : S256x4096.Iotas .tc 32 [0]
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S256x4096 : S1x4096.Broadcasts S256x4096
  shapeCasts_S1x4096_S1x4096 : S1x4096.ShapeCasts S1x4096
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reducesTo_S2x256x64_S256x64_d0 : S2x256x64.ReducesTo [0] S256x64
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  pads_S50000x64_S50176x64_01760_000 : S50000x64.Pads (![0, 0] : Fin 2 → Nat) ![176, 0] ![0, 0] S50176x64
  pads_S50000_S50176_01760 : S50000.Pads (![0] : Fin 1 → Nat) ![176] ![0] S50176
  inb_S256x64_S256x64_0_0 : ∀ a, (![0, 0] : Fin 2 → Nat) a + S256x64.size a ≤ S256x64.size a
  h_S256x64 : 0 < S256x64.numel
  iota_S256x1024_d0_w32 : S256x1024.Iotas .tc 32 [0]
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S256x1024 : S1x1024.Broadcasts S256x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S256x64_S256x64 : S256x64.ShapeCasts S256x64
  concatenates_S256x64_S256x64_S256x64_S256x192_d1 : Shape.Concatenates [S256x64, S256x64, S256x64] S256x192 1
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S64x192_S64x192_0_0 : ∀ a, (![0, 0] : Fin 2 → Nat) a + S64x192.size a ≤ S64x192.size a
  h_S64x192 : 0 < S64x192.numel
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  reduces_S256x64_S64 : S256x64.Reduces [0] S64
  inb_S64x64_S64x64_0_0 : ∀ a, (![0, 0] : Fin 2 → Nat) a + S64x64.size a ≤ S64x64.size a
  h_S64x64 : 0 < S64x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  scatter_S256_S50000x1_S50000_n_0_0_1_wf : ScatterDims.WF S256 S50000x1 S50000 [] [0] [0] 1
  dot_S256x4096_S4096x64_S256x64_1_0_0_1_n_n_wf : DotDims.WF S256x4096 S4096x64 S256x64 [1] [0] [0] [1] [] []
  dot_S256x1024_S1024x64_S256x64_1_0_0_1_n_n_wf : DotDims.WF S256x1024 S1024x64 S256x64 [1] [0] [0] [1] [] []
  dot_S256x192_S64x192_S256x64_1_1_0_0_n_n_wf : DotDims.WF S256x192 S64x192 S256x64 [1] [1] [0] [0] [] []
  dot_S256x64_S64x64_S256x64_1_1_0_0_n_n_wf : DotDims.WF S256x64 S64x64 S256x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S802816x64.size a
  hwx0_0 : ∀ i : grid0.Coords, EltTy.bits .f32 = 32 ∨ (Rect.block (s := S802816x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S802816.size a
  hwx0_1 : ∀ i : grid0.Coords, EltTy.bits .f32 = 32 ∨ (Rect.block (s := S802816) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S802816.size a
  hwx0_2 : ∀ i : grid0.Coords, EltTy.bits .i32 = 32 ∨ (Rect.block (s := S802816) S4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S2x256x64.size a
  hwx0_3 : ∀ i : grid0.Coords, EltTy.bits .f32 = 32 ∨ (Rect.block (s := S2x256x64) S1x256x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S50176x64.size a
  hwx1_0 : ∀ i : grid1.Coords, EltTy.bits .f32 = 32 ∨ (Rect.block (s := S50176x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S50176.size a
  hwx1_1 : ∀ i : grid1.Coords, EltTy.bits .i32 = 32 ∨ (Rect.block (s := S50176) S1024.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x192.size a ≤ S256x192.size a
  hwx2_0 : ∀ i : grid2.Coords, EltTy.bits .f32 = 32 ∨ (Rect.block (s := S256x192) S256x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x192.size a ≤ S64x192.size a
  hwx2_1 : ∀ i : grid2.Coords, EltTy.bits .f32 = 32 ∨ (Rect.block (s := S64x192) S64x192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64.size a ≤ S64.size a
  hwx2_8 : ∀ i : grid2.Coords, EltTy.bits .f32 = 32 ∨ (Rect.block (s := S64) S64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .f32 = 32 ∨ (Rect.block (s := S64x64) S64x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64.size a ≤ S64.size a
  hwx2_10 : ∀ i : grid2.Coords, EltTy.bits .f32 = 32 ∨ (Rect.block (s := S64) S64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64.size a ≤ S64.size a
  hwx2_11 : ∀ i : grid2.Coords, EltTy.bits .f32 = 32 ∨ (Rect.block (s := S64) S64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64.size a ≤ S64.size a
  hwx2_12 : ∀ i : grid2.Coords, EltTy.bits .f32 = 32 ∨ (Rect.block (s := S64) S64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S256x64.size a ≤ S256x64.size a
  hwx2_13 : ∀ i : grid2.Coords, EltTy.bits .f32 = 32 ∨ (Rect.block (s := S256x64) S256x64.size (cc2_transform_13 i) (hinb2_13 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x192_S64x192_S256x64_1_1_0_0_n_n : DotDims S256x192 S64x192 S256x64 where
  lhsContracting := [1]
  rhsContracting := [1]
  lhsNonContracting := [0]
  rhsNonContracting := [0]
  lhsBatch := []
  rhsBatch := []
  wf := dot_S256x192_S64x192_S256x64_1_1_0_0_n_n_wf
def dot_S256x64_S64x64_S256x64_1_1_0_0_n_n : DotDims S256x64 S64x64 S256x64 where
  lhsContracting := [1]
  rhsContracting := [1]
  lhsNonContracting := [0]
  rhsNonContracting := [0]
  lhsBatch := []
  rhsBatch := []
  wf := dot_S256x64_S64x64_S256x64_1_1_0_0_n_n_wf

abbrev win0_0 : Pipeline.Window sig grid0 :=
  Pipeline.Window.ofSpec (Memref.whole main_v28) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S256x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S256x192.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg14) S64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg9) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg10) S64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg15) S64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg16) S64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v47) S256x64.size cc2_transform_13 reads2_13 true true 1 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S256x64 : Shape := ⟨2, ![256, 64]⟩
abbrev S2x800000 : Shape := ⟨2, ![2, 800000]⟩
abbrev S50000 : Shape := ⟨1, ![50000]⟩
abbrev S64x192 : Shape := ⟨2, ![64, 192]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S256 : Shape := ⟨1, ![256]⟩
abbrev S256x1 : Shape := ⟨2, ![256, 1]⟩
abbrev S256x192 : Shape := ⟨2, ![256, 192]⟩
abbrev S192x64 : Shape := ⟨2, ![192, 64]⟩
abbrev S1x64 : Shape := ⟨2, ![1, 64]⟩

abbrev nBuf : Space → Nat
  | .hbm => 179
  | .vmem => 0
  | .smem => 0
  | _ => 0

abbrev hbmTy0_0 (i : Nat) : BufTy := match i % 128 with
  | 0 => ⟨S50000x64, .f32⟩
  | 1 => ⟨S800000x64, .f32⟩
  | 2 => ⟨S256x64, .f32⟩
  | 3 => ⟨S2x800000, .i32⟩
  | 4 => ⟨S50000, .i32⟩
  | 5 => ⟨S64x192, .f32⟩
  | 6 => ⟨S64, .f32⟩
  | 7 => ⟨S64x64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S1x800000, .i32⟩
  | 18 => ⟨S800000, .i32⟩
  | 19 => ⟨S_, .f32⟩
  | 20 => ⟨S50000x64, .f32⟩
  | 21 => ⟨S800000x1, .i32⟩
  | 22 => ⟨S50000x64, .f32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x64, .f32⟩
  | 34 => ⟨S50000x64, .f32⟩
  | 35 => ⟨S_, .f32⟩
  | 36 => ⟨S256x64, .f32⟩
  | 37 => ⟨S50000x1, .i32⟩
  | 38 => ⟨S256x64, .f32⟩
  | 39 => ⟨S_, .f32⟩
  | 40 => ⟨S50000, .f32⟩
  | 41 => ⟨S_, .f32⟩
  | 42 => ⟨S256, .f32⟩
  | 43 => ⟨S50000x1, .i32⟩
  | 44 => ⟨S256, .f32⟩
  | 45 => ⟨S_, .f32⟩
  | 46 => ⟨S256, .f32⟩
  | 47 => ⟨S256, .f32⟩
  | 48 => ⟨S256x1, .f32⟩
  | 49 => ⟨S256x64, .f32⟩
  | 50 => ⟨S256x64, .f32⟩
  | 51 => ⟨S_, .f32⟩
  | 52 => ⟨S256x64, .f32⟩
  | 53 => ⟨S50000x1, .i32⟩
  | 54 => ⟨S256x64, .f32⟩
  | 55 => ⟨S_, .f32⟩
  | 56 => ⟨S50000, .f32⟩
  | 57 => ⟨S_, .f32⟩
  | 58 => ⟨S256, .f32⟩
  | 59 => ⟨S50000x1, .i32⟩
  | 60 => ⟨S256, .f32⟩
  | 61 => ⟨S_, .f32⟩
  | 62 => ⟨S256, .f32⟩
  | 63 => ⟨S256, .f32⟩
  | 64 => ⟨S256x1, .f32⟩
  | 65 => ⟨S256x64, .f32⟩
  | 66 => ⟨S256x64, .f32⟩
  | 67 => ⟨S256x192, .f32⟩
  | 68 => ⟨S192x64, .f32⟩
  | 69 => ⟨S256x64, .f32⟩
  | 70 => ⟨S1x64, .f32⟩
  | 71 => ⟨S256x64, .f32⟩
  | 72 => ⟨S256x64, .f32⟩
  | 73 => ⟨S_, .f32⟩
  | 74 => ⟨S256x64, .f32⟩
  | 75 => ⟨S256x64, .f32⟩
  | 76 => ⟨S_, .f32⟩
  | 77 => ⟨S64, .f32⟩
  | 78 => ⟨S1x64, .f32⟩
  | 79 => ⟨S_, .f32⟩
  | 80 => ⟨S1x64, .f32⟩
  | 81 => ⟨S1x64, .f32⟩
  | 82 => ⟨S256x64, .f32⟩
  | 83 => ⟨S256x64, .f32⟩
  | 84 => ⟨S256x64, .f32⟩
  | 85 => ⟨S_, .f32⟩
  | 86 => ⟨S64, .f32⟩
  | 87 => ⟨S1x64, .f32⟩
  | 88 => ⟨S_, .f32⟩
  | 89 => ⟨S1x64, .f32⟩
  | 90 => ⟨S1x64, .f32⟩
  | 91 => ⟨S256x64, .f32⟩
  | 92 => ⟨S256x64, .f32⟩
  | 93 => ⟨S_, .f32⟩
  | 94 => ⟨S1x64, .f32⟩
  | 95 => ⟨S1x64, .f32⟩
  | 96 => ⟨S1x64, .f32⟩
  | 97 => ⟨S256x64, .f32⟩
  | 98 => ⟨S256x64, .f32⟩
  | 99 => ⟨S1x64, .f32⟩
  | 100 => ⟨S256x64, .f32⟩
  | 101 => ⟨S256x64, .f32⟩
  | 102 => ⟨S1x64, .f32⟩
  | 103 => ⟨S256x64, .f32⟩
  | 104 => ⟨S256x64, .f32⟩
  | 105 => ⟨S64x64, .f32⟩
  | 106 => ⟨S256x64, .f32⟩
  | 107 => ⟨S1x64, .f32⟩
  | 108 => ⟨S256x64, .f32⟩
  | 109 => ⟨S256x64, .f32⟩
  | 110 => ⟨S_, .f32⟩
  | 111 => ⟨S256x64, .f32⟩
  | 112 => ⟨S256x64, .f32⟩
  | 113 => ⟨S_, .f32⟩
  | 114 => ⟨S64, .f32⟩
  | 115 => ⟨S1x64, .f32⟩
  | 116 => ⟨S_, .f32⟩
  | 117 => ⟨S1x64, .f32⟩
  | 118 => ⟨S1x64, .f32⟩
  | 119 => ⟨S256x64, .f32⟩
  | 120 => ⟨S256x64, .f32⟩
  | 121 => ⟨S256x64, .f32⟩
  | 122 => ⟨S_, .f32⟩
  | 123 => ⟨S64, .f32⟩
  | 124 => ⟨S1x64, .f32⟩
  | 125 => ⟨S_, .f32⟩
  | 126 => ⟨S1x64, .f32⟩
  | 127 => ⟨S1x64, .f32⟩
  | _ => ⟨S50000x64, .f32⟩

abbrev hbmTy0_1 (i : Nat) : BufTy := match i % 128 with
  | 0 => ⟨S256x64, .f32⟩
  | 1 => ⟨S256x64, .f32⟩
  | 2 => ⟨S_, .f32⟩
  | 3 => ⟨S1x64, .f32⟩
  | 4 => ⟨S1x64, .f32⟩
  | 5 => ⟨S1x64, .f32⟩
  | 6 => ⟨S256x64, .f32⟩
  | 7 => ⟨S256x64, .f32⟩
  | 8 => ⟨S1x64, .f32⟩
  | 9 => ⟨S256x64, .f32⟩
  | 10 => ⟨S256x64, .f32⟩
  | 11 => ⟨S1x64, .f32⟩
  | 12 => ⟨S256x64, .f32⟩
  | 13 => ⟨S256x64, .f32⟩
  | 14 => ⟨S64x64, .f32⟩
  | 15 => ⟨S256x64, .f32⟩
  | 16 => ⟨S1x64, .f32⟩
  | 17 => ⟨S256x64, .f32⟩
  | 18 => ⟨S256x64, .f32⟩
  | 19 => ⟨S_, .f32⟩
  | 20 => ⟨S256x64, .f32⟩
  | 21 => ⟨S256x64, .f32⟩
  | 22 => ⟨S_, .f32⟩
  | 23 => ⟨S64, .f32⟩
  | 24 => ⟨S1x64, .f32⟩
  | 25 => ⟨S_, .f32⟩
  | 26 => ⟨S1x64, .f32⟩
  | 27 => ⟨S1x64, .f32⟩
  | 28 => ⟨S256x64, .f32⟩
  | 29 => ⟨S256x64, .f32⟩
  | 30 => ⟨S256x64, .f32⟩
  | 31 => ⟨S_, .f32⟩
  | 32 => ⟨S64, .f32⟩
  | 33 => ⟨S1x64, .f32⟩
  | 34 => ⟨S_, .f32⟩
  | 35 => ⟨S1x64, .f32⟩
  | 36 => ⟨S1x64, .f32⟩
  | 37 => ⟨S256x64, .f32⟩
  | 38 => ⟨S256x64, .f32⟩
  | 39 => ⟨S_, .f32⟩
  | 40 => ⟨S1x64, .f32⟩
  | 41 => ⟨S1x64, .f32⟩
  | 42 => ⟨S1x64, .f32⟩
  | 43 => ⟨S256x64, .f32⟩
  | 44 => ⟨S256x64, .f32⟩
  | 45 => ⟨S1x64, .f32⟩
  | 46 => ⟨S256x64, .f32⟩
  | 47 => ⟨S256x64, .f32⟩
  | 48 => ⟨S1x64, .f32⟩
  | 49 => ⟨S256x64, .f32⟩
  | 50 => ⟨S256x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_cst_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_6 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_8 : Ref sig .tc := ⟨.hbm, 55, rfl⟩
abbrev main_v29 : Ref sig .tc := ⟨.hbm, 56, rfl⟩
abbrev main_cst_9 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_10 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call0_cst : Ref sig .tc := ⟨.hbm, 73, rfl⟩
abbrev main_call0_v0 : Ref sig .tc := ⟨.hbm, 74, rfl⟩
abbrev main_v44 : Ref sig .tc := ⟨.hbm, 75, rfl⟩
abbrev main_cst_11 : Ref sig .tc := ⟨.hbm, 76, rfl⟩
abbrev main_v45 : Ref sig .tc := ⟨.hbm, 77, rfl⟩
abbrev main_v46 : Ref sig .tc := ⟨.hbm, 78, rfl⟩
abbrev main_cst_12 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_cst_14 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_15 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_call1_cst : Ref sig .tc := ⟨.hbm, 110, rfl⟩
abbrev main_call1_v0 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_cst_17 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_18 : Ref sig .tc := ⟨.hbm, 122, rfl⟩
abbrev main_v82 : Ref sig .tc := ⟨.hbm, 123, rfl⟩
abbrev main_v83 : Ref sig .tc := ⟨.hbm, 124, rfl⟩
abbrev main_cst_19 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_20 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_call2_cst : Ref sig .tc := ⟨.hbm, 147, rfl⟩
abbrev main_call2_v0 : Ref sig .tc := ⟨.hbm, 148, rfl⟩
abbrev main_v104 : Ref sig .tc := ⟨.hbm, 149, rfl⟩
abbrev main_cst_21 : Ref sig .tc := ⟨.hbm, 150, rfl⟩
abbrev main_v105 : Ref sig .tc := ⟨.hbm, 151, rfl⟩
abbrev main_v106 : Ref sig .tc := ⟨.hbm, 152, rfl⟩
abbrev main_cst_22 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_23 : Ref sig .tc := ⟨.hbm, 159, rfl⟩
abbrev main_v112 : Ref sig .tc := ⟨.hbm, 160, rfl⟩
abbrev main_v113 : Ref sig .tc := ⟨.hbm, 161, rfl⟩
abbrev main_cst_24 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_25 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  concatenates_S256x64_S256x64_S256x64_S256x192_d1 : Shape.Concatenates [S256x64, S256x64, S256x64] S256x192 1
  transposes_S64x192_S192x64_1_0 : S64x192.Transposes [1, 0] S192x64
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  reducesTo_S256x64_S64_d0 : S256x64.ReducesTo [0] S64
  h_S_ : 0 < S_.numel
  bcast_S_S1x64 : S_.BroadcastsInDim S1x64 (![] : Fin 0 → Fin S1x64.rank)
  transposes_S64x64_S64x64_1_0 : S64x64.Transposes [1, 0] S64x64
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x192_S192x64_S256x64_1_0_0_1_n_n_wf : DotDims.WF S256x192 S192x64 S256x64 [1] [0] [0] [1] [] []
  dot_S256x64_S64x64_S256x64_1_0_0_1_n_n_wf : DotDims.WF S256x64 S64x64 S256x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x192_S192x64_S256x64_1_0_0_1_n_n : DotDims S256x192 S192x64 S256x64 where
  lhsContracting := [1]
  rhsContracting := [0]
  lhsNonContracting := [0]
  rhsNonContracting := [1]
  lhsBatch := []
  rhsBatch := []
  wf := dot_S256x192_S192x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

class Facts : Prop extends Facts₀ where

variable [Facts]
-- ==== Proof.K.R0Data.lean ====
/-
  Region 0: the proof data of the edge pass. Each of the two cores walks 98 tiles of 4096 padded edges; the output block of a core's row is carried from tile to tile: the first tile of a row starts it from the zero block, every later tile adds its partial product to what the tile before left, and the block is written back after the row's last tile.
-/
import proofs.«414252_j62689342653099_3_alg».proof.Proof.Gen.Kernel.Launch
import proofs.«414252_j62689342653099_3_alg».proof.Proof.Gen.Kernel.Skeleton
import proofs.«414252_j62689342653099_3_alg».proof.Proof.Gen.Kernel.Points
import Idealize.ShloMosaic.Lib.Pipeline.FrameBody
import Idealize.ShloMosaic.Lib.Pipeline.Frame

noncomputable section

namespace Cert.Kernel.R0

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output block's staging buffer holds after the body at position `n`: the tile's update of the zero block
    at the first tile of a row (`n % 98 = 0`), of what position `n - 1` left at every other. -/
def outsAt (c : Dev nD) : (n : ℕ) → n < cfg0.N → Vec F S1x256x64 .f32
  | 0, hn => k0_pay2 (iblk V c 2 ⟨0, hn⟩) (iblk V c 1 ⟨0, hn⟩) (iblk V c 0 ⟨0, hn⟩) k0_pay1
  | n + 1, hn =>
    if (n + 1) % 98 = 0 then
      k0_pay2 (iblk V c 2 ⟨n + 1, hn⟩) (iblk V c 1 ⟨n + 1, hn⟩) (iblk V c 0 ⟨n + 1, hn⟩) k0_pay1
    else
      k0_pay2 (iblk V c 2 ⟨n + 1, hn⟩) (iblk V c 1 ⟨n + 1, hn⟩) (iblk V c 0 ⟨n + 1, hn⟩) (outsAt c n (Nat.lt_of_succ_lt hn))

theorem outsAt_first (c : Dev nD) (t : Fin cfg0.N) (h : t.val % 98 = 0) :
    outsAt V c t.val t.isLt = k0_pay2 (iblk V c 2 t) (iblk V c 1 t) (iblk V c 0 t) k0_pay1 := by
  obtain ⟨n, hn⟩ := t
  cases n with
  | zero => rfl
  | succ n => exact (if_pos h).trans rfl

theorem outsAt_next (c : Dev nD) (t : Fin cfg0.N) (h : ¬ t.val % 98 = 0) :
    outsAt V c t.val t.isLt = k0_pay2 (iblk V c 2 t) (iblk V c 1 t) (iblk V c 0 t) (outsAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The proof data on core `c`: the arrays as the region finds them; after the body each input's buffer at its block
    and the output's at `outsAt`; the invariant is the scoped rest and the generator register; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outsAt V c t.val t.isLt
  Φ _ := Pipeline.ΦA spec0 c
  q _ := fullShare
  owed _ := 0

theorem A_eq (c : Dev nD) (w : Fin cfg0.W) : (dat V c).A w = V c (Pipeline.arrRef spec0 w) := by dsimp only [dat]
theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_in2 (c : Dev nD) (t : Fin cfg0.N) : (dat V c).after 2 t = iblk V c 2 t := by dsimp only [dat]
theorem after_out (c : Dev nD) (t : Fin cfg0.N) : (dat V c).after 3 t = outsAt V c t.val t.isLt := by dsimp only [dat]

end Cert.Kernel.R0

end
-- ==== Proof.K.R0.lean ====
/-
  Region 0, the body: at every grid point the edge pass's body, run on its staging buffers, leaves the three input
  blocks in place and the carried output block updated by the tile's weighted one-hot product; at the first tile of a
  core's row the block is first reset to zero and the reset is what the update reads back.
-/
import proofs.«414252_j62689342653099_3_alg».proof.Proof.K.R0Data
import proofs.«414252_j62689342653099_3_alg».proof.Proof.Gen.Kernel.Launch
import proofs.«414252_j62689342653099_3_alg».proof.Proof.Gen.Kernel.Skeleton
import proofs.«414252_j62689342653099_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's conditional -/

/-- The condition of the body's conditional, as the body computes it from the grid coordinates. -/
abbrev cond0 (i : grid0.Coords) : Prop :=
  (Scalar.cmpi .ne (Scalar.extui (Scalar.cmpi .eq (BitVec.ofNat 32 (i 1).val) 0#32)) 0#32) = 1#1

/-- It holds exactly at the first tile of a core's row: decided over the grid. -/
theorem hcond0 : ∀ t : Fin cfg0.N, cond0 (grid0.coords t) ↔ t.val % 98 = 0 :=
  (by decide +kernel : ∀ t : Fin grid0.N, cond0 (grid0.coords t) ↔ t.val % 98 = 0)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's triple, one per case of the conditional -/

set_option maxHeartbeats 1000000 in
/-- At the first tile of a row: on whole staging memrefs, the inputs' at contents `x0`, `x1`, `x2` and the output's at
    anything, the body leaves the inputs as they were and the output at the tile's update of the zero block — the
    reset's store is what the later load of the output buffer reads. -/
theorem run_first (c : Dev nD) (E : Set ℕ) (i : grid0.Coords)
    (arg2 : Memref sig .tc .vmem S4096x64 .f32) (harg2 : arg2.IsWhole) (arg3 : Memref sig .tc .vmem S4096 .f32) (harg3 : arg3.IsWhole)
    (arg4 : Memref sig .tc .vmem S4096 .i32) (harg4 : arg4.IsWhole) (arg5 : Memref sig .tc .vmem S1x256x64 .f32) (harg5 : arg5.IsWhole)
    (hc : cond0 i)
    (x0 : Vec F S4096x64 .f32) (x1 : Vec F S4096 .f32) (x2 : Vec F S4096 .i32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x2 x1 x0 k0_pay1)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero hz3 inb_S1x256x64_S1x256x64_0_0_0 y⟩)]
  sl_unfold_words
  rw [View.canon_cons_unit_zero (S := S1x256x64) hz3, View.readCov_unit_zero (S := S1x256x64) _ hz3]
  simp only [View.readAt_eq_ld, View.ld_unit_zero (S := S4096) hz1, View.ld_unit_zero (S := S4096x64) hz2]

set_option maxHeartbeats 1000000 in
/-- At every later tile of a row: the output's staging memref at contents `xo`, the body leaves the inputs as they
    were and the output at the tile's update of `xo`. -/
theorem run_next (c : Dev nD) (E : Set ℕ) (i : grid0.Coords)
    (arg2 : Memref sig .tc .vmem S4096x64 .f32) (harg2 : arg2.IsWhole) (arg3 : Memref sig .tc .vmem S4096 .f32) (harg3 : arg3.IsWhole)
    (arg4 : Memref sig .tc .vmem S4096 .i32) (harg4 : arg4.IsWhole) (arg5 : Memref sig .tc .vmem S1x256x64 .f32) (harg5 : arg5.IsWhole)
    (hc : ¬ cond0 i)
    (x0 : Vec F S4096x64 .f32) (x1 : Vec F S4096 .f32) (x2 : Vec F S4096 .i32) (xo : Vec F S1x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x2 x1 x0 xo)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero hz3 inb_S1x256x64_S1x256x64_0_0_0 y⟩)]
  rw [View.canon_unit_zero (S := S1x256x64) hz3]
  simp only [View.readAt_eq_ld, View.ld_unit_zero (S := S4096) hz1, View.ld_unit_zero (S := S4096x64) hz2,
    View.ld_unit_zero (S := S1x256x64) hz3]

/-! ## What the body finds in each staging buffer -/

-- the TensorCore's buffer contents when the region is entered
variable (V : (c : Dev nD) → (b : Ref sig .tc) → Buf (Elt F) ((c : Thread nD τ).loc b))

/-- Each input's current staging buffer holds its block at every point, fetched there or not. -/
theorem before_in0 (c : Dev nD) (t : Fin cfg0.N) (d) : (dat V c).before 0 t d = iblk V c 0 t :=
  ((dat V c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dat V c).before 1 t d = iblk V c 1 t :=
  ((dat V c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dat V c).before 2 t d = iblk V c 2 t :=
  ((dat V c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)

/-- At a tile that is not the first of its row the output's current staging buffer holds what the body left at the
    point before: the point is not the first, and the buffer was not written back between (that happens only after
    the last tile of a row). -/
theorem before_out_next (c : Dev nD) (t : Fin cfg0.N) (h : ¬ t.val % 98 = 0) (d) :
    (dat V c).before 3 t d = outsAt V c (t.val - 1) (Nat.lt_of_le_of_lt (Nat.sub_le _ _) t.isLt) := by
  have hN : t.val < 196 := lt_of_lt_of_eq t.isLt (show cfg0.N = 196 from N_0)
  rw [Dat.before_out_kept _ 3 rfl t (by omega)
    (Bool.eq_false_iff.mpr fun h' => by have := (flush0_3 _).mp h'; dsimp only at this; omega)
    (fun _ => rfl) (fun _ _ => rfl)]
  dsimp only [dat]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

set_option maxHeartbeats 800000 in
/-- The body at any point: the inputs' memrefs hold their blocks; the closed form of the condition says which case
    the point is in, and at a later tile of a row the output's memref holds what the point before left; so the case's
    triple applies; the invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2]
  rw [show (dat V c).Φ t.succ = (dat V c).Φ t.castSucc from rfl,
    show (dat V c).owesAt () t.succ = (dat V c).owesAt () t.castSucc from rfl,
    after_in0, after_in1, after_in2, after_out]
  by_cases h0 : t.val % 98 = 0
  · rw [outsAt_first V c t h0]
    iintro ⟨HΦ, Ho, ⟨%d0, H0⟩, ⟨%d1, H1⟩, ⟨%d2, H2⟩, ⟨%d3, H3⟩⟩
    iapply (run_first c Set.univ (grid0.coords t) _ _ _ _ _ _ _ _ ((hcond0 t).mpr h0) (iblk V c 0 t) (iblk V c 1 t) (iblk V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt_next V c t h0]
    simp only [before_out_next V c t h0]
    iintro ⟨HΦ, Ho, ⟨%d0, H0⟩, ⟨%d1, H1⟩, ⟨%d2, H2⟩, ⟨%d3, H3⟩⟩
    iapply (run_next c Set.univ (grid0.coords t) _ _ _ _ _ _ _ _ (fun h => h0 ((hcond0 t).mp h)) (iblk V c 0 t) (iblk V c 1 t) (iblk V c 2 t)
      (outsAt V c (t.val - 1) (Nat.lt_of_le_of_lt (Nat.sub_le _ _) t.isLt)) _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.K.R1Data.lean ====
/-
  Region 1: the proof data of the node pass. 49 tiles of 1024 padded nodes; the one output block is carried from tile to tile: the first tile starts it from the zero block, every later tile adds its partial product to what the tile before left, and the block is written back after the last tile.
-/
import proofs.«414252_j62689342653099_3_alg».proof.Proof.Gen.Kernel.Launch
import proofs.«414252_j62689342653099_3_alg».proof.Proof.Gen.Kernel.Skeleton
import proofs.«414252_j62689342653099_3_alg».proof.Proof.Gen.Kernel.Points
import Idealize.ShloMosaic.Lib.Pipeline.FrameBody
import Idealize.ShloMosaic.Lib.Pipeline.Frame

noncomputable section

namespace Cert.Kernel.R1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output block's staging buffer holds after the body at position `n`: the tile's update of the zero block
    at the first tile, of what position `n - 1` left at every other. -/
def outsAt (c : Dev nD) : (n : ℕ) → n < cfg1.N → Vec F S256x64 .f32
  | 0, hn => k1_pay2 (iblk V c 1 ⟨0, hn⟩) (iblk V c 0 ⟨0, hn⟩) k1_pay1
  | n + 1, hn => k1_pay2 (iblk V c 1 ⟨n + 1, hn⟩) (iblk V c 0 ⟨n + 1, hn⟩) (outsAt c n (Nat.lt_of_succ_lt hn))

theorem outsAt_first (c : Dev nD) (t : Fin cfg1.N) (h : t.val = 0) :
    outsAt V c t.val t.isLt = k1_pay2 (iblk V c 1 t) (iblk V c 0 t) k1_pay1 := by
  obtain ⟨n, hn⟩ := t
  cases n with
  | zero => rfl
  | succ n => exact absurd h (Nat.succ_ne_zero n)

theorem outsAt_next (c : Dev nD) (t : Fin cfg1.N) (h : ¬ t.val = 0) :
    outsAt V c t.val t.isLt = k1_pay2 (iblk V c 1 t) (iblk V c 0 t) (outsAt V c (t.val - 1) (Nat.lt_of_le_of_lt (Nat.sub_le _ _) t.isLt)) := by
  obtain ⟨n, hn⟩ := t
  cases n with
  | zero => exact absurd rfl h
  | succ n => rfl

/-- The proof data on core `c`: the arrays as the region finds them; after the body each input's buffer at its block
    and the output's at `outsAt`; the invariant is the scoped rest and the generator register; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outsAt V c t.val t.isLt
  Φ _ := Pipeline.ΦA spec1 c
  q _ := fullShare
  owed _ := 0

theorem A_eq (c : Dev nD) (w : Fin cfg1.W) : (dat V c).A w = V c (Pipeline.arrRef spec1 w) := by dsimp only [dat]
theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_out (c : Dev nD) (t : Fin cfg1.N) : (dat V c).after 2 t = outsAt V c t.val t.isLt := by dsimp only [dat]

end Cert.Kernel.R1

end
-- ==== Proof.K.R1.lean ====
/-
  Region 1, the node pass: the body obligation. The body runs on whole staging buffers in two cases — at the first of
  the 49 tiles it zeroes the output block, reads the zero block back and stores it plus the tile's product; at every
  later tile it reads what the tile before left and stores that plus the tile's product — and at every tile the input
  buffers hold the tile's blocks and the output buffer, never written back between tiles, what the tile before left.
-/
import proofs.«414252_j62689342653099_3_alg».proof.Proof.K.R1Data
import proofs.«414252_j62689342653099_3_alg».proof.Proof.Gen.Kernel.Launch
import proofs.«414252_j62689342653099_3_alg».proof.Proof.Gen.Kernel.Skeleton
import proofs.«414252_j62689342653099_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's one conditional -/

/-- The condition of the body's conditional, as the scalar chain over the grid coordinate: the tile is the first. -/
abbrev isFirst (i : grid1.Coords) : Prop :=
  (Scalar.cmpi .ne (Scalar.extui (Scalar.cmpi .eq (BitVec.ofNat 32 (i 0).val) 0#32)) 0#32) = 1#1

/-- It holds at the first of the 49 tiles and at no other. -/
theorem isFirst_iff : ∀ t : Fin cfg1.N, isFirst (grid1.coords t) ↔ t.val = 0 :=
  (by decide +kernel : ∀ t : Fin grid1.N, isFirst (grid1.coords t) ↔ t.val = 0)

theorem zero1 : (![0] : Fin S1024.rank → ℕ) = fun _ => 0 := funext fun a => by fin_cases a; rfl
theorem zero2 : (![0, 0] : Fin S256x64.rank → ℕ) = fun _ => 0 := funext fun a => by fin_cases a <;> rfl
theorem zero2' : (![0, 0] : Fin S1024x64.rank → ℕ) = fun _ => 0 := funext fun a => by fin_cases a <;> rfl

/-! ## The body on whole staging buffers, in its two cases -/

set_option maxHeartbeats 1000000 in
/-- At the first tile the body zeroes the output buffer, reads the zero block back, and stores the zero block plus
    this tile's product: the buffer ends at `k1_pay2 x1 x0 k1_pay1`, whatever it held. -/
theorem run_first (c : Dev nD) (E : Set ℕ) (i : grid1.Coords)
    (arg1 : Memref sig .tc .vmem S1024x64 .f32) (harg1 : arg1.IsWhole)
    (arg2 : Memref sig .tc .vmem S1024 .i32) (harg2 : arg2.IsWhole)
    (arg3 : Memref sig .tc .vmem S256x64 .f32) (harg3 : arg3.IsWhole) (hc : isFirst i)
    (x0 : Vec F S1024x64 .f32) (x1 : Vec F S1024 .i32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay2 x1 x0 k1_pay1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (fun y => ⟨_, List.mem_cons_self, View.mem_set_unit_zero zero2 inb_S256x64_S256x64_0_0 y⟩),
    View.canon_cons_unit_zero (S := S256x64) zero2]
  sl_unfold_words
  simp only [View.readAt_eq_ld, harg1.read_unread, harg2.read_unread, View.ld_unit_zero (S := S1024) zero1,
    View.ld_unit_zero (S := S1024x64) zero2', View.readCov_unit_zero (S := S256x64) _ zero2]

set_option maxHeartbeats 1000000 in
/-- At every later tile the body reads the output buffer and stores what it read plus this tile's product: the
    buffer, holding `xo`, ends at `k1_pay2 x1 x0 xo`. -/
theorem run_next (c : Dev nD) (E : Set ℕ) (i : grid1.Coords)
    (arg1 : Memref sig .tc .vmem S1024x64 .f32) (harg1 : arg1.IsWhole)
    (arg2 : Memref sig .tc .vmem S1024 .i32) (harg2 : arg2.IsWhole)
    (arg3 : Memref sig .tc .vmem S256x64 .f32) (harg3 : arg3.IsWhole) (hc : ¬ isFirst i)
    (x0 : Vec F S1024x64 .f32) (x1 : Vec F S1024 .i32) (xo : Vec F S256x64 .f32) (K : PUnit → sProp 𝕄) :
    iprop(owns (c : Thread nD τ) arg1 fullShare x0 ∗ owns (c : Thread nD τ) arg2 fullShare x1
        ∗ owns (c : Thread nD τ) arg3 fullShare xo
        ∗ (iprop(owns (c : Thread nD τ) arg1 fullShare x0 ∗ owns (c : Thread nD τ) arg2 fullShare x1
            ∗ owns (c : Thread nD τ) arg3 fullShare (k1_pay2 x1 x0 xo)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (fun y => ⟨_, List.mem_cons_self, View.mem_set_unit_zero zero2 inb_S256x64_S256x64_0_0 y⟩),
    View.canon_cons_unit_zero (S := S256x64) zero2]
  sl_unfold_words
  simp only [View.readAt_eq_ld, harg1.read_unread, harg2.read_unread, harg3.read_unread, View.ld_unit_zero (S := S1024) zero1,
    View.ld_unit_zero (S := S1024x64) zero2', View.ld_unit_zero (S := S256x64) zero2]

/-! ## What the staging buffers hold when the body is called -/

-- the TensorCore's buffer contents when the region is entered
variable (V : (c : Dev nD) → (b : Ref sig .tc) → Buf (Elt F) ((c : Thread nD τ).loc b))

/-- The node rows' buffer holds the tile's 1024 rows at every tile (the window is fetched at every tile, uncut). -/
theorem before_in0 (c : Dev nD) (t : Fin cfg1.N) (d) : (dat V c).before 0 t d = iblk V c 0 t :=
  ((dat V c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)

/-- The graph ids' buffer holds the tile's 1024 ids at every tile. -/
theorem before_in1 (c : Dev nD) (t : Fin cfg1.N) (d) : (dat V c).before 1 t d = iblk V c 1 t :=
  ((dat V c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)

/-- At a tile after the first the output buffer holds what the tile before left: the block is written back after the
    last tile only, so never between two tiles. -/
theorem before_out (c : Dev nD) (t : Fin cfg1.N) (h : ¬ t.val = 0) (d) :
    (dat V c).before 2 t d = outsAt V c (t.val - 1) (Nat.lt_of_le_of_lt (Nat.sub_le _ _) t.isLt) := by
  have hN : t.val < 49 := lt_of_lt_of_eq t.isLt (show cfg1.N = 49 from N_1)
  rw [Dat.before_out_kept _ 2 rfl t h (Bool.eq_false_iff.mpr fun hf => by have := (flush1_2 _).mp hf; dsimp only at this; omega)
    (fun _ => rfl) (fun _ _ => rfl)]
  rw [after_out]

/-! ## The body obligation -/

/-- What the body is called with at tile `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

set_option maxHeartbeats 800000 in
/-- The body at any tile: the inputs' buffers hold the tile's blocks; the first tile is the zeroing case, whatever
    the output buffer holds; a later tile is the adding case over what the tile before left; the invariant passes
    through unread and the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1]
  rw [show (dat V c).Φ t.succ = (dat V c).Φ t.castSucc from rfl,
    show (dat V c).owesAt () t.succ = (dat V c).owesAt () t.castSucc from rfl,
    after_in0, after_in1, after_out]
  by_cases h0 : t.val = 0
  · rw [outsAt_first V c t h0]
    iintro ⟨HΦ, Ho, ⟨%d0, H0⟩, ⟨%d1, H1⟩, ⟨%d2, H2⟩⟩
    iapply (run_first c Set.univ (grid1.coords t) _ _ _ _ _ _ ((isFirst_iff t).mpr h0) (iblk V c 0 t) (iblk V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt_next V c t h0]
    simp only [before_out V c t h0]
    iintro ⟨HΦ, Ho, ⟨%d0, H0⟩, ⟨%d1, H1⟩, ⟨%d2, H2⟩⟩
    iapply (run_next c Set.univ (grid1.coords t) _ _ _ _ _ _ (fun h => h0 ((isFirst_iff t).mp h)) (iblk V c 0 t) (iblk V c 1 t)
      (outsAt V c (t.val - 1) (Nat.lt_of_le_of_lt (Nat.sub_le _ _) t.isLt)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every tile. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.K.R2Data.lean ====
/-
  Region 2: the proof data of the three layers. One grid point; the thirteen input windows are whole arrays (the concatenated table, then per layer the weight matrix, the bias, the scale and the shift), the output block is the whole result.
-/
import proofs.«414252_j62689342653099_3_alg».proof.Proof.Gen.Kernel.Launch
import proofs.«414252_j62689342653099_3_alg».proof.Proof.Gen.Kernel.Skeleton
import proofs.«414252_j62689342653099_3_alg».proof.Proof.Gen.Kernel.Points
import Idealize.ShloMosaic.Lib.Pipeline.FrameBody
import Idealize.ShloMosaic.Lib.Pipeline.Frame

noncomputable section

namespace Cert.Kernel.R2

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body stores into the output block, from the thirteen input blocks: the first layer and the second
    layer's product (`k2_pay2`), the second layer and the third layer's affine map and positive part (`k2_pay3`), its
    column sums (`k2_pay4`), and the third layer's normalisation (`k2_pay1`). -/
def out (x0 : Vec F S256x192 .f32) (x1 : Vec F S64x192 .f32) (x2 x3 x4 : Vec F S64 .f32) (x5 : Vec F S64x64 .f32)
    (x6 x7 x8 : Vec F S64 .f32) (x9 : Vec F S64x64 .f32) (x10 x11 x12 : Vec F S64 .f32) : Vec F S256x64 .f32 :=
  k2_pay1 (k2_pay3 (k2_pay2 x0 x1 x2 x3 x4 x5) x6 x7 x8 x9 x10) (k2_pay4 (k2_pay2 x0 x1 x2 x3 x4 x5) x6 x7 x8 x9 x10)
    (Scalar.ofBits .f32 0x43800000#32) x11 x12

/-- The proof data on core `c`: the arrays as the region finds them; after the body each input's buffer at its block
    and the output's at `out` of the input blocks; the invariant is the scoped rest and the generator register; nothing
    owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => out (iblk V c 0 t) (iblk V c 1 t) (iblk V c 2 t) (iblk V c 3 t) (iblk V c 4 t) (iblk V c 5 t) (iblk V c 6 t)
        (iblk V c 7 t) (iblk V c 8 t) (iblk V c 9 t) (iblk V c 10 t) (iblk V c 11 t) (iblk V c 12 t)
  Φ _ := Pipeline.ΦA spec2 c
  q _ := fullShare
  owed _ := 0

theorem A_eq (c : Dev nD) (w : Fin cfg2.W) : (dat V c).A w = V c (Pipeline.arrRef spec2 w) := by dsimp only [dat]
theorem after_in0 (c : Dev nD) (t : Fin cfg2.N) : (dat V c).after 0 t = iblk V c 0 t := by dsimp only [dat]
theorem after_in1 (c : Dev nD) (t : Fin cfg2.N) : (dat V c).after 1 t = iblk V c 1 t := by dsimp only [dat]
theorem after_in2 (c : Dev nD) (t : Fin cfg2.N) : (dat V c).after 2 t = iblk V c 2 t := by dsimp only [dat]
theorem after_in3 (c : Dev nD) (t : Fin cfg2.N) : (dat V c).after 3 t = iblk V c 3 t := by dsimp only [dat]
theorem after_in4 (c : Dev nD) (t : Fin cfg2.N) : (dat V c).after 4 t = iblk V c 4 t := by dsimp only [dat]
theorem after_in5 (c : Dev nD) (t : Fin cfg2.N) : (dat V c).after 5 t = iblk V c 5 t := by dsimp only [dat]
theorem after_in6 (c : Dev nD) (t : Fin cfg2.N) : (dat V c).after 6 t = iblk V c 6 t := by dsimp only [dat]
theorem after_in7 (c : Dev nD) (t : Fin cfg2.N) : (dat V c).after 7 t = iblk V c 7 t := by dsimp only [dat]
theorem after_in8 (c : Dev nD) (t : Fin cfg2.N) : (dat V c).after 8 t = iblk V c 8 t := by dsimp only [dat]
theorem after_in9 (c : Dev nD) (t : Fin cfg2.N) : (dat V c).after 9 t = iblk V c 9 t := by dsimp only [dat]
theorem after_in10 (c : Dev nD) (t : Fin cfg2.N) : (dat V c).after 10 t = iblk V c 10 t := by dsimp only [dat]
theorem after_in11 (c : Dev nD) (t : Fin cfg2.N) : (dat V c).after 11 t = iblk V c 11 t := by dsimp only [dat]
theorem after_in12 (c : Dev nD) (t : Fin cfg2.N) : (dat V c).after 12 t = iblk V c 12 t := by dsimp only [dat]
theorem after_out (c : Dev nD) (t : Fin cfg2.N) : (dat V c).after 13 t = out (iblk V c 0 t) (iblk V c 1 t) (iblk V c 2 t) (iblk V c 3 t) (iblk V c 4 t) (iblk V c 5 t) (iblk V c 6 t)
    (iblk V c 7 t) (iblk V c 8 t) (iblk V c 9 t) (iblk V c 10 t) (iblk V c 11 t) (iblk V c 12 t) := by dsimp only [dat]

end Cert.Kernel.R2

end
-- ==== Proof.K.R2.lean ====
/-
  Region 2 (the three layers, one grid point) at the contents V the TensorCore's buffers hold when the
  region is entered: the body's triple and the pipeline's body obligation for the proof data of R2Data.

  The body loads each of its thirteen input buffers whole, computes the three layers (the payloads of
  the two printed parts and of the root), and stores the result over the whole output buffer; so the
  output buffer ends at the payload chain of the input contents, whatever it held, and every input
  buffer is left as found. Every window is fetched at the one point, so each input buffer is found
  at its window's block.
-/
import proofs.«414252_j62689342653099_3_alg».proof.Proof.K.R2Data
import Idealize.ShloMosaic.Lib.Pipeline.Value
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses -/

/-- The zero offsets of a rank-1 access, as the printed rectangles spell them. -/
theorem zeros1 : (![0] : Fin 1 → ℕ) = fun _ => 0 := funext fun a => by fin_cases a; rfl
/-- The zero offsets of a rank-2 access. -/
theorem zeros2 : (![0, 0] : Fin 2 → ℕ) = fun _ => 0 := funext fun a => by fin_cases a <;> rfl

section Whole
variable {sg : RefSig} {κ : Kind} {sp : Space} {S : Shape} {e : EltTy}

/-- A load through the rectangle that is the whole shape reads what the view reads. -/
theorem load_whole (v : View sg κ sp S e) (f : v.ty.Contents (Elt F)) {off : Fin S.rank → ℕ}
    (h : off = fun _ => 0) (inb : ∀ a, off a + S.size a ≤ S.size a) :
    v.readAt (Elt F) (Rect.unit off S.size inb).toLoadRect f = v.read (Elt F) f :=
  (View.readAt_eq_ld v f (Rect.unit off S.size inb)).trans (View.ld_unit_zero h inb _)

/-- After one store through the rectangle that is the whole shape the view reads the payload, whatever was there. -/
theorem store_whole (v : View sg κ sp S e) (f : v.ty.Contents (Elt F)) {off : Fin S.rank → ℕ}
    (h : off = fun _ => 0) (inb : ∀ a, off a + S.size a ≤ S.size a) (p : S.Idx → Elt F e) :
    v.read (Elt F) (v.writes (Elt F) f [⟨Rect.unit off S.size inb, p⟩]) = p := by
  rw [View.read_writes_eq_canon v f _
    (fun y => ⟨_, List.mem_singleton_self _, View.mem_set_unit_zero h inb y⟩), View.canon_unit_zero h]

end Whole

/-! ## The body's triple -/

set_option maxHeartbeats 1000000 in
/-- The kernel function on fourteen whole memrefs, the first thirteen reading x0 … x12 and the last reading
    anything, runs to its return with the thirteen as they were and the last reading the payload chain of
    x0 … x12 (R2Data's out). -/
theorem sound_kernel (c : Dev nD) (E : Set ℕ) (i : grid2.Coords)
    (arg1 : Memref sig .tc .vmem S256x192 .f32) (harg1 : arg1.IsWhole)
    (arg2 : Memref sig .tc .vmem S64x192 .f32) (harg2 : arg2.IsWhole)
    (arg3 : Memref sig .tc .vmem S64 .f32) (harg3 : arg3.IsWhole)
    (arg4 : Memref sig .tc .vmem S64 .f32) (harg4 : arg4.IsWhole)
    (arg5 : Memref sig .tc .vmem S64 .f32) (harg5 : arg5.IsWhole)
    (arg6 : Memref sig .tc .vmem S64x64 .f32) (harg6 : arg6.IsWhole)
    (arg7 : Memref sig .tc .vmem S64 .f32) (harg7 : arg7.IsWhole)
    (arg8 : Memref sig .tc .vmem S64 .f32) (harg8 : arg8.IsWhole)
    (arg9 : Memref sig .tc .vmem S64 .f32) (harg9 : arg9.IsWhole)
    (arg10 : Memref sig .tc .vmem S64x64 .f32) (harg10 : arg10.IsWhole)
    (arg11 : Memref sig .tc .vmem S64 .f32) (harg11 : arg11.IsWhole)
    (arg12 : Memref sig .tc .vmem S64 .f32) (harg12 : arg12.IsWhole)
    (arg13 : Memref sig .tc .vmem S64 .f32) (harg13 : arg13.IsWhole)
    (arg14 : Memref sig .tc .vmem S256x64 .f32) (harg14 : arg14.IsWhole)
    (x0 : Vec F S256x192 .f32) (x1 : Vec F S64x192 .f32) (x2 x3 x4 : Vec F S64 .f32) (x5 : Vec F S64x64 .f32)
    (x6 x7 x8 : Vec F S64 .f32) (x9 : Vec F S64x64 .f32) (x10 x11 x12 : Vec F S64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ owns (c : Thread nD τ) arg13 fullShare x12 ∗ (∃ y, owns (c : Thread nD τ) arg14 fullShare y)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare x12
            ∗ owns (c : Thread nD τ) arg14 fullShare (out x0 x1 x2 x3 x4 x5 x6 x7 x8 x9 x10 x11 x12)) -∗ K ⟨⟩))
      ⊢ wp frame (wpE (defs₀ (F := F)) Variants.none c none) E
          (cc2_kernel i arg1 harg1 arg2 harg2 arg3 harg3 arg4 harg4 arg5 harg5 arg6 harg6 arg7 harg7 arg8 harg8
            arg9 harg9 arg10 harg10 arg11 harg11 arg12 harg12 arg13 harg13 arg14 harg14) K := by
  simp only [cc2_kernel_eq_skeleton]; unfold cc2_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%f9, %e9, H9⟩, ⟨%f10, %e10, H10⟩, ⟨%f11, %e11, H11⟩, ⟨%f12, %e12, H12⟩,
    ⟨%f13, %e13, H13⟩, ⟨%y, %f14, -, H14⟩, Hk⟩
  -- the two printed parts through their skeletons, then the root's two loads, the dead load and the store
  sl_exec_parts
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  isplitl [H8]; · iexists f8; isplitr; · ipureintro; exact e8
                  iexact H8
  isplitl [H9]; · iexists f9; isplitr; · ipureintro; exact e9
                  iexact H9
  isplitl [H10]; · iexists f10; isplitr; · ipureintro; exact e10
                   iexact H10
  isplitl [H11]; · iexists f11; isplitr; · ipureintro; exact e11
                   iexact H11
  isplitl [H12]; · iexists f12; isplitr; · ipureintro; exact e12
                   iexact H12
  isplitl [H13]; · iexists f13; isplitr; · ipureintro; exact e13
                   iexact H13
  iexists _; isplitr
  swap; · iexact H14
  ipureintro
  -- the one store covers the block: the view reads its payload; each load was of a whole buffer
  rw [store_whole _ _ zeros2]
  subst e1 e2 e3 e4 e5 e6 e7 e8 e9 e10 e11 e12 e13
  unfold out
  sl_unfold_run_names
  simp only [load_whole (S := S64) _ _ zeros1, load_whole (S := S256x192) _ _ zeros2,
    load_whole (S := S64x192) _ _ zeros2, load_whole (S := S64x64) _ _ zeros2]

/-! ## What each input buffer holds when the body runs -/

section AtV
variable (V : (c : Dev nD) → (b : Ref sig .tc) → Buf (Elt F) ((c : Thread nD τ).loc b))

/- Every input window is fetched at the point, its block uncut: the buffer holds the array's block. -/

theorem before_in0 (c : Dev nD) (t : Fin cfg2.N) (d) : (dat V c).before 0 t d = iblk V c 0 t := by
  rw [Dat.before_fetched (dat V c) 0 t (fetch2_0 t) d]; unfold Dat.fetched Dat.blockOf iblk; rw [A_eq]; rfl
theorem before_in1 (c : Dev nD) (t : Fin cfg2.N) (d) : (dat V c).before 1 t d = iblk V c 1 t := by
  rw [Dat.before_fetched (dat V c) 1 t (fetch2_1 t) d]; unfold Dat.fetched Dat.blockOf iblk; rw [A_eq]; rfl
theorem before_in2 (c : Dev nD) (t : Fin cfg2.N) (d) : (dat V c).before 2 t d = iblk V c 2 t := by
  rw [Dat.before_fetched (dat V c) 2 t (fetch2_2 t) d]; unfold Dat.fetched Dat.blockOf iblk; rw [A_eq]; rfl
theorem before_in3 (c : Dev nD) (t : Fin cfg2.N) (d) : (dat V c).before 3 t d = iblk V c 3 t := by
  rw [Dat.before_fetched (dat V c) 3 t (fetch2_3 t) d]; unfold Dat.fetched Dat.blockOf iblk; rw [A_eq]; rfl
theorem before_in4 (c : Dev nD) (t : Fin cfg2.N) (d) : (dat V c).before 4 t d = iblk V c 4 t := by
  rw [Dat.before_fetched (dat V c) 4 t (fetch2_4 t) d]; unfold Dat.fetched Dat.blockOf iblk; rw [A_eq]; rfl
theorem before_in5 (c : Dev nD) (t : Fin cfg2.N) (d) : (dat V c).before 5 t d = iblk V c 5 t := by
  rw [Dat.before_fetched (dat V c) 5 t (fetch2_5 t) d]; unfold Dat.fetched Dat.blockOf iblk; rw [A_eq]; rfl
theorem before_in6 (c : Dev nD) (t : Fin cfg2.N) (d) : (dat V c).before 6 t d = iblk V c 6 t := by
  rw [Dat.before_fetched (dat V c) 6 t (fetch2_6 t) d]; unfold Dat.fetched Dat.blockOf iblk; rw [A_eq]; rfl
theorem before_in7 (c : Dev nD) (t : Fin cfg2.N) (d) : (dat V c).before 7 t d = iblk V c 7 t := by
  rw [Dat.before_fetched (dat V c) 7 t (fetch2_7 t) d]; unfold Dat.fetched Dat.blockOf iblk; rw [A_eq]; rfl
theorem before_in8 (c : Dev nD) (t : Fin cfg2.N) (d) : (dat V c).before 8 t d = iblk V c 8 t := by
  rw [Dat.before_fetched (dat V c) 8 t (fetch2_8 t) d]; unfold Dat.fetched Dat.blockOf iblk; rw [A_eq]; rfl
theorem before_in9 (c : Dev nD) (t : Fin cfg2.N) (d) : (dat V c).before 9 t d = iblk V c 9 t := by
  rw [Dat.before_fetched (dat V c) 9 t (fetch2_9 t) d]; unfold Dat.fetched Dat.blockOf iblk; rw [A_eq]; rfl
theorem before_in10 (c : Dev nD) (t : Fin cfg2.N) (d) : (dat V c).before 10 t d = iblk V c 10 t := by
  rw [Dat.before_fetched (dat V c) 10 t (fetch2_10 t) d]; unfold Dat.fetched Dat.blockOf iblk; rw [A_eq]; rfl
theorem before_in11 (c : Dev nD) (t : Fin cfg2.N) (d) : (dat V c).before 11 t d = iblk V c 11 t := by
  rw [Dat.before_fetched (dat V c) 11 t (fetch2_11 t) d]; unfold Dat.fetched Dat.blockOf iblk; rw [A_eq]; rfl
theorem before_in12 (c : Dev nD) (t : Fin cfg2.N) (d) : (dat V c).before 12 t d = iblk V c 12 t := by
  rw [Dat.before_fetched (dat V c) 12 t (fetch2_12 t) d]; unfold Dat.fetched Dat.blockOf iblk; rw [A_eq]; rfl

/-! ## The body obligation -/

/-- What the pipeline calls the body with at point t: the invariant, what the core owes, and the fourteen
    windows' current staging buffers, each at what it holds then. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d))
    ∗ (∃ d, owns (c : Thread nD τ) (st2_13 t) fullShare ((dat V c).before 13 t d)))

/-- What it hands back: the invariant and the debt at the next position, each buffer at what the body leaves. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t)
    ∗ owns (c : Thread nD τ) (st2_11 t) fullShare ((dat V c).after 11 t)
    ∗ owns (c : Thread nD τ) (st2_12 t) fullShare ((dat V c).after 12 t)
    ∗ owns (c : Thread nD τ) (st2_13 t) fullShare ((dat V c).after 13 t))

/-- The invariant and the debt are the same at every position: the body changes neither. -/
theorem inv_next (c : Dev nD) (t : Fin cfg2.N) : (dat V c).Φ t.succ = (dat V c).Φ t.castSucc := rfl
theorem owes_next (c : Dev nD) (t : Fin cfg2.N) : (dat V c).owesAt () t.succ = (dat V c).owesAt () t.castSucc := rfl

/-- The body at the point: the thirteen input buffers hold their blocks, the output buffer something; the
    triple applies; the invariant and the debt are not touched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_in0, before_in1, before_in2, before_in3, before_in4, before_in5, before_in6, before_in7,
    before_in8, before_in9, before_in10, before_in11, before_in12]
  rw [inv_next, owes_next, after_in0, after_in1, after_in2, after_in3, after_in4, after_in5, after_in6, after_in7, after_in8, after_in9,
    after_in10, after_in11, after_in12, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _
    (iblk V c 0 t) (iblk V c 1 t) (iblk V c 2 t) (iblk V c 3 t) (iblk V c 4 t) (iblk V c 5 t) (iblk V c 6 t)
    (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The pipeline's body obligation for region 2's proof data, at every point. -/
theorem body_obligation (c : Dev nD) : BodyObligation (dat (F := F) V c) (defs₀ (F := F)) Variants.none () Set.univ := fun t => by
  rw [bigSep_W2, bigSep_W2]
  exact sound_body V c t

end AtV

end Cert.Kernel.R2

end
-- ==== Proof.K.Run.lean ====
/-
  The launch. @main is fourteen items in order: six host stretches, the edge pass, four host stretches, the node pass, one host stretch, the three layers. Between two items a core holds every unscoped buffer whole at the contents the items before left, beside its generator register at some state and nothing owed. Each kernel region takes its windows' arrays out of those buffers, runs its pipeline, and puts them back: the inputs as it found them, its one output at what its write-backs leave. The run from the launch memory ends with the result buffer at what the third region leaves and every argument as launched.
-/
import proofs.«414252_j62689342653099_3_alg».proof.Proof.K.R0Data
import proofs.«414252_j62689342653099_3_alg».proof.Proof.K.R1Data
import proofs.«414252_j62689342653099_3_alg».proof.Proof.K.R2Data
import proofs.«414252_j62689342653099_3_alg».proof.Proof.Gen.Kernel.Regions
import Idealize.ShloMosaic.Lib.Pipeline.RegionsLoop
import Idealize.ShloMosaic.Lib.Pipeline.FrameSuffix

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section

variable (m : (ℓ : Loc nD τ sig) → Buf (Elt F) ℓ)

/-! ## What the regions leave in their output arrays -/

/-- Contents for the three output arrays, on every core; any other buffer as launched. -/
def mk (x0 : (c : Dev nD) → Buf (Elt F) ((c : Thread nD τ).loc main_v31))
    (x1 : (c : Dev nD) → Buf (Elt F) ((c : Thread nD τ).loc main_v40))
    (x2 : (c : Dev nD) → Buf (Elt F) ((c : Thread nD τ).loc main_v47)) : Gen.Outs (F := F) :=
  fun _ r c =>
    if h : r = main_v31 then h ▸ x0 c
    else if h : r = main_v40 then h ▸ x1 c
    else if h : r = main_v47 then h ▸ x2 c
    else m ((c : Thread nD τ).loc r)

theorem mk_v31 (x0 x1 x2) (n : ℕ) (c : Dev nD) : mk m x0 x1 x2 n main_v31 c = x0 c := by
  unfold mk; exact dif_pos rfl
theorem mk_v40 (x0 x1 x2) (n : ℕ) (c : Dev nD) : mk m x0 x1 x2 n main_v40 c = x1 c := by
  unfold mk; rw [dif_neg (by decide : ¬ (main_v40 : Ref sig .tc) = main_v31)]; exact dif_pos rfl
theorem mk_v47 (x0 x1 x2) (n : ℕ) (c : Dev nD) : mk m x0 x1 x2 n main_v47 c = x2 c := by
  unfold mk
  rw [dif_neg (by decide : ¬ (main_v47 : Ref sig .tc) = main_v31), dif_neg (by decide : ¬ (main_v47 : Ref sig .tc) = main_v40)]
  exact dif_pos rfl

/-- The contents after the edge pass depend on what the regions leave only through the edge pass's output. -/
theorem V7_congr (o o' : Gen.Outs (F := F)) (c : Dev nD) (h : o 7 main_v31 c = o' 7 main_v31 c) :
    Gen.V7 m o c = Gen.V7 m o' c := by
  show Function.update (Gen.V6 m c) _ (o 7 main_v31 c) = Function.update (Gen.V6 m c) _ (o' 7 main_v31 c)
  rw [h]

/-- So do the contents the node pass is entered from: four host stretches later. -/
theorem V11_congr (o o' : Gen.Outs (F := F)) (c : Dev nD) (h : o 7 main_v31 c = o' 7 main_v31 c) :
    Gen.V11 m o c = Gen.V11 m o' c := by
  show StableHlo.after hostOps1_3 (StableHlo.after hostOps1_2 (StableHlo.after hostOps1_1 (StableHlo.after hostOps1 (Gen.V7 m o c))))
    = StableHlo.after hostOps1_3 (StableHlo.after hostOps1_2 (StableHlo.after hostOps1_1 (StableHlo.after hostOps1 (Gen.V7 m o' c))))
  rw [V7_congr m o o' c h]

/-- The contents the three layers are entered from depend on them only through the two passes' outputs. -/
theorem V13_congr (o o' : Gen.Outs (F := F)) (c : Dev nD) (h31 : o 7 main_v31 c = o' 7 main_v31 c)
    (h40 : o 12 main_v40 c = o' 12 main_v40 c) : Gen.V13 m o c = Gen.V13 m o' c := by
  show StableHlo.after hostOps2 (Function.update (Gen.V11 m o c) _ (o 12 main_v40 c))
    = StableHlo.after hostOps2 (Function.update (Gen.V11 m o' c) _ (o' 12 main_v40 c))
  rw [V11_congr m o o' c h31, h40]

/-- The edge pass's output array as its write-backs leave it. -/
def x0 (c : Dev nD) : Buf (Elt F) ((c : Thread nD τ).loc main_v31) :=
  (R0.dat (fun c b => Gen.V6 m c b) c).arrAt 3 cfg0.N
/-- The node pass's, entered after the edge pass left `x0`. -/
def x1 (c : Dev nD) : Buf (Elt F) ((c : Thread nD τ).loc main_v40) :=
  (R1.dat (fun c b => Gen.V11 m (mk m (x0 m) (fun c => m ((c : Thread nD τ).loc main_v40)) (fun c => m ((c : Thread nD τ).loc main_v47))) c b) c).arrAt 2 cfg1.N
/-- The three layers', entered after the passes left `x0` and `x1`. -/
def x2 (c : Dev nD) : Buf (Elt F) ((c : Thread nD τ).loc main_v47) :=
  (R2.dat (fun c b => Gen.V13 m (mk m (x0 m) (x1 m) (fun c => m ((c : Thread nD τ).loc main_v47))) c b) c).arrAt 13 cfg2.N

/-- What the three regions leave in `main_v31`, `main_v40`, `main_v47`: each region's output array as its write-backs leave it. -/
def outs : Gen.Outs (F := F) := mk m (x0 m) (x1 m) (x2 m)

theorem outs_v31 (c : Dev nD) : outs m 7 main_v31 c = (R0.dat (fun c b => Gen.V6 m c b) c).arrAt 3 cfg0.N :=
  mk_v31 m _ _ _ 7 c

theorem outs_v40 (c : Dev nD) : outs m 12 main_v40 c = (R1.dat (fun c b => Gen.V11 m (outs m) c b) c).arrAt 2 cfg1.N := by
  have hV : (fun (c : Dev nD) (b : Ref sig .tc) => (Gen.V11 m (outs m) c b : Buf (Elt F) ((c : Thread nD τ).loc b)))
      = fun (c : Dev nD) (b : Ref sig .tc) => (Gen.V11 m (mk m (x0 m) (fun c => m ((c : Thread nD τ).loc main_v40)) (fun c => m ((c : Thread nD τ).loc main_v47))) c b : Buf (Elt F) ((c : Thread nD τ).loc b)) := by
    funext c b
    rw [V11_congr m (outs m) _ c ((mk_v31 m _ _ _ 7 c).trans (mk_v31 m _ _ _ 7 c).symm)]
  rw [hV]
  exact mk_v40 m _ _ _ 12 c

theorem outs_v47 (c : Dev nD) : outs m 14 main_v47 c = (R2.dat (fun c b => Gen.V13 m (outs m) c b) c).arrAt 13 cfg2.N := by
  have hV : (fun (c : Dev nD) (b : Ref sig .tc) => (Gen.V13 m (outs m) c b : Buf (Elt F) ((c : Thread nD τ).loc b)))
      = fun (c : Dev nD) (b : Ref sig .tc) => (Gen.V13 m (mk m (x0 m) (x1 m) (fun c => m ((c : Thread nD τ).loc main_v47))) c b : Buf (Elt F) ((c : Thread nD τ).loc b)) := by
    funext c b
    rw [V13_congr m (outs m) _ c ((mk_v31 m _ _ _ 7 c).trans (mk_v31 m _ _ _ 7 c).symm)
      ((mk_v40 m _ _ _ 12 c).trans (mk_v40 m _ _ _ 12 c).symm)]
  rw [hV]
  exact mk_v47 m _ _ _ 14 c

/-! ## The proof data family and the state between items -/

/-- Every pipeline's proof data, each at the contents its region is entered from. -/
def pdats : (p : Fin 3) → (c : Dev nD) → Dat τ (Elt F) Unit ℕ (UR sig nD τ) ℕ (Pipeline.pin (pcfgs (F := F)) Gen.adm p) c
  | ⟨0, _⟩ => fun c => R0.dat (fun c b => Gen.V6 m c b) c
  | ⟨1, _⟩ => fun c => R1.dat (fun c b => Gen.V11 m (outs m) c b) c
  | ⟨2, _⟩ => fun c => R2.dat (fun c b => Gen.V13 m (outs m) c b) c

/-- No core owes another anything: no level is assigned. -/
abbrev 𝒱₀ : Variants := Variants.none
abbrev L : GSem nD τ sig → Finset Unit := fun _ => ∅
abbrev lv : GSem nD τ sig → Unit → ℕ := fun _ _ => 0
/-- What rides beside the buffers between two items: the core's generator register at some state, and nothing owed. -/
abbrev E (_ : Fin 4) (c : Dev nD) : sProp 𝕄 :=
  iprop((∃ r, prngReg c r) ∗ ∃ W, owes (c : Thread nD τ) (0 : CellTallies nD τ sig Unit) W)

/-- The contents between items, read at the TensorCore's references. -/
abbrev U6 : (c : Dev nD) → (b : Ref sig .tc) → Buf (Elt F) ((c : Thread nD τ).loc b) := fun c b => Gen.V6 m c b
abbrev U7 : (c : Dev nD) → (b : Ref sig .tc) → Buf (Elt F) ((c : Thread nD τ).loc b) := fun c b => Gen.V7 m (outs m) c b
abbrev U11 : (c : Dev nD) → (b : Ref sig .tc) → Buf (Elt F) ((c : Thread nD τ).loc b) := fun c b => Gen.V11 m (outs m) c b
abbrev U12 : (c : Dev nD) → (b : Ref sig .tc) → Buf (Elt F) ((c : Thread nD τ).loc b) := fun c b => Gen.V12 m (outs m) c b
abbrev U13 : (c : Dev nD) → (b : Ref sig .tc) → Buf (Elt F) ((c : Thread nD τ).loc b) := fun c b => Gen.V13 m (outs m) c b
abbrev U14 : (c : Dev nD) → (b : Ref sig .tc) → Buf (Elt F) ((c : Thread nD τ).loc b) := fun c b => Gen.V14 m (outs m) c b

/-! ## Each region's arrays at its exit

An input window's array is never written back, and the region's exit contents differ from its entry contents at the output array only; the output array holds what the write-backs leave. -/

theorem hF0_in (c : Dev nD) (w : Fin cfg0.W) (hin : (cfg0.win w).isOut = false)
    (hne : Pipeline.arrRef spec0 w ∉ ([main_v31] : List (Ref sig .tc))) :
    (R0.dat (fun c b => Gen.V6 m c b) c).arrAt w cfg0.N = U7 m c (Pipeline.arrRef spec0 w) :=
  ((R0.dat (fun c b => Gen.V6 m c b) c).arrAt_in w hin _).trans <|
    (R0.A_eq (fun c b => Gen.V6 m c b) c w).trans (Gen.V7_of m (outs m) c _ hne).symm

theorem hF0 (c : Dev nD) : ∀ w : Fin cfg0.W, (R0.dat (fun c b => Gen.V6 m c b) c).arrAt w cfg0.N = U7 m c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => (outs_v31 m c).symm.trans (Function.update_self (Proc.devRef .tc main_v31) (outs m 7 main_v31 c) (Gen.V6 m c)).symm

theorem hrest0 (c : Dev nD) : ∀ b, b ∉ Finset.univ.image (Pipeline.arrRef spec0) → U7 m c b = U6 m c b :=
  fun b hb => Gen.V7_of m (outs m) c b fun hmem =>
    hb (Finset.mem_image.mpr ⟨3, Finset.mem_univ _, (List.mem_singleton.mp hmem).symm⟩)

theorem hF1_in (c : Dev nD) (w : Fin cfg1.W) (hin : (cfg1.win w).isOut = false)
    (hne : Pipeline.arrRef spec1 w ∉ ([main_v40] : List (Ref sig .tc))) :
    (R1.dat (fun c b => Gen.V11 m (outs m) c b) c).arrAt w cfg1.N = U12 m c (Pipeline.arrRef spec1 w) :=
  ((R1.dat (fun c b => Gen.V11 m (outs m) c b) c).arrAt_in w hin _).trans <|
    (R1.A_eq (fun c b => Gen.V11 m (outs m) c b) c w).trans (Gen.V12_of m (outs m) c _ hne).symm

theorem hF1 (c : Dev nD) : ∀ w : Fin cfg1.W, (R1.dat (fun c b => Gen.V11 m (outs m) c b) c).arrAt w cfg1.N = U12 m c (Pipeline.arrRef spec1 w)
  | ⟨0, _⟩ => hF1_in m c 0 rfl (by decide)
  | ⟨1, _⟩ => hF1_in m c 1 rfl (by decide)
  | ⟨2, _⟩ => (outs_v40 m c).symm.trans (Function.update_self (Proc.devRef .tc main_v40) (outs m 12 main_v40 c) (Gen.V11 m (outs m) c)).symm

theorem hrest1 (c : Dev nD) : ∀ b, b ∉ Finset.univ.image (Pipeline.arrRef spec1) → U12 m c b = U11 m c b :=
  fun b hb => Gen.V12_of m (outs m) c b fun hmem =>
    hb (Finset.mem_image.mpr ⟨2, Finset.mem_univ _, (List.mem_singleton.mp hmem).symm⟩)

theorem hF2_in (c : Dev nD) (w : Fin cfg2.W) (hin : (cfg2.win w).isOut = false)
    (hne : Pipeline.arrRef spec2 w ∉ ([main_v47] : List (Ref sig .tc))) :
    (R2.dat (fun c b => Gen.V13 m (outs m) c b) c).arrAt w cfg2.N = U14 m c (Pipeline.arrRef spec2 w) :=
  ((R2.dat (fun c b => Gen.V13 m (outs m) c b) c).arrAt_in w hin _).trans <|
    (R2.A_eq (fun c b => Gen.V13 m (outs m) c b) c w).trans (Gen.V14_of m (outs m) c _ hne).symm

theorem hF2 (c : Dev nD) : ∀ w : Fin cfg2.W, (R2.dat (fun c b => Gen.V13 m (outs m) c b) c).arrAt w cfg2.N = U14 m c (Pipeline.arrRef spec2 w)
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => hF2_in m c 5 rfl (by decide)
  | ⟨6, _⟩ => hF2_in m c 6 rfl (by decide)
  | ⟨7, _⟩ => hF2_in m c 7 rfl (by decide)
  | ⟨8, _⟩ => hF2_in m c 8 rfl (by decide)
  | ⟨9, _⟩ => hF2_in m c 9 rfl (by decide)
  | ⟨10, _⟩ => hF2_in m c 10 rfl (by decide)
  | ⟨11, _⟩ => hF2_in m c 11 rfl (by decide)
  | ⟨12, _⟩ => hF2_in m c 12 rfl (by decide)
  | ⟨13, _⟩ => (outs_v47 m c).symm.trans (Function.update_self (Proc.devRef .tc main_v47) (outs m 14 main_v47 c) (Gen.V13 m (outs m) c)).symm

theorem hrest2 (c : Dev nD) : ∀ b, b ∉ Finset.univ.image (Pipeline.arrRef spec2) → U14 m c b = U13 m c b :=
  fun b hb => Gen.V14_of m (outs m) c b fun hmem =>
    hb (Finset.mem_image.mpr ⟨13, Finset.mem_univ _, (List.mem_singleton.mp hmem).symm⟩)

/-! ## The regions as segments -/

set_option backward.isDefEq.respectTransparency.types false in
/-- Region 0 over the state between items: entered from every unscoped buffer at the contents before it, left at those
    contents updated at its output array. Its arrays are split out of the unscoped buffers and put back at the exit
    contents; the generator register goes into the region's invariant and comes out; nothing is owed; the kernel has
    no semaphore of its own. -/
def reg0 (hb : ∀ V c, BodyObligation (R0.dat (F := F) V c) (defs₀ (F := F)) Variants.none () Set.univ) :
    RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb (fun c b => Gen.V6 m c b) c).loose
  hwaits := Pipeline.hwaits_of_owed_zero _ _ _ _ L lv 0 fun _ _ => rfl
  pre c := iprop(StableHlo.held (c : Thread nD τ) (Pipeline.ucRefs τ sig) (Gen.V6 m c) ∗ E 0 c)
  post c := iprop(StableHlo.held (c : Thread nD τ) (Pipeline.ucRefs τ sig) (Gen.V7 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (U6 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U6 m c) fun w => R0.A_eq (fun c b => Gen.V6 m c b) c w
    rw [Pipeline.unscopedBufs_held c (Gen.V6 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U6 m c) (U7 m c) ((pdats m 0 c).arrAt · cfg0.N) (hF0 m c) (hrest0 m c)
    rw [Pipeline.unscopedBufs_held c (Gen.V7 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the state between items: entered from every unscoped buffer at the contents before it, left at those
    contents updated at its output array. Its arrays are split out of the unscoped buffers and put back at the exit
    contents; the generator register goes into the region's invariant and comes out; nothing is owed; the kernel has
    no semaphore of its own. -/
def reg1 (hb : ∀ V c, BodyObligation (R1.dat (F := F) V c) (defs₀ (F := F)) Variants.none () Set.univ) :
    RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb (fun c b => Gen.V11 m (outs m) c b) c).loose
  hwaits := Pipeline.hwaits_of_owed_zero _ _ _ _ L lv 1 fun _ _ => rfl
  pre c := iprop(StableHlo.held (c : Thread nD τ) (Pipeline.ucRefs τ sig) (Gen.V11 m (outs m) c) ∗ E 1 c)
  post c := iprop(StableHlo.held (c : Thread nD τ) (Pipeline.ucRefs τ sig) (Gen.V12 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (U11 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U11 m c) fun w => R1.A_eq (fun c b => Gen.V11 m (outs m) c b) c w
    rw [Pipeline.unscopedBufs_held c (Gen.V11 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U11 m c) (U12 m c) ((pdats m 1 c).arrAt · cfg1.N) (hF1 m c) (hrest1 m c)
    rw [Pipeline.unscopedBufs_held c (Gen.V12 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the state between items: entered from every unscoped buffer at the contents before it, left at those
    contents updated at its output array. Its arrays are split out of the unscoped buffers and put back at the exit
    contents; the generator register goes into the region's invariant and comes out; nothing is owed; the kernel has
    no semaphore of its own. -/
def reg2 (hb : ∀ V c, BodyObligation (R2.dat (F := F) V c) (defs₀ (F := F)) Variants.none () Set.univ) :
    RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb (fun c b => Gen.V13 m (outs m) c b) c).loose
  hwaits := Pipeline.hwaits_of_owed_zero _ _ _ _ L lv 2 fun _ _ => rfl
  pre c := iprop(StableHlo.held (c : Thread nD τ) (Pipeline.ucRefs τ sig) (Gen.V13 m (outs m) c) ∗ E 2 c)
  post c := iprop(StableHlo.held (c : Thread nD τ) (Pipeline.ucRefs τ sig) (Gen.V14 m (outs m) c) ∗ E 3 c)
  X c := iprop(∃ r, prngReg c r)
  Y c := iprop(∃ r, prngReg c r)
  Z c := Pipeline.unscopedRest (Ix := Unit) (Name := ℕ) (U := UR sig nD τ) (Lvl := ℕ) spec2 c (U13 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (U13 m c) fun w => R2.A_eq (fun c b => Gen.V13 m (outs m) c b) c w
    rw [Pipeline.unscopedBufs_held c (Gen.V13 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (U13 m c) (U14 m c) ((pdats m 2 c).arrAt · cfg2.N) (hF2 m c) (hrest2 m c)
    rw [Pipeline.unscopedBufs_held c (Gen.V14 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end

/-! ## The run -/

set_option backward.isDefEq.respectTransparency.types false in
/-- From any memory with every semaphore counter at zero, given each region's body obligation at every entry contents:
    every weakly fair execution of @main terminates, and every final memory holds in the result buffer what the third
    region's write-backs leave, and in each argument's buffer what it held at launch. -/
theorem run (hb0 : ∀ V c, BodyObligation (R0.dat (F := F) V c) (defs₀ (F := F)) Variants.none () Set.univ)
    (hb1 : ∀ V c, BodyObligation (R1.dat (F := F) V c) (defs₀ (F := F)) Variants.none () Set.univ)
    (hb2 : ∀ V c, BodyObligation (R2.dat (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v47) = outs m 14 main_v47 c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)) := by
  refine Pipeline.θ_run_regions_kit_dev (pcfgs (F := F)) Gen.adm (pdats m) () cellOf_inj emb₁ defs₀ 𝒱₀ L lv m ρ main
    (Gen.segs m (outs m) 𝒱₀ L lv E () (pdats m) (reg0 m hb0) (reg1 m hb1) (reg2 m hb2))
    (fun c Q => by
      rewrite [main_chain c, Seg.run_eq_chain,
        show (Gen.segs m (outs m) 𝒱₀ L lv E () (pdats m) (reg0 m hb0) (reg1 m hb1) (reg2 m hb2) c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          Prog.lift (.customCall (Pipeline.entry 2) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V14 m (outs m) c))
    (hch := fun c => ⟨.rfl, .rfl, .rfl, .rfl, .rfl, .rfl, .rfl, .rfl, .rfl, .rfl, .rfl, .rfl, .rfl, .rfl,
      sep_mono .rfl (by iintro ⟨-, H⟩; iexact H)⟩)
    (hinit := ?_)
    (QY := fun c s => s.mem ((c.tc : Thread nD τ).loc main_v47) = outs m 14 main_v47 c
        ∧ s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)
        ∧ s.mem ((c.tc : Thread nD τ).loc main_arg5) = m ((c.tc : Thread nD τ).loc main_arg5)
        ∧ s.mem ((c.tc : Thread nD τ).loc main_arg6) = m ((c.tc : Thread nD τ).loc main_arg6)
        ∧ s.mem ((c.tc : Thread nD τ).loc main_arg7) = m ((c.tc : Thread nD τ).loc main_arg7)
        ∧ s.mem ((c.tc : Thread nD τ).loc main_arg8) = m ((c.tc : Thread nD τ).loc main_arg8)
        ∧ s.mem ((c.tc : Thread nD τ).loc main_arg9) = m ((c.tc : Thread nD τ).loc main_arg9)
        ∧ s.mem ((c.tc : Thread nD τ).loc main_arg10) = m ((c.tc : Thread nD τ).loc main_arg10)
        ∧ s.mem ((c.tc : Thread nD τ).loc main_arg11) = m ((c.tc : Thread nD τ).loc main_arg11)
        ∧ s.mem ((c.tc : Thread nD τ).loc main_arg12) = m ((c.tc : Thread nD τ).loc main_arg12)
        ∧ s.mem ((c.tc : Thread nD τ).loc main_arg13) = m ((c.tc : Thread nD τ).loc main_arg13)
        ∧ s.mem ((c.tc : Thread nD τ).loc main_arg14) = m ((c.tc : Thread nD τ).loc main_arg14)
        ∧ s.mem ((c.tc : Thread nD τ).loc main_arg15) = m ((c.tc : Thread nD τ).loc main_arg15)
        ∧ s.mem ((c.tc : Thread nD τ).loc main_arg16) = m ((c.tc : Thread nD τ).loc main_arg16))
    (hfin := fun c s' => ?_) (hQ := fun _ h => h)
  · -- the launch: every unscoped buffer at its launch contents, the generator register, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result's buffer and each argument's read off the last contents
    unfold StableHlo.held
    iintro ⟨Hh, HSI⟩
    ihave Hr := (pointsTo_read_all (Pipeline.ucRefs τ sig) (fun b => ((c : Thread nD τ).1, b)) (Gen.V14 m (outs m) c) s') $$ [Hh HSI]
    · isplitl [Hh] <;> iassumption
    icases Hr with ⟨%h, HSI⟩
    imodintro
    isplitr
    · ipureintro
      exact ⟨(h (Proc.devRef .tc main_v47) (Finset.mem_filter.mpr ⟨StableHlo.devRef_mem_tcRefs main_v47, by decide⟩)).trans
          (Function.update_self (Proc.devRef .tc main_v47) (outs m 14 main_v47 c) (Gen.V13 m (outs m) c)),
        (h (Proc.devRef .tc main_arg0) (Finset.mem_filter.mpr ⟨StableHlo.devRef_mem_tcRefs main_arg0, by decide⟩)).trans (Gen.V14_main_arg0 m (outs m) c),
        (h (Proc.devRef .tc main_arg1) (Finset.mem_filter.mpr ⟨StableHlo.devRef_mem_tcRefs main_arg1, by decide⟩)).trans (Gen.V14_main_arg1 m (outs m) c),
        (h (Proc.devRef .tc main_arg2) (Finset.mem_filter.mpr ⟨StableHlo.devRef_mem_tcRefs main_arg2, by decide⟩)).trans (Gen.V14_main_arg2 m (outs m) c),
        (h (Proc.devRef .tc main_arg3) (Finset.mem_filter.mpr ⟨StableHlo.devRef_mem_tcRefs main_arg3, by decide⟩)).trans (Gen.V14_main_arg3 m (outs m) c),
        (h (Proc.devRef .tc main_arg4) (Finset.mem_filter.mpr ⟨StableHlo.devRef_mem_tcRefs main_arg4, by decide⟩)).trans (Gen.V14_main_arg4 m (outs m) c),
        (h (Proc.devRef .tc main_arg5) (Finset.mem_filter.mpr ⟨StableHlo.devRef_mem_tcRefs main_arg5, by decide⟩)).trans (Gen.V14_main_arg5 m (outs m) c),
        (h (Proc.devRef .tc main_arg6) (Finset.mem_filter.mpr ⟨StableHlo.devRef_mem_tcRefs main_arg6, by decide⟩)).trans (Gen.V14_main_arg6 m (outs m) c),
        (h (Proc.devRef .tc main_arg7) (Finset.mem_filter.mpr ⟨StableHlo.devRef_mem_tcRefs main_arg7, by decide⟩)).trans (Gen.V14_main_arg7 m (outs m) c),
        (h (Proc.devRef .tc main_arg8) (Finset.mem_filter.mpr ⟨StableHlo.devRef_mem_tcRefs main_arg8, by decide⟩)).trans (Gen.V14_main_arg8 m (outs m) c),
        (h (Proc.devRef .tc main_arg9) (Finset.mem_filter.mpr ⟨StableHlo.devRef_mem_tcRefs main_arg9, by decide⟩)).trans (Gen.V14_main_arg9 m (outs m) c),
        (h (Proc.devRef .tc main_arg10) (Finset.mem_filter.mpr ⟨StableHlo.devRef_mem_tcRefs main_arg10, by decide⟩)).trans (Gen.V14_main_arg10 m (outs m) c),
        (h (Proc.devRef .tc main_arg11) (Finset.mem_filter.mpr ⟨StableHlo.devRef_mem_tcRefs main_arg11, by decide⟩)).trans (Gen.V14_main_arg11 m (outs m) c),
        (h (Proc.devRef .tc main_arg12) (Finset.mem_filter.mpr ⟨StableHlo.devRef_mem_tcRefs main_arg12, by decide⟩)).trans (Gen.V14_main_arg12 m (outs m) c),
        (h (Proc.devRef .tc main_arg13) (Finset.mem_filter.mpr ⟨StableHlo.devRef_mem_tcRefs main_arg13, by decide⟩)).trans (Gen.V14_main_arg13 m (outs m) c),
        (h (Proc.devRef .tc main_arg14) (Finset.mem_filter.mpr ⟨StableHlo.devRef_mem_tcRefs main_arg14, by decide⟩)).trans (Gen.V14_main_arg14 m (outs m) c),
        (h (Proc.devRef .tc main_arg15) (Finset.mem_filter.mpr ⟨StableHlo.devRef_mem_tcRefs main_arg15, by decide⟩)).trans (Gen.V14_main_arg15 m (outs m) c),
        (h (Proc.devRef .tc main_arg16) (Finset.mem_filter.mpr ⟨StableHlo.devRef_mem_tcRefs main_arg16, by decide⟩)).trans (Gen.V14_main_arg16 m (outs m) c)⟩
    · iexact HSI

end Cert.Kernel.Run

end
-- ==== Proof.KI.R0Data.lean ====
/-
  Region 0: the proof data of the edge pass. Each of the two cores walks 98 tiles of 4096 padded edges; the output block of a core's row is carried from tile to tile: the first tile of a row starts it from the zero block, every later tile adds its partial product to what the tile before left, and the block is written back after the row's last tile.
-/
import proofs.«414252_j62689342653099_3_alg».proof.Proof.Gen.KernelIdeal.Launch
import proofs.«414252_j62689342653099_3_alg».proof.Proof.Gen.KernelIdeal.Skeleton
import proofs.«414252_j62689342653099_3_alg».proof.Proof.Gen.KernelIdeal.Points
import Idealize.ShloMosaic.Lib.Pipeline.FrameBody
import Idealize.ShloMosaic.Lib.Pipeline.Frame

noncomputable section

namespace Cert.KernelIdeal.R0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output block's staging buffer holds after the body at position `n`: the tile's update of the zero block
    at the first tile of a row (`n % 98 = 0`), of what position `n - 1` left at every other. -/
def outsAt (c : Dev nD) : (n : ℕ) → n < cfg0.N → Vec F S1x256x64 .f32
  | 0, hn => k0_pay2 (iblk V c 2 ⟨0, hn⟩) (iblk V c 1 ⟨0, hn⟩) (iblk V c 0 ⟨0, hn⟩) k0_pay1
  | n + 1, hn =>
    if (n + 1) % 98 = 0 then
      k0_pay2 (iblk V c 2 ⟨n + 1, hn⟩) (iblk V c 1 ⟨n + 1, hn⟩) (iblk V c 0 ⟨n + 1, hn⟩) k0_pay1
    else
      k0_pay2 (iblk V c 2 ⟨n + 1, hn⟩) (iblk V c 1 ⟨n + 1, hn⟩) (iblk V c 0 ⟨n + 1, hn⟩) (outsAt c n (Nat.lt_of_succ_lt hn))

theorem outsAt_first (c : Dev nD) (t : Fin cfg0.N) (h : t.val % 98 = 0) :
    outsAt V c t.val t.isLt = k0_pay2 (iblk V c 2 t) (iblk V c 1 t) (iblk V c 0 t) k0_pay1 := by
  obtain ⟨n, hn⟩ := t
  cases n with
  | zero => rfl
  | succ n => exact (if_pos h).trans rfl

theorem outsAt_next (c : Dev nD) (t : Fin cfg0.N) (h : ¬ t.val % 98 = 0) :
    outsAt V c t.val t.isLt = k0_pay2 (iblk V c 2 t) (iblk V c 1 t) (iblk V c 0 t) (outsAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The proof data on core `c`: the arrays as the region finds them; after the body each input's buffer at its block
    and the output's at `outsAt`; the invariant is the scoped rest and the generator register; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outsAt V c t.val t.isLt
  Φ _ := Pipeline.ΦA spec0 c
  q _ := fullShare
  owed _ := 0

theorem A_eq (c : Dev nD) (w : Fin cfg0.W) : (dat V c).A w = V c (Pipeline.arrRef spec0 w) := by dsimp only [dat]
theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_in2 (c : Dev nD) (t : Fin cfg0.N) : (dat V c).after 2 t = iblk V c 2 t := by dsimp only [dat]
theorem after_out (c : Dev nD) (t : Fin cfg0.N) : (dat V c).after 3 t = outsAt V c t.val t.isLt := by dsimp only [dat]

end Cert.KernelIdeal.R0

end
-- ==== Proof.KI.R0.lean ====
/-
  Region 0, the body: at every grid point the edge pass's body, run on its staging buffers, leaves the three input
  blocks in place and the carried output block updated by the tile's weighted one-hot product; at the first tile of a
  core's row the block is first reset to zero and the reset is what the update reads back.
-/
import proofs.«414252_j62689342653099_3_alg».proof.Proof.KI.R0Data
import proofs.«414252_j62689342653099_3_alg».proof.Proof.Gen.KernelIdeal.Launch
import proofs.«414252_j62689342653099_3_alg».proof.Proof.Gen.KernelIdeal.Skeleton
import proofs.«414252_j62689342653099_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's conditional -/

/-- The condition of the body's conditional, as the body computes it from the grid coordinates. -/
abbrev cond0 (i : grid0.Coords) : Prop :=
  (Scalar.cmpi .ne (Scalar.extui (Scalar.cmpi .eq (BitVec.ofNat 32 (i 1).val) 0#32)) 0#32) = 1#1

/-- It holds exactly at the first tile of a core's row: decided over the grid. -/
theorem hcond0 : ∀ t : Fin cfg0.N, cond0 (grid0.coords t) ↔ t.val % 98 = 0 :=
  (by decide +kernel : ∀ t : Fin grid0.N, cond0 (grid0.coords t) ↔ t.val % 98 = 0)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's triple, one per case of the conditional -/

set_option maxHeartbeats 1000000 in
/-- At the first tile of a row: on whole staging memrefs, the inputs' at contents `x0`, `x1`, `x2` and the output's at
    anything, the body leaves the inputs as they were and the output at the tile's update of the zero block — the
    reset's store is what the later load of the output buffer reads. -/
theorem run_first (c : Dev nD) (E : Set ℕ) (i : grid0.Coords)
    (arg2 : Memref sig .tc .vmem S4096x64 .f32) (harg2 : arg2.IsWhole) (arg3 : Memref sig .tc .vmem S4096 .f32) (harg3 : arg3.IsWhole)
    (arg4 : Memref sig .tc .vmem S4096 .i32) (harg4 : arg4.IsWhole) (arg5 : Memref sig .tc .vmem S1x256x64 .f32) (harg5 : arg5.IsWhole)
    (hc : cond0 i)
    (x0 : Vec F S4096x64 .f32) (x1 : Vec F S4096 .f32) (x2 : Vec F S4096 .i32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x2 x1 x0 k0_pay1)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero hz3 inb_S1x256x64_S1x256x64_0_0_0 y⟩)]
  sl_unfold_words
  rw [View.canon_cons_unit_zero (S := S1x256x64) hz3, View.readCov_unit_zero (S := S1x256x64) _ hz3]
  simp only [View.readAt_eq_ld, View.ld_unit_zero (S := S4096) hz1, View.ld_unit_zero (S := S4096x64) hz2]

set_option maxHeartbeats 1000000 in
/-- At every later tile of a row: the output's staging memref at contents `xo`, the body leaves the inputs as they
    were and the output at the tile's update of `xo`. -/
theorem run_next (c : Dev nD) (E : Set ℕ) (i : grid0.Coords)
    (arg2 : Memref sig .tc .vmem S4096x64 .f32) (harg2 : arg2.IsWhole) (arg3 : Memref sig .tc .vmem S4096 .f32) (harg3 : arg3.IsWhole)
    (arg4 : Memref sig .tc .vmem S4096 .i32) (harg4 : arg4.IsWhole) (arg5 : Memref sig .tc .vmem S1x256x64 .f32) (harg5 : arg5.IsWhole)
    (hc : ¬ cond0 i)
    (x0 : Vec F S4096x64 .f32) (x1 : Vec F S4096 .f32) (x2 : Vec F S4096 .i32) (xo : Vec F S1x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x2 x1 x0 xo)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero hz3 inb_S1x256x64_S1x256x64_0_0_0 y⟩)]
  rw [View.canon_unit_zero (S := S1x256x64) hz3]
  simp only [View.readAt_eq_ld, View.ld_unit_zero (S := S4096) hz1, View.ld_unit_zero (S := S4096x64) hz2,
    View.ld_unit_zero (S := S1x256x64) hz3]

/-! ## What the body finds in each staging buffer -/

-- the TensorCore's buffer contents when the region is entered
variable (V : (c : Dev nD) → (b : Ref sig .tc) → Buf (Elt F) ((c : Thread nD τ).loc b))

/-- Each input's current staging buffer holds its block at every point, fetched there or not. -/
theorem before_in0 (c : Dev nD) (t : Fin cfg0.N) (d) : (dat V c).before 0 t d = iblk V c 0 t :=
  ((dat V c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dat V c).before 1 t d = iblk V c 1 t :=
  ((dat V c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dat V c).before 2 t d = iblk V c 2 t :=
  ((dat V c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)

/-- At a tile that is not the first of its row the output's current staging buffer holds what the body left at the
    point before: the point is not the first, and the buffer was not written back between (that happens only after
    the last tile of a row). -/
theorem before_out_next (c : Dev nD) (t : Fin cfg0.N) (h : ¬ t.val % 98 = 0) (d) :
    (dat V c).before 3 t d = outsAt V c (t.val - 1) (Nat.lt_of_le_of_lt (Nat.sub_le _ _) t.isLt) := by
  have hN : t.val < 196 := lt_of_lt_of_eq t.isLt (show cfg0.N = 196 from N_0)
  rw [Dat.before_out_kept _ 3 rfl t (by omega)
    (Bool.eq_false_iff.mpr fun h' => by have := (flush0_3 _).mp h'; dsimp only at this; omega)
    (fun _ => rfl) (fun _ _ => rfl)]
  dsimp only [dat]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

set_option maxHeartbeats 800000 in
/-- The body at any point: the inputs' memrefs hold their blocks; the closed form of the condition says which case
    the point is in, and at a later tile of a row the output's memref holds what the point before left; so the case's
    triple applies; the invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2]
  rw [show (dat V c).Φ t.succ = (dat V c).Φ t.castSucc from rfl,
    show (dat V c).owesAt () t.succ = (dat V c).owesAt () t.castSucc from rfl,
    after_in0, after_in1, after_in2, after_out]
  by_cases h0 : t.val % 98 = 0
  · rw [outsAt_first V c t h0]
    iintro ⟨HΦ, Ho, ⟨%d0, H0⟩, ⟨%d1, H1⟩, ⟨%d2, H2⟩, ⟨%d3, H3⟩⟩
    iapply (run_first c Set.univ (grid0.coords t) _ _ _ _ _ _ _ _ ((hcond0 t).mpr h0) (iblk V c 0 t) (iblk V c 1 t) (iblk V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt_next V c t h0]
    simp only [before_out_next V c t h0]
    iintro ⟨HΦ, Ho, ⟨%d0, H0⟩, ⟨%d1, H1⟩, ⟨%d2, H2⟩, ⟨%d3, H3⟩⟩
    iapply (run_next c Set.univ (grid0.coords t) _ _ _ _ _ _ _ _ (fun h => h0 ((hcond0 t).mp h)) (iblk V c 0 t) (iblk V c 1 t) (iblk V c 2 t)
      (outsAt V c (t.val - 1) (Nat.lt_of_le_of_lt (Nat.sub_le _ _) t.isLt)) _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KI.R1Data.lean ====
/-
  Region 1: the proof data of the node pass. 49 tiles of 1024 padded nodes; the one output block is carried from tile to tile: the first tile starts it from the zero block, every later tile adds its partial product to what the tile before left, and the block is written back after the last tile.
-/
import proofs.«414252_j62689342653099_3_alg».proof.Proof.Gen.KernelIdeal.Launch
import proofs.«414252_j62689342653099_3_alg».proof.Proof.Gen.KernelIdeal.Skeleton
import proofs.«414252_j62689342653099_3_alg».proof.Proof.Gen.KernelIdeal.Points
import Idealize.ShloMosaic.Lib.Pipeline.FrameBody
import Idealize.ShloMosaic.Lib.Pipeline.Frame

noncomputable section

namespace Cert.KernelIdeal.R1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output block's staging buffer holds after the body at position `n`: the tile's update of the zero block
    at the first tile, of what position `n - 1` left at every other. -/
def outsAt (c : Dev nD) : (n : ℕ) → n < cfg1.N → Vec F S256x64 .f32
  | 0, hn => k1_pay2 (iblk V c 1 ⟨0, hn⟩) (iblk V c 0 ⟨0, hn⟩) k1_pay1
  | n + 1, hn => k1_pay2 (iblk V c 1 ⟨n + 1, hn⟩) (iblk V c 0 ⟨n + 1, hn⟩) (outsAt c n (Nat.lt_of_succ_lt hn))

theorem outsAt_first (c : Dev nD) (t : Fin cfg1.N) (h : t.val = 0) :
    outsAt V c t.val t.isLt = k1_pay2 (iblk V c 1 t) (iblk V c 0 t) k1_pay1 := by
  obtain ⟨n, hn⟩ := t
  cases n with
  | zero => rfl
  | succ n => exact absurd h (Nat.succ_ne_zero n)

theorem outsAt_next (c : Dev nD) (t : Fin cfg1.N) (h : ¬ t.val = 0) :
    outsAt V c t.val t.isLt = k1_pay2 (iblk V c 1 t) (iblk V c 0 t) (outsAt V c (t.val - 1) (Nat.lt_of_le_of_lt (Nat.sub_le _ _) t.isLt)) := by
  obtain ⟨n, hn⟩ := t
  cases n with
  | zero => exact absurd rfl h
  | succ n => rfl

/-- The proof data on core `c`: the arrays as the region finds them; after the body each input's buffer at its block
    and the output's at `outsAt`; the invariant is the scoped rest and the generator register; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outsAt V c t.val t.isLt
  Φ _ := Pipeline.ΦA spec1 c
  q _ := fullShare
  owed _ := 0

theorem A_eq (c : Dev nD) (w : Fin cfg1.W) : (dat V c).A w = V c (Pipeline.arrRef spec1 w) := by dsimp only [dat]
theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_out (c : Dev nD) (t : Fin cfg1.N) : (dat V c).after 2 t = outsAt V c t.val t.isLt := by dsimp only [dat]

end Cert.KernelIdeal.R1

end
-- ==== Proof.KI.R1.lean ====
/-
  Region 1, the node pass: the body obligation. The body runs on whole staging buffers in two cases — at the first of
  the 49 tiles it zeroes the output block, reads the zero block back and stores it plus the tile's product; at every
  later tile it reads what the tile before left and stores that plus the tile's product — and at every tile the input
  buffers hold the tile's blocks and the output buffer, never written back between tiles, what the tile before left.
-/
import proofs.«414252_j62689342653099_3_alg».proof.Proof.KI.R1Data
import proofs.«414252_j62689342653099_3_alg».proof.Proof.Gen.KernelIdeal.Launch
import proofs.«414252_j62689342653099_3_alg».proof.Proof.Gen.KernelIdeal.Skeleton
import proofs.«414252_j62689342653099_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's one conditional -/

/-- The condition of the body's conditional, as the scalar chain over the grid coordinate: the tile is the first. -/
abbrev isFirst (i : grid1.Coords) : Prop :=
  (Scalar.cmpi .ne (Scalar.extui (Scalar.cmpi .eq (BitVec.ofNat 32 (i 0).val) 0#32)) 0#32) = 1#1

/-- It holds at the first of the 49 tiles and at no other. -/
theorem isFirst_iff : ∀ t : Fin cfg1.N, isFirst (grid1.coords t) ↔ t.val = 0 :=
  (by decide +kernel : ∀ t : Fin grid1.N, isFirst (grid1.coords t) ↔ t.val = 0)

theorem zero1 : (![0] : Fin S1024.rank → ℕ) = fun _ => 0 := funext fun a => by fin_cases a; rfl
theorem zero2 : (![0, 0] : Fin S256x64.rank → ℕ) = fun _ => 0 := funext fun a => by fin_cases a <;> rfl
theorem zero2' : (![0, 0] : Fin S1024x64.rank → ℕ) = fun _ => 0 := funext fun a => by fin_cases a <;> rfl

/-! ## The body on whole staging buffers, in its two cases -/

set_option maxHeartbeats 1000000 in
/-- At the first tile the body zeroes the output buffer, reads the zero block back, and stores the zero block plus
    this tile's product: the buffer ends at `k1_pay2 x1 x0 k1_pay1`, whatever it held. -/
theorem run_first (c : Dev nD) (E : Set ℕ) (i : grid1.Coords)
    (arg1 : Memref sig .tc .vmem S1024x64 .f32) (harg1 : arg1.IsWhole)
    (arg2 : Memref sig .tc .vmem S1024 .i32) (harg2 : arg2.IsWhole)
    (arg3 : Memref sig .tc .vmem S256x64 .f32) (harg3 : arg3.IsWhole) (hc : isFirst i)
    (x0 : Vec F S1024x64 .f32) (x1 : Vec F S1024 .i32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay2 x1 x0 k1_pay1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (fun y => ⟨_, List.mem_cons_self, View.mem_set_unit_zero zero2 inb_S256x64_S256x64_0_0 y⟩),
    View.canon_cons_unit_zero (S := S256x64) zero2]
  sl_unfold_words
  simp only [View.readAt_eq_ld, harg1.read_unread, harg2.read_unread, View.ld_unit_zero (S := S1024) zero1,
    View.ld_unit_zero (S := S1024x64) zero2', View.readCov_unit_zero (S := S256x64) _ zero2]

set_option maxHeartbeats 1000000 in
/-- At every later tile the body reads the output buffer and stores what it read plus this tile's product: the
    buffer, holding `xo`, ends at `k1_pay2 x1 x0 xo`. -/
theorem run_next (c : Dev nD) (E : Set ℕ) (i : grid1.Coords)
    (arg1 : Memref sig .tc .vmem S1024x64 .f32) (harg1 : arg1.IsWhole)
    (arg2 : Memref sig .tc .vmem S1024 .i32) (harg2 : arg2.IsWhole)
    (arg3 : Memref sig .tc .vmem S256x64 .f32) (harg3 : arg3.IsWhole) (hc : ¬ isFirst i)
    (x0 : Vec F S1024x64 .f32) (x1 : Vec F S1024 .i32) (xo : Vec F S256x64 .f32) (K : PUnit → sProp 𝕄) :
    iprop(owns (c : Thread nD τ) arg1 fullShare x0 ∗ owns (c : Thread nD τ) arg2 fullShare x1
        ∗ owns (c : Thread nD τ) arg3 fullShare xo
        ∗ (iprop(owns (c : Thread nD τ) arg1 fullShare x0 ∗ owns (c : Thread nD τ) arg2 fullShare x1
            ∗ owns (c : Thread nD τ) arg3 fullShare (k1_pay2 x1 x0 xo)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (fun y => ⟨_, List.mem_cons_self, View.mem_set_unit_zero zero2 inb_S256x64_S256x64_0_0 y⟩),
    View.canon_cons_unit_zero (S := S256x64) zero2]
  sl_unfold_words
  simp only [View.readAt_eq_ld, harg1.read_unread, harg2.read_unread, harg3.read_unread, View.ld_unit_zero (S := S1024) zero1,
    View.ld_unit_zero (S := S1024x64) zero2', View.ld_unit_zero (S := S256x64) zero2]

/-! ## What the staging buffers hold when the body is called -/

-- the TensorCore's buffer contents when the region is entered
variable (V : (c : Dev nD) → (b : Ref sig .tc) → Buf (Elt F) ((c : Thread nD τ).loc b))

/-- The node rows' buffer holds the tile's 1024 rows at every tile (the window is fetched at every tile, uncut). -/
theorem before_in0 (c : Dev nD) (t : Fin cfg1.N) (d) : (dat V c).before 0 t d = iblk V c 0 t :=
  ((dat V c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)

/-- The graph ids' buffer holds the tile's 1024 ids at every tile. -/
theorem before_in1 (c : Dev nD) (t : Fin cfg1.N) (d) : (dat V c).before 1 t d = iblk V c 1 t :=
  ((dat V c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)

/-- At a tile after the first the output buffer holds what the tile before left: the block is written back after the
    last tile only, so never between two tiles. -/
theorem before_out (c : Dev nD) (t : Fin cfg1.N) (h : ¬ t.val = 0) (d) :
    (dat V c).before 2 t d = outsAt V c (t.val - 1) (Nat.lt_of_le_of_lt (Nat.sub_le _ _) t.isLt) := by
  have hN : t.val < 49 := lt_of_lt_of_eq t.isLt (show cfg1.N = 49 from N_1)
  rw [Dat.before_out_kept _ 2 rfl t h (Bool.eq_false_iff.mpr fun hf => by have := (flush1_2 _).mp hf; dsimp only at this; omega)
    (fun _ => rfl) (fun _ _ => rfl)]
  rw [after_out]

/-! ## The body obligation -/

/-- What the body is called with at tile `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

set_option maxHeartbeats 800000 in
/-- The body at any tile: the inputs' buffers hold the tile's blocks; the first tile is the zeroing case, whatever
    the output buffer holds; a later tile is the adding case over what the tile before left; the invariant passes
    through unread and the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1]
  rw [show (dat V c).Φ t.succ = (dat V c).Φ t.castSucc from rfl,
    show (dat V c).owesAt () t.succ = (dat V c).owesAt () t.castSucc from rfl,
    after_in0, after_in1, after_out]
  by_cases h0 : t.val = 0
  · rw [outsAt_first V c t h0]
    iintro ⟨HΦ, Ho, ⟨%d0, H0⟩, ⟨%d1, H1⟩, ⟨%d2, H2⟩⟩
    iapply (run_first c Set.univ (grid1.coords t) _ _ _ _ _ _ ((isFirst_iff t).mpr h0) (iblk V c 0 t) (iblk V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt_next V c t h0]
    simp only [before_out V c t h0]
    iintro ⟨HΦ, Ho, ⟨%d0, H0⟩, ⟨%d1, H1⟩, ⟨%d2, H2⟩⟩
    iapply (run_next c Set.univ (grid1.coords t) _ _ _ _ _ _ (fun h => h0 ((isFirst_iff t).mp h)) (iblk V c 0 t) (iblk V c 1 t)
      (outsAt V c (t.val - 1) (Nat.lt_of_le_of_lt (Nat.sub_le _ _) t.isLt)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every tile. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.KI.R2Data.lean ====
/-
  Region 2: the proof data of the three layers. One grid point; the thirteen input windows are whole arrays (the concatenated table, then per layer the weight matrix, the bias, the scale and the shift), the output block is the whole result.
-/
import proofs.«414252_j62689342653099_3_alg».proof.Proof.Gen.KernelIdeal.Launch
import proofs.«414252_j62689342653099_3_alg».proof.Proof.Gen.KernelIdeal.Skeleton
import proofs.«414252_j62689342653099_3_alg».proof.Proof.Gen.KernelIdeal.Points
import Idealize.ShloMosaic.Lib.Pipeline.FrameBody
import Idealize.ShloMosaic.Lib.Pipeline.Frame

noncomputable section

namespace Cert.KernelIdeal.R2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body stores into the output block, from the thirteen input blocks: the first layer and the second
    layer's product (`k2_pay2`), the second layer and the third layer's affine map and positive part (`k2_pay3`), its
    column sums (`k2_pay4`), and the third layer's normalisation (`k2_pay1`). -/
def out (x0 : Vec F S256x192 .f32) (x1 : Vec F S64x192 .f32) (x2 x3 x4 : Vec F S64 .f32) (x5 : Vec F S64x64 .f32)
    (x6 x7 x8 : Vec F S64 .f32) (x9 : Vec F S64x64 .f32) (x10 x11 x12 : Vec F S64 .f32) : Vec F S256x64 .f32 :=
  k2_pay1 (k2_pay3 (k2_pay2 x0 x1 x2 x3 x4 x5) x6 x7 x8 x9 x10) (k2_pay4 (k2_pay2 x0 x1 x2 x3 x4 x5) x6 x7 x8 x9 x10)
    (Scalar.ofBits .f32 0x43800000#32) x11 x12

/-- The proof data on core `c`: the arrays as the region finds them; after the body each input's buffer at its block
    and the output's at `out` of the input blocks; the invariant is the scoped rest and the generator register; nothing
    owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => out (iblk V c 0 t) (iblk V c 1 t) (iblk V c 2 t) (iblk V c 3 t) (iblk V c 4 t) (iblk V c 5 t) (iblk V c 6 t)
        (iblk V c 7 t) (iblk V c 8 t) (iblk V c 9 t) (iblk V c 10 t) (iblk V c 11 t) (iblk V c 12 t)
  Φ _ := Pipeline.ΦA spec2 c
  q _ := fullShare
  owed _ := 0

theorem A_eq (c : Dev nD) (w : Fin cfg2.W) : (dat V c).A w = V c (Pipeline.arrRef spec2 w) := by dsimp only [dat]
theorem after_in0 (c : Dev nD) (t : Fin cfg2.N) : (dat V c).after 0 t = iblk V c 0 t := by dsimp only [dat]
theorem after_in1 (c : Dev nD) (t : Fin cfg2.N) : (dat V c).after 1 t = iblk V c 1 t := by dsimp only [dat]
theorem after_in2 (c : Dev nD) (t : Fin cfg2.N) : (dat V c).after 2 t = iblk V c 2 t := by dsimp only [dat]
theorem after_in3 (c : Dev nD) (t : Fin cfg2.N) : (dat V c).after 3 t = iblk V c 3 t := by dsimp only [dat]
theorem after_in4 (c : Dev nD) (t : Fin cfg2.N) : (dat V c).after 4 t = iblk V c 4 t := by dsimp only [dat]
theorem after_in5 (c : Dev nD) (t : Fin cfg2.N) : (dat V c).after 5 t = iblk V c 5 t := by dsimp only [dat]
theorem after_in6 (c : Dev nD) (t : Fin cfg2.N) : (dat V c).after 6 t = iblk V c 6 t := by dsimp only [dat]
theorem after_in7 (c : Dev nD) (t : Fin cfg2.N) : (dat V c).after 7 t = iblk V c 7 t := by dsimp only [dat]
theorem after_in8 (c : Dev nD) (t : Fin cfg2.N) : (dat V c).after 8 t = iblk V c 8 t := by dsimp only [dat]
theorem after_in9 (c : Dev nD) (t : Fin cfg2.N) : (dat V c).after 9 t = iblk V c 9 t := by dsimp only [dat]
theorem after_in10 (c : Dev nD) (t : Fin cfg2.N) : (dat V c).after 10 t = iblk V c 10 t := by dsimp only [dat]
theorem after_in11 (c : Dev nD) (t : Fin cfg2.N) : (dat V c).after 11 t = iblk V c 11 t := by dsimp only [dat]
theorem after_in12 (c : Dev nD) (t : Fin cfg2.N) : (dat V c).after 12 t = iblk V c 12 t := by dsimp only [dat]
theorem after_out (c : Dev nD) (t : Fin cfg2.N) : (dat V c).after 13 t = out (iblk V c 0 t) (iblk V c 1 t) (iblk V c 2 t) (iblk V c 3 t) (iblk V c 4 t) (iblk V c 5 t) (iblk V c 6 t)
    (iblk V c 7 t) (iblk V c 8 t) (iblk V c 9 t) (iblk V c 10 t) (iblk V c 11 t) (iblk V c 12 t) := by dsimp only [dat]

end Cert.KernelIdeal.R2

end
-- ==== Proof.KI.R2.lean ====
/-
  Region 2 (the three layers, one grid point) at the contents V the TensorCore's buffers hold when the
  region is entered: the body's triple and the pipeline's body obligation for the proof data of R2Data.

  The body loads each of its thirteen input buffers whole, computes the three layers (the payloads of
  the two printed parts and of the root), and stores the result over the whole output buffer; so the
  output buffer ends at the payload chain of the input contents, whatever it held, and every input
  buffer is left as found. Every window is fetched at the one point, so each input buffer is found
  at its window's block.
-/
import proofs.«414252_j62689342653099_3_alg».proof.Proof.KI.R2Data
import Idealize.ShloMosaic.Lib.Pipeline.Value
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses -/

/-- The zero offsets of a rank-1 access, as the printed rectangles spell them. -/
theorem zeros1 : (![0] : Fin 1 → ℕ) = fun _ => 0 := funext fun a => by fin_cases a; rfl
/-- The zero offsets of a rank-2 access. -/
theorem zeros2 : (![0, 0] : Fin 2 → ℕ) = fun _ => 0 := funext fun a => by fin_cases a <;> rfl

section Whole
variable {sg : RefSig} {κ : Kind} {sp : Space} {S : Shape} {e : EltTy}

/-- A load through the rectangle that is the whole shape reads what the view reads. -/
theorem load_whole (v : View sg κ sp S e) (f : v.ty.Contents (Elt F)) {off : Fin S.rank → ℕ}
    (h : off = fun _ => 0) (inb : ∀ a, off a + S.size a ≤ S.size a) :
    v.readAt (Elt F) (Rect.unit off S.size inb).toLoadRect f = v.read (Elt F) f :=
  (View.readAt_eq_ld v f (Rect.unit off S.size inb)).trans (View.ld_unit_zero h inb _)

/-- After one store through the rectangle that is the whole shape the view reads the payload, whatever was there. -/
theorem store_whole (v : View sg κ sp S e) (f : v.ty.Contents (Elt F)) {off : Fin S.rank → ℕ}
    (h : off = fun _ => 0) (inb : ∀ a, off a + S.size a ≤ S.size a) (p : S.Idx → Elt F e) :
    v.read (Elt F) (v.writes (Elt F) f [⟨Rect.unit off S.size inb, p⟩]) = p := by
  rw [View.read_writes_eq_canon v f _
    (fun y => ⟨_, List.mem_singleton_self _, View.mem_set_unit_zero h inb y⟩), View.canon_unit_zero h]

end Whole

/-! ## The body's triple -/

set_option maxHeartbeats 1000000 in
/-- The kernel function on fourteen whole memrefs, the first thirteen reading x0 … x12 and the last reading
    anything, runs to its return with the thirteen as they were and the last reading the payload chain of
    x0 … x12 (R2Data's out). -/
theorem sound_kernel (c : Dev nD) (E : Set ℕ) (i : grid2.Coords)
    (arg1 : Memref sig .tc .vmem S256x192 .f32) (harg1 : arg1.IsWhole)
    (arg2 : Memref sig .tc .vmem S64x192 .f32) (harg2 : arg2.IsWhole)
    (arg3 : Memref sig .tc .vmem S64 .f32) (harg3 : arg3.IsWhole)
    (arg4 : Memref sig .tc .vmem S64 .f32) (harg4 : arg4.IsWhole)
    (arg5 : Memref sig .tc .vmem S64 .f32) (harg5 : arg5.IsWhole)
    (arg6 : Memref sig .tc .vmem S64x64 .f32) (harg6 : arg6.IsWhole)
    (arg7 : Memref sig .tc .vmem S64 .f32) (harg7 : arg7.IsWhole)
    (arg8 : Memref sig .tc .vmem S64 .f32) (harg8 : arg8.IsWhole)
    (arg9 : Memref sig .tc .vmem S64 .f32) (harg9 : arg9.IsWhole)
    (arg10 : Memref sig .tc .vmem S64x64 .f32) (harg10 : arg10.IsWhole)
    (arg11 : Memref sig .tc .vmem S64 .f32) (harg11 : arg11.IsWhole)
    (arg12 : Memref sig .tc .vmem S64 .f32) (harg12 : arg12.IsWhole)
    (arg13 : Memref sig .tc .vmem S64 .f32) (harg13 : arg13.IsWhole)
    (arg14 : Memref sig .tc .vmem S256x64 .f32) (harg14 : arg14.IsWhole)
    (x0 : Vec F S256x192 .f32) (x1 : Vec F S64x192 .f32) (x2 x3 x4 : Vec F S64 .f32) (x5 : Vec F S64x64 .f32)
    (x6 x7 x8 : Vec F S64 .f32) (x9 : Vec F S64x64 .f32) (x10 x11 x12 : Vec F S64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ owns (c : Thread nD τ) arg13 fullShare x12 ∗ (∃ y, owns (c : Thread nD τ) arg14 fullShare y)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare x12
            ∗ owns (c : Thread nD τ) arg14 fullShare (out x0 x1 x2 x3 x4 x5 x6 x7 x8 x9 x10 x11 x12)) -∗ K ⟨⟩))
      ⊢ wp frame (wpE (defs₀ (F := F)) Variants.none c none) E
          (cc2_kernel i arg1 harg1 arg2 harg2 arg3 harg3 arg4 harg4 arg5 harg5 arg6 harg6 arg7 harg7 arg8 harg8
            arg9 harg9 arg10 harg10 arg11 harg11 arg12 harg12 arg13 harg13 arg14 harg14) K := by
  simp only [cc2_kernel_eq_skeleton]; unfold cc2_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%f9, %e9, H9⟩, ⟨%f10, %e10, H10⟩, ⟨%f11, %e11, H11⟩, ⟨%f12, %e12, H12⟩,
    ⟨%f13, %e13, H13⟩, ⟨%y, %f14, -, H14⟩, Hk⟩
  -- the two printed parts through their skeletons, then the root's two loads, the dead load and the store
  sl_exec_parts
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  isplitl [H8]; · iexists f8; isplitr; · ipureintro; exact e8
                  iexact H8
  isplitl [H9]; · iexists f9; isplitr; · ipureintro; exact e9
                  iexact H9
  isplitl [H10]; · iexists f10; isplitr; · ipureintro; exact e10
                   iexact H10
  isplitl [H11]; · iexists f11; isplitr; · ipureintro; exact e11
                   iexact H11
  isplitl [H12]; · iexists f12; isplitr; · ipureintro; exact e12
                   iexact H12
  isplitl [H13]; · iexists f13; isplitr; · ipureintro; exact e13
                   iexact H13
  iexists _; isplitr
  swap; · iexact H14
  ipureintro
  -- the one store covers the block: the view reads its payload; each load was of a whole buffer
  rw [store_whole _ _ zeros2]
  subst e1 e2 e3 e4 e5 e6 e7 e8 e9 e10 e11 e12 e13
  unfold out
  sl_unfold_run_names
  simp only [load_whole (S := S64) _ _ zeros1, load_whole (S := S256x192) _ _ zeros2,
    load_whole (S := S64x192) _ _ zeros2, load_whole (S := S64x64) _ _ zeros2]

/-! ## What each input buffer holds when the body runs -/

section AtV
variable (V : (c : Dev nD) → (b : Ref sig .tc) → Buf (Elt F) ((c : Thread nD τ).loc b))

/- Every input window is fetched at the point, its block uncut: the buffer holds the array's block. -/

theorem before_in0 (c : Dev nD) (t : Fin cfg2.N) (d) : (dat V c).before 0 t d = iblk V c 0 t := by
  rw [Dat.before_fetched (dat V c) 0 t (fetch2_0 t) d]; unfold Dat.fetched Dat.blockOf iblk; rw [A_eq]; rfl
theorem before_in1 (c : Dev nD) (t : Fin cfg2.N) (d) : (dat V c).before 1 t d = iblk V c 1 t := by
  rw [Dat.before_fetched (dat V c) 1 t (fetch2_1 t) d]; unfold Dat.fetched Dat.blockOf iblk; rw [A_eq]; rfl
theorem before_in2 (c : Dev nD) (t : Fin cfg2.N) (d) : (dat V c).before 2 t d = iblk V c 2 t := by
  rw [Dat.before_fetched (dat V c) 2 t (fetch2_2 t) d]; unfold Dat.fetched Dat.blockOf iblk; rw [A_eq]; rfl
theorem before_in3 (c : Dev nD) (t : Fin cfg2.N) (d) : (dat V c).before 3 t d = iblk V c 3 t := by
  rw [Dat.before_fetched (dat V c) 3 t (fetch2_3 t) d]; unfold Dat.fetched Dat.blockOf iblk; rw [A_eq]; rfl
theorem before_in4 (c : Dev nD) (t : Fin cfg2.N) (d) : (dat V c).before 4 t d = iblk V c 4 t := by
  rw [Dat.before_fetched (dat V c) 4 t (fetch2_4 t) d]; unfold Dat.fetched Dat.blockOf iblk; rw [A_eq]; rfl
theorem before_in5 (c : Dev nD) (t : Fin cfg2.N) (d) : (dat V c).before 5 t d = iblk V c 5 t := by
  rw [Dat.before_fetched (dat V c) 5 t (fetch2_5 t) d]; unfold Dat.fetched Dat.blockOf iblk; rw [A_eq]; rfl
theorem before_in6 (c : Dev nD) (t : Fin cfg2.N) (d) : (dat V c).before 6 t d = iblk V c 6 t := by
  rw [Dat.before_fetched (dat V c) 6 t (fetch2_6 t) d]; unfold Dat.fetched Dat.blockOf iblk; rw [A_eq]; rfl
theorem before_in7 (c : Dev nD) (t : Fin cfg2.N) (d) : (dat V c).before 7 t d = iblk V c 7 t := by
  rw [Dat.before_fetched (dat V c) 7 t (fetch2_7 t) d]; unfold Dat.fetched Dat.blockOf iblk; rw [A_eq]; rfl
theorem before_in8 (c : Dev nD) (t : Fin cfg2.N) (d) : (dat V c).before 8 t d = iblk V c 8 t := by
  rw [Dat.before_fetched (dat V c) 8 t (fetch2_8 t) d]; unfold Dat.fetched Dat.blockOf iblk; rw [A_eq]; rfl
theorem before_in9 (c : Dev nD) (t : Fin cfg2.N) (d) : (dat V c).before 9 t d = iblk V c 9 t := by
  rw [Dat.before_fetched (dat V c) 9 t (fetch2_9 t) d]; unfold Dat.fetched Dat.blockOf iblk; rw [A_eq]; rfl
theorem before_in10 (c : Dev nD) (t : Fin cfg2.N) (d) : (dat V c).before 10 t d = iblk V c 10 t := by
  rw [Dat.before_fetched (dat V c) 10 t (fetch2_10 t) d]; unfold Dat.fetched Dat.blockOf iblk; rw [A_eq]; rfl
theorem before_in11 (c : Dev nD) (t : Fin cfg2.N) (d) : (dat V c).before 11 t d = iblk V c 11 t := by
  rw [Dat.before_fetched (dat V c) 11 t (fetch2_11 t) d]; unfold Dat.fetched Dat.blockOf iblk; rw [A_eq]; rfl
theorem before_in12 (c : Dev nD) (t : Fin cfg2.N) (d) : (dat V c).before 12 t d = iblk V c 12 t := by
  rw [Dat.before_fetched (dat V c) 12 t (fetch2_12 t) d]; unfold Dat.fetched Dat.blockOf iblk; rw [A_eq]; rfl

/-! ## The body obligation -/

/-- What the pipeline calls the body with at point t: the invariant, what the core owes, and the fourteen
    windows' current staging buffers, each at what it holds then. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d))
    ∗ (∃ d, owns (c : Thread nD τ) (st2_13 t) fullShare ((dat V c).before 13 t d)))

/-- What it hands back: the invariant and the debt at the next position, each buffer at what the body leaves. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t)
    ∗ owns (c : Thread nD τ) (st2_11 t) fullShare ((dat V c).after 11 t)
    ∗ owns (c : Thread nD τ) (st2_12 t) fullShare ((dat V c).after 12 t)
    ∗ owns (c : Thread nD τ) (st2_13 t) fullShare ((dat V c).after 13 t))

/-- The invariant and the debt are the same at every position: the body changes neither. -/
theorem inv_next (c : Dev nD) (t : Fin cfg2.N) : (dat V c).Φ t.succ = (dat V c).Φ t.castSucc := rfl
theorem owes_next (c : Dev nD) (t : Fin cfg2.N) : (dat V c).owesAt () t.succ = (dat V c).owesAt () t.castSucc := rfl

/-- The body at the point: the thirteen input buffers hold their blocks, the output buffer something; the
    triple applies; the invariant and the debt are not touched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_in0, before_in1, before_in2, before_in3, before_in4, before_in5, before_in6, before_in7,
    before_in8, before_in9, before_in10, before_in11, before_in12]
  rw [inv_next, owes_next, after_in0, after_in1, after_in2, after_in3, after_in4, after_in5, after_in6, after_in7, after_in8, after_in9,
    after_in10, after_in11, after_in12, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _
    (iblk V c 0 t) (iblk V c 1 t) (iblk V c 2 t) (iblk V c 3 t) (iblk V c 4 t) (iblk V c 5 t) (iblk V c 6 t)
    (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The pipeline's body obligation for region 2's proof data, at every point. -/
theorem body_obligation (c : Dev nD) : BodyObligation (dat (F := F) V c) (defs₀ (F := F)) Variants.none () Set.univ := fun t => by
  rw [bigSep_W2, bigSep_W2]
  exact sound_body V c t

end AtV

end Cert.KernelIdeal.R2

end
-- ==== Proof.KI.Run.lean ====
/-
  The launch. @main is fourteen items in order: six host stretches, the edge pass, four host stretches, the node pass, one host stretch, the three layers. Between two items a core holds every unscoped buffer whole at the contents the items before left, beside its generator register at some state and nothing owed. Each kernel region takes its windows' arrays out of those buffers, runs its pipeline, and puts them back: the inputs as it found them, its one output at what its write-backs leave. The run from the launch memory ends with the result buffer at what the third region leaves and every argument as launched.
-/
import proofs.«414252_j62689342653099_3_alg».proof.Proof.KI.R0Data
import proofs.«414252_j62689342653099_3_alg».proof.Proof.KI.R1Data
import proofs.«414252_j62689342653099_3_alg».proof.Proof.KI.R2Data
import proofs.«414252_j62689342653099_3_alg».proof.Proof.Gen.KernelIdeal.Regions
import Idealize.ShloMosaic.Lib.Pipeline.RegionsLoop
import Idealize.ShloMosaic.Lib.Pipeline.FrameSuffix

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section

variable (m : (ℓ : Loc nD τ sig) → Buf (Elt F) ℓ)

/-! ## What the regions leave in their output arrays -/

/-- Contents for the three output arrays, on every core; any other buffer as launched. -/
def mk (x0 : (c : Dev nD) → Buf (Elt F) ((c : Thread nD τ).loc main_v31))
    (x1 : (c : Dev nD) → Buf (Elt F) ((c : Thread nD τ).loc main_v40))
    (x2 : (c : Dev nD) → Buf (Elt F) ((c : Thread nD τ).loc main_v47)) : Gen.Outs (F := F) :=
  fun _ r c =>
    if h : r = main_v31 then h ▸ x0 c
    else if h : r = main_v40 then h ▸ x1 c
    else if h : r = main_v47 then h ▸ x2 c
    else m ((c : Thread nD τ).loc r)

theorem mk_v31 (x0 x1 x2) (n : ℕ) (c : Dev nD) : mk m x0 x1 x2 n main_v31 c = x0 c := by
  unfold mk; exact dif_pos rfl
theorem mk_v40 (x0 x1 x2) (n : ℕ) (c : Dev nD) : mk m x0 x1 x2 n main_v40 c = x1 c := by
  unfold mk; rw [dif_neg (by decide : ¬ (main_v40 : Ref sig .tc) = main_v31)]; exact dif_pos rfl
theorem mk_v47 (x0 x1 x2) (n : ℕ) (c : Dev nD) : mk m x0 x1 x2 n main_v47 c = x2 c := by
  unfold mk
  rw [dif_neg (by decide : ¬ (main_v47 : Ref sig .tc) = main_v31), dif_neg (by decide : ¬ (main_v47 : Ref sig .tc) = main_v40)]
  exact dif_pos rfl

/-- The contents after the edge pass depend on what the regions leave only through the edge pass's output. -/
theorem V7_congr (o o' : Gen.Outs (F := F)) (c : Dev nD) (h : o 7 main_v31 c = o' 7 main_v31 c) :
    Gen.V7 m o c = Gen.V7 m o' c := by
  show Function.update (Gen.V6 m c) _ (o 7 main_v31 c) = Function.update (Gen.V6 m c) _ (o' 7 main_v31 c)
  rw [h]

/-- So do the contents the node pass is entered from: four host stretches later. -/
theorem V11_congr (o o' : Gen.Outs (F := F)) (c : Dev nD) (h : o 7 main_v31 c = o' 7 main_v31 c) :
    Gen.V11 m o c = Gen.V11 m o' c := by
  show StableHlo.after hostOps1_3 (StableHlo.after hostOps1_2 (StableHlo.after hostOps1_1 (StableHlo.after hostOps1 (Gen.V7 m o c))))
    = StableHlo.after hostOps1_3 (StableHlo.after hostOps1_2 (StableHlo.after hostOps1_1 (StableHlo.after hostOps1 (Gen.V7 m o' c))))
  rw [V7_congr m o o' c h]

/-- The contents the three layers are entered from depend on them only through the two passes' outputs. -/
theorem V13_congr (o o' : Gen.Outs (F := F)) (c : Dev nD) (h31 : o 7 main_v31 c = o' 7 main_v31 c)
    (h40 : o 12 main_v40 c = o' 12 main_v40 c) : Gen.V13 m o c = Gen.V13 m o' c := by
  show StableHlo.after hostOps2 (Function.update (Gen.V11 m o c) _ (o 12 main_v40 c))
    = StableHlo.after hostOps2 (Function.update (Gen.V11 m o' c) _ (o' 12 main_v40 c))
  rw [V11_congr m o o' c h31, h40]

/-- The edge pass's output array as its write-backs leave it. -/
def x0 (c : Dev nD) : Buf (Elt F) ((c : Thread nD τ).loc main_v31) :=
  (R0.dat (fun c b => Gen.V6 m c b) c).arrAt 3 cfg0.N
/-- The node pass's, entered after the edge pass left `x0`. -/
def x1 (c : Dev nD) : Buf (Elt F) ((c : Thread nD τ).loc main_v40) :=
  (R1.dat (fun c b => Gen.V11 m (mk m (x0 m) (fun c => m ((c : Thread nD τ).loc main_v40)) (fun c => m ((c : Thread nD τ).loc main_v47))) c b) c).arrAt 2 cfg1.N
/-- The three layers', entered after the passes left `x0` and `x1`. -/
def x2 (c : Dev nD) : Buf (Elt F) ((c : Thread nD τ).loc main_v47) :=
  (R2.dat (fun c b => Gen.V13 m (mk m (x0 m) (x1 m) (fun c => m ((c : Thread nD τ).loc main_v47))) c b) c).arrAt 13 cfg2.N

/-- What the three regions leave in `main_v31`, `main_v40`, `main_v47`: each region's output array as its write-backs leave it. -/
def outs : Gen.Outs (F := F) := mk m (x0 m) (x1 m) (x2 m)

theorem outs_v31 (c : Dev nD) : outs m 7 main_v31 c = (R0.dat (fun c b => Gen.V6 m c b) c).arrAt 3 cfg0.N :=
  mk_v31 m _ _ _ 7 c

theorem outs_v40 (c : Dev nD) : outs m 12 main_v40 c = (R1.dat (fun c b => Gen.V11 m (outs m) c b) c).arrAt 2 cfg1.N := by
  have hV : (fun (c : Dev nD) (b : Ref sig .tc) => (Gen.V11 m (outs m) c b : Buf (Elt F) ((c : Thread nD τ).loc b)))
      = fun (c : Dev nD) (b : Ref sig .tc) => (Gen.V11 m (mk m (x0 m) (fun c => m ((c : Thread nD τ).loc main_v40)) (fun c => m ((c : Thread nD τ).loc main_v47))) c b : Buf (Elt F) ((c : Thread nD τ).loc b)) := by
    funext c b
    rw [V11_congr m (outs m) _ c ((mk_v31 m _ _ _ 7 c).trans (mk_v31 m _ _ _ 7 c).symm)]
  rw [hV]
  exact mk_v40 m _ _ _ 12 c

theorem outs_v47 (c : Dev nD) : outs m 14 main_v47 c = (R2.dat (fun c b => Gen.V13 m (outs m) c b) c).arrAt 13 cfg2.N := by
  have hV : (fun (c : Dev nD) (b : Ref sig .tc) => (Gen.V13 m (outs m) c b : Buf (Elt F) ((c : Thread nD τ).loc b)))
      = fun (c : Dev nD) (b : Ref sig .tc) => (Gen.V13 m (mk m (x0 m) (x1 m) (fun c => m ((c : Thread nD τ).loc main_v47))) c b : Buf (Elt F) ((c : Thread nD τ).loc b)) := by
    funext c b
    rw [V13_congr m (outs m) _ c ((mk_v31 m _ _ _ 7 c).trans (mk_v31 m _ _ _ 7 c).symm)
      ((mk_v40 m _ _ _ 12 c).trans (mk_v40 m _ _ _ 12 c).symm)]
  rw [hV]
  exact mk_v47 m _ _ _ 14 c

/-! ## The proof data family and the state between items -/

/-- Every pipeline's proof data, each at the contents its region is entered from. -/
def pdats : (p : Fin 3) → (c : Dev nD) → Dat τ (Elt F) Unit ℕ (UR sig nD τ) ℕ (Pipeline.pin (pcfgs (F := F)) Gen.adm p) c
  | ⟨0, _⟩ => fun c => R0.dat (fun c b => Gen.V6 m c b) c
  | ⟨1, _⟩ => fun c => R1.dat (fun c b => Gen.V11 m (outs m) c b) c
  | ⟨2, _⟩ => fun c => R2.dat (fun c b => Gen.V13 m (outs m) c b) c

/-- No core owes another anything: no level is assigned. -/
abbrev 𝒱₀ : Variants := Variants.none
abbrev L : GSem nD τ sig → Finset Unit := fun _ => ∅
abbrev lv : GSem nD τ sig → Unit → ℕ := fun _ _ => 0
/-- What rides beside the buffers between two items: the core's generator register at some state, and nothing owed. -/
abbrev E (_ : Fin 4) (c : Dev nD) : sProp 𝕄 :=
  iprop((∃ r, prngReg c r) ∗ ∃ W, owes (c : Thread nD τ) (0 : CellTallies nD τ sig Unit) W)

/-- The contents between items, read at the TensorCore's references. -/
abbrev U6 : (c : Dev nD) → (b : Ref sig .tc) → Buf (Elt F) ((c : Thread nD τ).loc b) := fun c b => Gen.V6 m c b
abbrev U7 : (c : Dev nD) → (b : Ref sig .tc) → Buf (Elt F) ((c : Thread nD τ).loc b) := fun c b => Gen.V7 m (outs m) c b
abbrev U11 : (c : Dev nD) → (b : Ref sig .tc) → Buf (Elt F) ((c : Thread nD τ).loc b) := fun c b => Gen.V11 m (outs m) c b
abbrev U12 : (c : Dev nD) → (b : Ref sig .tc) → Buf (Elt F) ((c : Thread nD τ).loc b) := fun c b => Gen.V12 m (outs m) c b
abbrev U13 : (c : Dev nD) → (b : Ref sig .tc) → Buf (Elt F) ((c : Thread nD τ).loc b) := fun c b => Gen.V13 m (outs m) c b
abbrev U14 : (c : Dev nD) → (b : Ref sig .tc) → Buf (Elt F) ((c : Thread nD τ).loc b) := fun c b => Gen.V14 m (outs m) c b

/-! ## Each region's arrays at its exit

An input window's array is never written back, and the region's exit contents differ from its entry contents at the output array only; the output array holds what the write-backs leave. -/

theorem hF0_in (c : Dev nD) (w : Fin cfg0.W) (hin : (cfg0.win w).isOut = false)
    (hne : Pipeline.arrRef spec0 w ∉ ([main_v31] : List (Ref sig .tc))) :
    (R0.dat (fun c b => Gen.V6 m c b) c).arrAt w cfg0.N = U7 m c (Pipeline.arrRef spec0 w) :=
  ((R0.dat (fun c b => Gen.V6 m c b) c).arrAt_in w hin _).trans <|
    (R0.A_eq (fun c b => Gen.V6 m c b) c w).trans (Gen.V7_of m (outs m) c _ hne).symm

theorem hF0 (c : Dev nD) : ∀ w : Fin cfg0.W, (R0.dat (fun c b => Gen.V6 m c b) c).arrAt w cfg0.N = U7 m c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => (outs_v31 m c).symm.trans (Function.update_self (Proc.devRef .tc main_v31) (outs m 7 main_v31 c) (Gen.V6 m c)).symm

theorem hrest0 (c : Dev nD) : ∀ b, b ∉ Finset.univ.image (Pipeline.arrRef spec0) → U7 m c b = U6 m c b :=
  fun b hb => Gen.V7_of m (outs m) c b fun hmem =>
    hb (Finset.mem_image.mpr ⟨3, Finset.mem_univ _, (List.mem_singleton.mp hmem).symm⟩)

theorem hF1_in (c : Dev nD) (w : Fin cfg1.W) (hin : (cfg1.win w).isOut = false)
    (hne : Pipeline.arrRef spec1 w ∉ ([main_v40] : List (Ref sig .tc))) :
    (R1.dat (fun c b => Gen.V11 m (outs m) c b) c).arrAt w cfg1.N = U12 m c (Pipeline.arrRef spec1 w) :=
  ((R1.dat (fun c b => Gen.V11 m (outs m) c b) c).arrAt_in w hin _).trans <|
    (R1.A_eq (fun c b => Gen.V11 m (outs m) c b) c w).trans (Gen.V12_of m (outs m) c _ hne).symm

theorem hF1 (c : Dev nD) : ∀ w : Fin cfg1.W, (R1.dat (fun c b => Gen.V11 m (outs m) c b) c).arrAt w cfg1.N = U12 m c (Pipeline.arrRef spec1 w)
  | ⟨0, _⟩ => hF1_in m c 0 rfl (by decide)
  | ⟨1, _⟩ => hF1_in m c 1 rfl (by decide)
  | ⟨2, _⟩ => (outs_v40 m c).symm.trans (Function.update_self (Proc.devRef .tc main_v40) (outs m 12 main_v40 c) (Gen.V11 m (outs m) c)).symm

theorem hrest1 (c : Dev nD) : ∀ b, b ∉ Finset.univ.image (Pipeline.arrRef spec1) → U12 m c b = U11 m c b :=
  fun b hb => Gen.V12_of m (outs m) c b fun hmem =>
    hb (Finset.mem_image.mpr ⟨2, Finset.mem_univ _, (List.mem_singleton.mp hmem).symm⟩)

theorem hF2_in (c : Dev nD) (w : Fin cfg2.W) (hin : (cfg2.win w).isOut = false)
    (hne : Pipeline.arrRef spec2 w ∉ ([main_v47] : List (Ref sig .tc))) :
    (R2.dat (fun c b => Gen.V13 m (outs m) c b) c).arrAt w cfg2.N = U14 m c (Pipeline.arrRef spec2 w) :=
  ((R2.dat (fun c b => Gen.V13 m (outs m) c b) c).arrAt_in w hin _).trans <|
    (R2.A_eq (fun c b => Gen.V13 m (outs m) c b) c w).trans (Gen.V14_of m (outs m) c _ hne).symm

theorem hF2 (c : Dev nD) : ∀ w : Fin cfg2.W, (R2.dat (fun c b => Gen.V13 m (outs m) c b) c).arrAt w cfg2.N = U14 m c (Pipeline.arrRef spec2 w)
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => hF2_in m c 5 rfl (by decide)
  | ⟨6, _⟩ => hF2_in m c 6 rfl (by decide)
  | ⟨7, _⟩ => hF2_in m c 7 rfl (by decide)
  | ⟨8, _⟩ => hF2_in m c 8 rfl (by decide)
  | ⟨9, _⟩ => hF2_in m c 9 rfl (by decide)
  | ⟨10, _⟩ => hF2_in m c 10 rfl (by decide)
  | ⟨11, _⟩ => hF2_in m c 11 rfl (by decide)
  | ⟨12, _⟩ => hF2_in m c 12 rfl (by decide)
  | ⟨13, _⟩ => (outs_v47 m c).symm.trans (Function.update_self (Proc.devRef .tc main_v47) (outs m 14 main_v47 c) (Gen.V13 m (outs m) c)).symm

theorem hrest2 (c : Dev nD) : ∀ b, b ∉ Finset.univ.image (Pipeline.arrRef spec2) → U14 m c b = U13 m c b :=
  fun b hb => Gen.V14_of m (outs m) c b fun hmem =>
    hb (Finset.mem_image.mpr ⟨13, Finset.mem_univ _, (List.mem_singleton.mp hmem).symm⟩)

/-! ## The regions as segments -/

set_option backward.isDefEq.respectTransparency.types false in
/-- Region 0 over the state between items: entered from every unscoped buffer at the contents before it, left at those
    contents updated at its output array. Its arrays are split out of the unscoped buffers and put back at the exit
    contents; the generator register goes into the region's invariant and comes out; nothing is owed; the kernel has
    no semaphore of its own. -/
def reg0 (hb : ∀ V c, BodyObligation (R0.dat (F := F) V c) (defs₀ (F := F)) Variants.none () Set.univ) :
    RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb (fun c b => Gen.V6 m c b) c).loose
  hwaits := Pipeline.hwaits_of_owed_zero _ _ _ _ L lv 0 fun _ _ => rfl
  pre c := iprop(StableHlo.held (c : Thread nD τ) (Pipeline.ucRefs τ sig) (Gen.V6 m c) ∗ E 0 c)
  post c := iprop(StableHlo.held (c : Thread nD τ) (Pipeline.ucRefs τ sig) (Gen.V7 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (U6 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U6 m c) fun w => R0.A_eq (fun c b => Gen.V6 m c b) c w
    rw [Pipeline.unscopedBufs_held c (Gen.V6 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U6 m c) (U7 m c) ((pdats m 0 c).arrAt · cfg0.N) (hF0 m c) (hrest0 m c)
    rw [Pipeline.unscopedBufs_held c (Gen.V7 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the state between items: entered from every unscoped buffer at the contents before it, left at those
    contents updated at its output array. Its arrays are split out of the unscoped buffers and put back at the exit
    contents; the generator register goes into the region's invariant and comes out; nothing is owed; the kernel has
    no semaphore of its own. -/
def reg1 (hb : ∀ V c, BodyObligation (R1.dat (F := F) V c) (defs₀ (F := F)) Variants.none () Set.univ) :
    RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb (fun c b => Gen.V11 m (outs m) c b) c).loose
  hwaits := Pipeline.hwaits_of_owed_zero _ _ _ _ L lv 1 fun _ _ => rfl
  pre c := iprop(StableHlo.held (c : Thread nD τ) (Pipeline.ucRefs τ sig) (Gen.V11 m (outs m) c) ∗ E 1 c)
  post c := iprop(StableHlo.held (c : Thread nD τ) (Pipeline.ucRefs τ sig) (Gen.V12 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (U11 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U11 m c) fun w => R1.A_eq (fun c b => Gen.V11 m (outs m) c b) c w
    rw [Pipeline.unscopedBufs_held c (Gen.V11 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U11 m c) (U12 m c) ((pdats m 1 c).arrAt · cfg1.N) (hF1 m c) (hrest1 m c)
    rw [Pipeline.unscopedBufs_held c (Gen.V12 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the state between items: entered from every unscoped buffer at the contents before it, left at those
    contents updated at its output array. Its arrays are split out of the unscoped buffers and put back at the exit
    contents; the generator register goes into the region's invariant and comes out; nothing is owed; the kernel has
    no semaphore of its own. -/
def reg2 (hb : ∀ V c, BodyObligation (R2.dat (F := F) V c) (defs₀ (F := F)) Variants.none () Set.univ) :
    RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb (fun c b => Gen.V13 m (outs m) c b) c).loose
  hwaits := Pipeline.hwaits_of_owed_zero _ _ _ _ L lv 2 fun _ _ => rfl
  pre c := iprop(StableHlo.held (c : Thread nD τ) (Pipeline.ucRefs τ sig) (Gen.V13 m (outs m) c) ∗ E 2 c)
  post c := iprop(StableHlo.held (c : Thread nD τ) (Pipeline.ucRefs τ sig) (Gen.V14 m (outs m) c) ∗ E 3 c)
  X c := iprop(∃ r, prngReg c r)
  Y c := iprop(∃ r, prngReg c r)
  Z c := Pipeline.unscopedRest (Ix := Unit) (Name := ℕ) (U := UR sig nD τ) (Lvl := ℕ) spec2 c (U13 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (U13 m c) fun w => R2.A_eq (fun c b => Gen.V13 m (outs m) c b) c w
    rw [Pipeline.unscopedBufs_held c (Gen.V13 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (U13 m c) (U14 m c) ((pdats m 2 c).arrAt · cfg2.N) (hF2 m c) (hrest2 m c)
    rw [Pipeline.unscopedBufs_held c (Gen.V14 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end

/-! ## The run -/

set_option backward.isDefEq.respectTransparency.types false in
/-- From any memory with every semaphore counter at zero, given each region's body obligation at every entry contents:
    every weakly fair execution of @main terminates, and every final memory holds in the result buffer what the third
    region's write-backs leave, and in each argument's buffer what it held at launch. -/
theorem run (hb0 : ∀ V c, BodyObligation (R0.dat (F := F) V c) (defs₀ (F := F)) Variants.none () Set.univ)
    (hb1 : ∀ V c, BodyObligation (R1.dat (F := F) V c) (defs₀ (F := F)) Variants.none () Set.univ)
    (hb2 : ∀ V c, BodyObligation (R2.dat (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v47) = outs m 14 main_v47 c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)) := by
  refine Pipeline.θ_run_regions_kit_dev (pcfgs (F := F)) Gen.adm (pdats m) () cellOf_inj emb₁ defs₀ 𝒱₀ L lv m ρ main
    (Gen.segs m (outs m) 𝒱₀ L lv E () (pdats m) (reg0 m hb0) (reg1 m hb1) (reg2 m hb2))
    (fun c Q => by
      rewrite [main_chain c, Seg.run_eq_chain,
        show (Gen.segs m (outs m) 𝒱₀ L lv E () (pdats m) (reg0 m hb0) (reg1 m hb1) (reg2 m hb2) c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          Prog.lift (.customCall (Pipeline.entry 2) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V14 m (outs m) c))
    (hch := fun c => ⟨.rfl, .rfl, .rfl, .rfl, .rfl, .rfl, .rfl, .rfl, .rfl, .rfl, .rfl, .rfl, .rfl, .rfl,
      sep_mono .rfl (by iintro ⟨-, H⟩; iexact H)⟩)
    (hinit := ?_)
    (QY := fun c s => s.mem ((c.tc : Thread nD τ).loc main_v47) = outs m 14 main_v47 c
        ∧ s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)
        ∧ s.mem ((c.tc : Thread nD τ).loc main_arg5) = m ((c.tc : Thread nD τ).loc main_arg5)
        ∧ s.mem ((c.tc : Thread nD τ).loc main_arg6) = m ((c.tc : Thread nD τ).loc main_arg6)
        ∧ s.mem ((c.tc : Thread nD τ).loc main_arg7) = m ((c.tc : Thread nD τ).loc main_arg7)
        ∧ s.mem ((c.tc : Thread nD τ).loc main_arg8) = m ((c.tc : Thread nD τ).loc main_arg8)
        ∧ s.mem ((c.tc : Thread nD τ).loc main_arg9) = m ((c.tc : Thread nD τ).loc main_arg9)
        ∧ s.mem ((c.tc : Thread nD τ).loc main_arg10) = m ((c.tc : Thread nD τ).loc main_arg10)
        ∧ s.mem ((c.tc : Thread nD τ).loc main_arg11) = m ((c.tc : Thread nD τ).loc main_arg11)
        ∧ s.mem ((c.tc : Thread nD τ).loc main_arg12) = m ((c.tc : Thread nD τ).loc main_arg12)
        ∧ s.mem ((c.tc : Thread nD τ).loc main_arg13) = m ((c.tc : Thread nD τ).loc main_arg13)
        ∧ s.mem ((c.tc : Thread nD τ).loc main_arg14) = m ((c.tc : Thread nD τ).loc main_arg14)
        ∧ s.mem ((c.tc : Thread nD τ).loc main_arg15) = m ((c.tc : Thread nD τ).loc main_arg15)
        ∧ s.mem ((c.tc : Thread nD τ).loc main_arg16) = m ((c.tc : Thread nD τ).loc main_arg16))
    (hfin := fun c s' => ?_) (hQ := fun _ h => h)
  · -- the launch: every unscoped buffer at its launch contents, the generator register, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result's buffer and each argument's read off the last contents
    unfold StableHlo.held
    iintro ⟨Hh, HSI⟩
    ihave Hr := (pointsTo_read_all (Pipeline.ucRefs τ sig) (fun b => ((c : Thread nD τ).1, b)) (Gen.V14 m (outs m) c) s') $$ [Hh HSI]
    · isplitl [Hh] <;> iassumption
    icases Hr with ⟨%h, HSI⟩
    imodintro
    isplitr
    · ipureintro
      exact ⟨(h (Proc.devRef .tc main_v47) (Finset.mem_filter.mpr ⟨StableHlo.devRef_mem_tcRefs main_v47, by decide⟩)).trans
          (Function.update_self (Proc.devRef .tc main_v47) (outs m 14 main_v47 c) (Gen.V13 m (outs m) c)),
        (h (Proc.devRef .tc main_arg0) (Finset.mem_filter.mpr ⟨StableHlo.devRef_mem_tcRefs main_arg0, by decide⟩)).trans (Gen.V14_main_arg0 m (outs m) c),
        (h (Proc.devRef .tc main_arg1) (Finset.mem_filter.mpr ⟨StableHlo.devRef_mem_tcRefs main_arg1, by decide⟩)).trans (Gen.V14_main_arg1 m (outs m) c),
        (h (Proc.devRef .tc main_arg2) (Finset.mem_filter.mpr ⟨StableHlo.devRef_mem_tcRefs main_arg2, by decide⟩)).trans (Gen.V14_main_arg2 m (outs m) c),
        (h (Proc.devRef .tc main_arg3) (Finset.mem_filter.mpr ⟨StableHlo.devRef_mem_tcRefs main_arg3, by decide⟩)).trans (Gen.V14_main_arg3 m (outs m) c),
        (h (Proc.devRef .tc main_arg4) (Finset.mem_filter.mpr ⟨StableHlo.devRef_mem_tcRefs main_arg4, by decide⟩)).trans (Gen.V14_main_arg4 m (outs m) c),
        (h (Proc.devRef .tc main_arg5) (Finset.mem_filter.mpr ⟨StableHlo.devRef_mem_tcRefs main_arg5, by decide⟩)).trans (Gen.V14_main_arg5 m (outs m) c),
        (h (Proc.devRef .tc main_arg6) (Finset.mem_filter.mpr ⟨StableHlo.devRef_mem_tcRefs main_arg6, by decide⟩)).trans (Gen.V14_main_arg6 m (outs m) c),
        (h (Proc.devRef .tc main_arg7) (Finset.mem_filter.mpr ⟨StableHlo.devRef_mem_tcRefs main_arg7, by decide⟩)).trans (Gen.V14_main_arg7 m (outs m) c),
        (h (Proc.devRef .tc main_arg8) (Finset.mem_filter.mpr ⟨StableHlo.devRef_mem_tcRefs main_arg8, by decide⟩)).trans (Gen.V14_main_arg8 m (outs m) c),
        (h (Proc.devRef .tc main_arg9) (Finset.mem_filter.mpr ⟨StableHlo.devRef_mem_tcRefs main_arg9, by decide⟩)).trans (Gen.V14_main_arg9 m (outs m) c),
        (h (Proc.devRef .tc main_arg10) (Finset.mem_filter.mpr ⟨StableHlo.devRef_mem_tcRefs main_arg10, by decide⟩)).trans (Gen.V14_main_arg10 m (outs m) c),
        (h (Proc.devRef .tc main_arg11) (Finset.mem_filter.mpr ⟨StableHlo.devRef_mem_tcRefs main_arg11, by decide⟩)).trans (Gen.V14_main_arg11 m (outs m) c),
        (h (Proc.devRef .tc main_arg12) (Finset.mem_filter.mpr ⟨StableHlo.devRef_mem_tcRefs main_arg12, by decide⟩)).trans (Gen.V14_main_arg12 m (outs m) c),
        (h (Proc.devRef .tc main_arg13) (Finset.mem_filter.mpr ⟨StableHlo.devRef_mem_tcRefs main_arg13, by decide⟩)).trans (Gen.V14_main_arg13 m (outs m) c),
        (h (Proc.devRef .tc main_arg14) (Finset.mem_filter.mpr ⟨StableHlo.devRef_mem_tcRefs main_arg14, by decide⟩)).trans (Gen.V14_main_arg14 m (outs m) c),
        (h (Proc.devRef .tc main_arg15) (Finset.mem_filter.mpr ⟨StableHlo.devRef_mem_tcRefs main_arg15, by decide⟩)).trans (Gen.V14_main_arg15 m (outs m) c),
        (h (Proc.devRef .tc main_arg16) (Finset.mem_filter.mpr ⟨StableHlo.devRef_mem_tcRefs main_arg16, by decide⟩)).trans (Gen.V14_main_arg16 m (outs m) c)⟩
    · iexact HSI

end Cert.KernelIdeal.Run

end
-- ==== Proof.KI.R0Value.lean ====
/-
  Region 0, the value: at the ideal values the array the edge pass writes holds, at core row k, target b and
  feature d, the sum over the row's 98 tiles and each tile's 4096 padded edges of the edge's weight where its target is b
  (zero elsewhere) times the edge row's feature d.
-/
import proofs.«414252_j62689342653099_3_alg».proof.Proof.KI.R0Data
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.R0Value

open Idealize.ShloMosaic Idealize.ShloMosaic.TcCoe Idealize.SL.Sem
open Idealize.ShloMosaic.Pipeline (Dat)
open Idealize.ShloMosaic.ValueIdx
open Cert.KernelIdeal Cert.KernelIdeal.Gen

/-! ## The matrix product's operand indices -/

theorem lhs_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide),
    dif_pos (show (0 : Fin S256x4096.rank) ∈ dot_S256x4096_S4096x64_S256x64_1_0_0_1_n_n.lhsNonContracting by decide)]
  rfl
theorem lhs_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem rhs_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem rhs_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide),
    dif_pos (show (1 : Fin S4096x64.rank) ∈ dot_S256x4096_S4096x64_S256x64_1_0_0_1_n_n.rhsNonContracting by decide)]
  rfl

/-- The product of a 256 × 4096 by a 4096 × 64 matrix into the zero block, read at an entry. -/
theorem matmul_apply (A : FVec Ideal S256x4096 .bf16) (B : FVec Ideal S4096x64 .bf16) (b : Fin 256) (d : Fin 64) :
    (matmul dot_S256x4096_S4096x64_S256x64_1_0_0_1_n_n none A B (constant (F := Ideal) S256x64 .f32 0x00000000#32) : S256x64.Idx → EReal) (ix2 b d)
      = ∑ r : Fin 4096, (A (ix2 b r) : EReal) * (B (ix2 r d) : EReal) := by
  show FloatOps.matmul _ none A B _ (ix2 b d) = _
  rw [Ideal.matmul_constant_zero_apply, ← Equiv.sum_comp (contrEquiv1 dot_S256x4096_S4096x64_S256x64_1_0_0_1_n_n 4096 rfl rfl).symm]
  refine Finset.sum_congr rfl fun r _ => ?_
  have hk := contrEquiv1_symm_val dot_S256x4096_S4096x64_S256x64_1_0_0_1_n_n 4096 rfl rfl r
  have el : dot_S256x4096_S4096x64_S256x64_1_0_0_1_n_n.lhsIdx (ix2 b d) ((contrEquiv1 dot_S256x4096_S4096x64_S256x64_1_0_0_1_n_n 4096 rfl rfl).symm r) = ix2 b r :=
    funext fun a => Fin.ext (by
      match a with
      | ⟨0, _⟩ => exact lhs_0 _ _
      | ⟨1, _⟩ => exact (lhs_1 _ _).trans hk)
  have er : dot_S256x4096_S4096x64_S256x64_1_0_0_1_n_n.rhsIdx (ix2 b d) ((contrEquiv1 dot_S256x4096_S4096x64_S256x64_1_0_0_1_n_n 4096 rfl rfl).symm r) = ix2 r d :=
    funext fun a => Fin.ext (by
      match a with
      | ⟨0, _⟩ => exact (rhs_0 _ _).trans hk
      | ⟨1, _⟩ => exact rhs_1 _ _)
  rw [el, er]

/-! ## The payloads at an entry -/

/-- A choice on the equality of two words, its four parts named. -/
theorem select_cmpi_eq {α : Type} {A B a b' : BitVec 32} {C D c' d' : α} (eA : A = a) (eB : B = b') (eC : C = c') (eD : D = d') :
    Scalar.select (IntOp.cmpi .eq A B) C D = if b' = a then c' else d' := by
  subst eA eB eC eD
  unfold Scalar.select
  exact if_congr (IntOp.cmpi_eq.trans eq_comm) rfl rfl

/-- The zero block is zero at every entry. -/
theorem pay1_apply (j : S1x256x64.Idx) : (k0_pay1 (F := Ideal) : S1x256x64.Idx → EReal) j = 0 := by
  unfold k0_pay1
  obtain ⟨u, b, d, rfl⟩ : ∃ (u : Fin 1) (b : Fin 256) (d : Fin 64), j = ix3 u b d := ⟨j 0, j 1, j 2, eq_ix3 j⟩
  refine (shapeCast_ab_1ab_apply _ _ u b d).trans ?_
  exact Ideal.ofBits_zero_f32

/-- The tile's update of a block `xo` at an entry: `xo` there plus the sum over the tile's edges of the edge's weight where
    its target is the entry's row (zero elsewhere) times the edge row's entry in the column. -/
theorem pay2_apply (x2 : Vec Ideal S4096 .i32) (x1 : Vec Ideal S4096 .f32) (x0 : Vec Ideal S4096x64 .f32) (xo : Vec Ideal S1x256x64 .f32)
    (u : Fin 1) (b : Fin 256) (d : Fin 64) :
    (k0_pay2 (F := Ideal) x2 x1 x0 xo : S1x256x64.Idx → EReal) (ix3 u b d)
      = (xo : S1x256x64.Idx → EReal) (ix3 (0 : Fin 1) b d)
        + ∑ r : Fin 4096, (if (x2 : S4096.Idx → BitVec 32) (ix1 r) = BitVec.ofNat 32 b.val then (x1 : S4096.Idx → EReal) (ix1 r) else 0)
            * (x0 : S4096x64.Idx → EReal) (ix2 r d) := by
  unfold k0_pay2
  dsimp only
  refine (shapeCast_ab_1ab_apply _ _ u b d).trans ?_
  refine (addf_apply _ _ _).trans ?_
  refine congrArg₂ (· + ·) (shapeCast_1ab_ab_apply _ _ b d) ?_
  refine (matmul_apply _ _ b d).trans ?_
  refine Finset.sum_congr rfl fun r _ => ?_
  refine congrArg₂ (· * ·) ?_ ?_
  · refine (truncf_apply (s := S256x4096) (φ := .f32) (ψ := .bf16) _ _ (ix2 b r)).trans ?_
    refine (select_apply _ _ _ (ix2 b r)).trans ?_
    refine select_cmpi_eq (iota_single_apply .tc S256x4096 32 0 _ (ix2 b r))
      ((broadcastTo_1b_ab_apply _ _ b r).trans ((shapeCast_a_1a_apply _ _ 0 r).trans (congrFun (shapeCast_self x2 _) _)))
      ((broadcastTo_1b_ab_apply _ _ b r).trans ((congrFun (shapeCast_self _ _) _).trans
        ((shapeCast_a_1a_apply _ _ 0 r).trans (congrFun (shapeCast_self x1 _) _))))
      Ideal.ofBits_zero_f32
  · exact (truncf_apply (s := S4096x64) (φ := .f32) (ψ := .bf16) _ _ (ix2 r d)).trans (congrFun (shapeCast_self x0 _) (ix2 r d))

/-! ## The windows' blocks as rows of the arrays -/

variable (V : (c : Dev nD) → (b : Ref sig .tc) → Buf (Elt Ideal) ((c : Thread nD τ).loc b))

/-- The printed index maps, decided over the grid: at point `t` the three input windows are at block `t` of their
    arrays' rows, the output window at block `t / 98` of its array's leading axis. -/
theorem idx_facts : ∀ t : Fin cfg0.N,
    win0_0.index t (0 : Fin 2) = t.val ∧ win0_0.index t (1 : Fin 2) = 0
    ∧ win0_1.index t (0 : Fin 1) = t.val ∧ win0_2.index t (0 : Fin 1) = t.val
    ∧ win0_3.index t (0 : Fin 3) = t.val / 98 ∧ win0_3.index t (1 : Fin 3) = 0 ∧ win0_3.index t (2 : Fin 3) = 0 :=
  (by decide +kernel : ∀ t : Fin grid0.N, _)

/-- row (98·k + j)·4096 + r of the padded edge arrays -/
def erow (k : Fin 2) (j : Fin 98) (r : Fin 4096) : Fin 802816 := ⟨(98 * k.val + j.val) * 4096 + r.val, by have := k.isLt; have := j.isLt; have := r.isLt; omega⟩

/-- The three arrays the region reads, as the region finds them, at their literal types. -/
abbrev rowsOf (c : Dev nD) : S802816x64.Idx → EReal := V c main_v28
abbrev weightOf (c : Dev nD) : S802816.Idx → EReal := V c main_v29
abbrev targetOf (c : Dev nD) : S802816.Idx → BitVec 32 := V c main_v30

/-- The edge rows' block at point `t` is rows `4096 t …` of their array. -/
theorem iblk0_apply (c : Dev nD) (t : Fin cfg0.N) (r : Fin 4096) (d : Fin 64) (e : Fin 802816) (he : e.val = t.val * 4096 + r.val) :
    (R0.iblk V c 0 t : S4096x64.Idx → EReal) (ix2 r d) = rowsOf V c (ix2 e d) := by
  obtain ⟨h0, h1, -⟩ := idx_facts t
  unfold R0.iblk
  rw [View.read_apply]
  show V c main_v28 _ = V c main_v28 _
  congr 1
  funext a
  apply Fin.ext
  match a with
  | ⟨0, _⟩ => show win0_0.index t (0 : Fin 2) * 4096 + 1 * r.val = e.val; rw [h0, he]; omega
  | ⟨1, _⟩ => show win0_0.index t (1 : Fin 2) * 64 + 1 * d.val = d.val; rw [h1]; omega

/-- The weights' block at point `t`. -/
theorem iblk1_apply (c : Dev nD) (t : Fin cfg0.N) (r : Fin 4096) (e : Fin 802816) (he : e.val = t.val * 4096 + r.val) :
    (R0.iblk V c 1 t : S4096.Idx → EReal) (ix1 r) = weightOf V c (ix1 e) := by
  obtain ⟨-, -, h0, -⟩ := idx_facts t
  unfold R0.iblk
  rw [View.read_apply]
  show V c main_v29 _ = V c main_v29 _
  congr 1
  funext a
  apply Fin.ext
  match a with
  | ⟨0, _⟩ => show win0_1.index t (0 : Fin 1) * 4096 + 1 * r.val = e.val; rw [h0, he]; omega

/-- The targets' block at point `t`. -/
theorem iblk2_apply (c : Dev nD) (t : Fin cfg0.N) (r : Fin 4096) (e : Fin 802816) (he : e.val = t.val * 4096 + r.val) :
    (R0.iblk V c 2 t : S4096.Idx → BitVec 32) (ix1 r) = targetOf V c (ix1 e) := by
  obtain ⟨-, -, -, h0, -⟩ := idx_facts t
  unfold R0.iblk
  rw [View.read_apply]
  show V c main_v30 _ = V c main_v30 _
  congr 1
  funext a
  apply Fin.ext
  match a with
  | ⟨0, _⟩ => show win0_2.index t (0 : Fin 1) * 4096 + 1 * r.val = e.val; rw [h0, he]; omega

/-! ## The carried block, tile by tile -/

/-- One edge's contribution to entry (`b`, `d`) of core row `k`: its weight where its target is `b` (zero elsewhere) times
    its row's entry `d`. -/
def term (c : Dev nD) (k : Fin 2) (b : Fin 256) (d : Fin 64) (j : Fin 98) (r : Fin 4096) : EReal :=
  (if targetOf V c (ix1 (erow k j r)) = BitVec.ofNat 32 b.val then weightOf V c (ix1 (erow k j r)) else 0)
  * rowsOf V c (ix2 (erow k j r) d)

/-- One tile's contribution, by the tile's position in its row (nothing past the row's end). -/
def tile (c : Dev nD) (k : Fin 2) (b : Fin 256) (d : Fin 64) (j : ℕ) : EReal :=
  if h : j < 98 then ∑ r : Fin 4096, term V c k b d ⟨j, h⟩ r else 0

/-- The tile's update at point `t` = 98 k + j of a block `xo`, at an entry: `xo` there plus the tile's contribution. -/
theorem step_apply (c : Dev nD) (t : Fin cfg0.N) (k : Fin 2) (j : ℕ) (hj : j < 98) (ht : t.val = 98 * k.val + j)
    (xo : Vec Ideal S1x256x64 .f32) (u : Fin 1) (b : Fin 256) (d : Fin 64) :
    (k0_pay2 (F := Ideal) (R0.iblk V c 2 t) (R0.iblk V c 1 t) (R0.iblk V c 0 t) xo : S1x256x64.Idx → EReal) (ix3 u b d)
      = (xo : S1x256x64.Idx → EReal) (ix3 (0 : Fin 1) b d) + tile V c k b d j := by
  refine (pay2_apply (R0.iblk V c 2 t) (R0.iblk V c 1 t) (R0.iblk V c 0 t) xo u b d).trans ?_
  refine congrArg (_ + ·) ?_
  unfold tile
  rw [dif_pos hj]
  refine Finset.sum_congr rfl fun r _ => ?_
  have he : (erow k ⟨j, hj⟩ r).val = t.val * 4096 + r.val := by rw [ht]; rfl
  unfold term
  rw [iblk2_apply V c t r _ he, iblk1_apply V c t r _ he, iblk0_apply V c t r d _ he]

/-- After the body at position `n` the carried block holds, at an entry, the contributions of the tiles of its row up to
    its own. -/
theorem outsAt_apply (c : Dev nD) (b : Fin 256) (d : Fin 64) : ∀ (n : ℕ) (h : n < cfg0.N) (k : Fin 2) (u : Fin 1), k.val = n / 98 →
    (R0.outsAt V c n h : S1x256x64.Idx → EReal) (ix3 u b d) = ∑ j ∈ Finset.range (n % 98 + 1), tile V c k b d j
  | 0, h, k, u, hk => by
    rw [R0.outsAt_first V c ⟨0, h⟩ rfl]
    refine (step_apply V c ⟨0, h⟩ k 0 (by decide) (by show 0 = 98 * k.val + 0; omega) _ u b d).trans ?_
    rw [pay1_apply, zero_add]
    exact (Finset.sum_range_one _).symm
  | n + 1, h, k, u, hk => by
    have hN : cfg0.N = 196 := N_0
    by_cases h0 : (n + 1) % 98 = 0
    · rw [R0.outsAt_first V c ⟨n + 1, h⟩ h0]
      refine (step_apply V c ⟨n + 1, h⟩ k 0 (by decide) (by show n + 1 = 98 * k.val + 0; omega) _ u b d).trans ?_
      rw [pay1_apply, zero_add, h0]
      exact (Finset.sum_range_one _).symm
    · rw [R0.outsAt_next V c ⟨n + 1, h⟩ h0]
      refine (step_apply V c ⟨n + 1, h⟩ k ((n + 1) % 98) (Nat.mod_lt _ (by decide)) (by show n + 1 = 98 * k.val + (n + 1) % 98; omega) _ u b d).trans ?_
      show (R0.outsAt V c n _ : S1x256x64.Idx → EReal) (ix3 (0 : Fin 1) b d) + _ = _
      rw [outsAt_apply c b d n (Nat.lt_of_succ_lt h) k 0 (by omega), Finset.sum_range_succ _ ((n + 1) % 98)]
      have e : n % 98 + 1 = (n + 1) % 98 := by omega
      rw [e]

/-! ## The array the region writes -/

/-- Entry (`k`, `b`, `d`) of what the region leaves: all the contributions of core row `k`. -/
def rowSum (c : Dev nD) (k : Fin 2) (b : Fin 256) (d : Fin 64) : EReal :=
  ∑ j : Fin 98, ∑ r : Fin 4096, term V c k b d j r

/-- The same as contents of the array. -/
def total (c : Dev nD) : S2x256x64.Idx → EReal := fun i =>
  rowSum V c ⟨(i 0).val, (i 0).isLt⟩ ⟨(i 1).val, (i 1).isLt⟩ ⟨(i 2).val, (i 2).isLt⟩

/-- After the last tile of a row the carried block holds the whole row's contributions. -/
theorem outsAt_last (c : Dev nD) (t : Fin cfg0.N) (hf : t.val % 98 = 97) (k : Fin 2) (hk : k.val = t.val / 98)
    (u : Fin 1) (b : Fin 256) (d : Fin 64) :
    (R0.outsAt V c t.val t.isLt : S1x256x64.Idx → EReal) (ix3 u b d) = rowSum V c k b d := by
  rw [outsAt_apply V c b d t.val t.isLt k u hk, hf]
  unfold rowSum
  rw [Finset.sum_range]
  refine Finset.sum_congr rfl fun j _ => ?_
  unfold tile
  rw [dif_pos j.isLt]

/-- What the write-back after a row's last tile writes is the row's block of `total`. -/
theorem flushed_eq (c : Dev nD) (t : Fin cfg0.N) (hf : (cfg0.win 3).flush t = true) :
    (R0.dat V c).flushed 3 t = ((cfg0.win 3).blk t).view.read (Elt Ideal) (total V c) := by
  have hN : cfg0.N = 196 := N_0
  have h97 : t.val % 98 = 97 := (flush0_3 t).mp hf
  obtain ⟨-, -, -, -, i0, i1, i2⟩ := idx_facts t
  have hk : t.val / 98 < 2 := by have := t.isLt; omega
  show (cfg0.win 3).cut (grid0.coords t) ((R0.dat V c).after 3 t) = _
  rw [R0.after_out]
  refine funext fun (y : S1x256x64.Idx) => ?_
  obtain ⟨u, b, d, rfl⟩ : ∃ (u : Fin 1) (b : Fin 256) (d : Fin 64), y = ix3 u b d := ⟨y 0, y 1, y 2, eq_ix3 y⟩
  show (R0.outsAt V c t.val t.isLt : S1x256x64.Idx → EReal) (ix3 u b d) = total V c (((cfg0.win 3).blk t).view.emb (ix3 u b d))
  rw [outsAt_last V c t h97 ⟨t.val / 98, hk⟩ rfl u b d]
  have e : ((cfg0.win 3).blk t).view.emb (ix3 u b d) = ix3 (⟨t.val / 98, hk⟩ : Fin 2) b d := by
    funext a
    apply Fin.ext
    match a with
    | ⟨0, _⟩ => show win0_3.index t (0 : Fin 3) * 1 + 1 * u.val = t.val / 98; rw [i0]; omega
    | ⟨1, _⟩ => show win0_3.index t (1 : Fin 3) * 256 + 1 * b.val = b.val; rw [i1]; omega
    | ⟨2, _⟩ => show win0_3.index t (2 : Fin 3) * 64 + 1 * d.val = d.val; rw [i2]; omega
  rw [e]
  rfl

/-- An index of the array is in point `t`'s block iff each coordinate is in the block's range on its axis. -/
theorem mem_blk (t : Fin cfg0.N) (i : S2x256x64.Idx) :
    i ∈ ((cfg0.win 3).blk t).view.set ↔ ∀ a : Fin 3, win0_3.index t a * S1x256x64.size a ≤ (i a).val ∧ (i a).val < win0_3.index t a * S1x256x64.size a + S1x256x64.size a := by
  show i ∈ ((View.whole main_v31).slice (win0_3.rect t)).set ↔ _
  rw [View.set_slice_whole, Rect.mem_set_unit]
  exact Iff.rfl

/-- The two rows' write-backs cover the array, so it ends holding `total`. -/
theorem final_eq (c : Dev nD) : (R0.dat V c).arrAt 3 cfg0.N = total V c :=
  (R0.dat V c).arrAt_eq_of_cover 3 (total V c) (flushed_eq V c) fun i => by
    have h0 : (i 0).val < 2 := (i 0).isLt
    have h1 : (i 1).val < 256 := (i 1).isLt
    have h2 : (i 2).val < 64 := (i 2).isLt
    have hN : cfg0.N = 196 := N_0
    obtain ⟨t, ht⟩ : ∃ t : Fin cfg0.N, t.val = 98 * (i 0).val + 97 := ⟨⟨98 * (i 0).val + 97, by omega⟩, rfl⟩
    obtain ⟨-, -, -, -, i0, i1, i2⟩ := idx_facts t
    refine ⟨t, (flush0_3 t).mpr (by omega), ?_⟩
    rw [mem_blk]
    intro a
    match a with
    | ⟨0, _⟩ => show win0_3.index t (0 : Fin 3) * 1 ≤ (i 0).val ∧ (i 0).val < win0_3.index t (0 : Fin 3) * 1 + 1; rw [i0]; omega
    | ⟨1, _⟩ => show win0_3.index t (1 : Fin 3) * 256 ≤ (i 1).val ∧ (i 1).val < win0_3.index t (1 : Fin 3) * 256 + 256; rw [i1]; omega
    | ⟨2, _⟩ => show win0_3.index t (2 : Fin 3) * 64 ≤ (i 2).val ∧ (i 2).val < win0_3.index t (2 : Fin 3) * 64 + 64; rw [i2]; omega

/-- THE VALUE: entry (`k`, `b`, `d`) of the array the region writes is the sum, over the 98 tiles of core row `k` and each
    tile's 4096 padded edges, of the edge's weight where its target is `b` (zero elsewhere) times its row's entry `d`. -/
theorem final (c : Dev nD) (k : Fin 2) (b : Fin 256) (d : Fin 64) :
    ((R0.dat (F := Ideal) V c).arrAt 3 cfg0.N : S2x256x64.Idx → EReal) (ix3 k b d)
      = ∑ j : Fin 98, ∑ r : Fin 4096,
          (if targetOf V c (ix1 (erow k j r)) = BitVec.ofNat 32 b.val then weightOf V c (ix1 (erow k j r)) else 0)
          * rowsOf V c (ix2 (erow k j r) d) := by
  rw [final_eq]
  rfl

end Cert.KernelIdeal.R0Value

end
-- ==== Proof.KI.R1Value.lean ====
/-
  Region 1, the node pass, at the ideal values: what the output array holds after the 49 tiles. The carried block after
  tile j is the sum of the products of tiles 0 … j (the first tile starts from the zero block), a tile's product at
  (b, d) is the sum over its 1024 nodes of [node's graph = b] times the node's feature d, and the block written back
  after the last tile is the whole array: so entry (b, d) is the sum over all 49 · 1024 padded nodes.
-/
import proofs.«414252_j62689342653099_3_alg».proof.Proof.KI.R1
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.R1Value

open Idealize.ShloMosaic Idealize.ShloMosaic.TcCoe
open Idealize.SL Idealize.SL.Sem
open Idealize.ShloMosaic.Pipeline (Dat)
open Cert.KernelIdeal Cert.KernelIdeal.Gen
open Idealize.ShloMosaic.ValueIdx

/-! ## The constants and the product's index maps -/

/-- The word of `1.0` denotes the real one. -/
theorem one_f32 : Ideal.ofBits .f32 0x3F800000#32 = 1 := by
  simp [Ideal.ofBits, Ideal.ieee, -EReal.coe_mul]; norm_num

/-- The product [256,1024] × [1024,64] contracts the left operand's columns with the right operand's rows: at output
    index (b, d) and contraction position k the left operand is read at (b, k) and the right one at (k, d). -/
theorem lhs_0 (j : S256x64.Idx) (k : dot_S256x1024_S1024x64_S256x64_1_0_0_1_n_n.contr.Idx) :
    (dot_S256x1024_S1024x64_S256x64_1_0_0_1_n_n.lhsIdx j k 0).val = (j 0).val := by
  unfold DotDims.lhsIdx
  rw [dif_neg (show ¬ (0 : Fin S256x1024.rank) ∈ dot_S256x1024_S1024x64_S256x64_1_0_0_1_n_n.lhsBatch by decide),
    dif_pos (show (0 : Fin S256x1024.rank) ∈ dot_S256x1024_S1024x64_S256x64_1_0_0_1_n_n.lhsNonContracting by decide)]
  rfl

theorem lhs_1 (j : S256x64.Idx) (k : dot_S256x1024_S1024x64_S256x64_1_0_0_1_n_n.contr.Idx) :
    (dot_S256x1024_S1024x64_S256x64_1_0_0_1_n_n.lhsIdx j k 1).val = (k ⟨0, by decide⟩).val :=
  dot_S256x1024_S1024x64_S256x64_1_0_0_1_n_n.lhsIdx_val_of_single rfl j k

theorem rhs_0 (j : S256x64.Idx) (k : dot_S256x1024_S1024x64_S256x64_1_0_0_1_n_n.contr.Idx) :
    (dot_S256x1024_S1024x64_S256x64_1_0_0_1_n_n.rhsIdx j k 0).val = (k ⟨0, by decide⟩).val :=
  dot_S256x1024_S1024x64_S256x64_1_0_0_1_n_n.rhsIdx_val_of_single rfl j k

theorem rhs_1 (j : S256x64.Idx) (k : dot_S256x1024_S1024x64_S256x64_1_0_0_1_n_n.contr.Idx) :
    (dot_S256x1024_S1024x64_S256x64_1_0_0_1_n_n.rhsIdx j k 1).val = (j 1).val := by
  unfold DotDims.rhsIdx
  rw [dif_neg (show ¬ (1 : Fin S1024x64.rank) ∈ dot_S256x1024_S1024x64_S256x64_1_0_0_1_n_n.rhsBatch by decide),
    dif_pos (show (1 : Fin S1024x64.rank) ∈ dot_S256x1024_S1024x64_S256x64_1_0_0_1_n_n.rhsNonContracting by decide)]
  rfl

/-! ## The tile's update at an index -/

/-- The integer comparison for equality is the one-bit word 1 exactly at equal words. -/
theorem cmpi_eq_one {a b : BitVec 32} : IntOp.cmpi .eq a b = 1#1 ↔ a = b := by
  have hb : ∀ x : Bool, BitVec.ofBool x = 1#1 ↔ x = true := fun x => by cases x <;> decide
  unfold IntOp.cmpi
  exact (hb _).trans beq_iff_eq

/-- The one-hot matrix of a tile: row b, column r is one when node r of the tile belongs to graph b, zero otherwise. -/
theorem onehot_apply (ids : Vec Ideal S1024 .i32) (b : Fin 256) (r : Fin 1024) :
    (select (cmpi .eq (iota .tc S256x1024 32 [0] iota_S256x1024_d0_w32)
        (broadcastTo S256x1024 (shapeCast S1x1024 ids shapeCasts_S1024_S1x1024) broadcasts_S1x1024_S256x1024))
      (broadcast S256x1024 (FloatOps.ofBits (F := Ideal) .f32 0x3F800000#32))
      (broadcast S256x1024 (FloatOps.ofBits (F := Ideal) .f32 0x00000000#32))) (ix2 b r)
      = if ids (ix1 r) = BitVec.ofNat 32 b.val then (1 : EReal) else 0 := by
  rw [select_apply, broadcast_apply, broadcast_apply]
  show Scalar.select (IntOp.cmpi .eq (iota .tc S256x1024 32 [0] iota_S256x1024_d0_w32 (ix2 b r))
    (broadcastTo S256x1024 (shapeCast S1x1024 ids shapeCasts_S1024_S1x1024) broadcasts_S1x1024_S256x1024 (ix2 b r))) _ _ = _
  rw [iota_single_apply, broadcastTo_1b_ab_apply, shapeCast_a_1a_apply]
  show Scalar.select (IntOp.cmpi .eq (BitVec.ofNat 32 b.val) (ids (ix1 r)))
    (Ideal.ofBits .f32 0x3F800000#32) (Ideal.ofBits .f32 0x00000000#32) = _
  by_cases h : ids (ix1 r) = BitVec.ofNat 32 b.val
  · rw [if_pos h, cmpi_eq_one.mpr h.symm, select_one, one_f32]
  · rw [if_neg h, eq_zero_of_ne_one (fun hc => h (cmpi_eq_one.mp hc).symm), select_zero, Ideal.ofBits_zero_f32]

/-- The tile's update: the carried block plus, at (b, d), the sum over the tile's 1024 nodes of the one-hot entry
    times the node's feature d (at the ideal values a change of float format is the identity and the product into a
    zero accumulator is the sum over the contracted axis). -/
theorem pay2_apply (ids : Vec Ideal S1024 .i32) (rows : Vec Ideal S1024x64 .f32) (acc : Vec Ideal S256x64 .f32) (b : Fin 256) (d : Fin 64) :
    k1_pay2 (F := Ideal) ids rows acc (ix2 b d)
      = acc (ix2 b d) + ∑ r : Fin 1024, (if ids (ix1 r) = BitVec.ofNat 32 b.val then (1 : EReal) else 0) * rows (ix2 r d) := by
  unfold k1_pay2
  rw [addf_apply, shapeCast_self, shapeCast_self, shapeCast_self]
  congr 1
  refine (Ideal.matmul_constant_zero_apply dot_S256x1024_S1024x64_S256x64_1_0_0_1_n_n none _ _ (ix2 b d)).trans ?_
  rw [← Equiv.sum_comp (contrEquiv1 dot_S256x1024_S1024x64_S256x64_1_0_0_1_n_n 1024 rfl rfl).symm]
  refine Finset.sum_congr rfl fun r _ => ?_
  have hl : dot_S256x1024_S1024x64_S256x64_1_0_0_1_n_n.lhsIdx (ix2 b d)
      ((contrEquiv1 dot_S256x1024_S1024x64_S256x64_1_0_0_1_n_n 1024 rfl rfl).symm r) = ix2 b r :=
    Shape.idx_ext₂ (lhs_0 _ _) ((lhs_1 _ _).trans (contrEquiv1_symm_val _ _ _ _ r))
  have hr : dot_S256x1024_S1024x64_S256x64_1_0_0_1_n_n.rhsIdx (ix2 b d)
      ((contrEquiv1 dot_S256x1024_S1024x64_S256x64_1_0_0_1_n_n 1024 rfl rfl).symm r) = ix2 r d :=
    Shape.idx_ext₂ ((rhs_0 _ _).trans (contrEquiv1_symm_val _ _ _ _ r)) (rhs_1 _ _)
  rw [hl, hr, truncf_apply, truncf_apply, onehot_apply]

/-- The zero block reads zero everywhere. -/
theorem pay1_apply (i : S256x64.Idx) : k1_pay1 (F := Ideal) i = 0 := by
  unfold k1_pay1
  exact Ideal.ofBits_zero_f32

/-! ## The tiles' rows -/

/-- row 1024·j + r of the padded node arrays -/
def nrow (j : Fin 49) (r : Fin 1024) : Fin 50176 := ⟨1024 * j.val + r.val, by have := j.isLt; have := r.isLt; omega⟩

/-- Tile t's blocks of the two input arrays are the t-th blocks along the rows; the output's one block is the array. -/
theorem index_facts : ∀ t : Fin cfg1.N, win1_0.index t 0 = t.val ∧ win1_0.index t 1 = 0 ∧ win1_1.index t 0 = t.val
    ∧ win1_2.index t 0 = 0 ∧ win1_2.index t 1 = 0 :=
  (by decide +kernel : ∀ t : Fin grid1.N, win1_0.index t 0 = t.val ∧ win1_0.index t 1 = 0 ∧ win1_1.index t 0 = t.val
    ∧ win1_2.index t 0 = 0 ∧ win1_2.index t 1 = 0)

section AtEntry

-- the TensorCore's buffer contents when the region is entered
variable (V : (c : Dev nD) → (b : Ref sig .tc) → Buf (Elt Ideal) ((c : Thread nD τ).loc b))

/-- Row r of tile j's block of the node rows is row 1024·j + r of the array. -/
theorem iblk0_apply (c : Dev nD) (t : Fin cfg1.N) (j : Fin 49) (hj : j.val = t.val) (r : Fin 1024) (d : Fin 64) :
    (R1.iblk V c 0 t : Vec Ideal S1024x64 .f32) (ix2 r d) = (V c main_v38 : S50176x64.Idx → EReal) (ix2 (nrow j r) d) := by
  unfold R1.iblk
  rw [View.read_apply]
  show V c main_v38 _ = V c main_v38 _
  congr 1
  funext a
  apply Fin.ext
  match a with
  | ⟨0, _⟩ => show win1_0.index t 0 * 1024 + 1 * r.val = 1024 * j.val + r.val; rw [(index_facts t).1, hj]; omega
  | ⟨1, _⟩ => show win1_0.index t 1 * 64 + 1 * d.val = d.val; rw [(index_facts t).2.1]; omega

/-- Entry r of tile j's block of the graph ids is entry 1024·j + r of the array. -/
theorem iblk1_apply (c : Dev nD) (t : Fin cfg1.N) (j : Fin 49) (hj : j.val = t.val) (r : Fin 1024) :
    (R1.iblk V c 1 t : Vec Ideal S1024 .i32) (ix1 r) = (V c main_v39 : S50176.Idx → BitVec 32) (ix1 (nrow j r)) := by
  unfold R1.iblk
  rw [View.read_apply]
  show V c main_v39 _ = V c main_v39 _
  congr 1
  funext a
  apply Fin.ext
  match a with
  | ⟨0, _⟩ => show win1_1.index t 0 * 1024 + 1 * r.val = 1024 * j.val + r.val; rw [(index_facts t).2.2.1, hj]; omega

/-! ## The carried block, tile by tile -/

/-- Tile j's product at (b, d): over the tile's 1024 nodes, [the node's graph is b] times the node's feature d. -/
def tile (c : Dev nD) (b : Fin 256) (d : Fin 64) (j : Fin 49) : EReal :=
  ∑ r : Fin 1024,
    (if (V c main_v39 : S50176.Idx → BitVec 32) (ix1 (nrow j r)) = BitVec.ofNat 32 b.val then (1 : EReal) else 0)
      * (V c main_v38 : S50176x64.Idx → EReal) (ix2 (nrow j r) d)

/-- The body's update at tile j adds the tile's product to the block it is handed. -/
theorem step_apply (c : Dev nD) (t : Fin cfg1.N) (j : Fin 49) (hj : j.val = t.val) (acc : Vec Ideal S256x64 .f32) (b : Fin 256) (d : Fin 64) :
    k1_pay2 (F := Ideal) (R1.iblk V c 1 t) (R1.iblk V c 0 t) acc (ix2 b d) = acc (ix2 b d) + tile V c b d j := by
  refine (pay2_apply (R1.iblk V c 1 t) (R1.iblk V c 0 t) acc b d).trans ?_
  unfold tile
  congr 1
  refine Finset.sum_congr rfl fun r _ => ?_
  rw [iblk0_apply V c t j hj r d, iblk1_apply V c t j hj r]

/-- The sum of the first tiles' terms, one more tile at a time. -/
theorem partial_zero (T : Fin 49 → EReal) : (∑ j : Fin 49, if j.val ≤ 0 then T j else 0) = T 0 := by
  have e : ∀ j : Fin 49, (if j.val ≤ 0 then T j else 0) = if j = 0 then T j else 0 := fun j =>
    if_congr ⟨fun h => Fin.ext (Nat.le_zero.mp h), fun h => by rw [h]; exact Nat.le_refl _⟩ rfl rfl
  rw [Finset.sum_congr rfl fun j _ => e j, Finset.sum_ite_eq', if_pos (Finset.mem_univ _)]

theorem partial_succ (T : Fin 49 → EReal) (n : ℕ) (h : n + 1 < 49) :
    (∑ j : Fin 49, if j.val ≤ n + 1 then T j else 0) = (∑ j : Fin 49, if j.val ≤ n then T j else 0) + T ⟨n + 1, h⟩ := by
  have e : ∀ j : Fin 49, (if j.val ≤ n + 1 then T j else 0)
      = (if j.val ≤ n then T j else 0) + (if j = ⟨n + 1, h⟩ then T j else 0) := fun j => by
    by_cases h1 : j.val ≤ n
    · have h2 : ¬ j = ⟨n + 1, h⟩ := fun e => by rw [e] at h1; exact absurd h1 (Nat.not_succ_le_self n)
      rw [if_pos h1, if_pos (Nat.le_succ_of_le h1), if_neg h2, add_zero]
    · by_cases h2 : j = ⟨n + 1, h⟩
      · rw [if_neg h1, if_pos h2, if_pos (show j.val ≤ n + 1 by rw [h2]), zero_add]
      · have h3 : ¬ j.val ≤ n + 1 := fun h3 => h2 (Fin.ext (show j.val = n + 1 by omega))
        rw [if_neg h1, if_neg h2, if_neg h3, add_zero]
  rw [Finset.sum_congr rfl fun j _ => e j, Finset.sum_add_distrib, Finset.sum_ite_eq', if_pos (Finset.mem_univ _)]

theorem partial_all (T : Fin 49 → EReal) : (∑ j : Fin 49, if j.val ≤ 48 then T j else 0) = ∑ j : Fin 49, T j :=
  Finset.sum_congr rfl fun j _ => if_pos (by have := j.isLt; omega)

/-- After tile n the carried block holds, at (b, d), the sum of the products of tiles 0 … n. -/
theorem outsAt_apply (c : Dev nD) (b : Fin 256) (d : Fin 64) : ∀ (n : ℕ) (h : n < cfg1.N),
    (R1.outsAt V c n h : S256x64.Idx → EReal) (ix2 b d) = ∑ j : Fin 49, if j.val ≤ n then tile V c b d j else 0
  | 0, h => by
    show k1_pay2 (F := Ideal) (R1.iblk V c 1 ⟨0, h⟩) (R1.iblk V c 0 ⟨0, h⟩) (k1_pay1 (F := Ideal)) (ix2 b d) = _
    rw [step_apply V c ⟨0, h⟩ 0 rfl (k1_pay1 (F := Ideal)) b d, pay1_apply, zero_add, partial_zero]
  | n + 1, h => by
    have h49 : n + 1 < 49 := lt_of_lt_of_eq h N_1
    show k1_pay2 (F := Ideal) (R1.iblk V c 1 ⟨n + 1, h⟩) (R1.iblk V c 0 ⟨n + 1, h⟩)
      (R1.outsAt V c n (Nat.lt_of_succ_lt h)) (ix2 b d) = _
    rw [step_apply V c ⟨n + 1, h⟩ ⟨n + 1, h49⟩ rfl (R1.outsAt V c n (Nat.lt_of_succ_lt h)) b d,
      outsAt_apply c b d n (Nat.lt_of_succ_lt h), partial_succ _ n h49]

/-! ## From the carried block to the array -/

/-- The last tile, the one point where the output block is written back. -/
abbrev tLast : Fin cfg1.N := ⟨48, lt_of_lt_of_eq (by decide : 48 < 49) N_1.symm⟩

/-- What the output array ends holding: the carried block after the last tile (the one block is the whole array). -/
abbrev result (c : Dev nD) : Buf (Elt Ideal) ((c : Thread nD τ).loc main_v40) := R1.outsAt V c tLast.val tLast.isLt

/-- The one write-back, after the last tile, writes the carried block: block (0, 0) of the [256, 64] array, read
    through zero offsets, is the array. -/
theorem flushed_eq (c : Dev nD) (t : Fin cfg1.N) (hf : (cfg1.win 2).flush t = true) :
    (R1.dat V c).flushed 2 t = ((cfg1.win 2).blk t).view.read (Elt Ideal) (result V c) := by
  have hN : cfg1.N = 49 := N_1
  have h48 : t.val = 48 := by have := (flush1_2 t).mp hf; have := t.isLt; omega
  obtain rfl : t = tLast := Fin.ext h48
  show (cfg1.win 2).cut (grid1.coords tLast) ((R1.dat V c).after 2 tLast) = _
  rw [R1.after_out]
  have hz' : (fun a => win1_2.index tLast a * main_v40.ty.shape.size a) = fun _ => 0 :=
    funext fun a => by
      match a with
      | ⟨0, _⟩ => show win1_2.index tLast 0 * 256 = 0; rw [(index_facts tLast).2.2.2.1]
      | ⟨1, _⟩ => show win1_2.index tLast 1 * 64 = 0; rw [(index_facts tLast).2.2.2.2]
  exact (Memref.read_access_unit_zero (Elt Ideal) main_v40 hz' (fun a => by rw [congrFun hz' a]; simp) (result V c)).symm

/-- So the output array ends holding the carried block after the last tile: that tile's block covers the array. -/
theorem final_block (c : Dev nD) : (R1.dat V c).arrAt 2 cfg1.N = result V c :=
  (R1.dat V c).arrAt_eq_of_cover 2 (result V c) (flushed_eq V c) fun i =>
    ⟨tLast, (flush1_2 tLast).mpr rfl, by
      show i ∈ ((View.whole main_v40).slice (win1_2.rect tLast)).set
      rw [View.set_slice_whole, Rect.mem_set_unit]
      intro a
      have h0 : (i 0 : Nat) < 256 := (i 0).isLt
      have h1 : (i 1 : Nat) < 64 := (i 1).isLt
      match a with
      | ⟨0, _⟩ =>
        show win1_2.index tLast 0 * win1_2.size 0 ≤ (i 0 : Nat) ∧ (i 0 : Nat) < win1_2.index tLast 0 * win1_2.size 0 + win1_2.xsize (grid1.coords tLast) 0
        rw [(index_facts tLast).2.2.2.1, show win1_2.xsize (grid1.coords tLast) 0 = 256 from rfl]; omega
      | ⟨1, _⟩ =>
        show win1_2.index tLast 1 * win1_2.size 1 ≤ (i 1 : Nat) ∧ (i 1 : Nat) < win1_2.index tLast 1 * win1_2.size 1 + win1_2.xsize (grid1.coords tLast) 1
        rw [(index_facts tLast).2.2.2.2, show win1_2.xsize (grid1.coords tLast) 1 = 64 from rfl]; omega⟩

end AtEntry

/-- THE RESULT of the node pass at the ideal values: entry (b, d) of the output array is the sum, over the 49 · 1024
    padded nodes, of [the node's graph is b] times the node's feature d. -/
theorem final (V : (c : Dev nD) → (b : Ref sig .tc) → Buf (Elt Ideal) ((c : Thread nD τ).loc b)) (c : Dev nD) (b : Fin 256) (d : Fin 64) :
    ((R1.dat (F := Ideal) V c).arrAt 2 cfg1.N : S256x64.Idx → EReal) (ix2 b d)
      = ∑ j : Fin 49, ∑ r : Fin 1024,
          (if (V c main_v39 : S50176.Idx → BitVec 32) (ix1 (nrow j r)) = BitVec.ofNat 32 b.val then (1 : EReal) else 0)
          * (V c main_v38 : S50176x64.Idx → EReal) (ix2 (nrow j r) d) := by
  rw [final_block V c]
  show (R1.outsAt V c 48 tLast.isLt : S256x64.Idx → EReal) (ix2 b d) = _
  rw [outsAt_apply V c b d 48 tLast.isLt, partial_all]
  rfl

end Cert.KernelIdeal.R1Value

end
-- ==== Proof.Spec.lean ====
/-
  The mathematics of the certificate, stated once over plain index types and extended reals.

  A graph batch has 800000 edges with 64 features each (`a`), every edge pointing at one of 50000 nodes (`idx`, a
  32-bit word per edge), every node belonging to one of 256 graphs (`bat`, a word per node) and carrying 64 features
  (`x`). The reference averages edge features per node, then those node averages per graph (a mean of means), and the
  node features per graph; the kernel reaches the same two tables by one weighted pass over the edges (each edge
  weighted by the reciprocal of its node's edge count and sent to its node's graph) and one pass over the nodes, both
  over arrays padded to whole tiles. The three layers that follow (affine map, positive part, normalisation over the
  256 rows) are the same function of the concatenated table on both sides.
-/
import Idealize.ShloMosaic.PureOps.Ideal
import Idealize.ShloMosaic.Lib.ValueIdx

noncomputable section

namespace Cert.Spec

open Idealize.ShloMosaic Idealize.ShloMosaic.ValueIdx

/-! ## Arrays as functions of their coordinates -/

variable {α : Type}

/-- A vector read by its coordinate. -/
def v1 {a : ℕ} (x : (⟨1, ![a]⟩ : Shape).Idx → α) : Fin a → α := fun i => x (ix1 i)
/-- A matrix read by its two coordinates. -/
def v2 {a b : ℕ} (x : (⟨2, ![a, b]⟩ : Shape).Idx → α) : Fin a → Fin b → α := fun i j => x (ix2 i j)
/-- Row 0 of the two-row index array: the node each edge points at. -/
def row0 {n : ℕ} (x : (⟨2, ![2, n]⟩ : Shape).Idx → α) : Fin n → α := fun e => x (ix2 (0 : Fin 2) e)

/-! ## Counts and means over the graph -/

/-- The word naming row `n`. -/
abbrev word (n : ℕ) : BitVec 32 := BitVec.ofNat 32 n

/-- How many edges point at node `n`. -/
def cntE (idx : Fin 800000 → BitVec 32) (n : Fin 50000) : EReal :=
  ∑ e : Fin 800000, if idx e = word n.val then (1 : EReal) else 0

/-- How many nodes belong to graph `b`. -/
def cntN (bat : Fin 50000 → BitVec 32) (b : Fin 256) : EReal :=
  ∑ n : Fin 50000, if bat n = word b.val then (1 : EReal) else 0

/-- The reference's node table: the mean of the features of the edges pointing at node `n` (the sum over no edge is 0,
    the count then clamped to 1). -/
def refNode (a : Fin 800000 → Fin 64 → EReal) (idx : Fin 800000 → BitVec 32) (n : Fin 50000) (d : Fin 64) : EReal :=
  Ideal.div (∑ e : Fin 800000, if idx e = word n.val then a e d else 0) (max (cntE idx n) 1)

/-- The reference's edge-derived graph table: the mean over graph `b`'s nodes of the node table. -/
def refUe (a : Fin 800000 → Fin 64 → EReal) (idx : Fin 800000 → BitVec 32) (bat : Fin 50000 → BitVec 32)
    (b : Fin 256) (d : Fin 64) : EReal :=
  Ideal.div (∑ n : Fin 50000, if bat n = word b.val then refNode a idx n d else 0) (max (cntN bat b) 1)

/-- The reference's node-derived graph table: the mean over graph `b`'s nodes of the node features. -/
def refUv (x : Fin 50000 → Fin 64 → EReal) (bat : Fin 50000 → BitVec 32) (b : Fin 256) (d : Fin 64) : EReal :=
  Ideal.div (∑ n : Fin 50000, if bat n = word b.val then x n d else 0) (max (cntN bat b) 1)

/-! ## The kernel's passes over padded arrays -/

/-- Row `(98·k + j)·4096 + r` of the padded edge arrays: core `k`, tile `j`, row `r` of the tile. -/
def erow (k : Fin 2) (j : Fin 98) (r : Fin 4096) : Fin 802816 :=
  ⟨(98 * k.val + j.val) * 4096 + r.val, by have := k.isLt; have := j.isLt; have := r.isLt; omega⟩

/-- Row `1024·j + r` of the padded node arrays. -/
def nrow (j : Fin 49) (r : Fin 1024) : Fin 50176 :=
  ⟨1024 * j.val + r.val, by have := j.isLt; have := r.isLt; omega⟩

/-- An edge's weight: the reciprocal of the (clamped) edge count of the node it points at; `hin` says every edge
    points at a node. -/
def kerW (idx : Fin 800000 → BitVec 32) (hin : ∀ e, (idx e).toNat < 50000) (e : Fin 800000) : EReal :=
  Ideal.div 1 (max (cntE idx ⟨(idx e).toNat, hin e⟩) 1)

/-- An edge's target: the graph of the node it points at. -/
def kerT (idx : Fin 800000 → BitVec 32) (hin : ∀ e, (idx e).toNat < 50000) (bat : Fin 50000 → BitVec 32)
    (e : Fin 800000) : BitVec 32 :=
  bat ⟨(idx e).toNat, hin e⟩

/-- The edge features padded with zero rows. -/
def padA (a : Fin 800000 → Fin 64 → EReal) (i : Fin 802816) (d : Fin 64) : EReal :=
  if h : i.val < 800000 then a ⟨i.val, h⟩ d else 0
/-- The weights padded with zeros. -/
def padW (w : Fin 800000 → EReal) (i : Fin 802816) : EReal := if h : i.val < 800000 then w ⟨i.val, h⟩ else 0
/-- The targets padded with the word 0. -/
def padT (t : Fin 800000 → BitVec 32) (i : Fin 802816) : BitVec 32 := if h : i.val < 800000 then t ⟨i.val, h⟩ else 0#32
/-- The node features padded with zero rows. -/
def padX (x : Fin 50000 → Fin 64 → EReal) (i : Fin 50176) (d : Fin 64) : EReal :=
  if h : i.val < 50000 then x ⟨i.val, h⟩ d else 0
/-- The graph ids padded with the word 256, which names no graph. -/
def padB (bat : Fin 50000 → BitVec 32) (i : Fin 50176) : BitVec 32 := if h : i.val < 50000 then bat ⟨i.val, h⟩ else 256#32

/-- What core `k` accumulates for graph `b`: over its 98 tiles of 4096 padded edges, the weight of each edge whose
    target is `b` times the edge's feature. -/
def kerPart (aP : Fin 802816 → Fin 64 → EReal) (wP : Fin 802816 → EReal) (tP : Fin 802816 → BitVec 32)
    (k : Fin 2) (b : Fin 256) (d : Fin 64) : EReal :=
  ∑ j : Fin 98, ∑ r : Fin 4096, (if tP (erow k j r) = word b.val then wP (erow k j r) else 0) * aP (erow k j r) d

/-- The kernel's edge-derived graph table. -/
def kerUe (a : Fin 800000 → Fin 64 → EReal) (idx : Fin 800000 → BitVec 32) (hin : ∀ e, (idx e).toNat < 50000)
    (bat : Fin 50000 → BitVec 32) (b : Fin 256) (d : Fin 64) : EReal :=
  Ideal.div (∑ k : Fin 2, kerPart (padA a) (padW (kerW idx hin)) (padT (kerT idx hin bat)) k b d) (max (cntN bat b) 1)

/-- What the node pass accumulates for graph `b`: over 49 tiles of 1024 padded nodes. -/
def kerNodeSum (xP : Fin 50176 → Fin 64 → EReal) (bP : Fin 50176 → BitVec 32) (b : Fin 256) (d : Fin 64) : EReal :=
  ∑ j : Fin 49, ∑ r : Fin 1024, (if bP (nrow j r) = word b.val then (1 : EReal) else 0) * xP (nrow j r) d

/-- The kernel's node-derived graph table. -/
def kerUv (x : Fin 50000 → Fin 64 → EReal) (bat : Fin 50000 → BitVec 32) (b : Fin 256) (d : Fin 64) : EReal :=
  Ideal.div (kerNodeSum (padX x) (padB bat) b d) (max (cntN bat b) 1)

/-! ## The three layers -/

/-- The word 256.0 and the word of the variance offset, as both programs print them. -/
abbrev c256 : EReal := Ideal.ofBits .f32 0x43800000#32
abbrev ceps : EReal := Ideal.ofBits .f32 0x3727C5AC#32

/-- The affine map followed by the positive part: row `r` of `h` against row `o` of `W`, plus `b o`. -/
def lin {K : ℕ} (h : Fin 256 → Fin K → EReal) (W : Fin 64 → Fin K → EReal) (b : Fin 64 → EReal) (r : Fin 256) (o : Fin 64) : EReal :=
  max ((∑ k : Fin K, h r k * W o k) + b o) 0

/-- The mean of column `o` over the 256 rows. -/
def mean (y : Fin 256 → Fin 64 → EReal) (o : Fin 64) : EReal := Ideal.div (∑ r : Fin 256, y r o) c256

/-- The (biased) variance of column `o`. -/
def var (y : Fin 256 → Fin 64 → EReal) (o : Fin 64) : EReal :=
  Ideal.div (∑ r : Fin 256, (y r o - mean y o) * (y r o - mean y o)) c256

/-- The normalisation over the rows, scaled by `g` and shifted by `be`. -/
def bn (y : Fin 256 → Fin 64 → EReal) (g be : Fin 64 → EReal) (r : Fin 256) (o : Fin 64) : EReal :=
  (y r o - mean y o) * Ideal.rsqrt (var y o + ceps) * g o + be o

/-- One layer. -/
def layer {K : ℕ} (h : Fin 256 → Fin K → EReal) (W : Fin 64 → Fin K → EReal) (b g be : Fin 64 → EReal) : Fin 256 → Fin 64 → EReal :=
  bn (lin h W b) g be

/-- The three layers over the concatenated table. -/
def mlp (comb : Fin 256 → Fin 192 → EReal) (W0 : Fin 64 → Fin 192 → EReal) (b0 g0 be0 : Fin 64 → EReal)
    (W1 : Fin 64 → Fin 64 → EReal) (b1 g1 be1 : Fin 64 → EReal) (W2 : Fin 64 → Fin 64 → EReal) (b2 g2 be2 : Fin 64 → EReal) :
    Fin 256 → Fin 64 → EReal :=
  layer (layer (layer comb W0 b0 g0 be0) W1 b1 g1 be1) W2 b2 g2 be2

/-- The concatenated table: the edge-derived, the node-derived and the given graph features side by side. -/
def comb (ue uv u : Fin 256 → Fin 64 → EReal) (r : Fin 256) (k : Fin 192) : EReal :=
  if h : k.val < 64 then ue r ⟨k.val, h⟩
  else if h' : k.val < 128 then uv r ⟨k.val - 64, by omega⟩
  else u r ⟨k.val - 128, by have := k.isLt; omega⟩

end Cert.Spec

end
-- ==== Proof.KI.R2Value.lean ====
/-
  Region 2, the value: at the ideal values the array the three layers write holds, at row r and column o,
  the three layers (affine map, positive part, normalisation over the 256 rows) of the concatenated table and the
  twelve parameter arrays, as the region finds them.
-/
import proofs.«414252_j62689342653099_3_alg».proof.Proof.KI.R2Data
import proofs.«414252_j62689342653099_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.R2Value

open Idealize.ShloMosaic Idealize.ShloMosaic.TcCoe Idealize.SL.Sem
open Idealize.ShloMosaic.Pipeline (Dat)
open Idealize.ShloMosaic.ValueIdx
open Cert.KernelIdeal Cert.KernelIdeal.Gen

/-! ## The stages of a layer, as the payloads spell them -/

/-- A vector of 64 laid under each of the 256 rows. -/
def rows (b : Vec Ideal S64 .f32) : FVec Ideal S256x64 .f32 :=
  broadcastTo S256x64 (shapeCast S1x64 b shapeCasts_S64_S1x64) broadcasts_S1x64_S256x64

/-- A bias added to every row, then the positive part. -/
def affRelu (p : FVec Ideal S256x64 .f32) (b : Vec Ideal S64 .f32) : FVec Ideal S256x64 .f32 :=
  maximumf (addf p (rows b)) (broadcast S256x64 (Scalar.ofBits .f32 0x00000000#32 : Ideal .f32))

/-- The first layer's product: rows of the table against rows of the weights, over 192 columns. -/
def mm192 (h : Vec Ideal S256x192 .f32) (W : Vec Ideal S64x192 .f32) : FVec Ideal S256x64 .f32 :=
  matmul dot_S256x192_S64x192_S256x64_1_1_0_0_n_n none
    (truncf .bf16 (shapeCast S256x192 h shapeCasts_S256x192_S256x192 : FVec Ideal S256x192 .f32) bitsLt_bf16_f32)
    (truncf .bf16 (W : FVec Ideal S64x192 .f32) bitsLt_bf16_f32) (constant S256x64 .f32 0x00000000#32)

/-- The later layers' product, over 64 columns. -/
def mm64 (h : FVec Ideal S256x64 .f32) (W : Vec Ideal S64x64 .f32) : FVec Ideal S256x64 .f32 :=
  matmul dot_S256x64_S64x64_S256x64_1_1_0_0_n_n none
    (truncf .bf16 h bitsLt_bf16_f32) (truncf .bf16 (W : FVec Ideal S64x64 .f32) bitsLt_bf16_f32)
    (constant S256x64 .f32 0x00000000#32)

/-- The sum of each column over the 256 rows. -/
def colsum (y : FVec Ideal S256x64 .f32) : FVec Ideal S64 .f32 :=
  multiReduction (F := Ideal) .add [0] S64 y 0x00000000#32 reduces_S256x64_S64 (.inl rfl) rfl

/-- The mean of each column, as a row. -/
def colmean (y : FVec Ideal S256x64 .f32) : FVec Ideal S1x64 .f32 :=
  divf (shapeCast S1x64 (colsum y) shapeCasts_S64_S1x64)
    (broadcast S1x64 (Scalar.ofBits .f32 0x43800000#32 : Ideal .f32))

/-- Each entry less its column's mean. -/
def center (y : FVec Ideal S256x64 .f32) : FVec Ideal S256x64 .f32 :=
  subf y (broadcastTo S256x64 (colmean y) broadcasts_S1x64_S256x64)

/-- The variance of each column, as a row. -/
def colvar (y : FVec Ideal S256x64 .f32) : FVec Ideal S1x64 .f32 :=
  divf (shapeCast S1x64 (colsum (mulf (center y) (center y))) shapeCasts_S64_S1x64)
    (broadcast S1x64 (Scalar.ofBits .f32 0x43800000#32 : Ideal .f32))

/-- The normalisation over the rows, scaled by g and shifted by be. -/
def bnV (y : FVec Ideal S256x64 .f32) (g be : Vec Ideal S64 .f32) : FVec Ideal S256x64 .f32 :=
  addf (mulf (mulf (center y)
      (broadcastTo S256x64
        (rsqrt (addf (colvar y) (broadcast S1x64 (Scalar.ofBits .f32 0x3727C5AC#32 : Ideal .f32))))
        broadcasts_S1x64_S256x64))
    (rows g)) (rows be)

/-! ## The payloads are those stages -/

theorem pay2_eq (x0 : Vec Ideal S256x192 .f32) (x1 : Vec Ideal S64x192 .f32) (x2 x3 x4 : Vec Ideal S64 .f32)
    (x5 : Vec Ideal S64x64 .f32) :
    k2_pay2 (F := Ideal) x0 x1 x2 x3 x4 x5 = mm64 (bnV (affRelu (mm192 x0 x1) x2) x3 x4) x5 := rfl

theorem pay3_eq (v : FVec Ideal S256x64 .f32) (x6 x7 x8 : Vec Ideal S64 .f32) (x9 : Vec Ideal S64x64 .f32)
    (x10 : Vec Ideal S64 .f32) :
    k2_pay3 (F := Ideal) v x6 x7 x8 x9 x10 = affRelu (mm64 (bnV (affRelu v x6) x7 x8) x9) x10 := rfl

theorem pay4_eq (v : FVec Ideal S256x64 .f32) (x6 x7 x8 : Vec Ideal S64 .f32) (x9 : Vec Ideal S64x64 .f32)
    (x10 : Vec Ideal S64 .f32) :
    k2_pay4 (F := Ideal) v x6 x7 x8 x9 x10
      = shapeCast S1x64 (colsum (k2_pay3 (F := Ideal) v x6 x7 x8 x9 x10)) shapeCasts_S64_S1x64 := rfl

theorem pay1_eq (y : FVec Ideal S256x64 .f32) (g be : Vec Ideal S64 .f32) :
    k2_pay1 (F := Ideal) y (shapeCast S1x64 (colsum y) shapeCasts_S64_S1x64)
      (Scalar.ofBits .f32 0x43800000#32) g be = bnV y g be := rfl

/-- The block the body stores is the three layers, stage by stage. -/
theorem out_eq (x0 : Vec Ideal S256x192 .f32) (x1 : Vec Ideal S64x192 .f32) (x2 x3 x4 : Vec Ideal S64 .f32)
    (x5 : Vec Ideal S64x64 .f32) (x6 x7 x8 : Vec Ideal S64 .f32) (x9 : Vec Ideal S64x64 .f32)
    (x10 x11 x12 : Vec Ideal S64 .f32) :
    R2.out (F := Ideal) x0 x1 x2 x3 x4 x5 x6 x7 x8 x9 x10 x11 x12
      = bnV (affRelu (mm64 (bnV (affRelu (mm64 (bnV (affRelu (mm192 x0 x1) x2) x3 x4) x5) x6) x7 x8) x9) x10)
          x11 x12 := by
  unfold R2.out
  rw [pay4_eq, pay3_eq, pay2_eq, pay1_eq]

/-! ## The layout operations at an index -/

theorem rows_apply (b : S64.Idx → EReal) (r : Fin 256) (o : Fin 64) : rows b (ix2 r o) = b (ix1 o) :=
  (broadcastTo_1b_ab_apply (shapeCast S1x64 b shapeCasts_S64_S1x64) broadcasts_S1x64_S256x64 r o).trans
    (shapeCast_a_1a_apply b shapeCasts_S64_S1x64 (0 : Fin 1) o)

/-- The column sum at column o is the sum over the rows. -/
theorem colsum_apply (y : S256x64.Idx → EReal) (o : Fin 64) : colsum y (ix1 o) = ∑ r : Fin 256, y (ix2 r o) := by
  unfold colsum
  refine (Ideal.multiReduction_add_single (φ := .f32) y 0x00000000#32 reduces_S256x64_S64 (.inl rfl) rfl
    (ix1 o)).trans ?_
  refine Finset.sum_congr rfl fun k _ => congrArg y ?_
  funext a
  apply Fin.ext
  match a with
  | ⟨0, _⟩ => rfl
  | ⟨1, _⟩ => rfl

theorem rowcast_colsum (y : S256x64.Idx → EReal) (o : Fin 64) :
    shapeCast S1x64 (colsum y) shapeCasts_S64_S1x64 (ix2 (0 : Fin 1) o) = ∑ r : Fin 256, y (ix2 r o) :=
  (shapeCast_a_1a_apply (colsum y) shapeCasts_S64_S1x64 (0 : Fin 1) o).trans (colsum_apply y o)

/-! ## The products' operand indices -/

theorem lhs192_0 (j : S256x64.Idx) (q : dot_S256x192_S64x192_S256x64_1_1_0_0_n_n.contr.Idx) :
    (dot_S256x192_S64x192_S256x64_1_1_0_0_n_n.lhsIdx j q 0).val = (j 0).val := by
  unfold DotDims.lhsIdx
  rw [dif_neg (show ¬(0 : Fin S256x192.rank) ∈ dot_S256x192_S64x192_S256x64_1_1_0_0_n_n.lhsBatch by decide),
    dif_pos (show (0 : Fin S256x192.rank) ∈ dot_S256x192_S64x192_S256x64_1_1_0_0_n_n.lhsNonContracting by decide)]
  rfl
theorem lhs192_1 (j : S256x64.Idx) (q : dot_S256x192_S64x192_S256x64_1_1_0_0_n_n.contr.Idx) :
    (dot_S256x192_S64x192_S256x64_1_1_0_0_n_n.lhsIdx j q 1).val = (q ⟨0, by decide⟩).val :=
  dot_S256x192_S64x192_S256x64_1_1_0_0_n_n.lhsIdx_val_of_single rfl j q
theorem rhs192_0 (j : S256x64.Idx) (q : dot_S256x192_S64x192_S256x64_1_1_0_0_n_n.contr.Idx) :
    (dot_S256x192_S64x192_S256x64_1_1_0_0_n_n.rhsIdx j q 0).val = (j 1).val := by
  unfold DotDims.rhsIdx
  rw [dif_neg (show ¬(0 : Fin S64x192.rank) ∈ dot_S256x192_S64x192_S256x64_1_1_0_0_n_n.rhsBatch by decide),
    dif_pos (show (0 : Fin S64x192.rank) ∈ dot_S256x192_S64x192_S256x64_1_1_0_0_n_n.rhsNonContracting by decide)]
  rfl
theorem rhs192_1 (j : S256x64.Idx) (q : dot_S256x192_S64x192_S256x64_1_1_0_0_n_n.contr.Idx) :
    (dot_S256x192_S64x192_S256x64_1_1_0_0_n_n.rhsIdx j q 1).val = (q ⟨0, by decide⟩).val :=
  dot_S256x192_S64x192_S256x64_1_1_0_0_n_n.rhsIdx_val_of_single rfl j q

theorem lhs192 (r : Fin 256) (o : Fin 64) (k : Fin 192) :
    dot_S256x192_S64x192_S256x64_1_1_0_0_n_n.lhsIdx (ix2 r o)
      ((contrEquiv1 dot_S256x192_S64x192_S256x64_1_1_0_0_n_n 192 rfl rfl).symm k) = ix2 r k := by
  funext a
  apply Fin.ext
  match a with
  | ⟨0, _⟩ => exact lhs192_0 _ _
  | ⟨1, _⟩ => exact (lhs192_1 _ _).trans (contrEquiv1_symm_val dot_S256x192_S64x192_S256x64_1_1_0_0_n_n 192 rfl rfl k)
theorem rhs192 (r : Fin 256) (o : Fin 64) (k : Fin 192) :
    dot_S256x192_S64x192_S256x64_1_1_0_0_n_n.rhsIdx (ix2 r o)
      ((contrEquiv1 dot_S256x192_S64x192_S256x64_1_1_0_0_n_n 192 rfl rfl).symm k) = ix2 o k := by
  funext a
  apply Fin.ext
  match a with
  | ⟨0, _⟩ => exact rhs192_0 _ _
  | ⟨1, _⟩ => exact (rhs192_1 _ _).trans (contrEquiv1_symm_val dot_S256x192_S64x192_S256x64_1_1_0_0_n_n 192 rfl rfl k)

theorem lhs64_0 (j : S256x64.Idx) (q : dot_S256x64_S64x64_S256x64_1_1_0_0_n_n.contr.Idx) :
    (dot_S256x64_S64x64_S256x64_1_1_0_0_n_n.lhsIdx j q 0).val = (j 0).val := by
  unfold DotDims.lhsIdx
  rw [dif_neg (show ¬(0 : Fin S256x64.rank) ∈ dot_S256x64_S64x64_S256x64_1_1_0_0_n_n.lhsBatch by decide),
    dif_pos (show (0 : Fin S256x64.rank) ∈ dot_S256x64_S64x64_S256x64_1_1_0_0_n_n.lhsNonContracting by decide)]
  rfl
theorem lhs64_1 (j : S256x64.Idx) (q : dot_S256x64_S64x64_S256x64_1_1_0_0_n_n.contr.Idx) :
    (dot_S256x64_S64x64_S256x64_1_1_0_0_n_n.lhsIdx j q 1).val = (q ⟨0, by decide⟩).val :=
  dot_S256x64_S64x64_S256x64_1_1_0_0_n_n.lhsIdx_val_of_single rfl j q
theorem rhs64_0 (j : S256x64.Idx) (q : dot_S256x64_S64x64_S256x64_1_1_0_0_n_n.contr.Idx) :
    (dot_S256x64_S64x64_S256x64_1_1_0_0_n_n.rhsIdx j q 0).val = (j 1).val := by
  unfold DotDims.rhsIdx
  rw [dif_neg (show ¬(0 : Fin S64x64.rank) ∈ dot_S256x64_S64x64_S256x64_1_1_0_0_n_n.rhsBatch by decide),
    dif_pos (show (0 : Fin S64x64.rank) ∈ dot_S256x64_S64x64_S256x64_1_1_0_0_n_n.rhsNonContracting by decide)]
  rfl
theorem rhs64_1 (j : S256x64.Idx) (q : dot_S256x64_S64x64_S256x64_1_1_0_0_n_n.contr.Idx) :
    (dot_S256x64_S64x64_S256x64_1_1_0_0_n_n.rhsIdx j q 1).val = (q ⟨0, by decide⟩).val :=
  dot_S256x64_S64x64_S256x64_1_1_0_0_n_n.rhsIdx_val_of_single rfl j q

theorem lhs64 (r : Fin 256) (o : Fin 64) (k : Fin 64) :
    dot_S256x64_S64x64_S256x64_1_1_0_0_n_n.lhsIdx (ix2 r o)
      ((contrEquiv1 dot_S256x64_S64x64_S256x64_1_1_0_0_n_n 64 rfl rfl).symm k) = ix2 r k := by
  funext a
  apply Fin.ext
  match a with
  | ⟨0, _⟩ => exact lhs64_0 _ _
  | ⟨1, _⟩ => exact (lhs64_1 _ _).trans (contrEquiv1_symm_val dot_S256x64_S64x64_S256x64_1_1_0_0_n_n 64 rfl rfl k)
theorem rhs64 (r : Fin 256) (o : Fin 64) (k : Fin 64) :
    dot_S256x64_S64x64_S256x64_1_1_0_0_n_n.rhsIdx (ix2 r o)
      ((contrEquiv1 dot_S256x64_S64x64_S256x64_1_1_0_0_n_n 64 rfl rfl).symm k) = ix2 o k := by
  funext a
  apply Fin.ext
  match a with
  | ⟨0, _⟩ => exact rhs64_0 _ _
  | ⟨1, _⟩ => exact (rhs64_1 _ _).trans (contrEquiv1_symm_val dot_S256x64_S64x64_S256x64_1_1_0_0_n_n 64 rfl rfl k)

/-! ## The stages at an index -/

/-- The first product at (r, o): row r of the table against row o of the weights. -/
theorem mm192_apply (h : S256x192.Idx → EReal) (W : S64x192.Idx → EReal) (r : Fin 256) (o : Fin 64) :
    mm192 h W (ix2 r o) = ∑ k : Fin 192, h (ix2 r k) * W (ix2 o k) := by
  unfold mm192
  refine (Ideal.matmul_constant_zero_apply dot_S256x192_S64x192_S256x64_1_1_0_0_n_n none _ _ (ix2 r o)).trans ?_
  refine (Equiv.sum_comp (contrEquiv1 dot_S256x192_S64x192_S256x64_1_1_0_0_n_n 192 rfl rfl).symm _).symm.trans ?_
  refine Finset.sum_congr rfl fun k _ => ?_
  rw [lhs192 r o k, rhs192 r o k]
  show shapeCast S256x192 h shapeCasts_S256x192_S256x192 (ix2 r k) * W (ix2 o k) = _
  rw [shapeCast_self]

/-- The later products at (r, o). -/
theorem mm64_apply (h : S256x64.Idx → EReal) (W : S64x64.Idx → EReal) (r : Fin 256) (o : Fin 64) :
    mm64 h W (ix2 r o) = ∑ k : Fin 64, h (ix2 r k) * W (ix2 o k) := by
  unfold mm64
  refine (Ideal.matmul_constant_zero_apply dot_S256x64_S64x64_S256x64_1_1_0_0_n_n none _ _ (ix2 r o)).trans ?_
  refine (Equiv.sum_comp (contrEquiv1 dot_S256x64_S64x64_S256x64_1_1_0_0_n_n 64 rfl rfl).symm _).symm.trans ?_
  refine Finset.sum_congr rfl fun k _ => ?_
  rw [lhs64 r o k, rhs64 r o k]
  rfl

theorem affRelu_apply (p : S256x64.Idx → EReal) (b : S64.Idx → EReal) (r : Fin 256) (o : Fin 64) :
    affRelu p b (ix2 r o) = max (p (ix2 r o) + b (ix1 o)) 0 := by
  have e : affRelu p b (ix2 r o) = max (p (ix2 r o) + rows b (ix2 r o)) (Ideal.ofBits .f32 0x00000000#32) := rfl
  rw [e, rows_apply, Ideal.ofBits_zero_f32]

theorem colmean_apply (y : S256x64.Idx → EReal) (o : Fin 64) :
    colmean y (ix2 (0 : Fin 1) o) = Spec.mean (Spec.v2 y) o := by
  have e : colmean y (ix2 (0 : Fin 1) o)
      = Ideal.div (shapeCast S1x64 (colsum y) shapeCasts_S64_S1x64 (ix2 (0 : Fin 1) o))
          (Ideal.ofBits .f32 0x43800000#32) := rfl
  rw [e, rowcast_colsum]
  rfl

theorem center_apply (y : S256x64.Idx → EReal) (r : Fin 256) (o : Fin 64) :
    center y (ix2 r o) = Spec.v2 y r o - Spec.mean (Spec.v2 y) o := by
  have e : center y (ix2 r o)
      = y (ix2 r o) - broadcastTo S256x64 (colmean y) broadcasts_S1x64_S256x64 (ix2 r o) := rfl
  rw [e, broadcastTo_1b_ab_apply (colmean y) broadcasts_S1x64_S256x64 r o, colmean_apply]
  rfl

theorem colvar_apply (y : S256x64.Idx → EReal) (o : Fin 64) :
    colvar y (ix2 (0 : Fin 1) o) = Spec.var (Spec.v2 y) o := by
  have e : colvar y (ix2 (0 : Fin 1) o)
      = Ideal.div (shapeCast S1x64 (colsum (mulf (center y) (center y))) shapeCasts_S64_S1x64 (ix2 (0 : Fin 1) o))
          (Ideal.ofBits .f32 0x43800000#32) := rfl
  rw [e, rowcast_colsum]
  unfold Spec.var
  refine congrArg (fun s => Ideal.div s Spec.c256) (Finset.sum_congr rfl fun r _ => ?_)
  show center y (ix2 r o) * center y (ix2 r o) = _
  rw [center_apply]

/-- The normalisation at (r, o). -/
theorem bnV_apply (y : S256x64.Idx → EReal) (g be : S64.Idx → EReal) (r : Fin 256) (o : Fin 64) :
    bnV y g be (ix2 r o) = Spec.bn (Spec.v2 y) (Spec.v1 g) (Spec.v1 be) r o := by
  have e : bnV y g be (ix2 r o)
      = center y (ix2 r o)
          * broadcastTo S256x64
              (rsqrt (addf (colvar y) (broadcast S1x64 (Scalar.ofBits .f32 0x3727C5AC#32 : Ideal .f32))))
              broadcasts_S1x64_S256x64 (ix2 r o)
          * rows g (ix2 r o) + rows be (ix2 r o) := rfl
  have e2 : rsqrt (addf (colvar y) (broadcast S1x64 (Scalar.ofBits .f32 0x3727C5AC#32 : Ideal .f32)))
        (ix2 (0 : Fin 1) o)
      = Ideal.rsqrt (colvar y (ix2 (0 : Fin 1) o) + Spec.ceps) := rfl
  rw [e, broadcastTo_1b_ab_apply _ broadcasts_S1x64_S256x64 r o, e2, rows_apply, rows_apply, center_apply,
    colvar_apply]
  rfl

/-! ## The stages as the specification's functions -/

theorem lin192_eq (h : S256x192.Idx → EReal) (W : S64x192.Idx → EReal) (b : S64.Idx → EReal) :
    Spec.v2 (affRelu (mm192 h W) b) = Spec.lin (Spec.v2 h) (Spec.v2 W) (Spec.v1 b) := by
  funext r o
  show affRelu (mm192 h W) b (ix2 r o) = _
  rw [affRelu_apply, mm192_apply]
  rfl

theorem lin64_eq (h : S256x64.Idx → EReal) (W : S64x64.Idx → EReal) (b : S64.Idx → EReal) :
    Spec.v2 (affRelu (mm64 h W) b) = Spec.lin (Spec.v2 h) (Spec.v2 W) (Spec.v1 b) := by
  funext r o
  show affRelu (mm64 h W) b (ix2 r o) = _
  rw [affRelu_apply, mm64_apply]
  rfl

theorem bn_eq (y : S256x64.Idx → EReal) (g be : S64.Idx → EReal) :
    Spec.v2 (bnV y g be) = Spec.bn (Spec.v2 y) (Spec.v1 g) (Spec.v1 be) := by
  funext r o
  exact bnV_apply y g be r o

/-- The block the body stores, at (r, o), is the three layers of the thirteen blocks. -/
theorem out_apply (x0 : S256x192.Idx → EReal) (x1 : S64x192.Idx → EReal) (x2 x3 x4 : S64.Idx → EReal)
    (x5 : S64x64.Idx → EReal) (x6 x7 x8 : S64.Idx → EReal) (x9 : S64x64.Idx → EReal)
    (x10 x11 x12 : S64.Idx → EReal) (r : Fin 256) (o : Fin 64) :
    R2.out (F := Ideal) x0 x1 x2 x3 x4 x5 x6 x7 x8 x9 x10 x11 x12 (ix2 r o)
      = Spec.mlp (Spec.v2 x0) (Spec.v2 x1) (Spec.v1 x2) (Spec.v1 x3) (Spec.v1 x4) (Spec.v2 x5) (Spec.v1 x6)
          (Spec.v1 x7) (Spec.v1 x8) (Spec.v2 x9) (Spec.v1 x10) (Spec.v1 x11) (Spec.v1 x12) r o := by
  rw [out_eq]
  show Spec.v2 (bnV (affRelu (mm64 (bnV (affRelu (mm64 (bnV (affRelu (mm192 x0 x1) x2) x3 x4) x5) x6) x7 x8) x9)
    x10) x11 x12) r o = _
  rw [bn_eq, lin64_eq, bn_eq, lin64_eq, bn_eq, lin192_eq]
  rfl

/-! ## From the blocks to the arrays: one point, every block the whole of its array -/

section AtV
variable (V : (c : Dev nD) → (b : Ref sig .tc) → Buf (Elt Ideal) ((c : Thread nD τ).loc b))

theorem iblk0 (c : Dev nD) : R2.iblk V c 0 t2_0 = V c main_v46 := by
  have hz : (fun a => (win2_0.index t2_0) a * main_v46.ty.shape.size a) = fun _ => 0 :=
    funext fun a => by fin_cases a <;> decide
  exact Memref.read_access_unit_zero (Elt Ideal) main_v46 hz _ _
theorem iblk1 (c : Dev nD) : R2.iblk V c 1 t2_0 = V c main_arg5 := by
  have hz : (fun a => (win2_1.index t2_0) a * main_arg5.ty.shape.size a) = fun _ => 0 :=
    funext fun a => by fin_cases a <;> decide
  exact Memref.read_access_unit_zero (Elt Ideal) main_arg5 hz _ _
theorem iblk2 (c : Dev nD) : R2.iblk V c 2 t2_0 = V c main_arg6 := by
  have hz : (fun a => (win2_2.index t2_0) a * main_arg6.ty.shape.size a) = fun _ => 0 :=
    funext fun a => by fin_cases a <;> decide
  exact Memref.read_access_unit_zero (Elt Ideal) main_arg6 hz _ _
theorem iblk3 (c : Dev nD) : R2.iblk V c 3 t2_0 = V c main_arg11 := by
  have hz : (fun a => (win2_3.index t2_0) a * main_arg11.ty.shape.size a) = fun _ => 0 :=
    funext fun a => by fin_cases a <;> decide
  exact Memref.read_access_unit_zero (Elt Ideal) main_arg11 hz _ _
theorem iblk4 (c : Dev nD) : R2.iblk V c 4 t2_0 = V c main_arg12 := by
  have hz : (fun a => (win2_4.index t2_0) a * main_arg12.ty.shape.size a) = fun _ => 0 :=
    funext fun a => by fin_cases a <;> decide
  exact Memref.read_access_unit_zero (Elt Ideal) main_arg12 hz _ _
theorem iblk5 (c : Dev nD) : R2.iblk V c 5 t2_0 = V c main_arg7 := by
  have hz : (fun a => (win2_5.index t2_0) a * main_arg7.ty.shape.size a) = fun _ => 0 :=
    funext fun a => by fin_cases a <;> decide
  exact Memref.read_access_unit_zero (Elt Ideal) main_arg7 hz _ _
theorem iblk6 (c : Dev nD) : R2.iblk V c 6 t2_0 = V c main_arg8 := by
  have hz : (fun a => (win2_6.index t2_0) a * main_arg8.ty.shape.size a) = fun _ => 0 :=
    funext fun a => by fin_cases a <;> decide
  exact Memref.read_access_unit_zero (Elt Ideal) main_arg8 hz _ _
theorem iblk7 (c : Dev nD) : R2.iblk V c 7 t2_0 = V c main_arg13 := by
  have hz : (fun a => (win2_7.index t2_0) a * main_arg13.ty.shape.size a) = fun _ => 0 :=
    funext fun a => by fin_cases a <;> decide
  exact Memref.read_access_unit_zero (Elt Ideal) main_arg13 hz _ _
theorem iblk8 (c : Dev nD) : R2.iblk V c 8 t2_0 = V c main_arg14 := by
  have hz : (fun a => (win2_8.index t2_0) a * main_arg14.ty.shape.size a) = fun _ => 0 :=
    funext fun a => by fin_cases a <;> decide
  exact Memref.read_access_unit_zero (Elt Ideal) main_arg14 hz _ _
theorem iblk9 (c : Dev nD) : R2.iblk V c 9 t2_0 = V c main_arg9 := by
  have hz : (fun a => (win2_9.index t2_0) a * main_arg9.ty.shape.size a) = fun _ => 0 :=
    funext fun a => by fin_cases a <;> decide
  exact Memref.read_access_unit_zero (Elt Ideal) main_arg9 hz _ _
theorem iblk10 (c : Dev nD) : R2.iblk V c 10 t2_0 = V c main_arg10 := by
  have hz : (fun a => (win2_10.index t2_0) a * main_arg10.ty.shape.size a) = fun _ => 0 :=
    funext fun a => by fin_cases a <;> decide
  exact Memref.read_access_unit_zero (Elt Ideal) main_arg10 hz _ _
theorem iblk11 (c : Dev nD) : R2.iblk V c 11 t2_0 = V c main_arg15 := by
  have hz : (fun a => (win2_11.index t2_0) a * main_arg15.ty.shape.size a) = fun _ => 0 :=
    funext fun a => by fin_cases a <;> decide
  exact Memref.read_access_unit_zero (Elt Ideal) main_arg15 hz _ _
theorem iblk12 (c : Dev nD) : R2.iblk V c 12 t2_0 = V c main_arg16 := by
  have hz : (fun a => (win2_12.index t2_0) a * main_arg16.ty.shape.size a) = fun _ => 0 :=
    funext fun a => by fin_cases a <;> decide
  exact Memref.read_access_unit_zero (Elt Ideal) main_arg16 hz _ _

/-- What the region leaves in its result array: the stored block of the thirteen arrays as the region finds them. -/
abbrev result (c : Dev nD) : S256x64.Idx → EReal :=
  R2.out (F := Ideal) (V c main_v46) (V c main_arg5) (V c main_arg6) (V c main_arg11) (V c main_arg12)
    (V c main_arg7) (V c main_arg8) (V c main_arg13) (V c main_arg14) (V c main_arg9) (V c main_arg10)
    (V c main_arg15) (V c main_arg16)

/-- The one point writes the whole result back: the array ends at the stored block. -/
theorem final_eq (c : Dev nD) : (R2.dat V c).arrAt 13 cfg2.N = result V c := by
  have hz : (fun a => (win2_13.index t2_0) a * main_v47.ty.shape.size a) = fun _ => 0 :=
    funext fun a => by fin_cases a <;> decide
  have hN : cfg2.N = t2_0.val + 1 := N_2
  refine (congrArg ((R2.dat V c).arrAt 13) hN).trans ?_
  refine ((R2.dat V c).arrAt_succ 13 t2_0).trans ?_
  rw [if_pos (flush2_13 t2_0)]
  refine (Memref.write_access_unit_zero_univ (Elt Ideal) main_v47 hz _ _ _).trans ?_
  show (cfg2.win 13).cut (grid2.coords t2_0) ((R2.dat V c).after 13 t2_0) = _
  rw [R2.after_out, iblk0, iblk1, iblk2, iblk3, iblk4, iblk5, iblk6, iblk7, iblk8, iblk9, iblk10, iblk11, iblk12]
  rfl

/-- The result array after the region, at row r and column o: the three layers of the concatenated table. -/
theorem final (c : Dev nD) (r : Fin 256) (o : Fin 64) :
    ((R2.dat (F := Ideal) V c).arrAt 13 cfg2.N : S256x64.Idx → EReal) (ix2 r o)
      = Spec.mlp (Spec.v2 (V c main_v46 : S256x192.Idx → EReal))
          (Spec.v2 (V c main_arg5 : S64x192.Idx → EReal)) (Spec.v1 (V c main_arg6 : S64.Idx → EReal))
          (Spec.v1 (V c main_arg11 : S64.Idx → EReal)) (Spec.v1 (V c main_arg12 : S64.Idx → EReal))
          (Spec.v2 (V c main_arg7 : S64x64.Idx → EReal)) (Spec.v1 (V c main_arg8 : S64.Idx → EReal))
          (Spec.v1 (V c main_arg13 : S64.Idx → EReal)) (Spec.v1 (V c main_arg14 : S64.Idx → EReal))
          (Spec.v2 (V c main_arg9 : S64x64.Idx → EReal)) (Spec.v1 (V c main_arg10 : S64.Idx → EReal))
          (Spec.v1 (V c main_arg15 : S64.Idx → EReal)) (Spec.v1 (V c main_arg16 : S64.Idx → EReal)) r o := by
  rw [final_eq]
  exact out_apply (V c main_v46) (V c main_arg5) (V c main_arg6) (V c main_arg11) (V c main_arg12)
    (V c main_arg7) (V c main_arg8) (V c main_arg13) (V c main_arg14) (V c main_arg9) (V c main_arg10)
    (V c main_arg15) (V c main_arg16) r o

end AtV

end Cert.KernelIdeal.R2Value

end
-- ==== Proof.LibScatterRows.lean ====
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Idealize.ShloMosaic.Lib.StableHlo.Predicate
import Idealize.ShloMosaic.Lib.Pipeline.Value

noncomputable section

open scoped BigOperators
open Idealize.ShloMosaic Idealize.ShloMosaic.ValueIdx

namespace Cert.Lib.ScatterRows

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- A 32-bit word reads, signed, as the natural number n below 2^31 exactly when it is the word of n. -/
theorem toInt_eq_natCast_iff (w : BitVec 32) (n : ℕ) (hn : n < 2 ^ 31) :
    w.toInt = (n : ℤ) ↔ w = BitVec.ofNat 32 n := by
  constructor
  · intro h
    have := BitVec.ofInt_toInt (x := w)
    rw [h, BitVec.ofInt_natCast] at this
    exact this.symm
  · rintro rfl
    exact StableHlo.Predicate.toInt_ofNat_small n hn

/-- An update lands on operand index i exactly when, on every axis, its signed start plus its window coordinate
    is i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · next hb =>
      intro a
      have := congrFun (Option.some.inj h) a
      have hv := congrArg Fin.val this
      simp only at hv
      have := hb a
      omega
    · exact absurd h (by simp)
  · intro h
    have hb : ∀ a, 0 ≤ d.start j idx a + (d.window j a : ℤ) ∧ d.start j idx a + (d.window j a : ℤ) < s.size a := by
      intro a
      rw [h a]
      have := (i a).isLt
      omega
    rw [dif_pos hb]
    congr 1
    funext a
    apply Fin.ext
    show (d.start j idx a + (d.window j a : ℤ)).toNat = (i a).val
    rw [h a]
    simp

/-- The host's accumulating scatter read at an index: the operand's element plus the sum of the updates that land on it,
    an update landing there exactly when start plus window coordinate is the index on every axis. -/
theorem scatterAdd_apply {s si u : Shape} (d : ScatterDims s si u) {w : ℕ} (x : s.Idx → EReal) (idx : IVec si w)
    (upd : u.Idx → EReal) (i : s.Idx) [DecidablePred fun j : u.Idx => ∀ a, d.start j idx a + (d.window j a : ℤ) = ((i a).val : ℤ)] :
    Host.scatterAdd (F := Ideal) (φ := .f32) d x idx upd i
      = x i + ∑ j : u.Idx, if (∀ a, d.start j idx a + (d.window j a : ℤ) = ((i a).val : ℤ)) then upd j else 0 := by
  show Ideal.hostScatterAdd d x idx upd i = _
  unfold Ideal.hostScatterAdd
  congr 1
  rw [Finset.sum_filter]
  refine Finset.sum_congr rfl fun j _ => ?_
  simp only [resultIdx?_eq_some_iff]

/-! ## A vector operand: one scalar per update -/

section Vec
variable {N E : ℕ}

/-- With update_window_dims [], inserted_window_dims [0], scatter_dims_to_operand_dims [0] and index_vector_dim 1, the
    start of update e on the operand's axis is the index word of row e, read signed. -/
theorem start_vec (wf : ScatterDims.WF (⟨1, ![N]⟩ : Shape) ⟨2, ![E, 1]⟩ ⟨1, ![E]⟩ [] [0] [0] 1)
    (idx : IVec ⟨2, ![E, 1]⟩ 32) (j : (⟨1, ![E]⟩ : Shape).Idx) :
    (⟨[], [0], [0], 1, wf⟩ : ScatterDims (⟨1, ![N]⟩ : Shape) ⟨2, ![E, 1]⟩ ⟨1, ![E]⟩).start j idx 0
      = (idx (ix2 (j 0) 0)).toInt := by
  unfold ScatterDims.start
  rw [dif_pos (List.mem_singleton.mpr rfl)]
  congr 2
  funext b
  refine Fin.ext ?_
  match b with
  | ⟨0, _⟩ => rfl
  | ⟨1, _⟩ => rfl

/-- … and its window coordinate there is 0: the axis is inserted. -/
theorem window_vec (wf : ScatterDims.WF (⟨1, ![N]⟩ : Shape) ⟨2, ![E, 1]⟩ ⟨1, ![E]⟩ [] [0] [0] 1)
    (j : (⟨1, ![E]⟩ : Shape).Idx) :
    (⟨[], [0], [0], 1, wf⟩ : ScatterDims (⟨1, ![N]⟩ : Shape) ⟨2, ![E, 1]⟩ ⟨1, ![E]⟩).window j 0 = 0 := by
  unfold ScatterDims.window
  rw [dif_neg (fun h => by
    have := (List.mem_filter.1 h).2
    simp at this)]

/-- a row scatter-add into a vector: element n ends at its start value plus the sum of the updates of the positions whose index word names n -/
theorem scatterAdd_vec (hN : N < 2 ^ 31) (d : ScatterDims (⟨1, ![N]⟩ : Shape) ⟨2, ![E, 1]⟩ ⟨1, ![E]⟩)
    (hu : d.updateWindowDims = []) (hi : d.insertedWindowDims = [0]) (hs : d.scatterDimsToOperandDims = [0]) (hv : d.indexVectorDim = 1)
    (x : (⟨1, ![N]⟩ : Shape).Idx → EReal) (idx : IVec ⟨2, ![E, 1]⟩ 32) (upd : (⟨1, ![E]⟩ : Shape).Idx → EReal) (n : Fin N) :
    Host.scatterAdd (F := Ideal) (φ := .f32) d x idx upd (ix1 n)
      = x (ix1 n) + ∑ e : Fin E, if idx (ix2 e 0) = BitVec.ofNat 32 n.val then upd (ix1 e) else 0 := by
  obtain ⟨uw, iw, sd, iv, wf⟩ := d
  dsimp only at hu hi hs hv
  subst hu hi hs hv
  classical
  rw [scatterAdd_apply, sum_idx1]
  congr 1
  refine Finset.sum_congr rfl fun e _ => ?_
  refine if_congr ?_ rfl rfl
  rw [Fin.forall_fin_one, start_vec, window_vec]
  show (idx (ix2 e 0)).toInt + ((0 : ℕ) : ℤ) = (n.val : ℤ) ↔ _
  rw [Nat.cast_zero, add_zero]
  exact toInt_eq_natCast_iff _ _ (lt_trans n.isLt hN)

end Vec

/-! ## A matrix operand: one whole row per update -/

section Mat
variable {N E D : ℕ}

/-- With update_window_dims [1], inserted_window_dims [0], scatter_dims_to_operand_dims [0] and index_vector_dim 1, the
    start of update (e, c) on the operand's row axis is the index word of row e, read signed … -/
theorem start_mat0 (wf : ScatterDims.WF (⟨2, ![N, D]⟩ : Shape) ⟨2, ![E, 1]⟩ ⟨2, ![E, D]⟩ [1] [0] [0] 1)
    (idx : IVec ⟨2, ![E, 1]⟩ 32) (j : (⟨2, ![E, D]⟩ : Shape).Idx) :
    (⟨[1], [0], [0], 1, wf⟩ : ScatterDims (⟨2, ![N, D]⟩ : Shape) ⟨2, ![E, 1]⟩ ⟨2, ![E, D]⟩).start j idx 0
      = (idx (ix2 (j 0) 0)).toInt := by
  unfold ScatterDims.start
  rw [dif_pos (List.mem_singleton.mpr rfl)]
  congr 2
  funext b
  refine Fin.ext ?_
  match b with
  | ⟨0, _⟩ => rfl
  | ⟨1, _⟩ => rfl

/-- … and 0 on its column axis, which the map does not name; -/
theorem start_mat1 (wf : ScatterDims.WF (⟨2, ![N, D]⟩ : Shape) ⟨2, ![E, 1]⟩ ⟨2, ![E, D]⟩ [1] [0] [0] 1)
    (idx : IVec ⟨2, ![E, 1]⟩ 32) (j : (⟨2, ![E, D]⟩ : Shape).Idx) :
    (⟨[1], [0], [0], 1, wf⟩ : ScatterDims (⟨2, ![N, D]⟩ : Shape) ⟨2, ![E, 1]⟩ ⟨2, ![E, D]⟩).start j idx 1 = 0 := by
  unfold ScatterDims.start
  rw [dif_neg (fun h => by simp at h)]

/-- its window coordinate is 0 on the row axis (inserted) … -/
theorem window_mat0 (wf : ScatterDims.WF (⟨2, ![N, D]⟩ : Shape) ⟨2, ![E, 1]⟩ ⟨2, ![E, D]⟩ [1] [0] [0] 1)
    (j : (⟨2, ![E, D]⟩ : Shape).Idx) :
    (⟨[1], [0], [0], 1, wf⟩ : ScatterDims (⟨2, ![N, D]⟩ : Shape) ⟨2, ![E, 1]⟩ ⟨2, ![E, D]⟩).window j 0 = 0 := by
  unfold ScatterDims.window
  rw [dif_neg (fun h => by
    have := (List.mem_filter.1 h).2
    simp at this)]

/-- … and the update's column on the column axis. -/
theorem window_mat1 (wf : ScatterDims.WF (⟨2, ![N, D]⟩ : Shape) ⟨2, ![E, 1]⟩ ⟨2, ![E, D]⟩ [1] [0] [0] 1)
    (j : (⟨2, ![E, D]⟩ : Shape).Idx) :
    (⟨[1], [0], [0], 1, wf⟩ : ScatterDims (⟨2, ![N, D]⟩ : Shape) ⟨2, ![E, 1]⟩ ⟨2, ![E, D]⟩).window j 1 = (j 1).val := by
  unfold ScatterDims.window
  have h1 : (1 : Fin 2) ∈ (⟨[1], [0], [0], 1, wf⟩ : ScatterDims (⟨2, ![N, D]⟩ : Shape) ⟨2, ![E, 1]⟩ ⟨2, ![E, D]⟩).sKept :=
    List.mem_filter.2 ⟨List.mem_finRange _, by simp⟩
  rw [dif_pos h1]
  rfl

/-- a row scatter-add into a matrix, whole rows at a time (update_window_dims = [1]) -/
theorem scatterAdd_mat (hN : N < 2 ^ 31) (d : ScatterDims (⟨2, ![N, D]⟩ : Shape) ⟨2, ![E, 1]⟩ ⟨2, ![E, D]⟩)
    (hu : d.updateWindowDims = [1]) (hi : d.insertedWindowDims = [0]) (hs : d.scatterDimsToOperandDims = [0]) (hv : d.indexVectorDim = 1)
    (x : (⟨2, ![N, D]⟩ : Shape).Idx → EReal) (idx : IVec ⟨2, ![E, 1]⟩ 32) (upd : (⟨2, ![E, D]⟩ : Shape).Idx → EReal) (n : Fin N) (k : Fin D) :
    Host.scatterAdd (F := Ideal) (φ := .f32) d x idx upd (ix2 n k)
      = x (ix2 n k) + ∑ e : Fin E, if idx (ix2 e 0) = BitVec.ofNat 32 n.val then upd (ix2 e k) else 0 := by
  obtain ⟨uw, iw, sd, iv, wf⟩ := d
  dsimp only at hu hi hs hv
  subst hu hi hs hv
  classical
  rw [scatterAdd_apply, sum_idx2]
  congr 1
  refine Finset.sum_congr rfl fun e _ => ?_
  have hc : ∀ c : Fin D,
      (∀ a, (⟨[1], [0], [0], 1, wf⟩ : ScatterDims (⟨2, ![N, D]⟩ : Shape) ⟨2, ![E, 1]⟩ ⟨2, ![E, D]⟩).start (ix2 e c) idx a
          + (((⟨[1], [0], [0], 1, wf⟩ : ScatterDims (⟨2, ![N, D]⟩ : Shape) ⟨2, ![E, 1]⟩ ⟨2, ![E, D]⟩).window (ix2 e c) a : ℕ) : ℤ)
          = (((ix2 n k : (⟨2, ![N, D]⟩ : Shape).Idx) a).val : ℤ))
        ↔ (idx (ix2 e 0) = BitVec.ofNat 32 n.val ∧ c = k) := by
    intro c
    rw [Fin.forall_fin_two, start_mat0, start_mat1, window_mat0, window_mat1]
    show (idx (ix2 e 0)).toInt + ((0 : ℕ) : ℤ) = (n.val : ℤ) ∧ (0 : ℤ) + ((c.val : ℕ) : ℤ) = (k.val : ℤ) ↔ _
    rw [Nat.cast_zero, add_zero, zero_add, Nat.cast_inj, toInt_eq_natCast_iff _ _ (lt_trans n.isLt hN), Fin.val_inj]
  simp only [hc]
  by_cases h : idx (ix2 e 0) = BitVec.ofNat 32 n.val
  · simp only [h, true_and, if_true]
    rw [Finset.sum_ite_eq' Finset.univ k (fun c => upd (ix2 e c)), if_pos (Finset.mem_univ _)]
  · simp only [h, false_and, if_false, Finset.sum_const_zero]

end Mat

/-! ## The row gather -/

/-- a row gather out of a vector at an in-range start: the element the index word names -/
theorem gather_vec {α : Type} {N E : ℕ} (hN : N < 2 ^ 31) (d : GatherDims (⟨1, ![N]⟩ : Shape) ⟨2, ![E, 1]⟩ ⟨1, ![E]⟩)
    (ho : d.offsetDims = []) (hc : d.collapsedSliceDims = [0]) (hob : d.operandBatchingDims = []) (hsb : d.startIndicesBatchingDims = []) (hm : d.startIndexMap = [0]) (hv : d.indexVectorDim = 1) (hss : d.sliceSizes = ![1])
    (x : (⟨1, ![N]⟩ : Shape).Idx → α) (idx : IVec ⟨2, ![E, 1]⟩ 32) (e : Fin E) (hin : (idx (ix2 e 0)).toNat < N) :
    Host.gather d x idx (ix1 e) = x (ix1 ⟨(idx (ix2 e 0)).toNat, hin⟩) := by
  have hpos : 0 < N := lt_of_le_of_lt (Nat.zero_le _) hin
  have h1 : (ix1 e : (⟨1, ![E]⟩ : Shape).Idx) = Shape.Idx.ofFin e := by
    funext a
    match a with
    | ⟨0, _⟩ => rfl
  have h2 : (StableHlo.Predicate.ixP e : (⟨2, ![E, 1]⟩ : Shape).Idx) = ix2 e 0 := by
    funext a
    match a with
    | ⟨0, _⟩ => rfl
    | ⟨1, _⟩ => rfl
  rw [h1, StableHlo.Predicate.gather_take d hc hob hm hv x idx e hpos]
  congr 1
  funext a
  match a with
  | ⟨0, _⟩ =>
    apply Fin.ext
    show min (idx (StableHlo.Predicate.ixP e)).toInt.toNat (N - 1) = (idx (ix2 e 0)).toNat
    rw [h2, StableHlo.Predicate.toInt_eq_toNat_of_lt (lt_trans hin hN), Int.toNat_natCast]
    exact Nat.min_eq_left (by omega)

/-! ## Three matrices side by side -/

section Concat3
variable {α : Type} {R C0 C1 C2 T : ℕ}

/-- three matrices of one height laid side by side, read at (r, k): the piece the column falls in, at the column less the
    widths of the pieces before it -/
theorem concatenate3_cols (u0 : (⟨2, ![R, C0]⟩ : Shape).Idx → α) (u1 : (⟨2, ![R, C1]⟩ : Shape).Idx → α)
    (u2 : (⟨2, ![R, C2]⟩ : Shape).Idx → α) (hT : C0 + C1 + C2 = T)
    (h : Shape.Concatenates [(⟨2, ![R, C0]⟩ : Shape), ⟨2, ![R, C1]⟩, ⟨2, ![R, C2]⟩] ⟨2, ![R, T]⟩ 1) (r : Fin R) (k : Fin T) :
    concatenate ⟨2, ![R, T]⟩ 1 [⟨⟨2, ![R, C0]⟩, u0⟩, ⟨⟨2, ![R, C1]⟩, u1⟩, ⟨⟨2, ![R, C2]⟩, u2⟩] h (ix2 r k)
      = if h0 : k.val < C0 then u0 (ix2 r ⟨k.val, h0⟩)
        else if h1 : k.val - C0 < C1 then u1 (ix2 r ⟨k.val - C0, h1⟩)
        else u2 (ix2 r ⟨k.val - C0 - C1, by have := k.isLt; omega⟩) := by
  have hoff : ∀ (C : ℕ) (c : Fin C) (b : Fin (⟨2, ![R, C]⟩ : Shape).rank), b.cast (rfl : (2 : ℕ) = 2) ≠ (1 : Fin 2) →
      ((ix2 r c : (⟨2, ![R, C]⟩ : Shape).Idx) b).val = ((ix2 r k : (⟨2, ![R, T]⟩ : Shape).Idx) (b.cast rfl)).val := by
    intro C c b hb
    match b with
    | ⟨0, _⟩ => rfl
    | ⟨1, _⟩ => exact absurd rfl hb
  split
  · next h0 =>
    exact concatenate_apply_piece (t := ⟨2, ![R, T]⟩) 1 [⟨⟨2, ![R, C0]⟩, u0⟩, ⟨⟨2, ![R, C1]⟩, u1⟩, ⟨⟨2, ![R, C2]⟩, u2⟩] h (ix2 r k) 0 (by simp) _ u0 rfl rfl 0 (by simp) (ix2 r ⟨k.val, h0⟩)
      (hoff C0 _) (by show 0 + k.val = k.val; omega)
  · next h0 =>
    split
    · next h1 =>
      exact concatenate_apply_piece (t := ⟨2, ![R, T]⟩) 1 [⟨⟨2, ![R, C0]⟩, u0⟩, ⟨⟨2, ![R, C1]⟩, u1⟩, ⟨⟨2, ![R, C2]⟩, u2⟩] h (ix2 r k) 1 (by simp) _ u1 rfl rfl C0 (by simp) (ix2 r ⟨k.val - C0, h1⟩)
        (hoff C1 _) (by show C0 + (k.val - C0) = k.val; omega)
    · next h1 =>
      exact concatenate_apply_piece (t := ⟨2, ![R, T]⟩) 1 [⟨⟨2, ![R, C0]⟩, u0⟩, ⟨⟨2, ![R, C1]⟩, u1⟩, ⟨⟨2, ![R, C2]⟩, u2⟩] h (ix2 r k) 2 (by simp) _ u2 rfl rfl (C0 + C1) (by simp)
        (ix2 r ⟨k.val - C0 - C1, by have := k.isLt; omega⟩)
        (hoff C2 _) (by show C0 + C1 + (k.val - C0 - C1) = k.val; omega)

end Concat3

end Cert.Lib.ScatterRows

end
-- ==== Proof.KI.HostEdge.lean ====
/-
  The three arrays the first call is entered with, read off the host operations before it: the edge rows padded
  with zero rows, each edge's weight (the reciprocal of the clamped edge count of the node it points at) padded with
  zeros, and each edge's target (the graph of the node it points at) padded with the word 0. Every index is assumed
  to name a node, so the wrap of negative indices and the clamp inside the gather do nothing.
-/
import proofs.«414252_j62689342653099_3_alg».proof.Proof.Gen.KernelIdeal.Regions
import proofs.«414252_j62689342653099_3_alg».proof.Proof.Gen.KernelIdeal.Launch
import proofs.«414252_j62689342653099_3_alg».proof.Proof.Spec
import proofs.«414252_j62689342653099_3_alg».proof.Proof.LibScatterRows
import Idealize.ShloMosaic.Lib.StableHlo.Run
import Idealize.ShloMosaic.Lib.KernelVsHost
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws
import Idealize.ShloMosaic.Lib.IdealHost

noncomputable section

namespace Cert.KernelIdeal.HostEdge

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-! ## The host's operations before the first call, as functions of the arrays they read -/

/-- The node each edge points at: row 0 of the two-row index array, as a vector. -/
def idxOf (a3 : IVec S2x800000 32) : IVec S800000 32 :=
  shapeCast S800000 (extractStridedSlice S1x800000 ![0, 0] a3 slices_S2x800000_S1x800000_0_0) shapeCasts_S1x800000_S800000

/-- A negative index moved up by the number of nodes, any other index kept. -/
def wrapOf (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A vector of indices as a one-column table. -/
def colOf (v : IVec S800000 32) : IVec S800000x1 32 :=
  broadcastInDim S800000x1 ![0] bcast_S800000_S800000x1_0 v

/-- Ones added up at the node each edge points at, from zeros. -/
def cntOf (v : IVec S800000 32) : FVec Ideal S50000 .f32 :=
  Host.scatterAdd scatter_S50000_S800000x1_S800000_n_0_0_1
    (broadcastInDim S50000 ![] bcast_S_S50000 (constant S_ .f32 0x00000000#32))
    (colOf v)
    (broadcastInDim S800000 ![] bcast_S_S800000 (constant S_ .f32 0x3F800000#32))

/-- A table over the nodes read at the (wrapped) node of each edge. -/
def gathOf {α : Type} (x : S50000.Idx → α) (v : IVec S800000 32) : S800000.Idx → α :=
  Host.gather gather_S50000_S800000x1_S800000_n_0_n_n_0_1_1 x (colOf (wrapOf v))

/-- One over the count of each edge's node, the count clamped below by one. -/
def wOf (v : IVec S800000 32) : FVec Ideal S800000 .f32 :=
  Host.divf (broadcastInDim S800000 ![] bcast_S_S800000 (constant S_ .f32 0x3F800000#32))
    (maximumf (gathOf (cntOf v) v) (broadcastInDim S800000 ![] bcast_S_S800000 (constant S_ .f32 0x3F800000#32)))

/-! ## Each read at an index -/

theorem idxOf_apply (a3 : IVec S2x800000 32) (e : Fin 800000) : idxOf a3 (ix1 e) = a3 (ix2 (0 : Fin 2) e) := by
  unfold idxOf
  rw [shapeCast_apply _ _ (ix1 e) (ix2 (0 : Fin 1) e) (by
    rw [Shape.rowMajor_val_two, Shape.rowMajor_val_one]
    show 0 * 800000 + e.val = e.val
    omega)]
  exact extractStridedSlice_apply _ _ _ _ (ix2 (0 : Fin 2) e) (fun a => by
    match a with
    | ⟨0, _⟩ => rfl
    | ⟨1, _⟩ => show e.val = 0 + e.val; omega)

/-- A word below 2^31 is not negative, so the wrap keeps it. -/
theorem wrapOf_apply (v : IVec S800000 32) (e : Fin 800000) (h : (v (ix1 e)).toNat < 2 ^ 31) :
    wrapOf v (ix1 e) = v (ix1 e) := by
  show Scalar.select (IntOp.cmpi .slt (v (ix1 e)) 0#32) (IntOp.addi (v (ix1 e)) 50000#32) (v (ix1 e)) = v (ix1 e)
  unfold Scalar.select
  rw [if_neg]
  intro hc
  exact Nat.not_lt_zero _ ((StableHlo.Predicate.slt_iff_toNat h (by decide)).mp hc)

theorem colOf_apply (v : IVec S800000 32) (e : Fin 800000) : colOf v (ix2 e (0 : Fin 1)) = v (ix1 e) := by
  unfold colOf
  exact broadcastInDim_apply _ _ v _ (ix1 e) (fun a => by
    match a with
    | ⟨0, _⟩ => rfl)

/-- The count table is the number of edges pointing at each node. -/
theorem cntOf_apply (v : IVec S800000 32) (n : Fin 50000) : cntOf v (ix1 n) = Spec.cntE (Spec.v1 v) n := by
  unfold cntOf
  rw [Cert.Lib.ScatterRows.scatterAdd_vec (N := 50000) (E := 800000) (by norm_num) scatter_S50000_S800000x1_S800000_n_0_0_1 rfl rfl rfl rfl,
    broadcastInDim_scalar_apply, constant_apply, Ideal.ofBits_zero_f32, zero_add]
  unfold Spec.cntE
  refine Finset.sum_congr rfl fun e _ => ?_
  rw [colOf_apply, broadcastInDim_scalar_apply, constant_apply, Ideal.ofBits_one_f32]
  rfl

/-- At an edge whose index names a node, the gather reads the table at that node. -/
theorem gathOf_apply {α : Type} (x : S50000.Idx → α) (v : IVec S800000 32) (e : Fin 800000)
    (hin : (v (ix1 e)).toNat < 50000) : gathOf x v (ix1 e) = x (ix1 ⟨(v (ix1 e)).toNat, hin⟩) := by
  unfold gathOf
  have hw : colOf (wrapOf v) (ix2 e (0 : Fin 1)) = v (ix1 e) := by
    rw [colOf_apply, wrapOf_apply _ _ (by omega)]
  have key : ∀ (w : BitVec 32), colOf (wrapOf v) (ix2 e (0 : Fin 1)) = w →
      ∀ (h1 : (colOf (wrapOf v) (ix2 e (0 : Fin 1))).toNat < 50000) (h2 : w.toNat < 50000),
        x (ix1 ⟨(colOf (wrapOf v) (ix2 e (0 : Fin 1))).toNat, h1⟩) = x (ix1 ⟨w.toNat, h2⟩) := by
    intro w hw'
    subst hw'
    intro _ _
    rfl
  rw [Cert.Lib.ScatterRows.gather_vec (N := 50000) (E := 800000) (by norm_num) gather_S50000_S800000x1_S800000_n_0_n_n_0_1_1
    rfl rfl rfl rfl rfl rfl rfl x (colOf (wrapOf v)) e (by rw [hw]; exact hin)]
  exact key _ hw _ hin

theorem wOf_apply (v : IVec S800000 32) (idx : Fin 800000 → BitVec 32) (hidx : ∀ e, v (ix1 e) = idx e)
    (hin : ∀ e, (idx e).toNat < 50000) (e : Fin 800000) : wOf v (ix1 e) = Spec.kerW idx hin e := by
  obtain rfl : idx = Spec.v1 v := funext fun e => (hidx e).symm
  unfold wOf
  rw [hostDivf_apply, maximumf_apply, broadcastInDim_scalar_apply, constant_apply, Ideal.ofBits_one_f32,
    gathOf_apply (cntOf v) v e (hin e), cntOf_apply]
  rfl

theorem tOf_apply (a4 : IVec S50000 32) (v : IVec S800000 32) (idx : Fin 800000 → BitVec 32) (hidx : ∀ e, v (ix1 e) = idx e)
    (hin : ∀ e, (idx e).toNat < 50000) (e : Fin 800000) : gathOf a4 v (ix1 e) = Spec.kerT idx hin (Spec.v1 a4) e := by
  obtain rfl : idx = Spec.v1 v := funext fun e => (hidx e).symm
  rw [gathOf_apply a4 v e (hin e)]
  rfl

/-! ## The pads read at an index -/

theorem first_eq_ix0 : (Shape.Idx.first h_S_ : S_.Idx) = ix0 := funext fun a => a.elim0

/-- A vector padded to 802816 entries: the vector below 800000, the fill from there on. -/
theorem padVec_apply {α : Type} (x : S800000.Idx → α) (v : S_.Idx → α) (i : Fin 802816) :
    pad S802816 ![0] ![2816] ![0] x v pads_S800000_S802816_028160 h_S_ (ix1 i)
      = if h : i.val < 800000 then x (ix1 ⟨i.val, h⟩) else v ix0 := by
  by_cases h : i.val < 800000
  · rw [dif_pos h]
    exact pad_apply_of_inside _ _ _ x v _ _ (ix1 i) (ix1 ⟨i.val, h⟩) (fun a => by
      match a with
      | ⟨0, _⟩ => show i.val = 0 + i.val * (0 + 1); omega)
  · rw [dif_neg h, pad_apply_of_not_inside _ _ _ x v _ _ (ix1 i) (0 : Fin 1) (by
      rintro ⟨-, -, h3⟩
      have h3' : (i.val - 0) / (0 + 1) < 800000 := h3
      rw [Nat.sub_zero, Nat.zero_add, Nat.div_one] at h3'
      exact h h3'), first_eq_ix0]

/-- A table padded to 802816 rows: the table below row 800000, the fill from there on. -/
theorem padMat_apply {α : Type} (x : S800000x64.Idx → α) (v : S_.Idx → α) (i : Fin 802816) (d : Fin 64) :
    pad S802816x64 ![0, 0] ![2816, 0] ![0, 0] x v pads_S800000x64_S802816x64_028160_000 h_S_ (ix2 i d)
      = if h : i.val < 800000 then x (ix2 ⟨i.val, h⟩ d) else v ix0 := by
  by_cases h : i.val < 800000
  · rw [dif_pos h]
    exact pad_apply_of_inside _ _ _ x v _ _ (ix2 i d) (ix2 ⟨i.val, h⟩ d) (fun a => by
      match a with
      | ⟨0, _⟩ => show i.val = 0 + i.val * (0 + 1); omega
      | ⟨1, _⟩ => show d.val = 0 + d.val * (0 + 1); omega)
  · rw [dif_neg h, pad_apply_of_not_inside _ _ _ x v _ _ (ix2 i d) (0 : Fin 2) (by
      rintro ⟨-, -, h3⟩
      have h3' : (i.val - 0) / (0 + 1) < 800000 := h3
      rw [Nat.sub_zero, Nat.zero_add, Nat.div_one] at h3'
      exact h h3'), first_eq_ix0]

/-! ## The host stretches' results as terms over the buffers they read -/

section Stretches
variable (W : Valuation τ sig (Elt Ideal))

set_option maxHeartbeats 4000000 in
/-- The weights after the first stretch. -/
theorem after0_v16 :
    (StableHlo.after hostOps0 W (Proc.devRef .tc main_v16) : S800000.Idx → EReal)
      = wOf (idxOf (W main_arg3)) := by
  after_results
  rfl

set_option maxHeartbeats 4000000 in
/-- The targets after the first stretch. -/
theorem after0_v23 :
    (StableHlo.after hostOps0 W (Proc.devRef .tc main_v23) : S800000.Idx → BitVec 32)
      = gathOf (W main_arg4 : S50000.Idx → BitVec 32) (idxOf (W main_arg3)) := by
  after_results
  rfl

set_option maxHeartbeats 1000000 in
/-- The integer zero the first pad's fill is converted from. -/
theorem after0_c8 :
    (StableHlo.after hostOps0 W (Proc.devRef .tc main_c_8) : S_.Idx → BitVec 32) = constantI S_ 32 0#32 := by
  after_results

theorem after1_v28 :
    (StableHlo.after hostOps0_1 W (Proc.devRef .tc main_v28) : S802816x64.Idx → EReal)
      = pad S802816x64 ![0, 0] ![2816, 0] ![0, 0] (W main_arg1 : S800000x64.Idx → EReal)
          (sitofp (F := Ideal) .f32 (W main_c_8 : S_.Idx → BitVec 32)) pads_S800000x64_S802816x64_028160_000 h_S_ := by
  after_results
  rfl

theorem after2_cst9 :
    (StableHlo.after hostOps0_2 W (Proc.devRef .tc main_cst_9) : S_.Idx → EReal) = constant (F := Ideal) S_ .f32 0x00000000#32 := by
  after_results

theorem after3_v29 :
    (StableHlo.after hostOps0_3 W (Proc.devRef .tc main_v29) : S802816.Idx → EReal)
      = pad S802816 ![0] ![2816] ![0] (W main_v16 : S800000.Idx → EReal)
          (W main_cst_9 : S_.Idx → EReal) pads_S800000_S802816_028160 h_S_ := by
  after_results
  rfl

theorem after4_c10 :
    (StableHlo.after hostOps0_4 W (Proc.devRef .tc main_c_10) : S_.Idx → BitVec 32) = constantI S_ 32 0#32 := by
  after_results

theorem after5_v30 :
    (StableHlo.after hostOps0_5 W (Proc.devRef .tc main_v30) : S802816.Idx → BitVec 32)
      = pad S802816 ![0] ![2816] ![0] (W main_v23 : S800000.Idx → BitVec 32)
          (W main_c_10 : S_.Idx → BitVec 32) pads_S800000_S802816_028160 h_S_ := by
  after_results
  rfl

end Stretches

/-! ## The three arrays the first call is entered with -/

set_option quotPrecheck false in
local notation "A1" => (m ((c.tc : Thread nD τ).loc main_arg1) : S800000x64.Idx → EReal)
set_option quotPrecheck false in
local notation "A3" => (m ((c.tc : Thread nD τ).loc main_arg3) : S2x800000.Idx → BitVec 32)
set_option quotPrecheck false in
local notation "A4" => (m ((c.tc : Thread nD τ).loc main_arg4) : S50000.Idx → BitVec 32)

/-- the padded edge rows -/
theorem v28_apply (i : Fin 802816) (d : Fin 64) : (Gen.V6 m c main_v28 : S802816x64.Idx → EReal) (ix2 i d) = Spec.padA (Spec.v2 A1) i d := by
  have e0 : Gen.V6 m c main_v28 = Gen.V2 m c main_v28 :=
    (V6_of m c main_v28 (by decide)).trans <| (V5_of m c main_v28 (by decide)).trans <|
      (V4_of m c main_v28 (by decide)).trans (V3_of m c main_v28 (by decide))
  have e1 : (Gen.V1 m c main_arg1 : S800000x64.Idx → EReal) = A1 := V1_of m c main_arg1 (by decide)
  have e2 : (Gen.V1 m c main_c_8 : S_.Idx → BitVec 32) = constantI S_ 32 0#32 := after0_c8 (Gen.V0 m c)
  have e3 : (Gen.V6 m c main_v28 : S802816x64.Idx → EReal)
      = pad S802816x64 ![0, 0] ![2816, 0] ![0, 0] A1 (sitofp (F := Ideal) .f32 (constantI S_ 32 0#32)) pads_S800000x64_S802816x64_028160_000 h_S_ := by
    rw [e0, ← e1, ← e2]
    exact after1_v28 (Gen.V1 m c)
  rw [e3, padMat_apply]
  unfold Spec.padA
  by_cases h : i.val < 800000
  · rw [dif_pos h, dif_pos h]; rfl
  · rw [dif_neg h, dif_neg h]
    show ((((0#32 : BitVec 32).toInt : ℤ) : ℝ) : EReal) = 0
    simp

/-- the padded weights: the reciprocal of the clamped edge count of the node the edge points at -/
theorem v29_apply (hin : ∀ e, (Spec.row0 A3 e).toNat < 50000) (i : Fin 802816) : (Gen.V6 m c main_v29 : S802816.Idx → EReal) (ix1 i) = Spec.padW (Spec.kerW (Spec.row0 A3) hin) i := by
  have e0 : Gen.V6 m c main_v29 = Gen.V4 m c main_v29 :=
    (V6_of m c main_v29 (by decide)).trans (V5_of m c main_v29 (by decide))
  have e1 : (Gen.V3 m c main_v16 : S800000.Idx → EReal) = wOf (idxOf A3) :=
    (V3_of m c main_v16 (by decide)).trans <| (V2_of m c main_v16 (by decide)).trans (after0_v16 (Gen.V0 m c))
  have e2 : (Gen.V3 m c main_cst_9 : S_.Idx → EReal) = constant (F := Ideal) S_ .f32 0x00000000#32 := after2_cst9 (Gen.V2 m c)
  have e3 : (Gen.V6 m c main_v29 : S802816.Idx → EReal)
      = pad S802816 ![0] ![2816] ![0] (wOf (idxOf A3)) (constant (F := Ideal) S_ .f32 0x00000000#32) pads_S800000_S802816_028160 h_S_ := by
    rw [e0, ← e1, ← e2]
    exact after3_v29 (Gen.V3 m c)
  rw [e3, padVec_apply]
  unfold Spec.padW
  by_cases h : i.val < 800000
  · rw [dif_pos h, dif_pos h]
    exact wOf_apply _ _ (fun e => idxOf_apply A3 e) hin _
  · rw [dif_neg h, dif_neg h, constant_apply, Ideal.ofBits_zero_f32]

/-- the padded targets: the graph of the node the edge points at -/
theorem v30_apply (hin : ∀ e, (Spec.row0 A3 e).toNat < 50000) (i : Fin 802816) : (Gen.V6 m c main_v30 : S802816.Idx → BitVec 32) (ix1 i) = Spec.padT (Spec.kerT (Spec.row0 A3) hin (Spec.v1 A4)) i := by
  have e1 : (Gen.V5 m c main_v23 : S800000.Idx → BitVec 32) = gathOf A4 (idxOf A3) :=
    (V5_of m c main_v23 (by decide)).trans <| (V4_of m c main_v23 (by decide)).trans <|
      (V3_of m c main_v23 (by decide)).trans <| (V2_of m c main_v23 (by decide)).trans (after0_v23 (Gen.V0 m c))
  have e2 : (Gen.V5 m c main_c_10 : S_.Idx → BitVec 32) = constantI S_ 32 0#32 := after4_c10 (Gen.V4 m c)
  have e3 : (Gen.V6 m c main_v30 : S802816.Idx → BitVec 32)
      = pad S802816 ![0] ![2816] ![0] (gathOf A4 (idxOf A3)) (constantI S_ 32 0#32) pads_S800000_S802816_028160 h_S_ := by
    rw [← e1, ← e2]
    exact after5_v30 (Gen.V5 m c)
  rw [e3, padVec_apply]
  unfold Spec.padT
  by_cases h : i.val < 800000
  · rw [dif_pos h, dif_pos h]
    exact tOf_apply _ _ _ (fun e => idxOf_apply A3 e) hin _
  · rw [dif_neg h, dif_neg h, constantI_apply]

end Cert.KernelIdeal.HostEdge

end
-- ==== Proof.KI.HostGraph.lean ====
/-
  The host operations between and after the first two kernel calls, read at an index: the number of nodes of each
  graph (ones scattered at the graph ids), the sum of the two cores' partial tables divided by that count clamped
  below at one, the node-pass table divided likewise, the three 64-column tables laid side by side, and the node
  features and graph ids padded to whole tiles (zero rows; the word 256, which names no graph).
-/
import proofs.«414252_j62689342653099_3_alg».proof.Proof.Gen.KernelIdeal.Regions
import proofs.«414252_j62689342653099_3_alg».proof.Proof.Gen.KernelIdeal.Launch
import proofs.«414252_j62689342653099_3_alg».proof.Proof.Spec
import proofs.«414252_j62689342653099_3_alg».proof.Proof.LibScatterRows
import Idealize.ShloMosaic.Lib.StableHlo.Run
import Idealize.ShloMosaic.Lib.KernelVsHost
import Idealize.ShloMosaic.Lib.ValueIdx
import Idealize.ShloMosaic.Lib.IdealHost
import Idealize.ShloMosaic.Lib.Pipeline.Value
import Idealize.ShloMosaic.Lib.ValueLayout
import Idealize.ShloMosaic.Lib.StableHlo.Predicate
import Idealize.ShloMosaic.PureOps.Ideal.Laws

noncomputable section

namespace Cert.KernelIdeal.HostGraph

open Cert.KernelIdeal Cert.KernelIdeal.Gen Idealize.ShloMosaic Idealize.ShloMosaic.ValueIdx
open Idealize.ShloMosaic.StableHlo Idealize.ShloMosaic.TcCoe
open scoped BigOperators

variable (m : (ℓ : Loc nD τ sig) → Buf (Elt Ideal) ℓ) (c : Dev nD)

/-! ## Single operations read at an index -/

/-- A vector of 50000 words padded to 50176 with a fill word. -/
theorem padVec_apply (x : S50000.Idx → BitVec 32) (v : S_.Idx → BitVec 32) (i : Fin 50176) :
    pad S50176 ![0] ![176] ![0] x v pads_S50000_S50176_01760 h_S_ (ix1 i)
      = if h : i.val < 50000 then x (ix1 ⟨i.val, h⟩) else v ix0 := by
  by_cases h : i.val < 50000
  · rw [dif_pos h]
    refine pad_apply_of_inside _ _ _ x v _ _ (ix1 i) (ix1 ⟨i.val, h⟩) (fun a => ?_)
    match a with
    | ⟨0, _⟩ => show i.val = 0 + i.val * (0 + 1); omega
  · rw [dif_neg h]
    rw [pad_apply_of_not_inside _ _ _ x v _ _ (ix1 i) (0 : Fin 1) (fun hh => h ?_)]
    · exact congrArg v (eq_ix0 _)
    · have h3 := hh.2.2
      change (i.val - 0) / (0 + 1) < 50000 at h3
      simpa using h3

/-- A 50000-row matrix padded to 50176 rows with a fill value. -/
theorem padMat_apply (x : S50000x64.Idx → EReal) (v : S_.Idx → EReal) (i : Fin 50176) (d : Fin 64) :
    pad S50176x64 ![0, 0] ![176, 0] ![0, 0] x v pads_S50000x64_S50176x64_01760_000 h_S_ (ix2 i d)
      = if h : i.val < 50000 then x (ix2 ⟨i.val, h⟩ d) else v ix0 := by
  by_cases h : i.val < 50000
  · rw [dif_pos h]
    refine pad_apply_of_inside _ _ _ x v _ _ (ix2 i d) (ix2 ⟨i.val, h⟩ d) (fun a => ?_)
    match a with
    | ⟨0, _⟩ => show i.val = 0 + i.val * (0 + 1); omega
    | ⟨1, _⟩ => show d.val = 0 + d.val * (0 + 1); omega
  · rw [dif_neg h]
    rw [pad_apply_of_not_inside _ _ _ x v _ _ (ix2 i d) (0 : Fin 2) (fun hh => h ?_)]
    · exact congrArg v (eq_ix0 _)
    · have h3 := hh.2.2
      change (i.val - 0) / (0 + 1) < 50000 at h3
      simpa using h3

/-- A vector of 256 entries laid along the rows of a 256 × 64 table (the printed pair of broadcasts). -/
theorem bcastCol_apply {α : Type} (v : S256.Idx → α) (b : Fin 256) (d : Fin 64) :
    broadcastInDim S256x64 ![0, 1] bcast_S256x1_S256x64_0_1 (broadcastInDim S256x1 ![0] bcast_S256_S256x1_0 v) (ix2 b d)
      = v (ix1 b) := by
  rw [broadcastInDim_apply _ _ _ (ix2 b d) (ix2 b (0 : Fin 1)) (fun a => ?_)]
  · rw [broadcastInDim_apply _ _ _ (ix2 b (0 : Fin 1)) (ix1 b) (fun a => ?_)]
    match a with
    | ⟨0, _⟩ => show b.val = if (256 : ℕ) = 1 then 0 else b.val; rw [if_neg (by decide)]
  · match a with
    | ⟨0, _⟩ => show b.val = if (256 : ℕ) = 1 then 0 else b.val; rw [if_neg (by decide)]
    | ⟨1, _⟩ => show (0 : ℕ) = if (1 : ℕ) = 1 then 0 else d.val; rw [if_pos rfl]

/-- The index array of the node scatter: the graph id of each node as a one-column table. -/
theorem bcastIdx_apply {α : Type} (v : S50000.Idx → α) (n : Fin 50000) :
    broadcastInDim S50000x1 ![0] bcast_S50000_S50000x1_0 v (ix2 n (0 : Fin 1)) = v (ix1 n) := by
  rw [broadcastInDim_apply _ _ _ (ix2 n (0 : Fin 1)) (ix1 n) (fun a => ?_)]
  match a with
  | ⟨0, _⟩ => show n.val = if (50000 : ℕ) = 1 then 0 else n.val; rw [if_neg (by decide)]

/-- The host sum of the two cores' partial tables. -/
theorem reduce2_apply (x : S2x256x64.Idx → EReal) (init : S_.Idx → EReal) (b : Fin 256) (d : Fin 64) :
    Host.reduceAdd (F := Ideal) (φ := .f32) x init reducesTo_S2x256x64_S256x64_d0 h_S_ (ix2 b d)
      = init ix0 + ∑ k : Fin 2, x (ix3 k b d) := by
  rw [hostReduceAdd_apply, Ideal.hostReduceAdd_single _ (by decide : S2x256x64.Reduces [0] S256x64)]
  refine congrArg₂ (· + ·) (congrArg init (eq_ix0 _)) ?_
  refine Finset.sum_congr rfl fun k _ => congrArg x (funext fun a => ?_)
  match a with
  | ⟨0, _⟩ => rfl
  | ⟨1, _⟩ => rfl
  | ⟨2, _⟩ => rfl

theorem const0_apply : constant (F := Ideal) S_ .f32 0x00000000#32 ix0 = 0 := Ideal.ofBits_zero_f32
theorem const1_apply : constant (F := Ideal) S_ .f32 0x3F800000#32 ix0 = 1 := Ideal.ofBits_one_f32

/-- The word 0 converted to a float is 0. -/
theorem sitofp0_apply : (sitofp (F := Ideal) .f32 (constantI S_ 32 0#32) : S_.Idx → EReal) ix0 = 0 := by
  show (((0#32 : BitVec 32).toInt : ℝ) : EReal) = 0
  rw [show (0#32 : BitVec 32).toInt = 0 from rfl]; simp

/-- A table divided, row by row, by a count clamped below at one (the count broadcast along the rows as printed). -/
theorem mean_apply (num : S256x64.Idx → EReal) (cnt : S256.Idx → EReal) (b : Fin 256) (d : Fin 64) :
    Host.divf (F := Ideal) (φ := .f32) num (broadcastInDim S256x64 ![0, 1] bcast_S256x1_S256x64_0_1 (broadcastInDim S256x1 ![0] bcast_S256_S256x1_0
        (maximumf (F := Ideal) (φ := .f32) cnt (broadcastInDim S256 ![] bcast_S_S256 (constant (F := Ideal) S_ .f32 0x3F800000#32))))) (ix2 b d)
      = Ideal.div (num (ix2 b d)) (max (cnt (ix1 b)) 1) := by
  rw [hostDivf_apply, bcastCol_apply, maximumf_apply, broadcastInDim_scalar_apply, const1_apply]

/-- The three 64-column tables side by side, read at a column. -/
theorem concat3_apply (x0 x1 x2 : S256x64.Idx → EReal) (r : Fin 256) (k : Fin 192) :
    concatenate S256x192 1 [⟨S256x64, x0⟩, ⟨S256x64, x1⟩, ⟨S256x64, x2⟩]
        concatenates_S256x64_S256x64_S256x64_S256x192_d1 (ix2 r k)
      = Spec.comb (Spec.v2 x0) (Spec.v2 x1) (Spec.v2 x2) r k := by
  unfold Spec.comb
  by_cases h : k.val < 64
  · rw [dif_pos h]
    refine concatenate_apply_piece (1 : Fin 2) [⟨S256x64, x0⟩, ⟨S256x64, x1⟩, ⟨S256x64, x2⟩] _ (ix2 r k) 0 (by simp)
      S256x64 x0 rfl rfl 0 rfl (ix2 r ⟨k.val, h⟩) (fun b hb => ?_) (Nat.zero_add _)
    match b with
    | ⟨0, _⟩ => rfl
    | ⟨1, _⟩ => exact absurd (Fin.ext rfl) hb
  · rw [dif_neg h]
    by_cases h' : k.val < 128
    · rw [dif_pos h']
      refine concatenate_apply_piece (1 : Fin 2) [⟨S256x64, x0⟩, ⟨S256x64, x1⟩, ⟨S256x64, x2⟩] _ (ix2 r k) 1 (by simp)
        S256x64 x1 rfl rfl 64 rfl (ix2 r ⟨k.val - 64, by omega⟩) (fun b hb => ?_) ?_
      · match b with
        | ⟨0, _⟩ => rfl
        | ⟨1, _⟩ => exact absurd (Fin.ext rfl) hb
      · show 64 + (k.val - 64) = k.val; omega
    · rw [dif_neg h']
      refine concatenate_apply_piece (1 : Fin 2) [⟨S256x64, x0⟩, ⟨S256x64, x1⟩, ⟨S256x64, x2⟩] _ (ix2 r k) 2 (by simp)
        S256x64 x2 rfl rfl 128 rfl (ix2 r ⟨k.val - 128, by have := k.isLt; omega⟩) (fun b hb => ?_) ?_
      · match b with
        | ⟨0, _⟩ => rfl
        | ⟨1, _⟩ => exact absurd (Fin.ext rfl) hb
      · show 128 + (k.val - 128) = k.val; omega

/-- The node scatter read at a graph: the operand's entry plus the updates of the nodes whose id names the graph. -/
theorem scatterCount (x : S256.Idx → EReal) (idx : S50000x1.Idx → BitVec 32) (upd : S50000.Idx → EReal) (b : Fin 256) :
    Host.scatterAdd (F := Ideal) (φ := .f32) scatter_S256_S50000x1_S50000_n_0_0_1 x idx upd (ix1 b)
      = x (ix1 b) + ∑ n : Fin 50000, if idx (ix2 n (0 : Fin 1)) = BitVec.ofNat 32 b.val then upd (ix1 n) else 0 :=
  Cert.Lib.ScatterRows.scatterAdd_vec (N := 256) (E := 50000) (by norm_num) scatter_S256_S50000x1_S50000_n_0_0_1
    rfl rfl rfl rfl x idx upd b

/-- Ones scattered from zero at each node's graph id: the number of the graph's nodes. -/
theorem scatterOnes_apply (bat : S50000.Idx → BitVec 32) (b : Fin 256) :
    Host.scatterAdd (F := Ideal) (φ := .f32) scatter_S256_S50000x1_S50000_n_0_0_1
        (broadcastInDim S256 ![] bcast_S_S256 (constant (F := Ideal) S_ .f32 0x00000000#32))
        (broadcastInDim S50000x1 ![0] bcast_S50000_S50000x1_0 bat)
        (broadcastInDim S50000 ![] bcast_S_S50000 (constant (F := Ideal) S_ .f32 0x3F800000#32)) (ix1 b)
      = Spec.cntN (Spec.v1 bat) b := by
  rw [scatterCount, broadcastInDim_scalar_apply, const0_apply, zero_add]
  unfold Spec.cntN
  refine Finset.sum_congr rfl fun n _ => ?_
  rw [bcastIdx_apply, broadcastInDim_scalar_apply, const1_apply]
  rfl

/-! ## The valuations' buffers as terms over earlier buffers -/

variable (outs : Gen.Outs (F := Ideal))

/-- The node count per graph is written in the first host stretch and kept by every later item. -/
theorem V7_v27 : Gen.V7 m outs c main_v27 = Gen.V1 m c main_v27 :=
  (Gen.V7_of m outs c main_v27 (by decide)).trans <| (Gen.V6_of m c main_v27 (by decide)).trans <|
  (Gen.V5_of m c main_v27 (by decide)).trans <| (Gen.V4_of m c main_v27 (by decide)).trans <|
  (Gen.V3_of m c main_v27 (by decide)).trans <| (Gen.V2_of m c main_v27 (by decide))

theorem V12_v27 : Gen.V12 m outs c main_v27 = Gen.V1 m c main_v27 :=
  (Gen.V12_of m outs c main_v27 (by decide)).trans <| (Gen.V11_of m outs c main_v27 (by decide)).trans <|
  (Gen.V10_of m outs c main_v27 (by decide)).trans <| (Gen.V9_of m outs c main_v27 (by decide)).trans <|
  (Gen.V8_of m outs c main_v27 (by decide)).trans <| V7_v27 m c outs

theorem V1_v27_eq :
    (Gen.V1 m c main_v27 : S256.Idx → EReal)
      = Host.scatterAdd scatter_S256_S50000x1_S50000_n_0_0_1
          (broadcastInDim S256 ![] bcast_S_S256 (constant (F := Ideal) S_ .f32 0x00000000#32))
          (broadcastInDim S50000x1 ![0] bcast_S50000_S50000x1_0 (Gen.V0 m c main_arg4 : S50000.Idx → BitVec 32))
          (broadcastInDim S50000 ![] bcast_S_S50000 (constant (F := Ideal) S_ .f32 0x3F800000#32)) := by
  show StableHlo.after hostOps0 (Gen.V0 m c) (Proc.devRef .tc main_v27) = _
  after_results
  all_goals rfl

theorem V8_v37_eq :
    (Gen.V8 m outs c main_v37 : S256x64.Idx → EReal)
      = Host.divf
          (Host.reduceAdd (Gen.V7 m outs c main_v31 : S2x256x64.Idx → EReal) (constant (F := Ideal) S_ .f32 0x00000000#32)
            reducesTo_S2x256x64_S256x64_d0 h_S_)
          (broadcastInDim S256x64 ![0, 1] bcast_S256x1_S256x64_0_1 (broadcastInDim S256x1 ![0] bcast_S256_S256x1_0
            (maximumf (Gen.V7 m outs c main_v27 : S256.Idx → EReal)
              (broadcastInDim S256 ![] bcast_S_S256 (constant (F := Ideal) S_ .f32 0x3F800000#32))))) := by
  show StableHlo.after hostOps1 (Gen.V7 m outs c) (Proc.devRef .tc main_v37) = _
  after_results
  all_goals rfl

theorem V13_v45_eq :
    (Gen.V13 m outs c main_v45 : S256x64.Idx → EReal)
      = Host.divf (Gen.V12 m outs c main_v40 : S256x64.Idx → EReal)
          (broadcastInDim S256x64 ![0, 1] bcast_S256x1_S256x64_0_1 (broadcastInDim S256x1 ![0] bcast_S256_S256x1_0
            (maximumf (Gen.V12 m outs c main_v27 : S256.Idx → EReal)
              (broadcastInDim S256 ![] bcast_S_S256 (constant (F := Ideal) S_ .f32 0x3F800000#32))))) := by
  show StableHlo.after hostOps2 (Gen.V12 m outs c) (Proc.devRef .tc main_v45) = _
  after_results
  all_goals rfl

theorem V13_v46_eq :
    (Gen.V13 m outs c main_v46 : S256x192.Idx → EReal)
      = concatenate S256x192 1 [⟨S256x64, (Gen.V13 m outs c main_v37 : S256x64.Idx → EReal)⟩,
          ⟨S256x64, (Gen.V13 m outs c main_v45 : S256x64.Idx → EReal)⟩,
          ⟨S256x64, (Gen.V13 m outs c main_arg2 : S256x64.Idx → EReal)⟩] concatenates_S256x64_S256x64_S256x64_S256x192_d1 := by
  show StableHlo.after hostOps2 (Gen.V12 m outs c) (Proc.devRef .tc main_v46)
    = concatenate S256x192 1 [⟨S256x64, StableHlo.after hostOps2 (Gen.V12 m outs c) (Proc.devRef .tc main_v37)⟩,
          ⟨S256x64, StableHlo.after hostOps2 (Gen.V12 m outs c) (Proc.devRef .tc main_v45)⟩,
          ⟨S256x64, StableHlo.after hostOps2 (Gen.V12 m outs c) (Proc.devRef .tc main_arg2)⟩] concatenates_S256x64_S256x64_S256x64_S256x192_d1
  simp only [after_cons, after_nil]
  rw [nary_result]
  rw [nary_result_ne (h := by decide), nary_result_ne (h := by decide), nary_result_ne (h := by decide)]
  rfl

theorem V9_v38_eq :
    (Gen.V9 m outs c main_v38 : S50176x64.Idx → EReal)
      = pad S50176x64 ![0, 0] ![176, 0] ![0, 0] (Gen.V8 m outs c main_arg0 : S50000x64.Idx → EReal)
          (sitofp (F := Ideal) .f32 (Gen.V8 m outs c main_c_13 : S_.Idx → BitVec 32)) pads_S50000x64_S50176x64_01760_000 h_S_ := by
  show StableHlo.after hostOps1_1 (Gen.V8 m outs c) (Proc.devRef .tc main_v38) = _
  after_results
  all_goals rfl

theorem V8_c13_eq : (Gen.V8 m outs c main_c_13 : S_.Idx → BitVec 32) = constantI S_ 32 0#32 := by
  show StableHlo.after hostOps1 (Gen.V7 m outs c) (Proc.devRef .tc main_c_13) = _
  after_results
  all_goals rfl

theorem V11_v39_eq :
    (Gen.V11 m outs c main_v39 : S50176.Idx → BitVec 32)
      = pad S50176 ![0] ![176] ![0] (Gen.V10 m outs c main_arg4 : S50000.Idx → BitVec 32)
          (id (Gen.V10 m outs c main_c_14 : S_.Idx → BitVec 32)) pads_S50000_S50176_01760 h_S_ := by
  show StableHlo.after hostOps1_3 (Gen.V10 m outs c) (Proc.devRef .tc main_v39) = _
  after_results
  all_goals rfl

theorem V10_c14_eq : (Gen.V10 m outs c main_c_14 : S_.Idx → BitVec 32) = constantI S_ 32 256#32 := by
  show StableHlo.after hostOps1_2 (Gen.V9 m outs c) (Proc.devRef .tc main_c_14) = _
  after_results
  all_goals rfl

/-! ## A reference no item writes keeps its launch contents -/

theorem V6_keep (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) :
    Gen.V6 m c r = m ((c.tc : Thread nD τ).loc r) :=
  (Gen.V6_of m c r h5).trans <| (Gen.V5_of m c r h4).trans <| (Gen.V4_of m c r h3).trans <|
  (Gen.V3_of m c r h2).trans <| (Gen.V2_of m c r h1).trans <| (Gen.V1_of m c r h0)

theorem V8_keep (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W)
    (h6 : r ∉ ([main_v31] : List (Ref sig .tc))) (h7 : r ∉ hostOps1_W) :
    Gen.V8 m outs c r = m ((c.tc : Thread nD τ).loc r) :=
  (Gen.V8_of m outs c r h7).trans <| (Gen.V7_of m outs c r h6).trans <| V6_keep m c r h0 h1 h2 h3 h4 h5

theorem V10_keep (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W)
    (h6 : r ∉ ([main_v31] : List (Ref sig .tc))) (h7 : r ∉ hostOps1_W) (h8 : r ∉ hostOps1_1_W) (h9 : r ∉ hostOps1_2_W) :
    Gen.V10 m outs c r = m ((c.tc : Thread nD τ).loc r) :=
  (Gen.V10_of m outs c r h9).trans <| (Gen.V9_of m outs c r h8).trans <| V8_keep m c outs r h0 h1 h2 h3 h4 h5 h6 h7

theorem V13_keep (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W)
    (h6 : r ∉ ([main_v31] : List (Ref sig .tc))) (h7 : r ∉ hostOps1_W) (h8 : r ∉ hostOps1_1_W) (h9 : r ∉ hostOps1_2_W)
    (h10 : r ∉ hostOps1_3_W) (h11 : r ∉ ([main_v40] : List (Ref sig .tc))) (h12 : r ∉ hostOps2_W) :
    Gen.V13 m outs c r = m ((c.tc : Thread nD τ).loc r) :=
  (Gen.V13_of m outs c r h12).trans <| (Gen.V12_of m outs c r h11).trans <| (Gen.V11_of m outs c r h10).trans <|
  V10_keep m c outs r h0 h1 h2 h3 h4 h5 h6 h7 h8 h9

theorem V7_v31 : Gen.V7 m outs c main_v31 = outs 7 main_v31 c := Function.update_self _ _ _
theorem V12_v40 : Gen.V12 m outs c main_v40 = outs 12 main_v40 c := Function.update_self _ _ _

/-! ## The exports -/

/-- The count of graph `b`'s nodes, as the first host stretch leaves it. -/
theorem v27_apply (b : Fin 256) :
    (Gen.V1 m c main_v27 : S256.Idx → EReal) (ix1 b)
      = Spec.cntN (Spec.v1 (m ((c.tc : Thread nD τ).loc main_arg4) : S50000.Idx → BitVec 32)) b :=
  (congrFun (V1_v27_eq m c) (ix1 b)).trans (scatterOnes_apply _ b)

theorem v37_apply (b : Fin 256) (d : Fin 64) :
    (Gen.V13 m outs c main_v37 : S256x64.Idx → EReal) (ix2 b d)
      = Ideal.div (∑ k : Fin 2, (outs 7 main_v31 c : S2x256x64.Idx → EReal) (ix3 k b d))
          (max (Spec.cntN (Spec.v1 (m ((c.tc : Thread nD τ).loc main_arg4) : S50000.Idx → BitVec 32)) b) 1) := by
  have e : (Gen.V13 m outs c main_v37 : S256x64.Idx → EReal) = Gen.V8 m outs c main_v37 :=
    (Gen.V13_of m outs c main_v37 (by decide)).trans <| (Gen.V12_of m outs c main_v37 (by decide)).trans <|
    (Gen.V11_of m outs c main_v37 (by decide)).trans <| (Gen.V10_of m outs c main_v37 (by decide)).trans <|
    (Gen.V9_of m outs c main_v37 (by decide))
  have h31 : (Gen.V7 m outs c main_v31 : S2x256x64.Idx → EReal) = outs 7 main_v31 c := V7_v31 m c outs
  have h27 : (Gen.V7 m outs c main_v27 : S256.Idx → EReal) (ix1 b)
      = Spec.cntN (Spec.v1 (m ((c.tc : Thread nD τ).loc main_arg4) : S50000.Idx → BitVec 32)) b :=
    (congrFun (V7_v27 m c outs) (ix1 b)).trans (v27_apply m c b)
  refine (congrFun (e.trans (V8_v37_eq m c outs)) (ix2 b d)).trans ?_
  rw [mean_apply, reduce2_apply, const0_apply, zero_add]
  exact congrArg₂ Ideal.div (Finset.sum_congr rfl fun k _ => congrFun h31 (ix3 k b d)) (congrArg (fun x : EReal => max x 1) h27)

theorem v45_apply (b : Fin 256) (d : Fin 64) :
    (Gen.V13 m outs c main_v45 : S256x64.Idx → EReal) (ix2 b d)
      = Ideal.div ((outs 12 main_v40 c : S256x64.Idx → EReal) (ix2 b d))
          (max (Spec.cntN (Spec.v1 (m ((c.tc : Thread nD τ).loc main_arg4) : S50000.Idx → BitVec 32)) b) 1) := by
  have h40 : (Gen.V12 m outs c main_v40 : S256x64.Idx → EReal) = outs 12 main_v40 c := V12_v40 m c outs
  have h27 : (Gen.V12 m outs c main_v27 : S256.Idx → EReal) (ix1 b)
      = Spec.cntN (Spec.v1 (m ((c.tc : Thread nD τ).loc main_arg4) : S50000.Idx → BitVec 32)) b :=
    (congrFun (V12_v27 m c outs) (ix1 b)).trans (v27_apply m c b)
  refine (congrFun (V13_v45_eq m c outs) (ix2 b d)).trans ?_
  rw [mean_apply]
  exact congrArg₂ Ideal.div (congrFun h40 (ix2 b d)) (congrArg (fun x : EReal => max x 1) h27)

theorem V13_arg2 : Gen.V13 m outs c main_arg2 = m ((c.tc : Thread nD τ).loc main_arg2) :=
  V13_keep m c outs main_arg2 (by decide) (by decide) (by decide) (by decide) (by decide) (by decide) (by decide)
    (by decide) (by decide) (by decide) (by decide) (by decide) (by decide)

theorem v46_apply (r : Fin 256) (k : Fin 192) :
    (Gen.V13 m outs c main_v46 : S256x192.Idx → EReal) (ix2 r k)
      = Spec.comb (Spec.v2 (Gen.V13 m outs c main_v37 : S256x64.Idx → EReal))
          (Spec.v2 (Gen.V13 m outs c main_v45 : S256x64.Idx → EReal))
          (Spec.v2 (m ((c.tc : Thread nD τ).loc main_arg2) : S256x64.Idx → EReal)) r k := by
  have e2 : (Gen.V13 m outs c main_arg2 : S256x64.Idx → EReal) = m ((c.tc : Thread nD τ).loc main_arg2) := V13_arg2 m c outs
  have e := (V13_v46_eq m c outs).trans (congrArg (fun X : S256x64.Idx → EReal =>
    concatenate S256x192 1 [⟨S256x64, (Gen.V13 m outs c main_v37 : S256x64.Idx → EReal)⟩,
      ⟨S256x64, (Gen.V13 m outs c main_v45 : S256x64.Idx → EReal)⟩, ⟨S256x64, X⟩]
      concatenates_S256x64_S256x64_S256x64_S256x192_d1) e2)
  exact (congrFun e (ix2 r k)).trans (concat3_apply _ _ _ r k)

theorem v38_apply (i : Fin 50176) (d : Fin 64) :
    (Gen.V11 m outs c main_v38 : S50176x64.Idx → EReal) (ix2 i d)
      = Spec.padX (Spec.v2 (m ((c.tc : Thread nD τ).loc main_arg0) : S50000x64.Idx → EReal)) i d := by
  have e : (Gen.V11 m outs c main_v38 : S50176x64.Idx → EReal) = Gen.V9 m outs c main_v38 :=
    (Gen.V11_of m outs c main_v38 (by decide)).trans (Gen.V10_of m outs c main_v38 (by decide))
  have e0 : (Gen.V8 m outs c main_arg0 : S50000x64.Idx → EReal) = m ((c.tc : Thread nD τ).loc main_arg0) :=
    V8_keep m c outs main_arg0 (by decide) (by decide) (by decide) (by decide) (by decide) (by decide) (by decide) (by decide)
  have e' := (e.trans (V9_v38_eq m c outs)).trans (congrArg₂ (fun (X : S50000x64.Idx → EReal) (Y : S_.Idx → BitVec 32) =>
    pad S50176x64 ![0, 0] ![176, 0] ![0, 0] X (sitofp (F := Ideal) .f32 Y) pads_S50000x64_S50176x64_01760_000 h_S_)
    e0 (V8_c13_eq m c outs))
  refine (congrFun e' (ix2 i d)).trans ?_
  rw [padMat_apply, sitofp0_apply]
  rfl

theorem v39_apply (i : Fin 50176) :
    (Gen.V11 m outs c main_v39 : S50176.Idx → BitVec 32) (ix1 i)
      = Spec.padB (Spec.v1 (m ((c.tc : Thread nD τ).loc main_arg4) : S50000.Idx → BitVec 32)) i := by
  have e4 : (Gen.V10 m outs c main_arg4 : S50000.Idx → BitVec 32) = m ((c.tc : Thread nD τ).loc main_arg4) :=
    V10_keep m c outs main_arg4 (by decide) (by decide) (by decide) (by decide) (by decide) (by decide) (by decide) (by decide)
      (by decide) (by decide)
  have e' := (V11_v39_eq m c outs).trans (congrArg₂ (fun (X : S50000.Idx → BitVec 32) (Y : S_.Idx → BitVec 32) =>
    pad S50176 ![0] ![176] ![0] X (id Y) pads_S50000_S50176_01760 h_S_) e4 (V10_c14_eq m c outs))
  refine (congrFun e' (ix1 i)).trans ?_
  rw [padVec_apply]
  rfl

theorem V13_arg5 : Gen.V13 m outs c main_arg5 = m ((c.tc : Thread nD τ).loc main_arg5) :=
  V13_keep m c outs main_arg5 (by decide) (by decide) (by decide) (by decide) (by decide) (by decide) (by decide)
    (by decide) (by decide) (by decide) (by decide) (by decide) (by decide)

theorem V13_arg6 : Gen.V13 m outs c main_arg6 = m ((c.tc : Thread nD τ).loc main_arg6) :=
  V13_keep m c outs main_arg6 (by decide) (by decide) (by decide) (by decide) (by decide) (by decide) (by decide)
    (by decide) (by decide) (by decide) (by decide) (by decide) (by decide)

theorem V13_arg7 : Gen.V13 m outs c main_arg7 = m ((c.tc : Thread nD τ).loc main_arg7) :=
  V13_keep m c outs main_arg7 (by decide) (by decide) (by decide) (by decide) (by decide) (by decide) (by decide)
    (by decide) (by decide) (by decide) (by decide) (by decide) (by decide)

theorem V13_arg8 : Gen.V13 m outs c main_arg8 = m ((c.tc : Thread nD τ).loc main_arg8) :=
  V13_keep m c outs main_arg8 (by decide) (by decide) (by decide) (by decide) (by decide) (by decide) (by decide)
    (by decide) (by decide) (by decide) (by decide) (by decide) (by decide)

theorem V13_arg9 : Gen.V13 m outs c main_arg9 = m ((c.tc : Thread nD τ).loc main_arg9) :=
  V13_keep m c outs main_arg9 (by decide) (by decide) (by decide) (by decide) (by decide) (by decide) (by decide)
    (by decide) (by decide) (by decide) (by decide) (by decide) (by decide)

theorem V13_arg10 : Gen.V13 m outs c main_arg10 = m ((c.tc : Thread nD τ).loc main_arg10) :=
  V13_keep m c outs main_arg10 (by decide) (by decide) (by decide) (by decide) (by decide) (by decide) (by decide)
    (by decide) (by decide) (by decide) (by decide) (by decide) (by decide)

theorem V13_arg11 : Gen.V13 m outs c main_arg11 = m ((c.tc : Thread nD τ).loc main_arg11) :=
  V13_keep m c outs main_arg11 (by decide) (by decide) (by decide) (by decide) (by decide) (by decide) (by decide)
    (by decide) (by decide) (by decide) (by decide) (by decide) (by decide)

theorem V13_arg12 : Gen.V13 m outs c main_arg12 = m ((c.tc : Thread nD τ).loc main_arg12) :=
  V13_keep m c outs main_arg12 (by decide) (by decide) (by decide) (by decide) (by decide) (by decide) (by decide)
    (by decide) (by decide) (by decide) (by decide) (by decide) (by decide)

theorem V13_arg13 : Gen.V13 m outs c main_arg13 = m ((c.tc : Thread nD τ).loc main_arg13) :=
  V13_keep m c outs main_arg13 (by decide) (by decide) (by decide) (by decide) (by decide) (by decide) (by decide)
    (by decide) (by decide) (by decide) (by decide) (by decide) (by decide)

theorem V13_arg14 : Gen.V13 m outs c main_arg14 = m ((c.tc : Thread nD τ).loc main_arg14) :=
  V13_keep m c outs main_arg14 (by decide) (by decide) (by decide) (by decide) (by decide) (by decide) (by decide)
    (by decide) (by decide) (by decide) (by decide) (by decide) (by decide)

theorem V13_arg15 : Gen.V13 m outs c main_arg15 = m ((c.tc : Thread nD τ).loc main_arg15) :=
  V13_keep m c outs main_arg15 (by decide) (by decide) (by decide) (by decide) (by decide) (by decide) (by decide)
    (by decide) (by decide) (by decide) (by decide) (by decide) (by decide)

theorem V13_arg16 : Gen.V13 m outs c main_arg16 = m ((c.tc : Thread nD τ).loc main_arg16) :=
  V13_keep m c outs main_arg16 (by decide) (by decide) (by decide) (by decide) (by decide) (by decide) (by decide)
    (by decide) (by decide) (by decide) (by decide) (by decide) (by decide)

end Cert.KernelIdeal.HostGraph
-- ==== Proof.KernelValue.lean ====
/-
  The kernel's result as a function of its arguments, entry by entry: the three layers over the concatenated table
  whose first block is the weighted edge pass divided by the clamped node counts, whose second is the node pass
  divided by the same counts, and whose third is the given graph features. Every edge is assumed to point at a node.
-/
import proofs.«414252_j62689342653099_3_alg».proof.Proof.KI.Run
import proofs.«414252_j62689342653099_3_alg».proof.Proof.KI.R0Value
import proofs.«414252_j62689342653099_3_alg».proof.Proof.KI.R1Value
import proofs.«414252_j62689342653099_3_alg».proof.Proof.KI.R2Value
import proofs.«414252_j62689342653099_3_alg».proof.Proof.KI.HostEdge
import proofs.«414252_j62689342653099_3_alg».proof.Proof.KI.HostGraph
import proofs.«414252_j62689342653099_3_alg».proof.Proof.Spec

noncomputable section

namespace Cert.KernelIdeal.KernelValue

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- The two cores' partial sums, added up, are the weighted edge pass over the padded arrays. -/
theorem ue_num (hin : ∀ e, (Spec.row0 (m ((c.tc : Thread nD τ).loc main_arg3) : S2x800000.Idx → BitVec 32) e).toNat < 50000) (b : Fin 256) (d : Fin 64) :
    ((∑ k : Fin 2, (Run.outs m 7 main_v31 c : S2x256x64.Idx → EReal) (ix3 k b d)) : EReal)
      = ∑ k : Fin 2, Spec.kerPart (Spec.padA (Spec.v2 (m ((c.tc : Thread nD τ).loc main_arg1) : S800000x64.Idx → EReal))) (Spec.padW (Spec.kerW (Spec.row0 (m ((c.tc : Thread nD τ).loc main_arg3) : S2x800000.Idx → BitVec 32)) hin))
          (Spec.padT (Spec.kerT (Spec.row0 (m ((c.tc : Thread nD τ).loc main_arg3) : S2x800000.Idx → BitVec 32)) hin (Spec.v1 (m ((c.tc : Thread nD τ).loc main_arg4) : S50000.Idx → BitVec 32)))) k b d := by
  refine Finset.sum_congr rfl fun k _ => ?_
  rw [Run.outs_v31, R0Value.final]
  unfold Spec.kerPart
  refine Finset.sum_congr rfl fun j _ => Finset.sum_congr rfl fun r _ => ?_
  have e28 : R0Value.rowsOf (fun c b => Gen.V6 m c b) c (ix2 (R0Value.erow k j r) d)
      = Spec.padA (Spec.v2 (m ((c.tc : Thread nD τ).loc main_arg1) : S800000x64.Idx → EReal)) (R0Value.erow k j r) d := HostEdge.v28_apply m c _ d
  have e29 : R0Value.weightOf (fun c b => Gen.V6 m c b) c (ix1 (R0Value.erow k j r))
      = Spec.padW (Spec.kerW (Spec.row0 (m ((c.tc : Thread nD τ).loc main_arg3) : S2x800000.Idx → BitVec 32)) hin) (R0Value.erow k j r) := HostEdge.v29_apply m c hin _
  have e30 : R0Value.targetOf (fun c b => Gen.V6 m c b) c (ix1 (R0Value.erow k j r))
      = Spec.padT (Spec.kerT (Spec.row0 (m ((c.tc : Thread nD τ).loc main_arg3) : S2x800000.Idx → BitVec 32)) hin (Spec.v1 (m ((c.tc : Thread nD τ).loc main_arg4) : S50000.Idx → BitVec 32))) (R0Value.erow k j r) := HostEdge.v30_apply m c hin _
  rw [e28, e29, e30]
  rfl

/-- The edge-derived block of the table the third region is entered with. -/
theorem ue_value (hin : ∀ e, (Spec.row0 (m ((c.tc : Thread nD τ).loc main_arg3) : S2x800000.Idx → BitVec 32) e).toNat < 50000) :
    Spec.v2 (Gen.V13 m (Run.outs m) c main_v37 : S256x64.Idx → EReal)
      = Spec.kerUe (Spec.v2 (m ((c.tc : Thread nD τ).loc main_arg1) : S800000x64.Idx → EReal)) (Spec.row0 (m ((c.tc : Thread nD τ).loc main_arg3) : S2x800000.Idx → BitVec 32)) hin (Spec.v1 (m ((c.tc : Thread nD τ).loc main_arg4) : S50000.Idx → BitVec 32)) := by
  funext b d
  show (Gen.V13 m (Run.outs m) c main_v37 : S256x64.Idx → EReal) (ix2 b d) = _
  rw [HostGraph.v37_apply, ue_num m c hin b d]
  rfl

/-- The node-derived block of that table. -/
theorem uv_value :
    Spec.v2 (Gen.V13 m (Run.outs m) c main_v45 : S256x64.Idx → EReal)
      = Spec.kerUv (Spec.v2 (m ((c.tc : Thread nD τ).loc main_arg0) : S50000x64.Idx → EReal)) (Spec.v1 (m ((c.tc : Thread nD τ).loc main_arg4) : S50000.Idx → BitVec 32)) := by
  funext b d
  show (Gen.V13 m (Run.outs m) c main_v45 : S256x64.Idx → EReal) (ix2 b d) = _
  rw [HostGraph.v45_apply, Run.outs_v40, R1Value.final]
  unfold Spec.kerUv Spec.kerNodeSum
  refine congrArg (fun s : EReal => Ideal.div s _) ?_
  refine Finset.sum_congr rfl fun j _ => Finset.sum_congr rfl fun r _ => ?_
  show (if (Gen.V11 m (Run.outs m) c main_v39 : S50176.Idx → BitVec 32) (ix1 (R1Value.nrow j r)) = BitVec.ofNat 32 b.val then (1 : EReal) else 0)
      * (Gen.V11 m (Run.outs m) c main_v38 : S50176x64.Idx → EReal) (ix2 (R1Value.nrow j r) d) = _
  rw [HostGraph.v38_apply, HostGraph.v39_apply]
  rfl

/-- The kernel's result, entry by entry. -/
theorem value (hin : ∀ e, (Spec.row0 (m ((c.tc : Thread nD τ).loc main_arg3) : S2x800000.Idx → BitVec 32) e).toNat < 50000) (r : Fin 256) (o : Fin 64) :
    (Run.outs m 14 main_v47 c : S256x64.Idx → EReal) (ix2 r o)
      = Spec.mlp (Spec.comb (Spec.kerUe (Spec.v2 (m ((c.tc : Thread nD τ).loc main_arg1) : S800000x64.Idx → EReal)) (Spec.row0 (m ((c.tc : Thread nD τ).loc main_arg3) : S2x800000.Idx → BitVec 32)) hin (Spec.v1 (m ((c.tc : Thread nD τ).loc main_arg4) : S50000.Idx → BitVec 32)))
            (Spec.kerUv (Spec.v2 (m ((c.tc : Thread nD τ).loc main_arg0) : S50000x64.Idx → EReal)) (Spec.v1 (m ((c.tc : Thread nD τ).loc main_arg4) : S50000.Idx → BitVec 32))) (Spec.v2 (m ((c.tc : Thread nD τ).loc main_arg2) : S256x64.Idx → EReal)))
          (Spec.v2 (m ((c.tc : Thread nD τ).loc main_arg5) : S64x192.Idx → EReal)) (Spec.v1 (m ((c.tc : Thread nD τ).loc main_arg6) : S64.Idx → EReal)) (Spec.v1 (m ((c.tc : Thread nD τ).loc main_arg11) : S64.Idx → EReal)) (Spec.v1 (m ((c.tc : Thread nD τ).loc main_arg12) : S64.Idx → EReal))
          (Spec.v2 (m ((c.tc : Thread nD τ).loc main_arg7) : S64x64.Idx → EReal)) (Spec.v1 (m ((c.tc : Thread nD τ).loc main_arg8) : S64.Idx → EReal)) (Spec.v1 (m ((c.tc : Thread nD τ).loc main_arg13) : S64.Idx → EReal)) (Spec.v1 (m ((c.tc : Thread nD τ).loc main_arg14) : S64.Idx → EReal))
          (Spec.v2 (m ((c.tc : Thread nD τ).loc main_arg9) : S64x64.Idx → EReal)) (Spec.v1 (m ((c.tc : Thread nD τ).loc main_arg10) : S64.Idx → EReal)) (Spec.v1 (m ((c.tc : Thread nD τ).loc main_arg15) : S64.Idx → EReal)) (Spec.v1 (m ((c.tc : Thread nD τ).loc main_arg16) : S64.Idx → EReal)) r o := by
  rw [Run.outs_v47, R2Value.final]
  rw [HostGraph.V13_arg5, HostGraph.V13_arg6, HostGraph.V13_arg7, HostGraph.V13_arg8, HostGraph.V13_arg9, HostGraph.V13_arg10,
    HostGraph.V13_arg11, HostGraph.V13_arg12, HostGraph.V13_arg13, HostGraph.V13_arg14, HostGraph.V13_arg15, HostGraph.V13_arg16]
  have hcomb : Spec.v2 (Gen.V13 m (Run.outs m) c main_v46 : S256x192.Idx → EReal)
      = Spec.comb (Spec.kerUe (Spec.v2 (m ((c.tc : Thread nD τ).loc main_arg1) : S800000x64.Idx → EReal)) (Spec.row0 (m ((c.tc : Thread nD τ).loc main_arg3) : S2x800000.Idx → BitVec 32)) hin (Spec.v1 (m ((c.tc : Thread nD τ).loc main_arg4) : S50000.Idx → BitVec 32)))
          (Spec.kerUv (Spec.v2 (m ((c.tc : Thread nD τ).loc main_arg0) : S50000x64.Idx → EReal)) (Spec.v1 (m ((c.tc : Thread nD τ).loc main_arg4) : S50000.Idx → BitVec 32)))
          (Spec.v2 (m ((c.tc : Thread nD τ).loc main_arg2) : S256x64.Idx → EReal)) := by
    funext r' k
    show (Gen.V13 m (Run.outs m) c main_v46 : S256x192.Idx → EReal) (ix2 r' k) = _
    rw [HostGraph.v46_apply, ue_value m c hin, uv_value m c]
  rw [hcomb]

end Cert.KernelIdeal.KernelValue

end
-- ==== Proof.RefGraph.lean ====
/-
  The graph part of the reference, entry by entry.

  Every edge points at a node and every node belongs to a graph. The reference adds each edge's 64 features into the row
  of the node it points at and counts the edges per node; row n of the node table is that sum divided by the count
  (clamped to one, so a node no edge points at keeps the zero row). It then adds each node's row of the node table into
  the row of its graph and counts the nodes per graph: the quotient is the edge-derived graph table, a mean of means.
  The node features go through the same sum, count and quotient: the node-derived graph table. The three 256 x 64
  tables, the last one the given graph features, stand side by side in the 256 x 192 table the layers read.

  Each accumulating scatter starts from the zero array, so an entry is 0 plus the sum of the updates whose index word
  names its row; the count's updates are all the word of 1.0. A column k of the joined table below 64 falls in the first
  piece, one from 64 to 127 in the second at k - 64, the rest in the third at k - 128.
-/
import proofs.«414252_j62689342653099_3_alg».proof.Proof.RefRead
import proofs.«414252_j62689342653099_3_alg».proof.Proof.Spec
import proofs.«414252_j62689342653099_3_alg».proof.Proof.LibScatterRows
import Idealize.ShloMosaic.Lib.ValueIdx
import Idealize.ShloMosaic.Lib.Pipeline.Value
import Idealize.ShloMosaic.Lib.StableHlo.Predicate
import Idealize.ShloMosaic.Lib.IdealHost
import Idealize.ShloMosaic.PureOps.Ideal.Laws

noncomputable section

namespace Cert.ReferenceIdeal.RefGraph

open Cert.ReferenceIdeal Cert.ReferenceIdeal.Read Idealize.ShloMosaic Idealize.ShloMosaic.ValueIdx
open Cert.Lib.ScatterRows
open scoped BigOperators

/-! ## The index array: the node each edge points at -/

/-- Entry e of the reshaped first row of the two-row index array is the node edge e points at. -/
theorem node_of_edge (x3 : (⟨S2x800000, .i32⟩ : BufTy).Contents (Elt Ideal)) (e : Fin 800000) :
    val_main_v1 (F := Ideal) x3 (ix1 e) = Spec.row0 x3 e := by
  have h : idx_main_v0 (idx_main_v1 (ix1 e)) = ix2 (0 : Fin 2) e :=
    funext fun a => Fin.ext (by
      match a with
      | ⟨0, _⟩ => rfl
      | ⟨1, _⟩ => exact Nat.mod_eq_of_lt e.isLt)
  rw [val_main_v1_apply, val_main_v0_apply, h]
  rfl

/-- The same entry in the column form the first edge scatter reads. -/
theorem node_col_a (x3 : (⟨S2x800000, .i32⟩ : BufTy).Contents (Elt Ideal)) (e : Fin 800000) :
    val_main_v3 (F := Ideal) x3 (ix2 e (0 : Fin 1)) = Spec.row0 x3 e := by
  rw [val_main_v3_apply]
  exact node_of_edge x3 e

/-- The same entry in the column form the edge count's scatter reads. -/
theorem node_col_b (x3 : (⟨S2x800000, .i32⟩ : BufTy).Contents (Elt Ideal)) (e : Fin 800000) :
    val_main_v7 (F := Ideal) x3 (ix2 e (0 : Fin 1)) = Spec.row0 x3 e := by
  rw [val_main_v7_apply]
  exact node_of_edge x3 e

/-! ## The edge pass: sums and counts per node -/

/-- The sum of the features of the edges pointing at node n. -/
theorem edge_sum (x1 : (⟨S800000x64, .f32⟩ : BufTy).Contents (Elt Ideal))
    (x3 : (⟨S2x800000, .i32⟩ : BufTy).Contents (Elt Ideal)) (n : Fin 50000) (d : Fin 64) :
    val_main_v4 (F := Ideal) x1 x3 (ix2 n d)
      = ∑ e : Fin 800000, if Spec.row0 x3 e = Spec.word n.val then Spec.v2 x1 e d else 0 := by
  unfold val_main_v4
  rw [scatterAdd_mat (by norm_num) _ rfl rfl rfl rfl, val_main_v2_apply, val_main_cst_apply, Ideal.ofBits_def, Ideal.ofBits_zero_f32,
    zero_add]
  refine Finset.sum_congr rfl fun e _ => ?_
  rw [node_col_a]
  rfl

/-- The number of edges pointing at node n. -/
theorem edge_count (x3 : (⟨S2x800000, .i32⟩ : BufTy).Contents (Elt Ideal)) (n : Fin 50000) :
    val_main_v8 (F := Ideal) x3 (ix1 n) = Spec.cntE (Spec.row0 x3) n := by
  unfold val_main_v8
  rw [scatterAdd_vec (by norm_num) _ rfl rfl rfl rfl, val_main_v6_apply, val_main_cst_1_apply, Ideal.ofBits_def, Ideal.ofBits_zero_f32,
    zero_add]
  unfold Spec.cntE
  refine Finset.sum_congr rfl fun e _ => ?_
  rw [node_col_b, val_main_v5_apply, val_main_cst_0_apply, Ideal.ofBits_def, Ideal.ofBits_one_f32]

/-- The count clamped to one, as the divisor's column broadcast along the features reads it. -/
theorem edge_divisor (x3 : (⟨S2x800000, .i32⟩ : BufTy).Contents (Elt Ideal)) (n : Fin 50000) (d : Fin 64) :
    val_main_v12 (F := Ideal) x3 (ix2 n d) = max (Spec.cntE (Spec.row0 x3) n) 1 := by
  have e : idx_main_v11 (idx_main_v12 (ix2 n d)) = ix1 n :=
    funext fun a => Fin.ext (by match a with | ⟨0, _⟩ => rfl)
  rw [val_main_v12_apply, val_main_v11_apply, e, val_main_v10_apply, edge_count, val_main_v9_apply, val_main_cst_2_apply,
    Ideal.maximumf_def, Ideal.ofBits_def, Ideal.ofBits_one_f32]

/-- The node table: the mean of the features of the edges pointing at node n. -/
theorem node_mean (x1 : (⟨S800000x64, .f32⟩ : BufTy).Contents (Elt Ideal))
    (x3 : (⟨S2x800000, .i32⟩ : BufTy).Contents (Elt Ideal)) (n : Fin 50000) (d : Fin 64) :
    val_main_v13 (F := Ideal) x1 x3 (ix2 n d) = Spec.refNode (Spec.v2 x1) (Spec.row0 x3) n d := by
  rw [val_main_v13_apply, Ideal.hostDivf_def, edge_sum, edge_divisor]
  rfl

/-! ## The node pass: sums and counts per graph -/

/-- The graph of node n, in the column form the scatter of the node table reads. -/
theorem graph_col_a (x4 : (⟨S50000, .i32⟩ : BufTy).Contents (Elt Ideal)) (n : Fin 50000) :
    val_main_v15 (F := Ideal) x4 (ix2 n (0 : Fin 1)) = Spec.v1 x4 n := by
  have h : idx_main_v15 (ix2 n (0 : Fin 1)) = ix1 n := funext fun a => Fin.ext (by match a with | ⟨0, _⟩ => rfl)
  rw [val_main_v15_apply, h]
  rfl

/-- The same column, as the first node count's scatter reads it. -/
theorem graph_col_b (x4 : (⟨S50000, .i32⟩ : BufTy).Contents (Elt Ideal)) (n : Fin 50000) :
    val_main_v19 (F := Ideal) x4 (ix2 n (0 : Fin 1)) = Spec.v1 x4 n := by
  have h : idx_main_v19 (ix2 n (0 : Fin 1)) = ix1 n := funext fun a => Fin.ext (by match a with | ⟨0, _⟩ => rfl)
  rw [val_main_v19_apply, h]
  rfl

/-- The same column, as the scatter of the node features reads it. -/
theorem graph_col_c (x4 : (⟨S50000, .i32⟩ : BufTy).Contents (Elt Ideal)) (n : Fin 50000) :
    val_main_v27 (F := Ideal) x4 (ix2 n (0 : Fin 1)) = Spec.v1 x4 n := by
  have h : idx_main_v27 (ix2 n (0 : Fin 1)) = ix1 n := funext fun a => Fin.ext (by match a with | ⟨0, _⟩ => rfl)
  rw [val_main_v27_apply, h]
  rfl

/-- The same column, as the second node count's scatter reads it. -/
theorem graph_col_d (x4 : (⟨S50000, .i32⟩ : BufTy).Contents (Elt Ideal)) (n : Fin 50000) :
    val_main_v31 (F := Ideal) x4 (ix2 n (0 : Fin 1)) = Spec.v1 x4 n := by
  have h : idx_main_v31 (ix2 n (0 : Fin 1)) = ix1 n := funext fun a => Fin.ext (by match a with | ⟨0, _⟩ => rfl)
  rw [val_main_v31_apply, h]
  rfl

/-- The sum over graph b's nodes of the node table. -/
theorem graph_sum_of_means (x1 : (⟨S800000x64, .f32⟩ : BufTy).Contents (Elt Ideal))
    (x3 : (⟨S2x800000, .i32⟩ : BufTy).Contents (Elt Ideal)) (x4 : (⟨S50000, .i32⟩ : BufTy).Contents (Elt Ideal))
    (b : Fin 256) (d : Fin 64) :
    val_main_v16 (F := Ideal) x1 x3 x4 (ix2 b d)
      = ∑ n : Fin 50000, if Spec.v1 x4 n = Spec.word b.val then Spec.refNode (Spec.v2 x1) (Spec.row0 x3) n d else 0 := by
  unfold val_main_v16
  rw [scatterAdd_mat (by norm_num) _ rfl rfl rfl rfl, val_main_v14_apply, val_main_cst_3_apply, Ideal.ofBits_def, Ideal.ofBits_zero_f32,
    zero_add]
  refine Finset.sum_congr rfl fun n _ => ?_
  rw [graph_col_a, node_mean]

/-- The number of nodes of graph b (the count the mean of means divides by). -/
theorem node_count_a (x4 : (⟨S50000, .i32⟩ : BufTy).Contents (Elt Ideal)) (b : Fin 256) :
    val_main_v20 (F := Ideal) x4 (ix1 b) = Spec.cntN (Spec.v1 x4) b := by
  unfold val_main_v20
  rw [scatterAdd_vec (by norm_num) _ rfl rfl rfl rfl, val_main_v18_apply, val_main_cst_5_apply, Ideal.ofBits_def, Ideal.ofBits_zero_f32,
    zero_add]
  unfold Spec.cntN
  refine Finset.sum_congr rfl fun n _ => ?_
  rw [graph_col_b, val_main_v17_apply, val_main_cst_4_apply, Ideal.ofBits_def, Ideal.ofBits_one_f32]

/-- That count clamped to one, broadcast along the features. -/
theorem graph_divisor_a (x4 : (⟨S50000, .i32⟩ : BufTy).Contents (Elt Ideal)) (b : Fin 256) (d : Fin 64) :
    val_main_v24 (F := Ideal) x4 (ix2 b d) = max (Spec.cntN (Spec.v1 x4) b) 1 := by
  have e : idx_main_v23 (idx_main_v24 (ix2 b d)) = ix1 b :=
    funext fun a => Fin.ext (by match a with | ⟨0, _⟩ => rfl)
  rw [val_main_v24_apply, val_main_v23_apply, e, val_main_v22_apply, node_count_a, val_main_v21_apply, val_main_cst_6_apply,
    Ideal.maximumf_def, Ideal.ofBits_def, Ideal.ofBits_one_f32]

/-- The edge-derived graph table: the mean over graph b's nodes of the node table. -/
theorem mean_of_means (x1 : (⟨S800000x64, .f32⟩ : BufTy).Contents (Elt Ideal))
    (x3 : (⟨S2x800000, .i32⟩ : BufTy).Contents (Elt Ideal)) (x4 : (⟨S50000, .i32⟩ : BufTy).Contents (Elt Ideal))
    (b : Fin 256) (d : Fin 64) :
    val_main_v25 (F := Ideal) x1 x3 x4 (ix2 b d) = Spec.refUe (Spec.v2 x1) (Spec.row0 x3) (Spec.v1 x4) b d := by
  rw [val_main_v25_apply, Ideal.hostDivf_def, graph_sum_of_means, graph_divisor_a]
  rfl

/-- The sum over graph b's nodes of the node features. -/
theorem graph_sum_of_nodes (x0 : (⟨S50000x64, .f32⟩ : BufTy).Contents (Elt Ideal))
    (x4 : (⟨S50000, .i32⟩ : BufTy).Contents (Elt Ideal)) (b : Fin 256) (d : Fin 64) :
    val_main_v28 (F := Ideal) x0 x4 (ix2 b d)
      = ∑ n : Fin 50000, if Spec.v1 x4 n = Spec.word b.val then Spec.v2 x0 n d else 0 := by
  unfold val_main_v28
  rw [scatterAdd_mat (by norm_num) _ rfl rfl rfl rfl, val_main_v26_apply, val_main_cst_7_apply, Ideal.ofBits_def, Ideal.ofBits_zero_f32,
    zero_add]
  refine Finset.sum_congr rfl fun n _ => ?_
  rw [graph_col_c]
  rfl

/-- The number of nodes of graph b again (the count the mean of the node features divides by). -/
theorem node_count_b (x4 : (⟨S50000, .i32⟩ : BufTy).Contents (Elt Ideal)) (b : Fin 256) :
    val_main_v32 (F := Ideal) x4 (ix1 b) = Spec.cntN (Spec.v1 x4) b := by
  unfold val_main_v32
  rw [scatterAdd_vec (by norm_num) _ rfl rfl rfl rfl, val_main_v30_apply, val_main_cst_9_apply, Ideal.ofBits_def, Ideal.ofBits_zero_f32,
    zero_add]
  unfold Spec.cntN
  refine Finset.sum_congr rfl fun n _ => ?_
  rw [graph_col_d, val_main_v29_apply, val_main_cst_8_apply, Ideal.ofBits_def, Ideal.ofBits_one_f32]

/-- That count clamped to one, broadcast along the features. -/
theorem graph_divisor_b (x4 : (⟨S50000, .i32⟩ : BufTy).Contents (Elt Ideal)) (b : Fin 256) (d : Fin 64) :
    val_main_v36 (F := Ideal) x4 (ix2 b d) = max (Spec.cntN (Spec.v1 x4) b) 1 := by
  have e : idx_main_v35 (idx_main_v36 (ix2 b d)) = ix1 b :=
    funext fun a => Fin.ext (by match a with | ⟨0, _⟩ => rfl)
  rw [val_main_v36_apply, val_main_v35_apply, e, val_main_v34_apply, node_count_b, val_main_v33_apply, val_main_cst_10_apply,
    Ideal.maximumf_def, Ideal.ofBits_def, Ideal.ofBits_one_f32]

/-- The node-derived graph table: the mean over graph b's nodes of the node features. -/
theorem mean_of_nodes (x0 : (⟨S50000x64, .f32⟩ : BufTy).Contents (Elt Ideal))
    (x4 : (⟨S50000, .i32⟩ : BufTy).Contents (Elt Ideal)) (b : Fin 256) (d : Fin 64) :
    val_main_v37 (F := Ideal) x0 x4 (ix2 b d) = Spec.refUv (Spec.v2 x0) (Spec.v1 x4) b d := by
  rw [val_main_v37_apply, Ideal.hostDivf_def, graph_sum_of_nodes, graph_divisor_b]
  rfl

/-! ## The three tables side by side -/

/-- the reference's concatenated table, entry by entry: the mean of means of the edge features, the mean of the node features, the given graph features -/
theorem comb_apply (x0 : (⟨S50000x64, .f32⟩ : BufTy).Contents (Elt Ideal))
    (x1 : (⟨S800000x64, .f32⟩ : BufTy).Contents (Elt Ideal)) (x2 : (⟨S256x64, .f32⟩ : BufTy).Contents (Elt Ideal))
    (x3 : (⟨S2x800000, .i32⟩ : BufTy).Contents (Elt Ideal)) (x4 : (⟨S50000, .i32⟩ : BufTy).Contents (Elt Ideal))
    (r : Fin 256) (k : Fin 192) :
    val_main_v38 (F := Ideal) x0 x1 x2 x3 x4 (ix2 r k) = Spec.comb (Spec.refUe (Spec.v2 x1) (Spec.row0 x3) (Spec.v1 x4)) (Spec.refUv (Spec.v2 x0) (Spec.v1 x4)) (Spec.v2 x2) r k := by
  unfold val_main_v38 Spec.comb
  by_cases h : k.val < 64
  · rw [dif_pos h]
    refine (concatenate_apply_piece (1 : Fin S256x192.rank) _ _ (ix2 r k) 0 (by show 0 < 3; omega) S256x64
      (val_main_v25 (F := Ideal) x1 x3 x4) rfl rfl 0 rfl (ix2 r (⟨k.val, h⟩ : Fin 64)) ?_ ?_).trans
      (mean_of_means x1 x3 x4 r ⟨k.val, h⟩)
    · intro b hb
      match b with
      | ⟨0, _⟩ => rfl
      | ⟨1, _⟩ => exact absurd rfl hb
    · exact Nat.zero_add _
  · rw [dif_neg h]
    by_cases h' : k.val < 128
    · rw [dif_pos h']
      refine (concatenate_apply_piece (1 : Fin S256x192.rank) _ _ (ix2 r k) 1 (by show 1 < 3; omega) S256x64
        (val_main_v37 (F := Ideal) x0 x4) rfl rfl 64 rfl (ix2 r (⟨k.val - 64, by omega⟩ : Fin 64)) ?_ ?_).trans
        (mean_of_nodes x0 x4 r ⟨k.val - 64, by omega⟩)
      · intro b hb
        match b with
        | ⟨0, _⟩ => rfl
        | ⟨1, _⟩ => exact absurd rfl hb
      · show 64 + (k.val - 64) = k.val
        omega
    · rw [dif_neg h']
      have hk := k.isLt
      refine concatenate_apply_piece (1 : Fin S256x192.rank) _ _ (ix2 r k) 2 (by show 2 < 3; omega) S256x64
        x2 rfl rfl 128 rfl (ix2 r (⟨k.val - 128, by omega⟩ : Fin 64)) ?_ ?_
      · intro b hb
        match b with
        | ⟨0, _⟩ => rfl
        | ⟨1, _⟩ => exact absurd rfl hb
      · show 128 + (k.val - 128) = k.val
        omega

end Cert.ReferenceIdeal.RefGraph

end
-- ==== Proof.RefLayers.lean ====
/-
  The reference's three layers, read entry by entry.

  Each layer of the reference is: the product of its input table with the transposed weight matrix, the bias row added to
  every row, the positive part, and then the normalisation of every column over the 256 rows (the column mean, the mean of
  the centred squares, the reciprocal square root of that plus the offset word, the scale and the shift). The part of a layer
  after the product is the same composition of array operations in all three layers; it is named once here (act, norm) and
  read at an entry once, and each layer of the program is an instance of it by unfolding. The products differ in the inner
  extent (192, then 64 twice) and are read separately.
-/
import proofs.«414252_j62689342653099_3_alg».proof.Proof.RefRead
import proofs.«414252_j62689342653099_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefLayers

open Cert.ReferenceIdeal Cert.ReferenceIdeal.Read Cert.ReferenceIdeal.Gen Idealize.ShloMosaic Idealize.ShloMosaic.ValueIdx

/-! ## The arrays of a layer -/

/-- A 256 × 64 table, a 1 × 64 row, a vector of 64, a scalar. -/
abbrev Tab : Type := FVec Ideal S256x64 .f32
abbrev Row : Type := FVec Ideal S1x64 .f32
abbrev Vec64 : Type := FVec Ideal S64 .f32
abbrev Sca : Type := FVec Ideal S_ .f32

/-- A vector of 64 as a 1 × 64 row. -/
def asRow (v : Vec64) : Row := broadcastInDim S1x64 ![1] bcast_S64_S1x64_1 v
/-- A 1 × 64 row repeated over the 256 rows. -/
def rows (w : Row) : Tab := broadcastInDim S256x64 ![0, 1] bcast_S1x64_S256x64_0_1 w
/-- A scalar word repeated along a row. -/
def rowOf (c : Sca) : Row := broadcastInDim S1x64 ![] bcast_S_S1x64 c
/-- A scalar word repeated over a table. -/
def tabOf (c : Sca) : Tab := broadcastInDim S256x64 ![] bcast_S_S256x64 c
/-- The column sums of a table, from the zero word. -/
def colSum (y : Tab) : Vec64 := Host.reduceAdd y (constant (F := Ideal) S_ .f32 0x00000000#32) reducesTo_S256x64_S64_d0 h_S_

theorem asRow_apply (v : Vec64) (z : Fin 1) (o : Fin 64) : asRow v (ix2 z o) = v (ix1 o) := by
  unfold asRow
  exact broadcastInDim_apply _ bcast_S64_S1x64_1 v (ix2 z o) (ix1 o) (fun a => match a with
    | ⟨0, _⟩ => by show o.val = if (64 : Nat) = 1 then 0 else o.val; rw [if_neg (by decide)])

theorem rows_apply (w : Row) (r : Fin 256) (o : Fin 64) : rows w (ix2 r o) = w (ix2 (0 : Fin 1) o) := by
  unfold rows
  exact broadcastInDim_apply _ bcast_S1x64_S256x64_0_1 w (ix2 r o) (ix2 (0 : Fin 1) o) (fun a => match a with
    | ⟨0, _⟩ => by show 0 = if (1 : Nat) = 1 then 0 else r.val; rw [if_pos rfl]
    | ⟨1, _⟩ => by show o.val = if (64 : Nat) = 1 then 0 else o.val; rw [if_neg (by decide)])

theorem rowOf_apply (c : Sca) (i : S1x64.Idx) : rowOf c i = c ix0 := by
  unfold rowOf
  exact broadcastInDim_apply _ bcast_S_S1x64 c i ix0 (fun a => a.elim0)

theorem tabOf_apply (c : Sca) (i : S256x64.Idx) : tabOf c i = c ix0 := by
  unfold tabOf
  exact broadcastInDim_apply _ bcast_S_S256x64 c i ix0 (fun a => a.elim0)

theorem colSum_apply (y : Tab) (o : Fin 64) : colSum y (ix1 o) = ∑ k : Fin 256, y (ix2 k o) := by
  unfold colSum
  simp only [Host.reduceAdd, Ideal.hostReduceAdd_def]
  rw [Ideal.hostReduceAdd_single reducesTo_S256x64_S64_d0 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-! ## A layer after its product -/

/-- The bias row added to every row of the product, then the positive part. -/
def act (d : Tab) (b : Vec64) : Tab :=
  maximumf (addf d (rows (asRow b))) (tabOf (constant (F := Ideal) S_ .f32 0x00000000#32))
/-- The column means, as a row. -/
def mu (y : Tab) : Row := Host.divf (asRow (colSum y)) (rowOf (constant (F := Ideal) S_ .f32 0x43800000#32))
/-- The table centred by its column means. -/
def cen (y : Tab) : Tab := subf y (rows (mu y))
/-- The column means of the centred squares, as a row. -/
def va (y : Tab) : Row :=
  Host.divf (asRow (colSum (mulf (cen y) (cen y)))) (rowOf (constant (F := Ideal) S_ .f32 0x43800000#32))
/-- The centred table times the reciprocal root of the offset variance, scaled by g and shifted by be. -/
def norm (y : Tab) (g be : Vec64) : Tab :=
  addf (mulf (mulf (cen y) (rows (Host.rsqrt (addf (va y) (rowOf (constant (F := Ideal) S_ .f32 0x3727C5AC#32))))))
    (rows (asRow g))) (rows (asRow be))

theorem act_apply (d : Tab) (b : Vec64) (r : Fin 256) (o : Fin 64) :
    act d b (ix2 r o) = max (d (ix2 r o) + b (ix1 o)) 0 := by
  show max (d (ix2 r o) + rows (asRow b) (ix2 r o)) (tabOf (constant (F := Ideal) S_ .f32 0x00000000#32) (ix2 r o)) = _
  rw [rows_apply, asRow_apply, tabOf_apply]
  show max _ (Ideal.ofBits .f32 0x00000000#32) = _
  rw [Ideal.ofBits_zero_f32]

theorem mu_apply (y : Tab) (o : Fin 64) : mu y (ix2 (0 : Fin 1) o) = Spec.mean (Spec.v2 y) o := by
  show Ideal.div (asRow (colSum y) (ix2 (0 : Fin 1) o)) (rowOf (constant (F := Ideal) S_ .f32 0x43800000#32) (ix2 (0 : Fin 1) o)) = _
  rw [asRow_apply, colSum_apply, rowOf_apply]
  rfl

theorem cen_apply (y : Tab) (r : Fin 256) (o : Fin 64) : cen y (ix2 r o) = y (ix2 r o) - Spec.mean (Spec.v2 y) o := by
  show y (ix2 r o) - rows (mu y) (ix2 r o) = _
  rw [rows_apply, mu_apply]

theorem va_apply (y : Tab) (o : Fin 64) : va y (ix2 (0 : Fin 1) o) = Spec.var (Spec.v2 y) o := by
  show Ideal.div (asRow (colSum (mulf (cen y) (cen y))) (ix2 (0 : Fin 1) o))
    (rowOf (constant (F := Ideal) S_ .f32 0x43800000#32) (ix2 (0 : Fin 1) o)) = _
  rw [asRow_apply, colSum_apply, rowOf_apply]
  refine congrArg₂ Ideal.div (Finset.sum_congr rfl fun k _ => ?_) rfl
  show cen y (ix2 k o) * cen y (ix2 k o) = _
  rw [cen_apply]
  rfl

theorem norm_apply (y : Tab) (g be : Vec64) (r : Fin 256) (o : Fin 64) :
    norm y g be (ix2 r o) = Spec.bn (Spec.v2 y) (Spec.v1 g) (Spec.v1 be) r o := by
  show cen y (ix2 r o) * rows (Host.rsqrt (addf (va y) (rowOf (constant (F := Ideal) S_ .f32 0x3727C5AC#32)))) (ix2 r o)
    * rows (asRow g) (ix2 r o) + rows (asRow be) (ix2 r o) = _
  rw [rows_apply, rows_apply, rows_apply, asRow_apply, asRow_apply, cen_apply]
  show (_ - _) * Ideal.rsqrt (va y (ix2 (0 : Fin 1) o) + rowOf (constant (F := Ideal) S_ .f32 0x3727C5AC#32) (ix2 (0 : Fin 1) o)) * _ + _ = _
  rw [va_apply, rowOf_apply]
  rfl

/-- A layer's stages after a product that is, entry by entry, the sum over the inner axis of the input table's row against
    the weight matrix's row, are the layer of the specification. -/
theorem layer_of_product {K : ℕ} (h : Fin 256 → Fin K → EReal) (W : Fin 64 → Fin K → EReal) (d : Tab) (b g be : Vec64)
    (hd : ∀ (r : Fin 256) (o : Fin 64), d (ix2 r o) = ∑ k : Fin K, h r k * W o k) (r : Fin 256) (o : Fin 64) :
    norm (act d b) g be (ix2 r o) = Spec.layer h W (Spec.v1 b) (Spec.v1 g) (Spec.v1 be) r o := by
  rw [norm_apply]
  unfold Spec.layer
  refine congrArg (fun y => Spec.bn y (Spec.v1 g) (Spec.v1 be) r o) (funext fun r' => funext fun o' => ?_)
  show act d b (ix2 r' o') = _
  rw [act_apply, hd]
  rfl

/-! ## The three products

Entry (r, o) of a product is the sum over the inner axis k of the input table at (r, k) times the transposed weights at
(k, o), which are the weights at (o, k). -/

section products

variable (x0 : (⟨S50000x64, .f32⟩ : BufTy).Contents (Elt Ideal)) (x1 : (⟨S800000x64, .f32⟩ : BufTy).Contents (Elt Ideal))
  (x2 : (⟨S256x64, .f32⟩ : BufTy).Contents (Elt Ideal)) (x3 : (⟨S2x800000, .i32⟩ : BufTy).Contents (Elt Ideal))
  (x4 : (⟨S50000, .i32⟩ : BufTy).Contents (Elt Ideal)) (x5 : (⟨S64x192, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x64, .f32⟩ : BufTy).Contents (Elt Ideal))
  (x10 x11 x12 x13 x14 x15 x16 : (⟨S64, .f32⟩ : BufTy).Contents (Elt Ideal))

theorem prod0 (r : Fin 256) (o : Fin 64) :
    val_main_v40 (F := Ideal) x0 x1 x2 x3 x4 x5 (ix2 r o)
      = ∑ k : Fin 192, val_main_v38 (F := Ideal) x0 x1 x2 x3 x4 (ix2 r k) * x5 (ix2 o k) := by
  rw [val_main_v40_apply]
  refine Finset.sum_congr rfl fun k _ => ?_
  rw [val_main_v39_apply]
  have el : lidx_main_v40 (ix2 r o) k = ix2 r k :=
    funext fun a => Fin.ext (by match a with | ⟨0, _⟩ => rfl | ⟨1, _⟩ => rfl)
  have er : idx_main_v39 (ridx_main_v40 (ix2 r o) k) = ix2 o k :=
    funext fun a => Fin.ext (by match a with | ⟨0, _⟩ => rfl | ⟨1, _⟩ => rfl)
  rw [el, er]

theorem prod1 (r : Fin 256) (o : Fin 64) :
    val_main_v70 (F := Ideal) x0 x1 x2 x3 x4 x5 x6 x7 x11 x12 (ix2 r o)
      = ∑ k : Fin 64, val_main_v68 (F := Ideal) x0 x1 x2 x3 x4 x5 x6 x11 x12 (ix2 r k) * x7 (ix2 o k) := by
  rw [val_main_v70_apply]
  refine Finset.sum_congr rfl fun k _ => ?_
  rw [val_main_v69_apply]
  have el : lidx_main_v70 (ix2 r o) k = ix2 r k :=
    funext fun a => Fin.ext (by match a with | ⟨0, _⟩ => rfl | ⟨1, _⟩ => rfl)
  have er : idx_main_v69 (ridx_main_v70 (ix2 r o) k) = ix2 o k :=
    funext fun a => Fin.ext (by match a with | ⟨0, _⟩ => rfl | ⟨1, _⟩ => rfl)
  rw [el, er]

theorem prod2 (r : Fin 256) (o : Fin 64) :
    val_main_v100 (F := Ideal) x0 x1 x2 x3 x4 x5 x6 x7 x8 x9 x11 x12 x13 x14 (ix2 r o)
      = ∑ k : Fin 64, val_main_v98 (F := Ideal) x0 x1 x2 x3 x4 x5 x6 x7 x8 x11 x12 x13 x14 (ix2 r k) * x9 (ix2 o k) := by
  rw [val_main_v100_apply]
  refine Finset.sum_congr rfl fun k _ => ?_
  rw [val_main_v99_apply]
  have el : lidx_main_v100 (ix2 r o) k = ix2 r k :=
    funext fun a => Fin.ext (by match a with | ⟨0, _⟩ => rfl | ⟨1, _⟩ => rfl)
  have er : idx_main_v99 (ridx_main_v100 (ix2 r o) k) = ix2 o k :=
    funext fun a => Fin.ext (by match a with | ⟨0, _⟩ => rfl | ⟨1, _⟩ => rfl)
  rw [el, er]

/-! ## The three layers

Each layer's last stage is, by unfolding its stages, the normalisation of the activation of its product. -/

theorem stages0 :
    val_main_v68 (F := Ideal) x0 x1 x2 x3 x4 x5 x6 x11 x12
      = norm (act (val_main_v40 (F := Ideal) x0 x1 x2 x3 x4 x5) x6) x11 x12 := rfl

theorem stages1 :
    val_main_v98 (F := Ideal) x0 x1 x2 x3 x4 x5 x6 x7 x8 x11 x12 x13 x14
      = norm (act (val_main_v70 (F := Ideal) x0 x1 x2 x3 x4 x5 x6 x7 x11 x12) x8) x13 x14 := rfl

theorem stages2 :
    val_main_v128 (F := Ideal) x0 x1 x2 x3 x4 x5 x6 x7 x8 x9 x10 x11 x12 x13 x14 x15 x16
      = norm (act (val_main_v100 (F := Ideal) x0 x1 x2 x3 x4 x5 x6 x7 x8 x9 x11 x12 x13 x14) x10) x15 x16 := rfl

theorem layer0 (r : Fin 256) (o : Fin 64) :
    val_main_v68 (F := Ideal) x0 x1 x2 x3 x4 x5 x6 x11 x12 (ix2 r o)
      = Spec.layer (Spec.v2 (val_main_v38 (F := Ideal) x0 x1 x2 x3 x4)) (Spec.v2 x5) (Spec.v1 x6) (Spec.v1 x11) (Spec.v1 x12) r o := by
  rw [stages0]
  exact layer_of_product (Spec.v2 (val_main_v38 (F := Ideal) x0 x1 x2 x3 x4)) (Spec.v2 x5)
    (val_main_v40 (F := Ideal) x0 x1 x2 x3 x4 x5) x6 x11 x12 (prod0 x0 x1 x2 x3 x4 x5) r o

theorem layer1 (r : Fin 256) (o : Fin 64) :
    val_main_v98 (F := Ideal) x0 x1 x2 x3 x4 x5 x6 x7 x8 x11 x12 x13 x14 (ix2 r o)
      = Spec.layer (Spec.v2 (val_main_v68 (F := Ideal) x0 x1 x2 x3 x4 x5 x6 x11 x12)) (Spec.v2 x7) (Spec.v1 x8) (Spec.v1 x13) (Spec.v1 x14) r o := by
  rw [stages1]
  exact layer_of_product (Spec.v2 (val_main_v68 (F := Ideal) x0 x1 x2 x3 x4 x5 x6 x11 x12)) (Spec.v2 x7)
    (val_main_v70 (F := Ideal) x0 x1 x2 x3 x4 x5 x6 x7 x11 x12) x8 x13 x14 (prod1 x0 x1 x2 x3 x4 x5 x6 x7 x11 x12) r o

theorem layer2 (r : Fin 256) (o : Fin 64) :
    val_main_v128 (F := Ideal) x0 x1 x2 x3 x4 x5 x6 x7 x8 x9 x10 x11 x12 x13 x14 x15 x16 (ix2 r o)
      = Spec.layer (Spec.v2 (val_main_v98 (F := Ideal) x0 x1 x2 x3 x4 x5 x6 x7 x8 x11 x12 x13 x14)) (Spec.v2 x9) (Spec.v1 x10) (Spec.v1 x15) (Spec.v1 x16) r o := by
  rw [stages2]
  exact layer_of_product (Spec.v2 (val_main_v98 (F := Ideal) x0 x1 x2 x3 x4 x5 x6 x7 x8 x11 x12 x13 x14)) (Spec.v2 x9)
    (val_main_v100 (F := Ideal) x0 x1 x2 x3 x4 x5 x6 x7 x8 x9 x11 x12 x13 x14) x10 x15 x16 (prod2 x0 x1 x2 x3 x4 x5 x6 x7 x8 x9 x11 x12 x13 x14) r o

end products

/-- the reference's result, entry by entry, is the three layers over its concatenated table -/
theorem layers_apply (x0 : (⟨S50000x64, .f32⟩ : BufTy).Contents (Elt Ideal)) (x1 : (⟨S800000x64, .f32⟩ : BufTy).Contents (Elt Ideal))
    (x2 : (⟨S256x64, .f32⟩ : BufTy).Contents (Elt Ideal)) (x3 : (⟨S2x800000, .i32⟩ : BufTy).Contents (Elt Ideal))
    (x4 : (⟨S50000, .i32⟩ : BufTy).Contents (Elt Ideal)) (x5 : (⟨S64x192, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S64x64, .f32⟩ : BufTy).Contents (Elt Ideal))
    (x10 x11 x12 x13 x14 x15 x16 : (⟨S64, .f32⟩ : BufTy).Contents (Elt Ideal))
    (r : Fin 256) (o : Fin 64) :
    val_main_v128 (F := Ideal) x0 x1 x2 x3 x4 x5 x6 x7 x8 x9 x10 x11 x12 x13 x14 x15 x16 (ix2 r o)
      = Spec.mlp (Spec.v2 (val_main_v38 (F := Ideal) x0 x1 x2 x3 x4)) (Spec.v2 x5) (Spec.v1 x6) (Spec.v1 x11) (Spec.v1 x12)
          (Spec.v2 x7) (Spec.v1 x8) (Spec.v1 x13) (Spec.v1 x14) (Spec.v2 x9) (Spec.v1 x10) (Spec.v1 x15) (Spec.v1 x16) r o := by
  have e0 : Spec.v2 (val_main_v68 (F := Ideal) x0 x1 x2 x3 x4 x5 x6 x11 x12)
      = Spec.layer (Spec.v2 (val_main_v38 (F := Ideal) x0 x1 x2 x3 x4)) (Spec.v2 x5) (Spec.v1 x6) (Spec.v1 x11) (Spec.v1 x12) :=
    funext fun r' => funext fun o' => layer0 x0 x1 x2 x3 x4 x5 x6 x11 x12 r' o'
  have e1 : Spec.v2 (val_main_v98 (F := Ideal) x0 x1 x2 x3 x4 x5 x6 x7 x8 x11 x12 x13 x14)
      = Spec.layer (Spec.v2 (val_main_v68 (F := Ideal) x0 x1 x2 x3 x4 x5 x6 x11 x12)) (Spec.v2 x7) (Spec.v1 x8) (Spec.v1 x13) (Spec.v1 x14) :=
    funext fun r' => funext fun o' => layer1 x0 x1 x2 x3 x4 x5 x6 x7 x8 x11 x12 x13 x14 r' o'
  rw [layer2, e1, e0]
  rfl

end Cert.ReferenceIdeal.RefLayers

end
-- ==== Proof.RefValue.lean ====
/-
  The reference's result as a function of its arguments, entry by entry: the three layers over the concatenated
  table of the mean of means of the edge features, the mean of the node features and the given graph features.
-/
import proofs.«414252_j62689342653099_3_alg».proof.Proof.RefRead
import proofs.«414252_j62689342653099_3_alg».proof.Proof.Spec
import proofs.«414252_j62689342653099_3_alg».proof.Proof.RefGraph
import proofs.«414252_j62689342653099_3_alg».proof.Proof.RefLayers

noncomputable section

namespace Cert.ReferenceIdeal.RefValue

open Cert.ReferenceIdeal Cert.ReferenceIdeal.Gen
open Idealize.ShloMosaic Idealize.ShloMosaic.TcCoe Idealize.ShloMosaic.ValueIdx

variable (m : (ℓ : Loc nD τ sig) → Buf (Elt Ideal) ℓ) (c : Dev nD)

/-- The reference's result, entry by entry. -/
theorem value (r : Fin 256) (o : Fin 64) :
    (Cert.ReferenceIdeal.Value.res_main_v128 (F := Ideal) m c : S256x64.Idx → EReal) (ix2 r o)
      = Spec.mlp (Spec.comb (Spec.refUe (Spec.v2 (m ((c.tc : Thread nD τ).loc main_arg1) : S800000x64.Idx → EReal)) (Spec.row0 (m ((c.tc : Thread nD τ).loc main_arg3) : S2x800000.Idx → BitVec 32)) (Spec.v1 (m ((c.tc : Thread nD τ).loc main_arg4) : S50000.Idx → BitVec 32)))
            (Spec.refUv (Spec.v2 (m ((c.tc : Thread nD τ).loc main_arg0) : S50000x64.Idx → EReal)) (Spec.v1 (m ((c.tc : Thread nD τ).loc main_arg4) : S50000.Idx → BitVec 32))) (Spec.v2 (m ((c.tc : Thread nD τ).loc main_arg2) : S256x64.Idx → EReal)))
          (Spec.v2 (m ((c.tc : Thread nD τ).loc main_arg5) : S64x192.Idx → EReal)) (Spec.v1 (m ((c.tc : Thread nD τ).loc main_arg6) : S64.Idx → EReal)) (Spec.v1 (m ((c.tc : Thread nD τ).loc main_arg11) : S64.Idx → EReal)) (Spec.v1 (m ((c.tc : Thread nD τ).loc main_arg12) : S64.Idx → EReal))
          (Spec.v2 (m ((c.tc : Thread nD τ).loc main_arg7) : S64x64.Idx → EReal)) (Spec.v1 (m ((c.tc : Thread nD τ).loc main_arg8) : S64.Idx → EReal)) (Spec.v1 (m ((c.tc : Thread nD τ).loc main_arg13) : S64.Idx → EReal)) (Spec.v1 (m ((c.tc : Thread nD τ).loc main_arg14) : S64.Idx → EReal))
          (Spec.v2 (m ((c.tc : Thread nD τ).loc main_arg9) : S64x64.Idx → EReal)) (Spec.v1 (m ((c.tc : Thread nD τ).loc main_arg10) : S64.Idx → EReal)) (Spec.v1 (m ((c.tc : Thread nD τ).loc main_arg15) : S64.Idx → EReal)) (Spec.v1 (m ((c.tc : Thread nD τ).loc main_arg16) : S64.Idx → EReal)) r o := by
  rw [Cert.ReferenceIdeal.Read.val_main_v128_eq, RefLayers.layers_apply]
  congr 1
  funext r' k
  exact RefGraph.comb_apply _ _ _ _ _ r' k

end Cert.ReferenceIdeal.RefValue

end
-- ==== Proof.Algebra.lean ====
/-
  The two tables of sums agree: the padded, tiled passes of the kernel against the reference's sums over the graph.

  The node pass: a double sum over (tile, row of the tile) is a sum over the padded rows; the padded rows carry zero
  features, so only the 50000 real rows remain, and on a real row (1 or 0) times the feature is the feature or 0.

  The edge pass: a triple sum over (core, tile, row) is a sum over the padded edge rows; the padded rows carry weight 0
  and features 0. What remains is the sum over the edges of [the edge's node is in graph b] · (1 / clamped edge count of
  the edge's node) · feature; the reference's is the sum over the nodes in graph b of (the sum of the features of the
  node's edges) / (clamped edge count of the node). With real features everything is a real number, and the two agree
  by exchanging the sums: each edge points at exactly one node.
-/
import proofs.«414252_j62689342653099_3_alg».proof.Proof.Spec
import Mathlib.Algebra.BigOperators.Fin
import Mathlib.Algebra.BigOperators.Ring.Finset
import Mathlib.Data.Fintype.BigOperators
import Mathlib.Data.EReal.Inv
import Mathlib.Tactic.Ring

noncomputable section

namespace Cert.Algebra

open Cert Idealize.ShloMosaic

/-! ## Sums over tiles and over padded rows -/

/-- A sum over the first \`n\` of \`m\` rows: rows past \`n\` contribute nothing. -/
theorem sum_pad {M : Type*} [AddCommMonoid M] {n m : ℕ} (hnm : n ≤ m) (F : Fin n → M) :
    (∑ i : Fin m, if h : i.val < n then F ⟨i.val, h⟩ else 0) = ∑ k : Fin n, F k := by
  symm
  refine Fintype.sum_of_injective (Fin.castLE hnm) (Fin.castLE_injective hnm) F _ ?_ ?_
  · intro i hi
    by_cases h : i.val < n
    · exact absurd ⟨⟨i.val, h⟩, Fin.ext rfl⟩ hi
    · exact dif_neg h
  · intro k
    have hk : (Fin.castLE hnm k).val < n := k.isLt
    rw [dif_pos hk]
    rfl

/-- The rows of the padded node arrays, tile by tile. -/
def nrowEquiv : Fin 49 × Fin 1024 ≃ Fin 50176 where
  toFun p := Spec.nrow p.1 p.2
  invFun i := (⟨i.val / 1024, by have := i.isLt; omega⟩, ⟨i.val % 1024, Nat.mod_lt _ (by norm_num)⟩)
  left_inv p := by
    obtain ⟨j, r⟩ := p
    have := j.isLt; have := r.isLt
    ext <;> simp only [Spec.nrow] <;> omega
  right_inv i := by
    ext; simp only [Spec.nrow]; omega

/-- A sum over (tile, row of the tile) of the node arrays is a sum over the padded rows. -/
theorem sum_nrow {M : Type*} [AddCommMonoid M] (f : Fin 50176 → M) :
    (∑ j : Fin 49, ∑ r : Fin 1024, f (Spec.nrow j r)) = ∑ i : Fin 50176, f i := by
  rw [← Fintype.sum_prod_type' (fun j r => f (Spec.nrow j r))]
  exact Fintype.sum_equiv nrowEquiv _ _ (fun _ => rfl)

/-- The rows of the padded edge arrays, core by core and tile by tile. -/
def erowEquiv : Fin 2 × Fin 98 × Fin 4096 ≃ Fin 802816 where
  toFun p := Spec.erow p.1 p.2.1 p.2.2
  invFun i := (⟨i.val / 401408, by have := i.isLt; omega⟩, ⟨i.val / 4096 % 98, Nat.mod_lt _ (by norm_num)⟩,
    ⟨i.val % 4096, Nat.mod_lt _ (by norm_num)⟩)
  left_inv p := by
    obtain ⟨k, j, r⟩ := p
    have := k.isLt; have := j.isLt; have := r.isLt
    ext <;> simp only [Spec.erow] <;> omega
  right_inv i := by
    have := i.isLt
    ext; simp only [Spec.erow]; omega

/-- A sum over (core, tile, row of the tile) of the edge arrays is a sum over the padded rows. -/
theorem sum_erow {M : Type*} [AddCommMonoid M] (f : Fin 802816 → M) :
    (∑ k : Fin 2, ∑ j : Fin 98, ∑ r : Fin 4096, f (Spec.erow k j r)) = ∑ i : Fin 802816, f i := by
  have h1 : ∀ k : Fin 2, (∑ j : Fin 98, ∑ r : Fin 4096, f (Spec.erow k j r))
      = ∑ p : Fin 98 × Fin 4096, f (Spec.erow k p.1 p.2) :=
    fun k => (Fintype.sum_prod_type' (fun j r => f (Spec.erow k j r))).symm
  rw [Finset.sum_congr rfl (fun k _ => h1 k),
    ← Fintype.sum_prod_type' (fun k (p : Fin 98 × Fin 4096) => f (Spec.erow k p.1 p.2))]
  exact Fintype.sum_equiv erowEquiv _ _ (fun _ => rfl)

/-! ## The node pass -/

/-- On a padded node row: a real row contributes its feature when its graph is \`b\`, a padded row nothing. -/
theorem node_term (x : Fin 50000 → Fin 64 → EReal) (bat : Fin 50000 → BitVec 32) (b : Fin 256) (d : Fin 64)
    (i : Fin 50176) :
    (if Spec.padB bat i = Spec.word b.val then (1 : EReal) else 0) * Spec.padX x i d
      = if h : i.val < 50000 then (if bat ⟨i.val, h⟩ = Spec.word b.val then x ⟨i.val, h⟩ d else 0) else 0 := by
  by_cases h : i.val < 50000
  · simp only [Spec.padB, Spec.padX, dif_pos h]
    split_ifs
    · exact one_mul _
    · exact zero_mul _
  · simp only [Spec.padX, dif_neg h, mul_zero]

/-- What the node pass accumulates for graph `b`: the sum of the features of the graph's nodes. -/
theorem nodeSum_eq (x : Fin 50000 → Fin 64 → EReal) (bat : Fin 50000 → BitVec 32) (b : Fin 256) (d : Fin 64) :
    Spec.kerNodeSum (Spec.padX x) (Spec.padB bat) b d
      = ∑ n : Fin 50000, if bat n = Spec.word b.val then x n d else 0 := by
  unfold Spec.kerNodeSum
  rw [sum_nrow (fun i => (if Spec.padB bat i = Spec.word b.val then (1 : EReal) else 0) * Spec.padX x i d),
    Finset.sum_congr rfl (fun i _ => node_term x bat b d i)]
  exact sum_pad (by norm_num) (fun n => if bat n = Spec.word b.val then x n d else 0)

/-- the node pass over the padded arrays is the reference's per-graph sum of node features: the padded rows carry the
    word 256, which names no graph, and a selected row contributes 1 · x -/
theorem uv_eq (x : Fin 50000 → Fin 64 → EReal) (bat : Fin 50000 → BitVec 32) : Spec.kerUv x bat = Spec.refUv x bat := by
  funext b d
  unfold Spec.kerUv Spec.refUv
  rw [nodeSum_eq]

/-! ## The edge pass: from padded rows to edges -/

/-- On a padded edge row: a real row contributes its weighted feature when its target is `b`, a padded row nothing. -/
theorem edge_term (a : Fin 800000 → Fin 64 → EReal) (w : Fin 800000 → EReal) (t : Fin 800000 → BitVec 32)
    (b : Fin 256) (d : Fin 64) (i : Fin 802816) :
    (if Spec.padT t i = Spec.word b.val then Spec.padW w i else 0) * Spec.padA a i d
      = if h : i.val < 800000 then (if t ⟨i.val, h⟩ = Spec.word b.val then w ⟨i.val, h⟩ else 0) * a ⟨i.val, h⟩ d
        else 0 := by
  by_cases h : i.val < 800000
  · simp only [Spec.padT, Spec.padW, Spec.padA, dif_pos h]
  · simp only [Spec.padA, dif_neg h, mul_zero]

/-- What the two cores accumulate for graph `b`: the sum over the edges whose target is `b` of weight times feature. -/
theorem edgeSum_eq (a : Fin 800000 → Fin 64 → EReal) (w : Fin 800000 → EReal) (t : Fin 800000 → BitVec 32)
    (b : Fin 256) (d : Fin 64) :
    (∑ k : Fin 2, Spec.kerPart (Spec.padA a) (Spec.padW w) (Spec.padT t) k b d)
      = ∑ e : Fin 800000, (if t e = Spec.word b.val then w e else 0) * a e d := by
  unfold Spec.kerPart
  rw [sum_erow (fun i => (if Spec.padT t i = Spec.word b.val then Spec.padW w i else 0) * Spec.padA a i d),
    Finset.sum_congr rfl (fun i _ => edge_term a w t b d i)]
  exact sum_pad (by norm_num) (fun e => (if t e = Spec.word b.val then w e else 0) * a e d)

/-! ## The edge pass: the counts are real numbers -/

/-- The node an edge points at. -/
def node (idx : Fin 800000 → BitVec 32) (hin : ∀ e, (idx e).toNat < 50000) (e : Fin 800000) : Fin 50000 :=
  ⟨(idx e).toNat, hin e⟩

/-- An edge's word names node `n` exactly when the edge points at `n`. -/
theorem idx_eq_word_iff (idx : Fin 800000 → BitVec 32) (hin : ∀ e, (idx e).toNat < 50000) (e : Fin 800000)
    (n : Fin 50000) : idx e = Spec.word n.val ↔ node idx hin e = n := by
  have hn := n.isLt
  constructor
  · intro h
    apply Fin.ext
    show (idx e).toNat = n.val
    rw [h, BitVec.toNat_ofNat]
    omega
  · intro h
    apply BitVec.eq_of_toNat_eq
    rw [BitVec.toNat_ofNat, ← h]
    show (idx e).toNat = (idx e).toNat % 2 ^ 32
    have := hin e
    omega

/-- The coercion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The coercion of the reals commutes with a choice. -/
theorem coe_ite (p : Prop) [Decidable p] (u v : ℝ) :
    ((if p then u else v : ℝ) : EReal) = if p then (u : EReal) else (v : EReal) := by
  split_ifs <;> rfl

/-- The number of edges pointing at node `n`, as a real number. -/
def cntR (idx : Fin 800000 → BitVec 32) (n : Fin 50000) : ℝ :=
  ∑ e : Fin 800000, if idx e = Spec.word n.val then (1 : ℝ) else 0

theorem cntE_coe (idx : Fin 800000 → BitVec 32) (n : Fin 50000) : Spec.cntE idx n = (cntR idx n : EReal) := by
  unfold Spec.cntE cntR
  rw [coe_sum]
  refine Finset.sum_congr rfl (fun e _ => ?_)
  rw [coe_ite, EReal.coe_one, EReal.coe_zero]

/-- The clamped count, as a real number: at least 1. -/
def clampR (idx : Fin 800000 → BitVec 32) (n : Fin 50000) : ℝ := max (cntR idx n) 1

theorem clampR_ne_zero (idx : Fin 800000 → BitVec 32) (n : Fin 50000) : clampR idx n ≠ 0 :=
  ne_of_gt (lt_of_lt_of_le one_pos (le_max_right _ _))

theorem clamp_coe (idx : Fin 800000 → BitVec 32) (n : Fin 50000) :
    max (Spec.cntE idx n) 1 = (clampR idx n : EReal) := by
  rw [cntE_coe, ← EReal.coe_one]
  exact (EReal.coe_strictMono.monotone.map_max).symm

/-- Dividing by a clamped count is multiplying by its real reciprocal. -/
theorem div_clamp (idx : Fin 800000 → BitVec 32) (n : Fin 50000) (y : EReal) :
    Ideal.div y (max (Spec.cntE idx n) 1) = y * ((1 / clampR idx n : ℝ) : EReal) := by
  rw [clamp_coe]
  exact Ideal.div_coe (clampR_ne_zero idx n) y

/-- An edge's weight is a real number. -/
theorem kerW_coe (idx : Fin 800000 → BitVec 32) (hin : ∀ e, (idx e).toNat < 50000) (e : Fin 800000) :
    Spec.kerW idx hin e = ((1 / clampR idx (node idx hin e) : ℝ) : EReal) := by
  unfold Spec.kerW
  rw [show (⟨(idx e).toNat, hin e⟩ : Fin 50000) = node idx hin e from rfl, div_clamp, one_mul]

/-- The reference's node table is a real number when the features are. -/
theorem refNode_coe (a : Fin 800000 → Fin 64 → EReal) (ar : Fin 800000 → Fin 64 → ℝ)
    (har : ∀ e d, a e d = ((ar e d : ℝ) : EReal)) (idx : Fin 800000 → BitVec 32)
    (hin : ∀ e, (idx e).toNat < 50000) (n : Fin 50000) (d : Fin 64) :
    Spec.refNode a idx n d
      = (((∑ e : Fin 800000, if node idx hin e = n then ar e d else 0) * (1 / clampR idx n) : ℝ) : EReal) := by
  have h : ∀ e : Fin 800000, (if idx e = Spec.word n.val then a e d else 0)
      = (((if node idx hin e = n then ar e d else 0 : ℝ)) : EReal) := by
    intro e
    rw [coe_ite, EReal.coe_zero, har]
    exact if_congr (idx_eq_word_iff idx hin e n) rfl rfl
  unfold Spec.refNode
  rw [div_clamp, EReal.coe_mul, coe_sum, Finset.sum_congr rfl (fun e _ => h e)]

/-! ## The edge pass: exchanging the two sums -/

/-- Each edge points at exactly one node: summing, over the nodes of a graph, the node's edge sum times the node's
    factor is summing, over the edges whose node is in the graph, the node's factor times the edge's value. -/
theorem exchange {E N : Type*} [Fintype E] [Fintype N] [DecidableEq N] (nd : E → N) (p : N → Prop)
    [DecidablePred p] (c : N → ℝ) (v : E → ℝ) :
    (∑ e, (if p (nd e) then c (nd e) else 0) * v e)
      = ∑ n, if p n then (∑ e, if nd e = n then v e else 0) * c n else 0 := by
  have h : ∀ n, (if p n then (∑ e, if nd e = n then v e else 0) * c n else 0)
      = ∑ e, if nd e = n then (if p n then c n else 0) * v e else 0 := by
    intro n
    by_cases hp : p n
    · simp only [if_pos hp]
      rw [Finset.sum_mul]
      refine Finset.sum_congr rfl (fun e _ => ?_)
      by_cases hn : nd e = n
      · rw [if_pos hn, if_pos hn, mul_comm]
      · rw [if_neg hn, if_neg hn, zero_mul]
    · simp only [if_neg hp, zero_mul, ite_self, Finset.sum_const_zero]
  rw [Finset.sum_congr rfl (fun n _ => h n), Finset.sum_comm]
  refine Finset.sum_congr rfl (fun e _ => ?_)
  rw [Finset.sum_ite_eq, if_pos (Finset.mem_univ _)]

/-! ## The edge pass -/

/-- The two numerators agree when the features are real numbers. -/
theorem num_eq (a : Fin 800000 → Fin 64 → EReal) (ar : Fin 800000 → Fin 64 → ℝ)
    (har : ∀ e d, a e d = ((ar e d : ℝ) : EReal)) (idx : Fin 800000 → BitVec 32)
    (hin : ∀ e, (idx e).toNat < 50000) (bat : Fin 50000 → BitVec 32) (b : Fin 256) (d : Fin 64) :
    (∑ e : Fin 800000, (if Spec.kerT idx hin bat e = Spec.word b.val then Spec.kerW idx hin e else 0) * a e d)
      = ∑ n : Fin 50000, if bat n = Spec.word b.val then Spec.refNode a idx n d else 0 := by
  have hL : ∀ e : Fin 800000,
      (if Spec.kerT idx hin bat e = Spec.word b.val then Spec.kerW idx hin e else 0) * a e d
        = (((if bat (node idx hin e) = Spec.word b.val then 1 / clampR idx (node idx hin e) else 0) * ar e d : ℝ)
            : EReal) := by
    intro e
    rw [EReal.coe_mul, coe_ite, EReal.coe_zero, kerW_coe, har]
    rfl
  have hR : ∀ n : Fin 50000, (if bat n = Spec.word b.val then Spec.refNode a idx n d else 0)
      = (((if bat n = Spec.word b.val
            then (∑ e : Fin 800000, if node idx hin e = n then ar e d else 0) * (1 / clampR idx n) else 0 : ℝ))
          : EReal) := by
    intro n
    rw [coe_ite, EReal.coe_zero, refNode_coe a ar har idx hin n d]
  rw [Finset.sum_congr rfl (fun e _ => hL e), Finset.sum_congr rfl (fun n _ => hR n), ← coe_sum, ← coe_sum]
  exact congrArg Real.toEReal
    (exchange (node idx hin) (fun n => bat n = Spec.word b.val) (fun n => 1 / clampR idx n) (fun e => ar e d))

/-- the weighted edge pass is the reference's mean of means, when every edge points at a node and the edge features
    are real numbers -/
theorem ue_eq (a : Fin 800000 → Fin 64 → EReal) (idx : Fin 800000 → BitVec 32) (hin : ∀ e, (idx e).toNat < 50000)
    (bat : Fin 50000 → BitVec 32) (ha : ∀ e d, ∃ r : ℝ, a e d = (r : EReal)) :
    Spec.kerUe a idx hin bat = Spec.refUe a idx bat := by
  choose ar har using ha
  funext b d
  unfold Spec.kerUe Spec.refUe
  rw [edgeSum_eq, num_eq a ar har idx hin bat b d]

end Cert.Algebra

end
-- ==== Proof.PreFacts.lean ====
/-
  The printed precondition, decoded. The precondition is a conjunction of seventeen one-bit words: for each of the
  fifteen float arrays, "every entry has absolute value below +∞", and for row 0 of the [2, 800000] index array,
  "every word is ≥ 0 signed" and "every word is < 50000 signed". From the conjunction being 1 this file reads two facts:
  every entry of the edge-feature array is a real number, and every word of row 0 of the index array, read unsigned,
  is below 50000. The conjunction is split one conjunct at a time along its four parts; each "for all" is a
  reduction by "and" to one word, read back at an element; the element facts are a comparison in the extended reals
  against the pattern of +∞, and two signed comparisons of a 32-bit word.
-/
import proofs.«414252_j62689342653099_3_alg».proof.Pre_finite_inputs
import Idealize.ShloMosaic.Lib.ReduceAll
import Idealize.ShloMosaic.Lib.StableHlo.Predicate
import Idealize.ShloMosaic.Lib.ValueIdx
import Idealize.ShloMosaic.Lib.Pipeline.Value
import Idealize.ShloMosaic.PureOps.Ideal

noncomputable section

namespace Cert.PreFacts

open Cert.Pre_finite_inputs Idealize.ShloMosaic Idealize.ShloMosaic.ValueIdx

variable [Cert.Pre_finite_inputs.Facts]

/-- the scalar shape has one index -/
instance instSubsingletonScalarIdx : Subsingleton S_.Idx := ⟨fun a b => funext fun d => d.elim0⟩

/-- the pattern 0x7F800000 denotes +∞ -/
theorem inf_bits : Ideal.ofBits .f32 0x7F800000#32 = (⊤ : EReal) := by
  simp [Ideal.ofBits, Ideal.ieee]

/-- an extended real whose absolute value is below +∞ is a real number -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- the element fact: |x| < +∞ printed as a comparison word equal to 1 says x is real -/
theorem real_of_cmp (x : Ideal .f32)
    (h : FloatOps.cmpf (F := Ideal) .olt (FloatOps.hostAbsf x) (FloatOps.ofBits .f32 0x7F800000#32) = 1#1) :
    ∃ r : ℝ, (x : EReal) = (r : EReal) := by
  apply real_of_abs_lt_top
  have h' : Ideal.cmp .olt (max x (-x)) (Ideal.ofBits .f32 0x7F800000#32) = 1#1 := h
  rw [inf_bits] at h'
  unfold Ideal.cmp at h'
  simpa [StableHlo.Predicate.ofBool_eq_one_iff] using h'

/-- one printed jnp.all(|x| < +inf): every entry of x is a real number -/
theorem all_real {s : Shape} (x : FVec Ideal s .f32) (hb : S_.BroadcastsInDim s (![] : Fin 0 → Fin s.rank))
    {axes : List (Fin s.rank)} (hr : s.ReducesTo axes S_) (h0 : 0 < S_.numel)
    (h : Host.reduce IntOp.andi (cmpf .olt (Host.absf x) (broadcastInDim s ![] hb (constant S_ .f32 0x7F800000#32)))
          (constantI S_ 1 1#1) hr h0 ix0 = 1#1) :
    ∀ i : s.Idx, ∃ r : ℝ, (x i : EReal) = (r : EReal) := by
  intro i
  have e := Host.reduce_andi_all _ _ hr h0 ix0 h i
  exact real_of_cmp (x i) e

/-- a conjunction of two one-bit arrays read at an index -/
theorem andi_at {s : Shape} (x y : IVec s 1) (i : s.Idx) (h : andi x y i = 1#1) : x i = 1#1 ∧ y i = 1#1 :=
  IntOp.andi_eq_one.1 h

/-- row 0 of a [2, n] index array, sliced to [1, n] and flattened to [n], read at e: the word at (0, e) -/
theorem row0_at (a3 : IVec S2x800000 32) (hs : S2x800000.Slices ![0, 0] S1x800000) (hc : S1x800000.ShapeCasts S800000)
    (e : Fin 800000) :
    shapeCast S800000 (extractStridedSlice S1x800000 ![0, 0] a3 hs) hc (ix1 e) = a3 (ix2 (0 : Fin 2) e) := by
  have h1 : shapeCast S800000 (extractStridedSlice S1x800000 ![0, 0] a3 hs) hc (ix1 e)
      = extractStridedSlice S1x800000 ![0, 0] a3 hs (ix2 (0 : Fin 1) e) := by
    refine shapeCast_apply _ hc (ix1 e) (ix2 (0 : Fin 1) e) ?_
    rw [Shape.rowMajor_val_two, Shape.rowMajor_val_one]
    simp
  rw [h1]
  refine extractStridedSlice_apply _ a3 hs (ix2 (0 : Fin 1) e) (ix2 (0 : Fin 2) e) ?_
  intro a
  match a with
  | ⟨0, _⟩ => simp
  | ⟨1, _⟩ => simp

/-- a 32-bit word that is signed-nonnegative and signed-below 50000 is below 50000 read unsigned -/
theorem toNat_lt_of_signed (w : BitVec 32) (h0 : IntOp.cmpi .sge w 0#32 = 1#1) (h1 : IntOp.cmpi .slt w 50000#32 = 1#1) :
    w.toNat < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  rw [BitVec.toInt_eq_toNat_cond] at h0 h1
  split at h0 <;> omega

/-- the index-range fact the last two conjuncts state -/
def RowInRange (a3 : IVec S2x800000 32) : Prop :=
  ∀ e : Fin 800000, (a3 (ix2 (0 : Fin 2) e)).toNat < 50000

/-- operations 97–120: the conjunction carried in is 1, and the two index conjuncts give the range of row 0 -/
theorem part4_facts (a3 : IVec S2x800000 32) (a16 : FVec Ideal S64 .f32) (v63 v67 : IVec S_ 1)
    (h : fn_part4 (F := Ideal) a3 a16 v63 v67 ix0 = 1#1) : v63 ix0 = 1#1 ∧ RowInRange a3 := by
  unfold fn_part4 at h
  dsimp only at h
  obtain ⟨h79, h84⟩ := andi_at _ _ _ h
  obtain ⟨h73, h78⟩ := andi_at _ _ _ h79
  obtain ⟨h68, _⟩ := andi_at _ _ _ h73
  obtain ⟨h63, _⟩ := andi_at _ _ _ h68
  refine ⟨h63, fun e => ?_⟩
  have g0 := Host.reduce_andi_all _ _ _ _ ix0 h78 (ix1 e)
  have g1 := Host.reduce_andi_all _ _ _ _ ix0 h84 (ix1 e)
  have g0' : IntOp.cmpi .sge
      (shapeCast S800000 (extractStridedSlice S1x800000 ![0, 0] a3 Facts.slices_S2x800000_S1x800000_0_0)
        Facts.shapeCasts_S1x800000_S800000 (ix1 e)) 0#32 = 1#1 := g0
  have g1' : IntOp.cmpi .slt
      (shapeCast S800000 (extractStridedSlice S1x800000 ![0, 0] a3 Facts.slices_S2x800000_S1x800000_0_0)
        Facts.shapeCasts_S1x800000_S800000 (ix1 e)) 50000#32 = 1#1 := g1
  rw [row0_at] at g0' g1'
  exact toNat_lt_of_signed _ g0' g1'

/-- operations 73–96 -/
theorem part3_facts (a3 : IVec S2x800000 32) (a13 a14 a15 a16 : FVec Ideal S64 .f32) (v48 : IVec S_ 1)
    (v49 v50 : FVec Ideal S64 .f32)
    (h : fn_part3 (F := Ideal) a3 a13 a14 a15 a16 v48 v49 v50 ix0 = 1#1) : v48 ix0 = 1#1 ∧ RowInRange a3 := by
  unfold fn_part3 at h
  dsimp only at h
  obtain ⟨h63, hr⟩ := part4_facts _ _ _ _ h
  obtain ⟨h58, _⟩ := andi_at _ _ _ h63
  obtain ⟨h53, _⟩ := andi_at _ _ _ h58
  obtain ⟨h48, _⟩ := andi_at _ _ _ h53
  exact ⟨h48, hr⟩

/-- operations 49–72 -/
theorem part2_facts (a3 : IVec S2x800000 32) (a9 : FVec Ideal S64x64 .f32) (a10 a11 a12 a13 a14 a15 a16 : FVec Ideal S64 .f32)
    (v33 : IVec S_ 1)
    (h : fn_part2 (F := Ideal) a3 a9 a10 a11 a12 a13 a14 a15 a16 v33 ix0 = 1#1) : v33 ix0 = 1#1 ∧ RowInRange a3 := by
  unfold fn_part2 at h
  dsimp only at h
  obtain ⟨h48, hr⟩ := part3_facts _ _ _ _ _ _ _ _ h
  obtain ⟨h43, _⟩ := andi_at _ _ _ h48
  obtain ⟨h38, _⟩ := andi_at _ _ _ h43
  obtain ⟨h33, _⟩ := andi_at _ _ _ h38
  exact ⟨h33, hr⟩

/-- operations 25–48 -/
theorem part1_facts (a3 : IVec S2x800000 32) (a6 : FVec Ideal S64 .f32) (a7 : FVec Ideal S64x64 .f32) (a8 : FVec Ideal S64 .f32)
    (a9 : FVec Ideal S64x64 .f32) (a10 a11 a12 a13 a14 a15 a16 : FVec Ideal S64 .f32) (v13 : IVec S_ 1) (v16 : IVec S64x192 1)
    (h : fn_part1 (F := Ideal) a3 a6 a7 a8 a9 a10 a11 a12 a13 a14 a15 a16 v13 v16 ix0 = 1#1) :
    v13 ix0 = 1#1 ∧ RowInRange a3 := by
  unfold fn_part1 at h
  dsimp only at h
  obtain ⟨h33, hr⟩ := part2_facts _ _ _ _ _ _ _ _ _ _ h
  obtain ⟨h28, _⟩ := andi_at _ _ _ h33
  obtain ⟨h23, _⟩ := andi_at _ _ _ h28
  obtain ⟨h18, _⟩ := andi_at _ _ _ h23
  obtain ⟨h13, _⟩ := andi_at _ _ _ h18
  exact ⟨h13, hr⟩

/-- the whole printed precondition: the edge-feature conjunct is 1 and row 0 of the index array is in range -/
theorem fn_facts (a0 : FVec Ideal S50000x64 .f32) (a1 : FVec Ideal S800000x64 .f32) (a2 : FVec Ideal S256x64 .f32)
    (a3 : IVec S2x800000 32) (a4 : IVec S50000 32) (a5 : FVec Ideal S64x192 .f32) (a6 : FVec Ideal S64 .f32)
    (a7 : FVec Ideal S64x64 .f32) (a8 : FVec Ideal S64 .f32) (a9 : FVec Ideal S64x64 .f32)
    (a10 a11 a12 a13 a14 a15 a16 : FVec Ideal S64 .f32)
    (h : fn (F := Ideal) a0 a1 a2 a3 a4 a5 a6 a7 a8 a9 a10 a11 a12 a13 a14 a15 a16 = fun _ => 1#1) :
    (∀ i : S800000x64.Idx, ∃ r : ℝ, (a1 i : EReal) = (r : EReal)) ∧ RowInRange a3 := by
  have h0 : fn (F := Ideal) a0 a1 a2 a3 a4 a5 a6 a7 a8 a9 a10 a11 a12 a13 a14 a15 a16 ix0 = 1#1 := congrFun h ix0
  unfold fn at h0
  dsimp only at h0
  obtain ⟨h13, hr⟩ := part1_facts _ _ _ _ _ _ _ _ _ _ _ _ _ _ h0
  obtain ⟨h8, _⟩ := andi_at _ _ _ h13
  obtain ⟨_, h7⟩ := andi_at _ _ _ h8
  exact ⟨all_real a1 _ _ _ h7, hr⟩

/-- under the precondition every entry of the edge-feature array is a real number -/
theorem edge_finite (a0 : FVec Ideal S50000x64 .f32) (a1 : FVec Ideal S800000x64 .f32) (a2 : FVec Ideal S256x64 .f32)
    (a3 : IVec S2x800000 32) (a4 : IVec S50000 32) (a5 : FVec Ideal S64x192 .f32) (a6 : FVec Ideal S64 .f32)
    (a7 : FVec Ideal S64x64 .f32) (a8 : FVec Ideal S64 .f32) (a9 : FVec Ideal S64x64 .f32)
    (a10 a11 a12 a13 a14 a15 a16 : FVec Ideal S64 .f32)
    (h : fn (F := Ideal) a0 a1 a2 a3 a4 a5 a6 a7 a8 a9 a10 a11 a12 a13 a14 a15 a16 = fun _ => 1#1) :
    ∀ i : S800000x64.Idx, ∃ r : ℝ, (a1 i : EReal) = (r : EReal) :=
  (fn_facts a0 a1 a2 a3 a4 a5 a6 a7 a8 a9 a10 a11 a12 a13 a14 a15 a16 h).1

/-- under the precondition every word of row 0 of the index array names a node: read unsigned it is below 50000 -/
theorem idx_in_range (a0 : FVec Ideal S50000x64 .f32) (a1 : FVec Ideal S800000x64 .f32) (a2 : FVec Ideal S256x64 .f32)
    (a3 : IVec S2x800000 32) (a4 : IVec S50000 32) (a5 : FVec Ideal S64x192 .f32) (a6 : FVec Ideal S64 .f32)
    (a7 : FVec Ideal S64x64 .f32) (a8 : FVec Ideal S64 .f32) (a9 : FVec Ideal S64x64 .f32)
    (a10 a11 a12 a13 a14 a15 a16 : FVec Ideal S64 .f32)
    (h : fn (F := Ideal) a0 a1 a2 a3 a4 a5 a6 a7 a8 a9 a10 a11 a12 a13 a14 a15 a16 = fun _ => 1#1) :
    ∀ e : Fin 800000, ((a3 : S2x800000.Idx → BitVec 32) (ix2 (0 : Fin 2) e)).toNat < 50000 :=
  (fn_facts a0 a1 a2 a3 a4 a5 a6 a7 a8 a9 a10 a11 a12 a13 a14 a15 a16 h).2

/-- info: 'Cert.PreFacts.edge_finite' depends on axioms: [propext, Classical.choice, Quot.sound] -/
#guard_msgs (whitespace := lax) in #print axioms edge_finite
/-- info: 'Cert.PreFacts.idx_in_range' depends on axioms: [propext, Classical.choice, Quot.sound] -/
#guard_msgs (whitespace := lax) in #print axioms idx_in_range

end Cert.PreFacts
-- ==== Proof.lean ====
/-
  The certificate's claim. The kernel computes, for a batch of graphs, the mean over each graph's nodes of the mean of the
  features of the edges pointing at the node, the mean of the node features, and three layers (affine map, positive
  part, normalisation over the 256 graphs) of the two tables joined with the given graph features. The reference
  averages edge features per node and node values per graph by scatter-adds; the kernel reaches the first table by one
  weighted pass over the edges — each edge weighted by the reciprocal of its node's edge count and sent to its node's
  graph — accumulated tile by tile on each of two cores, and the second by one pass over the nodes, both as one-hot
  matrix products over padded arrays. Where every edge points at a node (the added precondition) and the edge features
  are real numbers, the weighted pass is the mean of means: dividing a finite sum of reals by a positive count
  distributes over the sum, and exchanging the two sums collects each edge under its node. The layers are the same
  function of the table on both sides.
  The frames of the two printed kernel programs are the launch of @main's eleven host stretches and three regions, each
  region's body run at every grid point; the reference's frame is its generated run.
-/
import proofs.«414252_j62689342653099_3_alg».proof.Defs
import proofs.«414252_j62689342653099_3_alg».proof.Proof.Gen.Kernel
import proofs.«414252_j62689342653099_3_alg».proof.Proof.Gen.KernelIdeal
import proofs.«414252_j62689342653099_3_alg».proof.Proof.Gen.ReferenceIdeal
import proofs.«414252_j62689342653099_3_alg».proof.Proof.Gen.Pre_finite_inputs
import proofs.«414252_j62689342653099_3_alg».proof.Proof.RefRun
import proofs.«414252_j62689342653099_3_alg».proof.Proof.K.R0
import proofs.«414252_j62689342653099_3_alg».proof.Proof.K.R1
import proofs.«414252_j62689342653099_3_alg».proof.Proof.K.R2
import proofs.«414252_j62689342653099_3_alg».proof.Proof.K.Run
import proofs.«414252_j62689342653099_3_alg».proof.Proof.KI.R0
import proofs.«414252_j62689342653099_3_alg».proof.Proof.KI.R1
import proofs.«414252_j62689342653099_3_alg».proof.Proof.KI.R2
import proofs.«414252_j62689342653099_3_alg».proof.Proof.KI.Run
import proofs.«414252_j62689342653099_3_alg».proof.Proof.KernelValue
import proofs.«414252_j62689342653099_3_alg».proof.Proof.RefValue
import proofs.«414252_j62689342653099_3_alg».proof.Proof.Algebra
import proofs.«414252_j62689342653099_3_alg».proof.Proof.PreFacts

noncomputable section

namespace Cert.Proof

open Idealize.ShloMosaic Idealize.ShloMosaic.TcCoe Idealize.SL.Sem Idealize.ShloMosaic.ValueIdx

/-- The word-level kernel program runs to the end and leaves its arguments as launched. -/
theorem frame_k : Cert.frame_Kernel := fun m ρ _ =>
  (θ_run Cert.Kernel.defs _ _).mono (fun _ h c => (h c).2)
    (Cert.Kernel.Run.run (fun V c => Cert.Kernel.R0.body_obligation V c) (fun V c => Cert.Kernel.R1.body_obligation V c)
      (fun V c => Cert.Kernel.R2.body_obligation V c) m ρ)

/-- The idealized kernel program runs to the end and leaves its arguments as launched. -/
theorem frame_ki : Cert.frame_KernelIdeal := fun m ρ _ =>
  (θ_run Cert.KernelIdeal.defs _ _).mono (fun _ h c => (h c).2)
    (Cert.KernelIdeal.Run.run (fun V c => Cert.KernelIdeal.R0.body_obligation V c) (fun V c => Cert.KernelIdeal.R1.body_obligation V c)
      (fun V c => Cert.KernelIdeal.R2.body_obligation V c) m ρ)

/-- The reference runs to the end and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories that agree on the arguments, under the precondition, the two idealized programs end with the same
    result: both are the three layers over a concatenated table, and the tables agree block by block. -/
theorem algebraic : Cert.algebraic_KernelIdeal_ReferenceIdeal := by
  intro m ρ m' ρ' hpre hagree
  refine ⟨fun c => Cert.KernelIdeal.Run.outs m 14 Cert.KernelIdeal.main_v47 c,
    Cert.KernelIdeal.Run.run (fun V c => Cert.KernelIdeal.R0.body_obligation V c) (fun V c => Cert.KernelIdeal.R1.body_obligation V c)
      (fun V c => Cert.KernelIdeal.R2.body_obligation V c) m ρ, ?_⟩
  refine (θ_run Cert.ReferenceIdeal.defs _ _).mono (fun _ h c => ⟨(h c).1.trans ?_, (h c).2⟩)
    (Cert.ReferenceIdeal.Value.run (F := Ideal) m' ρ')
  have hin : ∀ e, (Cert.Spec.row0 (m ((c.tc : Thread Cert.KernelIdeal.nD Cert.KernelIdeal.τ).loc Cert.KernelIdeal.main_arg3) :
      Cert.KernelIdeal.S2x800000.Idx → BitVec 32) e).toNat < 50000 :=
    fun e => Cert.PreFacts.idx_in_range _ _ _ _ _ _ _ _ _ _ _ _ _ _ _ _ _ (hpre c) e
  have hfin : ∀ e d, ∃ x : ℝ, Cert.Spec.v2 (m ((c.tc : Thread Cert.KernelIdeal.nD Cert.KernelIdeal.τ).loc Cert.KernelIdeal.main_arg1) :
      Cert.KernelIdeal.S800000x64.Idx → EReal) e d = (x : EReal) :=
    fun e d => Cert.PreFacts.edge_finite _ _ _ _ _ _ _ _ _ _ _ _ _ _ _ _ _ (hpre c) (ix2 e d)
  funext i
  obtain ⟨r, o, rfl⟩ : ∃ (r : Fin 256) (o : Fin 64), i = ix2 r o := ⟨i 0, i 1, eq_ix2 i⟩
  refine (Cert.ReferenceIdeal.RefValue.value m' c r o).trans ?_
  refine Eq.trans ?_ (Cert.KernelIdeal.KernelValue.value m c hin r o).symm
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
  rw [Cert.Algebra.ue_eq _ _ hin _ hfin, Cert.Algebra.uv_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
